-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x3 : Shape := ⟨3, ![32, 2048, 3]⟩
abbrev S32x512 : Shape := ⟨2, ![32, 512]⟩
abbrev S2x12288 : Shape := ⟨2, ![2, 12288]⟩
abbrev S515x512 : Shape := ⟨2, ![515, 512]⟩
abbrev S512 : Shape := ⟨1, ![512]⟩
abbrev S512x512 : Shape := ⟨2, ![512, 512]⟩
abbrev S512x64 : Shape := ⟨2, ![512, 64]⟩
abbrev S64 : Shape := ⟨1, ![64]⟩
abbrev S64x3 : Shape := ⟨2, ![64, 3]⟩
abbrev S3 : Shape := ⟨1, ![3]⟩
abbrev S6144x1024 : Shape := ⟨2, ![6144, 1024]⟩
abbrev S1024 : Shape := ⟨1, ![1024]⟩
abbrev S1024x1024 : Shape := ⟨2, ![1024, 1024]⟩
abbrev S1024x6144 : Shape := ⟨2, ![1024, 6144]⟩
abbrev S6144 : Shape := ⟨1, ![6144]⟩
abbrev S_ : Shape := ⟨0, ![]⟩

class Facts : Prop where
  bcast_S_S32x2048x3 : S_.BroadcastsInDim S32x2048x3 (![] : Fin 0 → Fin S32x2048x3.rank)
  reducesTo_S32x2048x3_S_d0_1_2 : S32x2048x3.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S515x512 : S_.BroadcastsInDim S515x512 (![] : Fin 0 → Fin S515x512.rank)
  reducesTo_S515x512_S_d0_1 : S515x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  bcast_S_S6144x1024 : S_.BroadcastsInDim S6144x1024 (![] : Fin 0 → Fin S6144x1024.rank)
  reducesTo_S6144x1024_S_d0_1 : S6144x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x6144 : S_.BroadcastsInDim S1024x6144 (![] : Fin 0 → Fin S1024x6144.rank)
  reducesTo_S1024x6144_S_d0_1 : S1024x6144.ReducesTo [0, 1] S_
  bcast_S_S6144 : S_.BroadcastsInDim S6144 (![] : Fin 0 → Fin S6144.rank)
  reducesTo_S6144_S_d0 : S6144.ReducesTo [0] S_
  bcast_S_S2x12288 : S_.BroadcastsInDim S2x12288 (![] : Fin 0 → Fin S2x12288.rank)
  reducesTo_S2x12288_S_d0_1 : S2x12288.ReducesTo [0, 1] S_

variable [Facts]

def fn_part6 {F : FTy → Type} [FloatOps F] (main_arg2 : IVec S2x12288 32) (main_v98 : IVec S_ 1) (main_v101 : IVec S_ 1) : IVec S_ 1 :=
  let main_v102 : IVec S_ 1 := andi main_v98 main_v101
  let main_c_40 : IVec S_ 32 := constantI S_ 32 2048#32
  let main_v103 : IVec S2x12288 32 := broadcastInDim S2x12288 ![] bcast_S_S2x12288 main_c_40
  let main_v104 : IVec S2x12288 1 := cmpi .slt main_arg2 main_v103
  let main_c_41 : IVec S_ 1 := constantI S_ 1 1#1
  let main_v105 : IVec S_ 1 := (fun x v => Host.reduce IntOp.andi x v reducesTo_S2x12288_S_d0_1 h_S_) main_v104 main_c_41
  let main_v106 : IVec S_ 1 := andi main_v102 main_v105
  main_v106

def fn_part5 {F : FTy → Type} [FloatOps F] (main_arg2 : IVec S2x12288 32) (main_arg19 : FVec F S1024x6144 .f32) (main_arg20 : FVec F S6144 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024x6144 .f32 := Host.absf main_arg19
  let main_cst_34 : FVec F S_ .f32 := constant S_ .f32 0x7F800000#32
  let main_v90 : FVec F S1024x6144 .f32 := broadcastInDim S1024x6144 ![] bcast_S_S1024x6144 main_cst_34
  let main_v91 : IVec S1024x6144 1 := cmpf .olt main_v89 main_v90
  let main_c_35 : IVec S_ 1 := constantI S_ 1 1#1
  let main_v92 : IVec S_ 1 := (fun x v => Host.reduce IntOp.andi x v reducesTo_S1024x6144_S_d0_1 h_S_) main_v91 main_c_35
  let main_v93 : IVec S_ 1 := andi main_v88 main_v92
  let main_v94 : FVec F S6144 .f32 := Host.absf main_arg20
  let main_cst_36 : FVec F S_ .f32 := constant S_ .f32 0x7F800000#32
  let main_v95 : FVec F S6144 .f32 := broadcastInDim S6144 ![] bcast_S_S6144 main_cst_36
  let main_v96 : IVec S6144 1 := cmpf .olt main_v94 main_v95
  let main_c_37 : IVec S_ 1 := constantI S_ 1 1#1
  let main_v97 : IVec S_ 1 := (fun x v => Host.reduce IntOp.andi x v reducesTo_S6144_S_d0 h_S_) main_v96 main_c_37
  let main_v98 : IVec S_ 1 := andi main_v93 main_v97
  let main_c_38 : IVec S_ 32 := constantI S_ 32 0#32
  let main_v99 : IVec S2x12288 32 := broadcastInDim S2x12288 ![] bcast_S_S2x12288 main_c_38
  let main_v100 : IVec S2x12288 1 := cmpi .sge main_arg2 main_v99
  let main_c_39 : IVec S_ 1 := constantI S_ 1 1#1
  let main_v101 : IVec S_ 1 := (fun x v => Host.reduce IntOp.andi x v reducesTo_S2x12288_S_d0_1 h_S_) main_v100 main_c_39
  fn_part6 (F := F) main_arg2 main_v98 main_v101

def fn_part4 {F : FTy → Type} [FloatOps F] (main_arg2 : IVec S2x12288 32) (main_arg15 : FVec F S6144x1024 .f32) (main_arg16 : FVec F S1024 .f32) (main_arg17 : FVec F S1024x1024 .f32) (main_arg18 : FVec F S1024 .f32) (main_arg19 : FVec F S1024x6144 .f32) (main_arg20 : FVec F S6144 .f32) (main_v63 : IVec S_ 1) (main_v67 : IVec S_ 1) : IVec S_ 1 :=
  let main_v68 : IVec S_ 1 := andi main_v63 main_v67
  let main_v69 : FVec F S6144x1024 .f32 := Host.absf main_arg15
  let main_cst_26 : FVec F S_ .f32 := constant S_ .f32 0x7F800000#32
  let main_v70 : FVec F S6144x1024 .f32 := broadcastInDim S6144x1024 ![] bcast_S_S6144x1024 main_cst_26
  let main_v71 : IVec S6144x1024 1 := cmpf .olt main_v69 main_v70
  let main_c_27 : IVec S_ 1 := constantI S_ 1 1#1
  let main_v72 : IVec S_ 1 := (fun x v => Host.reduce IntOp.andi x v reducesTo_S6144x1024_S_d0_1 h_S_) main_v71 main_c_27
  let main_v73 : IVec S_ 1 := andi main_v68 main_v72
  let main_v74 : FVec F S1024 .f32 := Host.absf main_arg16
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024x1024 .f32 := Host.absf main_arg17
  let main_cst_30 : FVec F S_ .f32 := constant S_ .f32 0x7F800000#32
  let main_v80 : FVec F S1024x1024 .f32 := broadcastInDim S1024x1024 ![] bcast_S_S1024x1024 main_cst_30
  let main_v81 : IVec S1024x1024 1 := cmpf .olt main_v79 main_v80
  let main_c_31 : IVec S_ 1 := constantI S_ 1 1#1
  let main_v82 : IVec S_ 1 := (fun x v => Host.reduce IntOp.andi x v reducesTo_S1024x1024_S_d0_1 h_S_) main_v81 main_c_31
  let main_v83 : IVec S_ 1 := andi main_v78 main_v82
  let main_v84 : FVec F S1024 .f32 := Host.absf main_arg18
  let main_cst_32 : FVec F S_ .f32 := constant S_ .f32 0x7F800000#32
  fn_part5 (F := F) main_arg2 main_arg19 main_arg20 main_v83 main_v84 main_cst_32

def fn_part3 {F : FTy → Type} [FloatOps F] (main_arg2 : IVec S2x12288 32) (main_arg12 : FVec F S64 .f32) (main_arg13 : FVec F S64x3 .f32) (main_arg14 : FVec F S3 .f32) (main_arg15 : FVec F S6144x1024 .f32) (main_arg16 : FVec F S1024 .f32) (main_arg17 : FVec F S1024x1024 .f32) (main_arg18 : FVec F S1024 .f32) (main_arg19 : FVec F S1024x6144 .f32) (main_arg20 : FVec F S6144 .f32) (main_v48 : IVec S_ 1) (main_v49 : FVec F S512x64 .f32) (main_v50 : FVec F S512x64 .f32) : IVec S_ 1 :=
  let main_v51 : IVec S512x64 1 := cmpf .olt main_v49 main_v50
  let main_c_19 : IVec S_ 1 := constantI S_ 1 1#1
  let main_v52 : IVec S_ 1 := (fun x v => Host.reduce IntOp.andi x v reducesTo_S512x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x3 .f32 := Host.absf main_arg13
  let main_cst_22 : FVec F S_ .f32 := constant S_ .f32 0x7F800000#32
  let main_v60 : FVec F S64x3 .f32 := broadcastInDim S64x3 ![] bcast_S_S64x3 main_cst_22
  let main_v61 : IVec S64x3 1 := cmpf .olt main_v59 main_v60
  let main_c_23 : IVec S_ 1 := constantI S_ 1 1#1
  let main_v62 : IVec S_ 1 := (fun x v => Host.reduce IntOp.andi x v reducesTo_S64x3_S_d0_1 h_S_) main_v61 main_c_23
  let main_v63 : IVec S_ 1 := andi main_v58 main_v62
  let main_v64 : FVec F S3 .f32 := Host.absf main_arg14
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_arg2 main_arg15 main_arg16 main_arg17 main_arg18 main_arg19 main_arg20 main_v63 main_v67

def fn_part2 {F : FTy → Type} [FloatOps F] (main_arg2 : IVec S2x12288 32) (main_arg8 : FVec F S512 .f32) (main_arg9 : FVec F S512x512 .f32) (main_arg10 : FVec F S512 .f32) (main_arg11 : FVec F S512x64 .f32) (main_arg12 : FVec F S64 .f32) (main_arg13 : FVec F S64x3 .f32) (main_arg14 : FVec F S3 .f32) (main_arg15 : FVec F S6144x1024 .f32) (main_arg16 : FVec F S1024 .f32) (main_arg17 : FVec F S1024x1024 .f32) (main_arg18 : FVec F S1024 .f32) (main_arg19 : FVec F S1024x6144 .f32) (main_arg20 : FVec F S6144 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x64 .f32 := Host.absf main_arg11
  let main_cst_18 : FVec F S_ .f32 := constant S_ .f32 0x7F800000#32
  let main_v50 : FVec F S512x64 .f32 := broadcastInDim S512x64 ![] bcast_S_S512x64 main_cst_18
  fn_part3 (F := F) main_arg2 main_arg12 main_arg13 main_arg14 main_arg15 main_arg16 main_arg17 main_arg18 main_arg19 main_arg20 main_v48 main_v49 main_v50

def fn_part1 {F : FTy → Type} [FloatOps F] (main_arg2 : IVec S2x12288 32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x64 .f32) (main_arg12 : FVec F S64 .f32) (main_arg13 : FVec F S64x3 .f32) (main_arg14 : FVec F S3 .f32) (main_arg15 : FVec F S6144x1024 .f32) (main_arg16 : FVec F S1024 .f32) (main_arg17 : FVec F S1024x1024 .f32) (main_arg18 : FVec F S1024 .f32) (main_arg19 : FVec F S1024x6144 .f32) (main_arg20 : FVec F S6144 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_v33

def fn {F : FTy → Type} [FloatOps F] (main_arg0 : FVec F S32x2048x3 .f32) (main_arg1 : FVec F S32x512 .f32) (main_arg2 : IVec S2x12288 32) (main_arg3 : FVec F S515x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x64 .f32) (main_arg12 : FVec F S64 .f32) (main_arg13 : FVec F S64x3 .f32) (main_arg14 : FVec F S3 .f32) (main_arg15 : FVec F S6144x1024 .f32) (main_arg16 : FVec F S1024 .f32) (main_arg17 : FVec F S1024x1024 .f32) (main_arg18 : FVec F S1024 .f32) (main_arg19 : FVec F S1024x6144 .f32) (main_arg20 : FVec F S6144 .f32) : IVec S_ 1 :=
  let main_v0 : FVec F S32x2048x3 .f32 := Host.absf main_arg0
  let main_cst : FVec F S_ .f32 := constant S_ .f32 0x7F800000#32
  let main_v1 : FVec F S32x2048x3 .f32 := broadcastInDim S32x2048x3 ![] bcast_S_S32x2048x3 main_cst
  let main_v2 : IVec S32x2048x3 1 := cmpf .olt main_v0 main_v1
  let main_c : IVec S_ 1 := constantI S_ 1 1#1
  let main_v3 : IVec S_ 1 := (fun x v => Host.reduce IntOp.andi x v reducesTo_S32x2048x3_S_d0_1_2 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S515x512 .f32 := Host.absf main_arg3
  let main_cst_2 : FVec F S_ .f32 := constant S_ .f32 0x7F800000#32
  let main_v10 : FVec F S515x512 .f32 := broadcastInDim S515x512 ![] bcast_S_S515x512 main_cst_2
  let main_v11 : IVec S515x512 1 := cmpf .olt main_v9 main_v10
  let main_c_3 : IVec S_ 1 := constantI S_ 1 1#1
  let main_v12 : IVec S_ 1 := (fun x v => Host.reduce IntOp.andi x v reducesTo_S515x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S32x2048x3 : Shape := ⟨3, ![32, 2048, 3]⟩
abbrev S32x512 : Shape := ⟨2, ![32, 512]⟩
abbrev S2x12288 : Shape := ⟨2, ![2, 12288]⟩
abbrev S515x512 : Shape := ⟨2, ![515, 512]⟩
abbrev S512 : Shape := ⟨1, ![512]⟩
abbrev S512x512 : Shape := ⟨2, ![512, 512]⟩
abbrev S512x64 : Shape := ⟨2, ![512, 64]⟩
abbrev S64 : Shape := ⟨1, ![64]⟩
abbrev S64x3 : Shape := ⟨2, ![64, 3]⟩
abbrev S3 : Shape := ⟨1, ![3]⟩
abbrev S6144x1024 : Shape := ⟨2, ![6144, 1024]⟩
abbrev S1024 : Shape := ⟨1, ![1024]⟩
abbrev S1024x1024 : Shape := ⟨2, ![1024, 1024]⟩
abbrev S1024x6144 : Shape := ⟨2, ![1024, 6144]⟩
abbrev S6144 : Shape := ⟨1, ![6144]⟩
abbrev S2048 : Shape := ⟨1, ![2048]⟩
abbrev S1x12288 : Shape := ⟨2, ![1, 12288]⟩
abbrev S12288 : Shape := ⟨1, ![12288]⟩
abbrev S14336 : Shape := ⟨1, ![14336]⟩
abbrev S_ : Shape := ⟨0, ![]⟩
abbrev S14336x1 : Shape := ⟨2, ![14336, 1]⟩
abbrev S2048x2048 : Shape := ⟨2, ![2048, 2048]⟩
abbrev S14336x2 : Shape := ⟨2, ![14336, 2]⟩
abbrev S32x1x512 : Shape := ⟨3, ![32, 1, 512]⟩
abbrev S32x2048x512 : Shape := ⟨3, ![32, 2048, 512]⟩
abbrev S32x2048x515 : Shape := ⟨3, ![32, 2048, 515]⟩
abbrev S1x512 : Shape := ⟨2, ![1, 512]⟩
abbrev S1x2048x515 : Shape := ⟨3, ![1, 2048, 515]⟩
abbrev S1x2048x512 : Shape := ⟨3, ![1, 2048, 512]⟩
abbrev S2048x515 : Shape := ⟨2, ![2048, 515]⟩
abbrev S2048x512 : Shape := ⟨2, ![2048, 512]⟩
abbrev S1x64 : Shape := ⟨2, ![1, 64]⟩
abbrev S32x2048x64 : Shape := ⟨3, ![32, 2048, 64]⟩
abbrev S1x2048x64 : Shape := ⟨3, ![1, 2048, 64]⟩
abbrev S2048x64 : Shape := ⟨2, ![2048, 64]⟩
abbrev S1x3 : Shape := ⟨2, ![1, 3]⟩
abbrev S1x2048x3 : Shape := ⟨3, ![1, 2048, 3]⟩
abbrev S2048x3 : Shape := ⟨2, ![2048, 3]⟩
abbrev S32x6144 : Shape := ⟨2, ![32, 6144]⟩
abbrev S1x1024 : Shape := ⟨2, ![1, 1024]⟩
abbrev S32x1024 : Shape := ⟨2, ![32, 1024]⟩
abbrev S1x6144 : Shape := ⟨2, ![1, 6144]⟩

abbrev nBuf : Space → Nat
  | .hbm => 112
  | .vmem => 54
  | .smem => 0
  | _ => 0

abbrev bufTy : (tb : Table) → Fin (tcTables nBuf tb) → BufTy
  | .hbm, ⟨0, _⟩ => ⟨S32x2048x3, .f32⟩
  | .hbm, ⟨1, _⟩ => ⟨S32x512, .f32⟩
  | .hbm, ⟨2, _⟩ => ⟨S2x12288, .i32⟩
  | .hbm, ⟨3, _⟩ => ⟨S515x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x64, .f32⟩
  | .hbm, ⟨12, _⟩ => ⟨S64, .f32⟩
  | .hbm, ⟨13, _⟩ => ⟨S64x3, .f32⟩
  | .hbm, ⟨14, _⟩ => ⟨S3, .f32⟩
  | .hbm, ⟨15, _⟩ => ⟨S6144x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x6144, .f32⟩
  | .hbm, ⟨20, _⟩ => ⟨S6144, .f32⟩
  | .hbm, ⟨21, _⟩ => ⟨S2048, .i32⟩
  | .hbm, ⟨22, _⟩ => ⟨S1x12288, .i32⟩
  | .hbm, ⟨23, _⟩ => ⟨S12288, .i32⟩
  | .hbm, ⟨24, _⟩ => ⟨S14336, .i32⟩
  | .hbm, ⟨25, _⟩ => ⟨S1x12288, .i32⟩
  | .hbm, ⟨26, _⟩ => ⟨S12288, .i32⟩
  | .hbm, ⟨27, _⟩ => ⟨S14336, .i32⟩
  | .hbm, ⟨28, _⟩ => ⟨S_, .f32⟩
  | .hbm, ⟨29, _⟩ => ⟨S14336, .f32⟩
  | .hbm, ⟨30, _⟩ => ⟨S_, .f32⟩
  | .hbm, ⟨31, _⟩ => ⟨S2048, .f32⟩
  | .hbm, ⟨32, _⟩ => ⟨S14336x1, .i32⟩
  | .hbm, ⟨33, _⟩ => ⟨S2048, .f32⟩
  | .hbm, ⟨34, _⟩ => ⟨S2048, .f32⟩
  | .hbm, ⟨35, _⟩ => ⟨S_, .i32⟩
  | .hbm, ⟨36, _⟩ => ⟨S14336, .i32⟩
  | .hbm, ⟨37, _⟩ => ⟨S14336, .i1⟩
  | .hbm, ⟨38, _⟩ => ⟨S_, .i32⟩
  | .hbm, ⟨39, _⟩ => ⟨S14336, .i32⟩
  | .hbm, ⟨40, _⟩ => ⟨S14336, .i32⟩
  | .hbm, ⟨41, _⟩ => ⟨S14336, .i32⟩
  | .hbm, ⟨42, _⟩ => ⟨S14336x1, .i32⟩
  | .hbm, ⟨43, _⟩ => ⟨S14336, .f32⟩
  | .hbm, ⟨44, _⟩ => ⟨S_, .i32⟩
  | .hbm, ⟨45, _⟩ => ⟨S14336, .i32⟩
  | .hbm, ⟨46, _⟩ => ⟨S14336, .i1⟩
  | .hbm, ⟨47, _⟩ => ⟨S_, .i32⟩
  | .hbm, ⟨48, _⟩ => ⟨S14336, .i32⟩
  | .hbm, ⟨49, _⟩ => ⟨S14336, .i32⟩
  | .hbm, ⟨50, _⟩ => ⟨S14336, .i32⟩
  | .hbm, ⟨51, _⟩ => ⟨S14336x1, .i32⟩
  | .hbm, ⟨52, _⟩ => ⟨S14336, .f32⟩
  | .hbm, ⟨53, _⟩ => ⟨S14336, .f32⟩
  | .hbm, ⟨54, _⟩ => ⟨S_, .f32⟩
  | .hbm, ⟨55, _⟩ => ⟨S2048x2048, .f32⟩
  | .hbm, ⟨56, _⟩ => ⟨S_, .i32⟩
  | .hbm, ⟨57, _⟩ => ⟨S14336, .i32⟩
  | .hbm, ⟨58, _⟩ => ⟨S14336, .i1⟩
  | .hbm, ⟨59, _⟩ => ⟨S_, .i32⟩
  | .hbm, ⟨60, _⟩ => ⟨S14336, .i32⟩
  | .hbm, ⟨61, _⟩ => ⟨S14336, .i32⟩
  | .hbm, ⟨62, _⟩ => ⟨S14336, .i32⟩
  | .hbm, ⟨63, _⟩ => ⟨S_, .i32⟩
  | .hbm, ⟨64, _⟩ => ⟨S14336, .i32⟩
  | .hbm, ⟨65, _⟩ => ⟨S14336, .i1⟩
  | .hbm, ⟨66, _⟩ => ⟨S_, .i32⟩
  | .hbm, ⟨67, _⟩ => ⟨S14336, .i32⟩
  | .hbm, ⟨68, _⟩ => ⟨S14336, .i32⟩
  | .hbm, ⟨69, _⟩ => ⟨S14336, .i32⟩
  | .hbm, ⟨70, _⟩ => ⟨S14336x1, .i32⟩
  | .hbm, ⟨71, _⟩ => ⟨S14336x1, .i32⟩
  | .hbm, ⟨72, _⟩ => ⟨S14336x2, .i32⟩
  | .hbm, ⟨73, _⟩ => ⟨S2048x2048, .f32⟩
  | .hbm, ⟨74, _⟩ => ⟨S2048x2048, .bf16⟩
  | .hbm, ⟨75, _⟩ => ⟨S32x1x512, .f32⟩
  | .hbm, ⟨76, _⟩ => ⟨S32x2048x512, .f32⟩
  | .hbm, ⟨77, _⟩ => ⟨S32x2048x515, .f32⟩
  | .hbm, ⟨78, _⟩ => ⟨S32x2048x515, .bf16⟩
  | .hbm, ⟨79, _⟩ => ⟨S515x512, .bf16⟩
  | .hbm, ⟨80, _⟩ => ⟨S1x512, .f32⟩
  | .hbm, ⟨81, _⟩ => ⟨S32x2048x512, .bf16⟩
  | .hbm, ⟨82, _⟩ => ⟨S512x512, .bf16⟩
  | .hbm, ⟨83, _⟩ => ⟨S1x512, .f32⟩
  | .hbm, ⟨84, _⟩ => ⟨S32x2048x512, .bf16⟩
  | .hbm, ⟨85, _⟩ => ⟨S512x512, .bf16⟩
  | .hbm, ⟨86, _⟩ => ⟨S1x512, .f32⟩
  | .hbm, ⟨87, _⟩ => ⟨S32x2048x512, .bf16⟩
  | .hbm, ⟨88, _⟩ => ⟨S512x512, .bf16⟩
  | .hbm, ⟨89, _⟩ => ⟨S1x512, .f32⟩
  | .hbm, ⟨90, _⟩ => ⟨S32x2048x512, .bf16⟩
  | .hbm, ⟨91, _⟩ => ⟨S512x64, .bf16⟩
  | .hbm, ⟨92, _⟩ => ⟨S1x64, .f32⟩
  | .hbm, ⟨93, _⟩ => ⟨S32x2048x64, .bf16⟩
  | .hbm, ⟨94, _⟩ => ⟨S64x3, .bf16⟩
  | .hbm, ⟨95, _⟩ => ⟨S1x3, .f32⟩
  | .hbm, ⟨96, _⟩ => ⟨S32x2048x3, .f32⟩
  | .hbm, ⟨97, _⟩ => ⟨S32x6144, .f32⟩
  | .hbm, ⟨98, _⟩ => ⟨S6144x1024, .bf16⟩
  | .hbm, ⟨99, _⟩ => ⟨S1x1024, .f32⟩
  | .hbm, ⟨100, _⟩ => ⟨S32x1024, .f32⟩
  | .hbm, ⟨101, _⟩ => ⟨S1024x1024, .bf16⟩
  | .hbm, ⟨102, _⟩ => ⟨S1x1024, .f32⟩
  | .hbm, ⟨103, _⟩ => ⟨S32x1024, .f32⟩
  | .hbm, ⟨104, _⟩ => ⟨S1024x6144, .bf16⟩
  | .hbm, ⟨105, _⟩ => ⟨S1x6144, .f32⟩
  | .hbm, ⟨106, _⟩ => ⟨S32x6144, .f32⟩
  | .hbm, ⟨107, _⟩ => ⟨S32x2048x3, .f32⟩
  | .hbm, ⟨108, _⟩ => ⟨S_, .f32⟩
  | .hbm, ⟨109, _⟩ => ⟨S32x2048x3, .f32⟩
  | .hbm, ⟨110, _⟩ => ⟨S32x2048x3, .f32⟩
  | .hbm, ⟨111, _⟩ => ⟨S32x2048x3, .f32⟩
  | .local _ .vmem, ⟨0, _⟩ => ⟨S1x2048x515, .bf16⟩
  | .local _ .vmem, ⟨1, _⟩ => ⟨S1x2048x515, .bf16⟩
  | .local _ .vmem, ⟨2, _⟩ => ⟨S515x512, .bf16⟩
  | .local _ .vmem, ⟨3, _⟩ => ⟨S2048x2048, .bf16⟩
  | .local _ .vmem, ⟨4, _⟩ => ⟨S1x512, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S512x512, .bf16⟩
  | .local _ .vmem, ⟨10, _⟩ => ⟨S2048x2048, .bf16⟩
  | .local _ .vmem, ⟨11, _⟩ => ⟨S1x512, .f32⟩
  | .local _ .vmem, ⟨12, _⟩ => ⟨S1x2048x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S512x512, .bf16⟩
  | .local _ .vmem, ⟨17, _⟩ => ⟨S2048x2048, .bf16⟩
  | .local _ .vmem, ⟨18, _⟩ => ⟨S1x512, .f32⟩
  | .local _ .vmem, ⟨19, _⟩ => ⟨S1x2048x512, .bf16⟩
  | .local _ .vmem, ⟨20, _⟩ => ⟨S1x2048x512, .bf16⟩
  | .local _ .vmem, ⟨21, _⟩ => ⟨S1x2048x512, .bf16⟩
  | .local _ .vmem, ⟨22, _⟩ => ⟨S1x2048x512, .bf16⟩
  | .local _ .vmem, ⟨23, _⟩ => ⟨S512x512, .bf16⟩
  | .local _ .vmem, ⟨24, _⟩ => ⟨S2048x2048, .bf16⟩
  | .local _ .vmem, ⟨25, _⟩ => ⟨S1x512, .f32⟩
  | .local _ .vmem, ⟨26, _⟩ => ⟨S1x2048x512, .bf16⟩
  | .local _ .vmem, ⟨27, _⟩ => ⟨S1x2048x512, .bf16⟩
  | .local _ .vmem, ⟨28, _⟩ => ⟨S1x2048x512, .bf16⟩
  | .local _ .vmem, ⟨29, _⟩ => ⟨S1x2048x512, .bf16⟩
  | .local _ .vmem, ⟨30, _⟩ => ⟨S512x64, .bf16⟩
  | .local _ .vmem, ⟨31, _⟩ => ⟨S2048x2048, .bf16⟩
  | .local _ .vmem, ⟨32, _⟩ => ⟨S1x64, .f32⟩
  | .local _ .vmem, ⟨33, _⟩ => ⟨S1x2048x64, .bf16⟩
  | .local _ .vmem, ⟨34, _⟩ => ⟨S1x2048x64, .bf16⟩
  | .local _ .vmem, ⟨35, _⟩ => ⟨S1x2048x64, .bf16⟩
  | .local _ .vmem, ⟨36, _⟩ => ⟨S1x2048x64, .bf16⟩
  | .local _ .vmem, ⟨37, _⟩ => ⟨S64x3, .bf16⟩
  | .local _ .vmem, ⟨38, _⟩ => ⟨S2048x2048, .bf16⟩
  | .local _ .vmem, ⟨39, _⟩ => ⟨S1x3, .f32⟩
  | .local _ .vmem, ⟨40, _⟩ => ⟨S1x2048x3, .f32⟩
  | .local _ .vmem, ⟨41, _⟩ => ⟨S1x2048x3, .f32⟩
  | .local _ .vmem, ⟨42, _⟩ => ⟨S32x6144, .f32⟩
  | .local _ .vmem, ⟨43, _⟩ => ⟨S6144x1024, .bf16⟩
  | .local _ .vmem, ⟨44, _⟩ => ⟨S1x1024, .f32⟩
  | .local _ .vmem, ⟨45, _⟩ => ⟨S32x1024, .f32⟩
  | .local _ .vmem, ⟨46, _⟩ => ⟨S32x1024, .f32⟩
  | .local _ .vmem, ⟨47, _⟩ => ⟨S1024x1024, .bf16⟩
  | .local _ .vmem, ⟨48, _⟩ => ⟨S1x1024, .f32⟩
  | .local _ .vmem, ⟨49, _⟩ => ⟨S32x1024, .f32⟩
  | .local _ .vmem, ⟨50, _⟩ => ⟨S32x1024, .f32⟩
  | .local _ .vmem, ⟨51, _⟩ => ⟨S1024x6144, .bf16⟩
  | .local _ .vmem, ⟨52, _⟩ => ⟨S1x6144, .f32⟩
  | .local _ .vmem, ⟨53, _⟩ => ⟨S32x6144, .f32⟩
  | _, _ => ⟨S32x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_2 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_v27 : Ref sig .tc := ⟨.hbm, 55, rfl⟩
abbrev main_c_5 : Ref sig .tc := ⟨.hbm, 56, rfl⟩
abbrev main_v28 : Ref sig .tc := ⟨.hbm, 57, rfl⟩
abbrev main_v29 : Ref sig .tc := ⟨.hbm, 58, rfl⟩
abbrev main_c_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_7 : Ref sig .tc := ⟨.hbm, 63, rfl⟩
abbrev main_v33 : Ref sig .tc := ⟨.hbm, 64, rfl⟩
abbrev main_v34 : Ref sig .tc := ⟨.hbm, 65, rfl⟩
abbrev main_c_8 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_9 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc7_stg0_0 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg3_0 : Ref sig .tc := ⟨.vmem, 49, rfl⟩
abbrev cc8_stg0_0 : Ref sig .tc := ⟨.vmem, 50, rfl⟩
abbrev cc8_stg1_0 : Ref sig .tc := ⟨.vmem, 51, rfl⟩
abbrev cc8_stg2_0 : Ref sig .tc := ⟨.vmem, 52, rfl⟩
abbrev cc8_stg3_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem4_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc7_sem0_0 : DmaSem sig := 46
abbrev cc7_sem1_0 : DmaSem sig := 47
abbrev cc7_sem2_0 : DmaSem sig := 48
abbrev cc7_sem3_0 : DmaSem sig := 49
abbrev cc8_sem0_0 : DmaSem sig := 50
abbrev cc8_sem1_0 : DmaSem sig := 51
abbrev cc8_sem2_0 : DmaSem sig := 52
abbrev cc8_sem3_0 : DmaSem sig := 53

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x515 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S515x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x2048x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x2048x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2048x2048 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x2048x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![32], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2048x2048 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1x2048x64 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![32], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x2048x64 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x3 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S2048x2048 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x3 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1x2048x3 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S32x6144 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S6144x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S32x1024 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S1024x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x1024 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S32x1024 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S1024x6144 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x6144 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S32x6144 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

class Facts₀ : Prop where
  slices_S2x12288_S1x12288_0_0 : S2x12288.Slices ![0, 0] S1x12288
  shapeCasts_S1x12288_S12288 : S1x12288.ShapeCasts S12288
  concatenates_S12288_S2048_S14336_d0 : Shape.Concatenates [S12288, S2048] S14336 0
  slices_S2x12288_S1x12288_1_0 : S2x12288.Slices ![1, 0] S1x12288
  bcast_S_S14336 : S_.BroadcastsInDim S14336 (![] : Fin 0 → Fin S14336.rank)
  bcast_S_S2048 : S_.BroadcastsInDim S2048 (![] : Fin 0 → Fin S2048.rank)
  bcast_S14336_S14336x1_0 : S14336.BroadcastsInDim S14336x1 (![0] : Fin 1 → Fin S14336x1.rank)
  bcast_S_S2048x2048 : S_.BroadcastsInDim S2048x2048 (![] : Fin 0 → Fin S2048x2048.rank)
  concatenates_S14336x1_S14336x1_S14336x2_d1 : Shape.Concatenates [S14336x1, S14336x1] S14336x2 1
  bitsLt_bf16_f32 : FTy.bits .bf16 < FTy.bits .f32
  bcast_S32x512_S32x1x512_0_2 : S32x512.BroadcastsInDim S32x1x512 (![0, 2] : Fin 2 → Fin S32x1x512.rank)
  bcast_S32x1x512_S32x2048x512_0_1_2 : S32x1x512.BroadcastsInDim S32x2048x512 (![0, 1, 2] : Fin 3 → Fin S32x2048x512.rank)
  concatenates_S32x2048x3_S32x2048x512_S32x2048x515_d2 : Shape.Concatenates [S32x2048x3, S32x2048x512] S32x2048x515 2
  shapeCasts_S512_S1x512 : S512.ShapeCasts S1x512
  inb_S1x2048x515_S1x2048x515_0_0_0 : ∀ a, (![0, 0, 0] : Fin 3 → Nat) a + S1x2048x515.size a ≤ S1x2048x515.size a
  h_S1x2048x515 : 0 < S1x2048x515.numel
  shapeCasts_S1x2048x515_S2048x515 : S1x2048x515.ShapeCasts S2048x515
  inb_S515x512_S515x512_0_0 : ∀ a, (![0, 0] : Fin 2 → Nat) a + S515x512.size a ≤ S515x512.size a
  h_S515x512 : 0 < S515x512.numel
  shapeCasts_S515x512_S515x512 : S515x512.ShapeCasts S515x512
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  packedbf16_S1x2048x512_S1x2048x512_0_0_0 : (Rect.unit (s := S1x2048x512) ![0, 0, 0] S1x2048x512.size inb_S1x2048x512_S1x2048x512_0_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S64_S1x64 : S64.ShapeCasts S1x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  shapeCasts_S3_S1x3 : S3.ShapeCasts S1x3
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2048x3 : S1x3.Broadcasts S2048x3
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  shapeCasts_S2048x3_S1x2048x3 : S2048x3.ShapeCasts S1x2048x3
  shapeCasts_S32x2048x3_S32x6144 : S32x2048x3.ShapeCasts S32x6144
  shapeCasts_S1024_S1x1024 : S1024.ShapeCasts S1x1024
  inb_S32x6144_S32x6144_0_0 : ∀ a, (![0, 0] : Fin 2 → Nat) a + S32x6144.size a ≤ S32x6144.size a
  h_S32x6144 : 0 < S32x6144.numel
  shapeCasts_S32x6144_S32x6144 : S32x6144.ShapeCasts S32x6144
  inb_S6144x1024_S6144x1024_0_0 : ∀ a, (![0, 0] : Fin 2 → Nat) a + S6144x1024.size a ≤ S6144x1024.size a
  h_S6144x1024 : 0 < S6144x1024.numel
  shapeCasts_S6144x1024_S6144x1024 : S6144x1024.ShapeCasts S6144x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S32x1024 : S1x1024.Broadcasts S32x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S6144_S1x6144 : S6144.ShapeCasts S1x6144
  inb_S1024x6144_S1024x6144_0_0 : ∀ a, (![0, 0] : Fin 2 → Nat) a + S1024x6144.size a ≤ S1024x6144.size a
  h_S1024x6144 : 0 < S1024x6144.numel
  shapeCasts_S1024x6144_S1024x6144 : S1024x6144.ShapeCasts S1024x6144
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  broadcasts_S1x6144_S32x6144 : S1x6144.Broadcasts S32x6144
  shapeCasts_S32x6144_S32x2048x3 : S32x6144.ShapeCasts S32x2048x3
  bcast_S_S32x2048x3 : S_.BroadcastsInDim S32x2048x3 (![] : Fin 0 → Fin S32x2048x3.rank)
  scatter_S2048_S14336x1_S14336_n_0_0_1_wf : ScatterDims.WF S2048 S14336x1 S14336 [] [0] [0] 1
  gather_S2048_S14336x1_S14336_n_0_n_n_0_1_1_wf : GatherDims.WF S2048 S14336x1 S14336 [] [0] [] [0] [] 1 ![1]
  scatter_S2048x2048_S14336x2_S14336_n_01_01_1_wf : ScatterDims.WF S2048x2048 S14336x2 S14336 [] [0, 1] [0, 1] 1
  dot_S2048x515_S515x512_S2048x512_1_0_0_1_n_n_wf : DotDims.WF S2048x515 S515x512 S2048x512 [1] [0] [0] [1] [] []
  dot_S2048x2048_S2048x512_S2048x512_1_0_0_1_n_n_wf : DotDims.WF S2048x2048 S2048x512 S2048x512 [1] [0] [0] [1] [] []
  dot_S2048x512_S512x512_S2048x512_1_0_0_1_n_n_wf : DotDims.WF S2048x512 S512x512 S2048x512 [1] [0] [0] [1] [] []
  dot_S2048x512_S512x64_S2048x64_1_0_0_1_n_n_wf : DotDims.WF S2048x512 S512x64 S2048x64 [1] [0] [0] [1] [] []
  dot_S2048x2048_S2048x64_S2048x64_1_0_0_1_n_n_wf : DotDims.WF S2048x2048 S2048x64 S2048x64 [1] [0] [0] [1] [] []
  dot_S2048x64_S64x3_S2048x3_1_0_0_1_n_n_wf : DotDims.WF S2048x64 S64x3 S2048x3 [1] [0] [0] [1] [] []
  dot_S2048x2048_S2048x3_S2048x3_1_0_0_1_n_n_wf : DotDims.WF S2048x2048 S2048x3 S2048x3 [1] [0] [0] [1] [] []
  dot_S32x6144_S6144x1024_S32x1024_1_0_0_1_n_n_wf : DotDims.WF S32x6144 S6144x1024 S32x1024 [1] [0] [0] [1] [] []
  dot_S32x1024_S1024x1024_S32x1024_1_0_0_1_n_n_wf : DotDims.WF S32x1024 S1024x1024 S32x1024 [1] [0] [0] [1] [] []
  dot_S32x1024_S1024x6144_S32x6144_1_0_0_1_n_n_wf : DotDims.WF S32x1024 S1024x6144 S32x6144 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x515.size a ≤ S32x2048x515.size a
  hwx0_0 : ∀ i : grid0.Coords, EltTy.bits .bf16 = 32 ∨ (Rect.block (s := S32x2048x515) S1x2048x515.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S515x512.size a ≤ S515x512.size a
  hwx0_1 : ∀ i : grid0.Coords, EltTy.bits .bf16 = 32 ∨ (Rect.block (s := S515x512) S515x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x512.size a ≤ S32x2048x512.size a
  hwx0_4 : ∀ i : grid0.Coords, EltTy.bits .bf16 = 32 ∨ (Rect.block (s := S32x2048x512) S1x2048x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S32x2048x512.size a
  hwx1_0 : ∀ i : grid1.Coords, EltTy.bits .bf16 = 32 ∨ (Rect.block (s := S32x2048x512) S1x2048x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x512.size a ≤ S32x2048x512.size a
  hwx1_4 : ∀ i : grid1.Coords, EltTy.bits .bf16 = 32 ∨ (Rect.block (s := S32x2048x512) S1x2048x512.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x512.size a ≤ S32x2048x512.size a
  hwx2_0 : ∀ i : grid2.Coords, EltTy.bits .bf16 = 32 ∨ (Rect.block (s := S32x2048x512) S1x2048x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S2048x2048.size a
  hwx2_2 : ∀ i : grid2.Coords, EltTy.bits .bf16 = 32 ∨ (Rect.block (s := S2048x2048) S2048x2048.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048x512.size a ≤ S32x2048x512.size a
  hwx2_4 : ∀ i : grid2.Coords, EltTy.bits .bf16 = 32 ∨ (Rect.block (s := S32x2048x512) S1x2048x512.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048x512.size a ≤ S32x2048x512.size a
  hwx3_0 : ∀ i : grid3.Coords, EltTy.bits .bf16 = 32 ∨ (Rect.block (s := S32x2048x512) S1x2048x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .bf16 = 32 ∨ (Rect.block (s := S512x512) S512x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2048x2048.size a ≤ S2048x2048.size a
  hwx3_2 : ∀ i : grid3.Coords, EltTy.bits .bf16 = 32 ∨ (Rect.block (s := S2048x2048) S2048x2048.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x2048x512.size a ≤ S32x2048x512.size a
  hwx3_4 : ∀ i : grid3.Coords, EltTy.bits .bf16 = 32 ∨ (Rect.block (s := S32x2048x512) S1x2048x512.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x2048x512.size a ≤ S32x2048x512.size a
  hwx4_0 : ∀ i : grid4.Coords, EltTy.bits .bf16 = 32 ∨ (Rect.block (s := S32x2048x512) S1x2048x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x64.size a ≤ S512x64.size a
  hwx4_1 : ∀ i : grid4.Coords, EltTy.bits .bf16 = 32 ∨ (Rect.block (s := S512x64) S512x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2048x2048.size a ≤ S2048x2048.size a
  hwx4_2 : ∀ i : grid4.Coords, EltTy.bits .bf16 = 32 ∨ (Rect.block (s := S2048x2048) S2048x2048.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x2048x64.size a ≤ S32x2048x64.size a
  hwx4_4 : ∀ i : grid4.Coords, EltTy.bits .bf16 = 32 ∨ (Rect.block (s := S32x2048x64) S1x2048x64.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x2048x64.size a ≤ S32x2048x64.size a
  hwx5_0 : ∀ i : grid5.Coords, EltTy.bits .bf16 = 32 ∨ (Rect.block (s := S32x2048x64) S1x2048x64.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x3.size a ≤ S64x3.size a
  hwx5_1 : ∀ i : grid5.Coords, EltTy.bits .bf16 = 32 ∨ (Rect.block (s := S64x3) S64x3.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S2048x2048.size a ≤ S2048x2048.size a
  hwx5_2 : ∀ i : grid5.Coords, EltTy.bits .bf16 = 32 ∨ (Rect.block (s := S2048x2048) S2048x2048.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x3.size a ≤ S1x3.size a
  hwx5_3 : ∀ i : grid5.Coords, EltTy.bits .f32 = 32 ∨ (Rect.block (s := S1x3) S1x3.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x2048x3.size a ≤ S32x2048x3.size a
  hwx5_4 : ∀ i : grid5.Coords, EltTy.bits .f32 = 32 ∨ (Rect.block (s := S32x2048x3) S1x2048x3.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S32x6144.size a ≤ S32x6144.size a
  hwx6_0 : ∀ i : grid6.Coords, EltTy.bits .f32 = 32 ∨ (Rect.block (s := S32x6144) S32x6144.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S6144x1024.size a ≤ S6144x1024.size a
  hwx6_1 : ∀ i : grid6.Coords, EltTy.bits .bf16 = 32 ∨ (Rect.block (s := S6144x1024) S6144x1024.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1024.size a ≤ S1x1024.size a
  hwx6_2 : ∀ i : grid6.Coords, EltTy.bits .f32 = 32 ∨ (Rect.block (s := S1x1024) S1x1024.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x1024.size a ≤ S32x1024.size a
  hwx6_3 : ∀ i : grid6.Coords, EltTy.bits .f32 = 32 ∨ (Rect.block (s := S32x1024) S32x1024.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S32x1024.size a ≤ S32x1024.size a
  hwx7_0 : ∀ i : grid7.Coords, EltTy.bits .f32 = 32 ∨ (Rect.block (s := S32x1024) S32x1024.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1024x1024.size a ≤ S1024x1024.size a
  hwx7_1 : ∀ i : grid7.Coords, EltTy.bits .bf16 = 32 ∨ (Rect.block (s := S1024x1024) S1024x1024.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1024.size a ≤ S1x1024.size a
  hwx7_2 : ∀ i : grid7.Coords, EltTy.bits .f32 = 32 ∨ (Rect.block (s := S1x1024) S1x1024.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x1024.size a ≤ S32x1024.size a
  hwx7_3 : ∀ i : grid7.Coords, EltTy.bits .f32 = 32 ∨ (Rect.block (s := S32x1024) S32x1024.size (cc7_transform_3 i) (hinb7_3 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S32x1024.size a ≤ S32x1024.size a
  hwx8_0 : ∀ i : grid8.Coords, EltTy.bits .f32 = 32 ∨ (Rect.block (s := S32x1024) S32x1024.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1024x6144.size a ≤ S1024x6144.size a
  hwx8_1 : ∀ i : grid8.Coords, EltTy.bits .bf16 = 32 ∨ (Rect.block (s := S1024x6144) S1024x6144.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x6144.size a ≤ S1x6144.size a
  hwx8_2 : ∀ i : grid8.Coords, EltTy.bits .f32 = 32 ∨ (Rect.block (s := S1x6144) S1x6144.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S32x6144.size a ≤ S32x6144.size a
  hwx8_3 : ∀ i : grid8.Coords, EltTy.bits .f32 = 32 ∨ (Rect.block (s := S32x6144) S32x6144.size (cc8_transform_3 i) (hinb8_3 i)).WholeWords (EltTy.packing .f32)

variable [Facts₀]

def scatter_S2048_S14336x1_S14336_n_0_0_1 : ScatterDims S2048 S14336x1 S14336 where
  updateWindowDims := []
  insertedWindowDims := [0]
  scatterDimsToOperandDims := [0]
  indexVectorDim := 1
  wf := scatter_S2048_S14336x1_S14336_n_0_0_1_wf
def gather_S2048_S14336x1_S14336_n_0_n_n_0_1_1 : GatherDims S2048 S14336x1 S14336 where
  offsetDims := []
  collapsedSliceDims := [0]
  operandBatchingDims := []
  startIndicesBatchingDims := []
  startIndexMap := [0]
  indexVectorDim := 1
  sliceSizes := ![1]
  wf := gather_S2048_S14336x1_S14336_n_0_n_n_0_1_1_wf
def scatter_S2048x2048_S14336x2_S14336_n_01_01_1 : ScatterDims S2048x2048 S14336x2 S14336 where
  updateWindowDims := []
  insertedWindowDims := [0, 1]
  scatterDimsToOperandDims := [0, 1]
  indexVectorDim := 1
  wf := scatter_S2048x2048_S14336x2_S14336_n_01_01_1_wf
def dot_S2048x515_S515x512_S2048x512_1_0_0_1_n_n : DotDims S2048x515 S515x512 S2048x512 where
  lhsContracting := [1]
  rhsContracting := [0]
  lhsNonContracting := [0]
  rhsNonContracting := [1]
  lhsBatch := []
  rhsBatch := []
  wf := dot_S2048x515_S515x512_S2048x512_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x3_S2048x3_1_0_0_1_n_n : DotDims S2048x64 S64x3 S2048x3 where
  lhsContracting := [1]
  rhsContracting := [0]
  lhsNonContracting := [0]
  rhsNonContracting := [1]
  lhsBatch := []
  rhsBatch := []
  wf := dot_S2048x64_S64x3_S2048x3_1_0_0_1_n_n_wf
def dot_S2048x2048_S2048x3_S2048x3_1_0_0_1_n_n : DotDims S2048x2048 S2048x3 S2048x3 where
  lhsContracting := [1]
  rhsContracting := [0]
  lhsNonContracting := [0]
  rhsNonContracting := [1]
  lhsBatch := []
  rhsBatch := []
  wf := dot_S2048x2048_S2048x3_S2048x3_1_0_0_1_n_n_wf
def dot_S32x6144_S6144x1024_S32x1024_1_0_0_1_n_n : DotDims S32x6144 S6144x1024 S32x1024 where
  lhsContracting := [1]
  rhsContracting := [0]
  lhsNonContracting := [0]
  rhsNonContracting := [1]
  lhsBatch := []
  rhsBatch := []
  wf := dot_S32x6144_S6144x1024_S32x1024_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x1024_S1024x6144_S32x6144_1_0_0_1_n_n : DotDims S32x1024 S1024x6144 S32x6144 where
  lhsContracting := [1]
  rhsContracting := [0]
  lhsNonContracting := [0]
  rhsNonContracting := [1]
  lhsBatch := []
  rhsBatch := []
  wf := dot_S32x1024_S1024x6144_S32x6144_1_0_0_1_n_n_wf

abbrev win0_0 : Pipeline.Window sig grid0 :=
  Pipeline.Window.ofSpec (Memref.whole main_v46) S1x2048x515.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S515x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S1x2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v49) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x2048x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v52) S1x2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S2048x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x2048x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v55) S1x2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S2048x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x2048x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S1x2048x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S512x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42) S2048x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S1x2048x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v61) S1x2048x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S64x3.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v42) S2048x2048.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v63) S1x3.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v64) S1x2048x3.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v65) S32x6144.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v66) S6144x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v67) S1x1024.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v68) S32x1024.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v68) S32x1024.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v69) S1024x1024.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v70) S1x1024.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v71) S32x1024.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v71) S32x1024.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v72) S1024x6144.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v73) S1x6144.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v74) S32x6144.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S32x2048x3 : Shape := ⟨3, ![32, 2048, 3]⟩
abbrev S32x512 : Shape := ⟨2, ![32, 512]⟩
abbrev S2x12288 : Shape := ⟨2, ![2, 12288]⟩
abbrev S515x512 : Shape := ⟨2, ![515, 512]⟩
abbrev S512 : Shape := ⟨1, ![512]⟩
abbrev S512x512 : Shape := ⟨2, ![512, 512]⟩
abbrev S512x64 : Shape := ⟨2, ![512, 64]⟩
abbrev S64 : Shape := ⟨1, ![64]⟩
abbrev S64x3 : Shape := ⟨2, ![64, 3]⟩
abbrev S3 : Shape := ⟨1, ![3]⟩
abbrev S6144x1024 : Shape := ⟨2, ![6144, 1024]⟩
abbrev S1024 : Shape := ⟨1, ![1024]⟩
abbrev S1024x1024 : Shape := ⟨2, ![1024, 1024]⟩
abbrev S1024x6144 : Shape := ⟨2, ![1024, 6144]⟩
abbrev S6144 : Shape := ⟨1, ![6144]⟩
abbrev S2048 : Shape := ⟨1, ![2048]⟩
abbrev S1x12288 : Shape := ⟨2, ![1, 12288]⟩
abbrev S12288 : Shape := ⟨1, ![12288]⟩
abbrev S14336 : Shape := ⟨1, ![14336]⟩
abbrev S_ : Shape := ⟨0, ![]⟩
abbrev S14336x1 : Shape := ⟨2, ![14336, 1]⟩
abbrev S32x1x512 : Shape := ⟨3, ![32, 1, 512]⟩
abbrev S32x2048x512 : Shape := ⟨3, ![32, 2048, 512]⟩
abbrev S32x2048x515 : Shape := ⟨3, ![32, 2048, 515]⟩
abbrev S32x14336x512 : Shape := ⟨3, ![32, 14336, 512]⟩
abbrev S1x14336x1 : Shape := ⟨3, ![1, 14336, 1]⟩
abbrev S2048x512 : Shape := ⟨2, ![2048, 512]⟩
abbrev S1x1x512 : Shape := ⟨3, ![1, 1, 512]⟩
abbrev S32x2048x64 : Shape := ⟨3, ![32, 2048, 64]⟩
abbrev S32x14336x64 : Shape := ⟨3, ![32, 14336, 64]⟩
abbrev S2048x64 : Shape := ⟨2, ![2048, 64]⟩
abbrev S1x1x64 : Shape := ⟨3, ![1, 1, 64]⟩
abbrev S32x14336x3 : Shape := ⟨3, ![32, 14336, 3]⟩
abbrev S2048x3 : Shape := ⟨2, ![2048, 3]⟩
abbrev S1x1x3 : Shape := ⟨3, ![1, 1, 3]⟩
abbrev S32x6144 : Shape := ⟨2, ![32, 6144]⟩
abbrev S32x1024 : Shape := ⟨2, ![32, 1024]⟩
abbrev S1x1024 : Shape := ⟨2, ![1, 1024]⟩
abbrev S1x6144 : Shape := ⟨2, ![1, 6144]⟩

abbrev nBuf : Space → Nat
  | .hbm => 211
  | .vmem => 0
  | .smem => 0
  | _ => 0

abbrev hbmTy0_0 (i : Nat) : BufTy := match i % 128 with
  | 0 => ⟨S32x2048x3, .f32⟩
  | 1 => ⟨S32x512, .f32⟩
  | 2 => ⟨S2x12288, .i32⟩
  | 3 => ⟨S515x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512x512, .f32⟩
  | 10 => ⟨S512, .f32⟩
  | 11 => ⟨S512x64, .f32⟩
  | 12 => ⟨S64, .f32⟩
  | 13 => ⟨S64x3, .f32⟩
  | 14 => ⟨S3, .f32⟩
  | 15 => ⟨S6144x1024, .f32⟩
  | 16 => ⟨S1024, .f32⟩
  | 17 => ⟨S1024x1024, .f32⟩
  | 18 => ⟨S1024, .f32⟩
  | 19 => ⟨S1024x6144, .f32⟩
  | 20 => ⟨S6144, .f32⟩
  | 21 => ⟨S2048, .i32⟩
  | 22 => ⟨S1x12288, .i32⟩
  | 23 => ⟨S12288, .i32⟩
  | 24 => ⟨S14336, .i32⟩
  | 25 => ⟨S1x12288, .i32⟩
  | 26 => ⟨S12288, .i32⟩
  | 27 => ⟨S14336, .i32⟩
  | 28 => ⟨S_, .f32⟩
  | 29 => ⟨S14336, .f32⟩
  | 30 => ⟨S_, .f32⟩
  | 31 => ⟨S2048, .f32⟩
  | 32 => ⟨S14336x1, .i32⟩
  | 33 => ⟨S2048, .f32⟩
  | 34 => ⟨S2048, .f32⟩
  | 35 => ⟨S_, .i32⟩
  | 36 => ⟨S14336, .i32⟩
  | 37 => ⟨S14336, .i1⟩
  | 38 => ⟨S_, .i32⟩
  | 39 => ⟨S14336, .i32⟩
  | 40 => ⟨S14336, .i32⟩
  | 41 => ⟨S14336, .i32⟩
  | 42 => ⟨S14336x1, .i32⟩
  | 43 => ⟨S14336, .f32⟩
  | 44 => ⟨S_, .i32⟩
  | 45 => ⟨S14336, .i32⟩
  | 46 => ⟨S14336, .i1⟩
  | 47 => ⟨S_, .i32⟩
  | 48 => ⟨S14336, .i32⟩
  | 49 => ⟨S14336, .i32⟩
  | 50 => ⟨S14336, .i32⟩
  | 51 => ⟨S14336x1, .i32⟩
  | 52 => ⟨S14336, .f32⟩
  | 53 => ⟨S14336, .f32⟩
  | 54 => ⟨S32x1x512, .f32⟩
  | 55 => ⟨S32x2048x512, .f32⟩
  | 56 => ⟨S32x2048x515, .f32⟩
  | 57 => ⟨S32x2048x512, .f32⟩
  | 58 => ⟨S_, .i32⟩
  | 59 => ⟨S14336, .i32⟩
  | 60 => ⟨S14336, .i1⟩
  | 61 => ⟨S_, .i32⟩
  | 62 => ⟨S14336, .i32⟩
  | 63 => ⟨S14336, .i32⟩
  | 64 => ⟨S14336, .i32⟩
  | 65 => ⟨S14336x1, .i32⟩
  | 66 => ⟨S32x14336x512, .f32⟩
  | 67 => ⟨S1x14336x1, .f32⟩
  | 68 => ⟨S32x14336x512, .f32⟩
  | 69 => ⟨S32x14336x512, .f32⟩
  | 70 => ⟨S_, .f32⟩
  | 71 => ⟨S2048x512, .f32⟩
  | 72 => ⟨S14336x1, .i32⟩
  | 73 => ⟨S32x2048x512, .f32⟩
  | 74 => ⟨S32x2048x512, .f32⟩
  | 75 => ⟨S1x1x512, .f32⟩
  | 76 => ⟨S32x2048x512, .f32⟩
  | 77 => ⟨S32x2048x512, .f32⟩
  | 78 => ⟨S32x2048x512, .f32⟩
  | 79 => ⟨S_, .i32⟩
  | 80 => ⟨S14336, .i32⟩
  | 81 => ⟨S14336, .i1⟩
  | 82 => ⟨S_, .i32⟩
  | 83 => ⟨S14336, .i32⟩
  | 84 => ⟨S14336, .i32⟩
  | 85 => ⟨S14336, .i32⟩
  | 86 => ⟨S14336x1, .i32⟩
  | 87 => ⟨S32x14336x512, .f32⟩
  | 88 => ⟨S1x14336x1, .f32⟩
  | 89 => ⟨S32x14336x512, .f32⟩
  | 90 => ⟨S32x14336x512, .f32⟩
  | 91 => ⟨S_, .f32⟩
  | 92 => ⟨S2048x512, .f32⟩
  | 93 => ⟨S14336x1, .i32⟩
  | 94 => ⟨S32x2048x512, .f32⟩
  | 95 => ⟨S32x2048x512, .f32⟩
  | 96 => ⟨S1x1x512, .f32⟩
  | 97 => ⟨S32x2048x512, .f32⟩
  | 98 => ⟨S32x2048x512, .f32⟩
  | 99 => ⟨S_, .f32⟩
  | 100 => ⟨S32x2048x512, .f32⟩
  | 101 => ⟨S32x2048x512, .f32⟩
  | 102 => ⟨S32x2048x512, .f32⟩
  | 103 => ⟨S_, .i32⟩
  | 104 => ⟨S14336, .i32⟩
  | 105 => ⟨S14336, .i1⟩
  | 106 => ⟨S_, .i32⟩
  | 107 => ⟨S14336, .i32⟩
  | 108 => ⟨S14336, .i32⟩
  | 109 => ⟨S14336, .i32⟩
  | 110 => ⟨S14336x1, .i32⟩
  | 111 => ⟨S32x14336x512, .f32⟩
  | 112 => ⟨S1x14336x1, .f32⟩
  | 113 => ⟨S32x14336x512, .f32⟩
  | 114 => ⟨S32x14336x512, .f32⟩
  | 115 => ⟨S_, .f32⟩
  | 116 => ⟨S2048x512, .f32⟩
  | 117 => ⟨S14336x1, .i32⟩
  | 118 => ⟨S32x2048x512, .f32⟩
  | 119 => ⟨S32x2048x512, .f32⟩
  | 120 => ⟨S1x1x512, .f32⟩
  | 121 => ⟨S32x2048x512, .f32⟩
  | 122 => ⟨S32x2048x512, .f32⟩
  | 123 => ⟨S32x2048x512, .f32⟩
  | 124 => ⟨S_, .i32⟩
  | 125 => ⟨S14336, .i32⟩
  | 126 => ⟨S14336, .i1⟩
  | 127 => ⟨S_, .i32⟩
  | _ => ⟨S32x2048x3, .f32⟩

abbrev hbmTy0_1 (i : Nat) : BufTy := match i % 128 with
  | 0 => ⟨S14336, .i32⟩
  | 1 => ⟨S14336, .i32⟩
  | 2 => ⟨S14336, .i32⟩
  | 3 => ⟨S14336x1, .i32⟩
  | 4 => ⟨S32x14336x512, .f32⟩
  | 5 => ⟨S1x14336x1, .f32⟩
  | 6 => ⟨S32x14336x512, .f32⟩
  | 7 => ⟨S32x14336x512, .f32⟩
  | 8 => ⟨S_, .f32⟩
  | 9 => ⟨S2048x512, .f32⟩
  | 10 => ⟨S14336x1, .i32⟩
  | 11 => ⟨S32x2048x512, .f32⟩
  | 12 => ⟨S32x2048x512, .f32⟩
  | 13 => ⟨S1x1x512, .f32⟩
  | 14 => ⟨S32x2048x512, .f32⟩
  | 15 => ⟨S32x2048x512, .f32⟩
  | 16 => ⟨S_, .f32⟩
  | 17 => ⟨S32x2048x512, .f32⟩
  | 18 => ⟨S32x2048x512, .f32⟩
  | 19 => ⟨S32x2048x64, .f32⟩
  | 20 => ⟨S_, .i32⟩
  | 21 => ⟨S14336, .i32⟩
  | 22 => ⟨S14336, .i1⟩
  | 23 => ⟨S_, .i32⟩
  | 24 => ⟨S14336, .i32⟩
  | 25 => ⟨S14336, .i32⟩
  | 26 => ⟨S14336, .i32⟩
  | 27 => ⟨S14336x1, .i32⟩
  | 28 => ⟨S32x14336x64, .f32⟩
  | 29 => ⟨S1x14336x1, .f32⟩
  | 30 => ⟨S32x14336x64, .f32⟩
  | 31 => ⟨S32x14336x64, .f32⟩
  | 32 => ⟨S_, .f32⟩
  | 33 => ⟨S2048x64, .f32⟩
  | 34 => ⟨S14336x1, .i32⟩
  | 35 => ⟨S32x2048x64, .f32⟩
  | 36 => ⟨S32x2048x64, .f32⟩
  | 37 => ⟨S1x1x64, .f32⟩
  | 38 => ⟨S32x2048x64, .f32⟩
  | 39 => ⟨S32x2048x64, .f32⟩
  | 40 => ⟨S32x2048x3, .f32⟩
  | 41 => ⟨S_, .i32⟩
  | 42 => ⟨S14336, .i32⟩
  | 43 => ⟨S14336, .i1⟩
  | 44 => ⟨S_, .i32⟩
  | 45 => ⟨S14336, .i32⟩
  | 46 => ⟨S14336, .i32⟩
  | 47 => ⟨S14336, .i32⟩
  | 48 => ⟨S14336x1, .i32⟩
  | 49 => ⟨S32x14336x3, .f32⟩
  | 50 => ⟨S1x14336x1, .f32⟩
  | 51 => ⟨S32x14336x3, .f32⟩
  | 52 => ⟨S32x14336x3, .f32⟩
  | 53 => ⟨S_, .f32⟩
  | 54 => ⟨S2048x3, .f32⟩
  | 55 => ⟨S14336x1, .i32⟩
  | 56 => ⟨S32x2048x3, .f32⟩
  | 57 => ⟨S32x2048x3, .f32⟩
  | 58 => ⟨S1x1x3, .f32⟩
  | 59 => ⟨S32x2048x3, .f32⟩
  | 60 => ⟨S32x2048x3, .f32⟩
  | 61 => ⟨S_, .f32⟩
  | 62 => ⟨S32x2048x3, .f32⟩
  | 63 => ⟨S32x2048x3, .f32⟩
  | 64 => ⟨S32x6144, .f32⟩
  | 65 => ⟨S32x1024, .f32⟩
  | 66 => ⟨S1x1024, .f32⟩
  | 67 => ⟨S32x1024, .f32⟩
  | 68 => ⟨S32x1024, .f32⟩
  | 69 => ⟨S32x1024, .f32⟩
  | 70 => ⟨S1x1024, .f32⟩
  | 71 => ⟨S32x1024, .f32⟩
  | 72 => ⟨S32x1024, .f32⟩
  | 73 => ⟨S32x6144, .f32⟩
  | 74 => ⟨S1x6144, .f32⟩
  | 75 => ⟨S32x6144, .f32⟩
  | 76 => ⟨S32x6144, .f32⟩
  | 77 => ⟨S32x6144, .f32⟩
  | 78 => ⟨S32x2048x3, .f32⟩
  | 79 => ⟨S_, .f32⟩
  | 80 => ⟨S32x2048x3, .f32⟩
  | 81 => ⟨S32x2048x3, .f32⟩
  | 82 => ⟨S32x2048x3, .f32⟩
  | _ => ⟨S32x2048x3, .f32⟩

abbrev hbmTy (i : Nat) : BufTy := match i / 128 with
  | 0 => hbmTy0_0 i
  | 1 => hbmTy0_1 i
  | _ => ⟨S32x2048x3, .f32⟩

abbrev bufTy : (tb : Table) → Fin (tcTables nBuf tb) → BufTy
  | .hbm, ⟨i, _⟩ => hbmTy i
  | _, _ => ⟨S32x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_2 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_4 : Ref sig .tc := ⟨.hbm, 58, rfl⟩
abbrev main_v31 : Ref sig .tc := ⟨.hbm, 59, rfl⟩
abbrev main_v32 : Ref sig .tc := ⟨.hbm, 60, rfl⟩
abbrev main_c_5 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_7 : Ref sig .tc := ⟨.hbm, 79, rfl⟩
abbrev main_v49 : Ref sig .tc := ⟨.hbm, 80, rfl⟩
abbrev main_v50 : Ref sig .tc := ⟨.hbm, 81, rfl⟩
abbrev main_c_8 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_9 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call0_cst : Ref sig .tc := ⟨.hbm, 99, rfl⟩
abbrev main_call0_v0 : Ref sig .tc := ⟨.hbm, 100, rfl⟩
abbrev main_v66 : Ref sig .tc := ⟨.hbm, 101, rfl⟩
abbrev main_v67 : Ref sig .tc := ⟨.hbm, 102, rfl⟩
abbrev main_c_10 : Ref sig .tc := ⟨.hbm, 103, rfl⟩
abbrev main_v68 : Ref sig .tc := ⟨.hbm, 104, rfl⟩
abbrev main_v69 : Ref sig .tc := ⟨.hbm, 105, rfl⟩
abbrev main_c_11 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_12 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_13 : Ref sig .tc := ⟨.hbm, 124, rfl⟩
abbrev main_v86 : Ref sig .tc := ⟨.hbm, 125, rfl⟩
abbrev main_v87 : Ref sig .tc := ⟨.hbm, 126, rfl⟩
abbrev main_c_14 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_15 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call1_cst : Ref sig .tc := ⟨.hbm, 144, rfl⟩
abbrev main_call1_v0 : Ref sig .tc := ⟨.hbm, 145, rfl⟩
abbrev main_v103 : Ref sig .tc := ⟨.hbm, 146, rfl⟩
abbrev main_v104 : Ref sig .tc := ⟨.hbm, 147, rfl⟩
abbrev main_c_16 : Ref sig .tc := ⟨.hbm, 148, rfl⟩
abbrev main_v105 : Ref sig .tc := ⟨.hbm, 149, rfl⟩
abbrev main_v106 : Ref sig .tc := ⟨.hbm, 150, rfl⟩
abbrev main_c_17 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_18 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_c_19 : Ref sig .tc := ⟨.hbm, 169, rfl⟩
abbrev main_v123 : Ref sig .tc := ⟨.hbm, 170, rfl⟩
abbrev main_v124 : Ref sig .tc := ⟨.hbm, 171, rfl⟩
abbrev main_c_20 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_21 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_call2_cst : Ref sig .tc := ⟨.hbm, 189, rfl⟩
abbrev main_call2_v0 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_22 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩

abbrev nD : Nat := 1
abbrev τ : Topo := Topo.v7x

variable {F : FTy → Type} [FloatOps F]

class Facts₀ : Prop where
  slices_S2x12288_S1x12288_0_0 : S2x12288.Slices ![0, 0] S1x12288
  shapeCasts_S1x12288_S12288 : S1x12288.ShapeCasts S12288
  concatenates_S12288_S2048_S14336_d0 : Shape.Concatenates [S12288, S2048] S14336 0
  slices_S2x12288_S1x12288_1_0 : S2x12288.Slices ![1, 0] S1x12288
  bcast_S_S14336 : S_.BroadcastsInDim S14336 (![] : Fin 0 → Fin S14336.rank)
  bcast_S_S2048 : S_.BroadcastsInDim S2048 (![] : Fin 0 → Fin S2048.rank)
  bcast_S14336_S14336x1_0 : S14336.BroadcastsInDim S14336x1 (![0] : Fin 1 → Fin S14336x1.rank)
  bcast_S32x512_S32x1x512_0_2 : S32x512.BroadcastsInDim S32x1x512 (![0, 2] : Fin 2 → Fin S32x1x512.rank)
  bcast_S32x1x512_S32x2048x512_0_1_2 : S32x1x512.BroadcastsInDim S32x2048x512 (![0, 1, 2] : Fin 3 → Fin S32x2048x512.rank)
  concatenates_S32x2048x3_S32x2048x512_S32x2048x515_d2 : Shape.Concatenates [S32x2048x3, S32x2048x512] S32x2048x515 2
  bcast_S14336_S1x14336x1_1 : S14336.BroadcastsInDim S1x14336x1 (![1] : Fin 1 → Fin S1x14336x1.rank)
  bcast_S1x14336x1_S32x14336x512_0_1_2 : S1x14336x1.BroadcastsInDim S32x14336x512 (![0, 1, 2] : Fin 3 → Fin S32x14336x512.rank)
  bcast_S_S2048x512 : S_.BroadcastsInDim S2048x512 (![] : Fin 0 → Fin S2048x512.rank)
  bcast_S2048x512_S32x2048x512_1_2 : S2048x512.BroadcastsInDim S32x2048x512 (![1, 2] : Fin 2 → Fin S32x2048x512.rank)
  bcast_S512_S1x1x512_2 : S512.BroadcastsInDim S1x1x512 (![2] : Fin 1 → Fin S1x1x512.rank)
  bcast_S1x1x512_S32x2048x512_0_1_2 : S1x1x512.BroadcastsInDim S32x2048x512 (![0, 1, 2] : Fin 3 → Fin S32x2048x512.rank)
  bcast_S_S32x2048x512 : S_.BroadcastsInDim S32x2048x512 (![] : Fin 0 → Fin S32x2048x512.rank)
  bcast_S1x14336x1_S32x14336x64_0_1_2 : S1x14336x1.BroadcastsInDim S32x14336x64 (![0, 1, 2] : Fin 3 → Fin S32x14336x64.rank)
  bcast_S_S2048x64 : S_.BroadcastsInDim S2048x64 (![] : Fin 0 → Fin S2048x64.rank)
  bcast_S2048x64_S32x2048x64_1_2 : S2048x64.BroadcastsInDim S32x2048x64 (![1, 2] : Fin 2 → Fin S32x2048x64.rank)
  bcast_S64_S1x1x64_2 : S64.BroadcastsInDim S1x1x64 (![2] : Fin 1 → Fin S1x1x64.rank)
  bcast_S1x1x64_S32x2048x64_0_1_2 : S1x1x64.BroadcastsInDim S32x2048x64 (![0, 1, 2] : Fin 3 → Fin S32x2048x64.rank)
  bcast_S1x14336x1_S32x14336x3_0_1_2 : S1x14336x1.BroadcastsInDim S32x14336x3 (![0, 1, 2] : Fin 3 → Fin S32x14336x3.rank)
  bcast_S_S2048x3 : S_.BroadcastsInDim S2048x3 (![] : Fin 0 → Fin S2048x3.rank)
  bcast_S2048x3_S32x2048x3_1_2 : S2048x3.BroadcastsInDim S32x2048x3 (![1, 2] : Fin 2 → Fin S32x2048x3.rank)
  bcast_S3_S1x1x3_2 : S3.BroadcastsInDim S1x1x3 (![2] : Fin 1 → Fin S1x1x3.rank)
  bcast_S1x1x3_S32x2048x3_0_1_2 : S1x1x3.BroadcastsInDim S32x2048x3 (![0, 1, 2] : Fin 3 → Fin S32x2048x3.rank)
  bcast_S_S32x2048x3 : S_.BroadcastsInDim S32x2048x3 (![] : Fin 0 → Fin S32x2048x3.rank)
  shapeCasts_S32x2048x3_S32x6144 : S32x2048x3.ShapeCasts S32x6144
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S6144_S1x6144_1 : S6144.BroadcastsInDim S1x6144 (![1] : Fin 1 → Fin S1x6144.rank)
  bcast_S1x6144_S32x6144_0_1 : S1x6144.BroadcastsInDim S32x6144 (![0, 1] : Fin 2 → Fin S32x6144.rank)
  shapeCasts_S32x6144_S32x2048x3 : S32x6144.ShapeCasts S32x2048x3
  scatter_S2048_S14336x1_S14336_n_0_0_1_wf : ScatterDims.WF S2048 S14336x1 S14336 [] [0] [0] 1
  gather_S2048_S14336x1_S14336_n_0_n_n_0_1_1_wf : GatherDims.WF S2048 S14336x1 S14336 [] [0] [] [0] [] 1 ![1]
  dot_S32x2048x515_S515x512_S32x2048x512_2_0_01_1_n_n_wf : DotDims.WF S32x2048x515 S515x512 S32x2048x512 [2] [0] [0, 1] [1] [] []
  gather_S32x2048x512_S14336x1_S32x14336x512_02_1_n_n_1_1_321512_wf : GatherDims.WF S32x2048x512 S14336x1 S32x14336x512 [0, 2] [1] [] [1] [] 1 ![32, 1, 512]
  scatter_S32x2048x512_S14336x1_S32x14336x512_02_1_1_1_wf : ScatterDims.WF S32x2048x512 S14336x1 S32x14336x512 [0, 2] [1] [1] 1
  dot_S32x2048x512_S512x512_S32x2048x512_2_0_01_1_n_n_wf : DotDims.WF S32x2048x512 S512x512 S32x2048x512 [2] [0] [0, 1] [1] [] []
  dot_S32x2048x512_S512x64_S32x2048x64_2_0_01_1_n_n_wf : DotDims.WF S32x2048x512 S512x64 S32x2048x64 [2] [0] [0, 1] [1] [] []
  gather_S32x2048x64_S14336x1_S32x14336x64_02_1_n_n_1_1_32164_wf : GatherDims.WF S32x2048x64 S14336x1 S32x14336x64 [0, 2] [1] [] [1] [] 1 ![32, 1, 64]
  scatter_S32x2048x64_S14336x1_S32x14336x64_02_1_1_1_wf : ScatterDims.WF S32x2048x64 S14336x1 S32x14336x64 [0, 2] [1] [1] 1
  dot_S32x2048x64_S64x3_S32x2048x3_2_0_01_1_n_n_wf : DotDims.WF S32x2048x64 S64x3 S32x2048x3 [2] [0] [0, 1] [1] [] []
  gather_S32x2048x3_S14336x1_S32x14336x3_02_1_n_n_1_1_3213_wf : GatherDims.WF S32x2048x3 S14336x1 S32x14336x3 [0, 2] [1] [] [1] [] 1 ![32, 1, 3]
  scatter_S32x2048x3_S14336x1_S32x14336x3_02_1_1_1_wf : ScatterDims.WF S32x2048x3 S14336x1 S32x14336x3 [0, 2] [1] [1] 1
  dot_S32x6144_S6144x1024_S32x1024_1_0_0_1_n_n_wf : DotDims.WF S32x6144 S6144x1024 S32x1024 [1] [0] [0] [1] [] []
  dot_S32x1024_S1024x1024_S32x1024_1_0_0_1_n_n_wf : DotDims.WF S32x1024 S1024x1024 S32x1024 [1] [0] [0] [1] [] []
  dot_S32x1024_S1024x6144_S32x6144_1_0_0_1_n_n_wf : DotDims.WF S32x1024 S1024x6144 S32x6144 [1] [0] [0] [1] [] []

variable [Facts₀]

def scatter_S2048_S14336x1_S14336_n_0_0_1 : ScatterDims S2048 S14336x1 S14336 where
  updateWindowDims := []
  insertedWindowDims := [0]
  scatterDimsToOperandDims := [0]
  indexVectorDim := 1
  wf := scatter_S2048_S14336x1_S14336_n_0_0_1_wf
def gather_S2048_S14336x1_S14336_n_0_n_n_0_1_1 : GatherDims S2048 S14336x1 S14336 where
  offsetDims := []
  collapsedSliceDims := [0]
  operandBatchingDims := []
  startIndicesBatchingDims := []
  startIndexMap := [0]
  indexVectorDim := 1
  sliceSizes := ![1]
  wf := gather_S2048_S14336x1_S14336_n_0_n_n_0_1_1_wf
def dot_S32x2048x515_S515x512_S32x2048x512_2_0_01_1_n_n : DotDims S32x2048x515 S515x512 S32x2048x512 where
  lhsContracting := [2]
  rhsContracting := [0]
  lhsNonContracting := [0, 1]
  rhsNonContracting := [1]
  lhsBatch := []
  rhsBatch := []
  wf := dot_S32x2048x515_S515x512_S32x2048x512_2_0_01_1_n_n_wf
def gather_S32x2048x512_S14336x1_S32x14336x512_02_1_n_n_1_1_321512 : GatherDims S32x2048x512 S14336x1 S32x14336x512 where
  offsetDims := [0, 2]
  collapsedSliceDims := [1]
  operandBatchingDims := []
  startIndicesBatchingDims := []
  startIndexMap := [1]
  indexVectorDim := 1
  sliceSizes := ![32, 1, 512]
  wf := gather_S32x2048x512_S14336x1_S32x14336x512_02_1_n_n_1_1_321512_wf
def scatter_S32x2048x512_S14336x1_S32x14336x512_02_1_1_1 : ScatterDims S32x2048x512 S14336x1 S32x14336x512 where
  updateWindowDims := [0, 2]
  insertedWindowDims := [1]
  scatterDimsToOperandDims := [1]
  indexVectorDim := 1
  wf := scatter_S32x2048x512_S14336x1_S32x14336x512_02_1_1_1_wf
def dot_S32x2048x512_S512x512_S32x2048x512_2_0_01_1_n_n : DotDims S32x2048x512 S512x512 S32x2048x512 where
  lhsContracting := [2]
  rhsContracting := [0]
  lhsNonContracting := [0, 1]
  rhsNonContracting := [1]
  lhsBatch := []
  rhsBatch := []
  wf := dot_S32x2048x512_S512x512_S32x2048x512_2_0_01_1_n_n_wf
def dot_S32x2048x512_S512x64_S32x2048x64_2_0_01_1_n_n : DotDims S32x2048x512 S512x64 S32x2048x64 where
  lhsContracting := [2]
  rhsContracting := [0]
  lhsNonContracting := [0, 1]
  rhsNonContracting := [1]
  lhsBatch := []
  rhsBatch := []
  wf := dot_S32x2048x512_S512x64_S32x2048x64_2_0_01_1_n_n_wf
def gather_S32x2048x64_S14336x1_S32x14336x64_02_1_n_n_1_1_32164 : GatherDims S32x2048x64 S14336x1 S32x14336x64 where
  offsetDims := [0, 2]
  collapsedSliceDims := [1]
  operandBatchingDims := []
  startIndicesBatchingDims := []
  startIndexMap := [1]
  indexVectorDim := 1
  sliceSizes := ![32, 1, 64]
  wf := gather_S32x2048x64_S14336x1_S32x14336x64_02_1_n_n_1_1_32164_wf
def scatter_S32x2048x64_S14336x1_S32x14336x64_02_1_1_1 : ScatterDims S32x2048x64 S14336x1 S32x14336x64 where
  updateWindowDims := [0, 2]
  insertedWindowDims := [1]
  scatterDimsToOperandDims := [1]
  indexVectorDim := 1
  wf := scatter_S32x2048x64_S14336x1_S32x14336x64_02_1_1_1_wf
def dot_S32x2048x64_S64x3_S32x2048x3_2_0_01_1_n_n : DotDims S32x2048x64 S64x3 S32x2048x3 where
  lhsContracting := [2]
  rhsContracting := [0]
  lhsNonContracting := [0, 1]
  rhsNonContracting := [1]
  lhsBatch := []
  rhsBatch := []
  wf := dot_S32x2048x64_S64x3_S32x2048x3_2_0_01_1_n_n_wf
def gather_S32x2048x3_S14336x1_S32x14336x3_02_1_n_n_1_1_3213 : GatherDims S32x2048x3 S14336x1 S32x14336x3 where
  offsetDims := [0, 2]
  collapsedSliceDims := [1]
  operandBatchingDims := []
  startIndicesBatchingDims := []
  startIndexMap := [1]
  indexVectorDim := 1
  sliceSizes := ![32, 1, 3]
  wf := gather_S32x2048x3_S14336x1_S32x14336x3_02_1_n_n_1_1_3213_wf
def scatter_S32x2048x3_S14336x1_S32x14336x3_02_1_1_1 : ScatterDims S32x2048x3 S14336x1 S32x14336x3 where
  updateWindowDims := [0, 2]
  insertedWindowDims := [1]
  scatterDimsToOperandDims := [1]
  indexVectorDim := 1
  wf := scatter_S32x2048x3_S14336x1_S32x14336x3_02_1_1_1_wf
def dot_S32x6144_S6144x1024_S32x1024_1_0_0_1_n_n : DotDims S32x6144 S6144x1024 S32x1024 where
  lhsContracting := [1]
  rhsContracting := [0]
  lhsNonContracting := [0]
  rhsNonContracting := [1]
  lhsBatch := []
  rhsBatch := []
  wf := dot_S32x6144_S6144x1024_S32x1024_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x1024_S1024x6144_S32x6144_1_0_0_1_n_n : DotDims S32x1024 S1024x6144 S32x6144 where
  lhsContracting := [1]
  rhsContracting := [0]
  lhsNonContracting := [0]
  rhsNonContracting := [1]
  lhsBatch := []
  rhsBatch := []
  wf := dot_S32x1024_S1024x6144_S32x6144_1_0_0_1_n_n_wf

class Facts : Prop extends Facts₀ where

variable [Facts]
-- ==== Proof.KernelHost.lean ====
/-
  The arrays the kernel's program computes on the host before its first region, as functions of the argument arrays:
  the source and target node of every edge (the edge list's two rows, each followed by the self loops 0 … 2047), the
  degree of every node (the number of edges into it), its reciprocal square root, the weight of every edge (the product
  of the two end nodes' reciprocal square roots), the dense operator those edges and weights define (entry (v, u)
  accumulates the weights of the edges from u into v), and the node features (the vertices' coordinates followed by the
  image's features, the same at every node). Each definition is the printed program's own sequence of operations.
-/
import proofs.«175376_j67851893342527_1_alg».proof.KernelIdeal

noncomputable section

namespace Cert.KernelIdeal.HostTerms

open Idealize.ShloMosaic Cert.KernelIdeal

variable [Cert.KernelIdeal.Facts] {F : FTy → Type} [FloatOps F]
open Cert.KernelIdeal.Facts₀ Cert.KernelIdeal.Facts

/-- Row `r` of the edge list followed by the self loops: the source nodes (r = 0) or the target nodes (r = 1). -/
def srcRaw (x2 : IVec S2x12288 32) : IVec S14336 32 :=
  concatenate S14336 0 [⟨S12288, shapeCast _ (extractStridedSlice S1x12288 ![0, 0] x2 slices_S2x12288_S1x12288_0_0) shapeCasts_S1x12288_S12288⟩, ⟨S2048, iotaInDim S2048 32 0⟩] concatenates_S12288_S2048_S14336_d0
def dstRaw (x2 : IVec S2x12288 32) : IVec S14336 32 :=
  concatenate S14336 0 [⟨S12288, shapeCast _ (extractStridedSlice S1x12288 ![1, 0] x2 slices_S2x12288_S1x12288_1_0) shapeCasts_S1x12288_S12288⟩, ⟨S2048, iotaInDim S2048 32 0⟩] concatenates_S12288_S2048_S14336_d0

/-- numpy's reading of a negative index: a negative entry has 2048 added. -/
def wrap (x : IVec S14336 32) : IVec S14336 32 :=
  select (cmpi .slt x (broadcastInDim S14336 ![] bcast_S_S14336 (constantI S_ 32 0#32)))
    (addi x (broadcastInDim S14336 ![] bcast_S_S14336 (constantI S_ 32 2048#32))) x

/-- An index vector as the one-column table of start indices the gathers and scatters take. -/
def col (x : IVec S14336 32) : IVec S14336x1 32 := broadcastInDim S14336x1 ![0] bcast_S14336_S14336x1_0 x

/-- The degree of every node: one added per edge at its target. -/
def deg (x2 : IVec S2x12288 32) : FVec F S2048 .f32 :=
  Host.scatterAdd scatter_S2048_S14336x1_S14336_n_0_0_1
    (broadcastInDim S2048 ![] bcast_S_S2048 (constant S_ .f32 0x00000000#32))
    (col (dstRaw x2))
    (broadcastInDim S14336 ![] bcast_S_S14336 (constant S_ .f32 0x3F800000#32))

def dinv (x2 : IVec S2x12288 32) : FVec F S2048 .f32 := Host.rsqrt (deg (F := F) x2)

/-- The weight of every edge: the product of its two end nodes' reciprocal square-root degrees. -/
def norm (x2 : IVec S2x12288 32) : FVec F S14336 .f32 :=
  mulf (Host.gather gather_S2048_S14336x1_S14336_n_0_n_n_0_1_1 (dinv (F := F) x2) (col (wrap (srcRaw x2))))
    (Host.gather gather_S2048_S14336x1_S14336_n_0_n_n_0_1_1 (dinv (F := F) x2) (col (wrap (dstRaw x2))))

/-- The (target, source) index pairs of the edges. -/
def pairs (x2 : IVec S2x12288 32) : IVec S14336x2 32 :=
  concatenate S14336x2 1 [⟨S14336x1, col (wrap (dstRaw x2))⟩, ⟨S14336x1, col (wrap (srcRaw x2))⟩] concatenates_S14336x1_S14336x1_S14336x2_d1

/-- The dense operator, in the narrow float format the regions read it in. -/
def adjacency (x2 : IVec S2x12288 32) : FVec F S2048x2048 .bf16 :=
  truncf .bf16 (Host.scatterAdd scatter_S2048x2048_S14336x2_S14336_n_01_01_1
    (broadcastInDim S2048x2048 ![] bcast_S_S2048x2048 (constant S_ .f32 0x00000000#32)) (pairs x2) (norm (F := F) x2)) bitsLt_bf16_f32

/-- The node features: the vertex coordinates followed by the image's features, in the narrow float format. -/
def features (x0 : FVec F S32x2048x3 .f32) (x1 : FVec F S32x512 .f32) : FVec F S32x2048x515 .bf16 :=
  truncf .bf16 (concatenate S32x2048x515 2 [⟨S32x2048x3, x0⟩, ⟨S32x2048x512, broadcastInDim S32x2048x512 ![0, 1, 2] bcast_S32x1x512_S32x2048x512_0_1_2 (broadcastInDim S32x1x512 ![0, 2] bcast_S32x512_S32x1x512_0_2 x1)⟩] concatenates_S32x2048x3_S32x2048x512_S32x2048x515_d2) bitsLt_bf16_f32

end Cert.KernelIdeal.HostTerms

end
-- ==== Proof.KernelChain.lean ====
/-
  The kernel's program between its regions: what each region finds in the arrays it reads, and what the result buffer
  holds at the end, each in terms of the argument arrays at launch and of the previous region's output array.

  `stage k` is the output array of region k after its last grid point. Region 0 reads the node features, the first
  weights, the dense operator and the first bias row, all computed on the host from the arguments; region k (1 ≤ k ≤ 5)
  reads stage k − 1, its own weights and bias row, and the SAME dense operator (no region and no host operation writes it
  after it is made); region 6 reads stage 5 laid out as 32 rows of 6144; regions 7 and 8 read stages 6 and 7. The result
  is the vertices plus one tenth of stage 8 laid out as 32 × 2048 × 3.
-/
import proofs.«175376_j67851893342527_1_alg».proof.Proof.Gen.KernelIdeal.Frame
import proofs.«175376_j67851893342527_1_alg».proof.Proof.KernelHost
import Idealize.ShloMosaic.PureOps.Ideal
import Idealize.ShloMosaic.Lib.StableHlo.Run
import Idealize.ShloMosaic.Lib.Pipeline.Cells

set_option maxRecDepth 16384

noncomputable section

namespace Cert.KernelIdeal.Chain

open Idealize.ShloMosaic Idealize.ShloMosaic.TcCoe Idealize.SL.Sem
open Idealize.ShloMosaic.Pipeline (Dat Cfg Window)
open Cert.KernelIdeal Cert.KernelIdeal.Gen Cert.KernelIdeal.HostTerms

variable (m : (ℓ : Loc nD τ sig) → Buf (Elt Ideal) ℓ) (ρ : Dev nD → PrngReg)

/-- The argument arrays at launch, each at its literal type. -/
abbrev arg0 (c : Dev nD) : FVec Ideal S32x2048x3 .f32 := m ((c.tc : Thread nD τ).loc main_arg0)
abbrev arg1 (c : Dev nD) : FVec Ideal S32x512 .f32 := m ((c.tc : Thread nD τ).loc main_arg1)
abbrev arg2 (c : Dev nD) : IVec S2x12288 32 := m ((c.tc : Thread nD τ).loc main_arg2)
abbrev arg3 (c : Dev nD) : FVec Ideal S515x512 .f32 := m ((c.tc : Thread nD τ).loc main_arg3)
abbrev arg4 (c : Dev nD) : FVec Ideal S512 .f32 := m ((c.tc : Thread nD τ).loc main_arg4)
abbrev arg5 (c : Dev nD) : FVec Ideal S512x512 .f32 := m ((c.tc : Thread nD τ).loc main_arg5)
abbrev arg6 (c : Dev nD) : FVec Ideal S512 .f32 := m ((c.tc : Thread nD τ).loc main_arg6)
abbrev arg7 (c : Dev nD) : FVec Ideal S512x512 .f32 := m ((c.tc : Thread nD τ).loc main_arg7)
abbrev arg8 (c : Dev nD) : FVec Ideal S512 .f32 := m ((c.tc : Thread nD τ).loc main_arg8)
abbrev arg9 (c : Dev nD) : FVec Ideal S512x512 .f32 := m ((c.tc : Thread nD τ).loc main_arg9)
abbrev arg10 (c : Dev nD) : FVec Ideal S512 .f32 := m ((c.tc : Thread nD τ).loc main_arg10)
abbrev arg11 (c : Dev nD) : FVec Ideal S512x64 .f32 := m ((c.tc : Thread nD τ).loc main_arg11)
abbrev arg12 (c : Dev nD) : FVec Ideal S64 .f32 := m ((c.tc : Thread nD τ).loc main_arg12)
abbrev arg13 (c : Dev nD) : FVec Ideal S64x3 .f32 := m ((c.tc : Thread nD τ).loc main_arg13)
abbrev arg14 (c : Dev nD) : FVec Ideal S3 .f32 := m ((c.tc : Thread nD τ).loc main_arg14)
abbrev arg15 (c : Dev nD) : FVec Ideal S6144x1024 .f32 := m ((c.tc : Thread nD τ).loc main_arg15)
abbrev arg16 (c : Dev nD) : FVec Ideal S1024 .f32 := m ((c.tc : Thread nD τ).loc main_arg16)
abbrev arg17 (c : Dev nD) : FVec Ideal S1024x1024 .f32 := m ((c.tc : Thread nD τ).loc main_arg17)
abbrev arg18 (c : Dev nD) : FVec Ideal S1024 .f32 := m ((c.tc : Thread nD τ).loc main_arg18)
abbrev arg19 (c : Dev nD) : FVec Ideal S1024x6144 .f32 := m ((c.tc : Thread nD τ).loc main_arg19)
abbrev arg20 (c : Dev nD) : FVec Ideal S6144 .f32 := m ((c.tc : Thread nD τ).loc main_arg20)

/-- Region k's output array after its last grid point, at its literal type. -/
abbrev stage0 (c : Dev nD) : FVec Ideal S32x2048x512 .bf16 := (dat0 (F := Ideal) (V1 m ρ) c).arrAt 4 cfg0.N
abbrev stage1 (c : Dev nD) : FVec Ideal S32x2048x512 .bf16 := (dat1 (F := Ideal) (V3 m ρ) c).arrAt 4 cfg1.N
abbrev stage2 (c : Dev nD) : FVec Ideal S32x2048x512 .bf16 := (dat2 (F := Ideal) (V5 m ρ) c).arrAt 4 cfg2.N
abbrev stage3 (c : Dev nD) : FVec Ideal S32x2048x512 .bf16 := (dat3 (F := Ideal) (V7 m ρ) c).arrAt 4 cfg3.N
abbrev stage4 (c : Dev nD) : FVec Ideal S32x2048x64 .bf16 := (dat4 (F := Ideal) (V9 m ρ) c).arrAt 4 cfg4.N
abbrev stage5 (c : Dev nD) : FVec Ideal S32x2048x3 .f32 := (dat5 (F := Ideal) (V11 m ρ) c).arrAt 4 cfg5.N
abbrev stage6 (c : Dev nD) : FVec Ideal S32x1024 .f32 := (dat6 (F := Ideal) (V13 m ρ) c).arrAt 3 cfg6.N
abbrev stage7 (c : Dev nD) : FVec Ideal S32x1024 .f32 := (dat7 (F := Ideal) (V15 m ρ) c).arrAt 3 cfg7.N
abbrev stage8 (c : Dev nD) : FVec Ideal S32x6144 .f32 := (dat8 (F := Ideal) (V17 m ρ) c).arrAt 3 cfg8.N

/-! ## Buffers a host stretch or a region leaves alone

No host operation writes an argument buffer, and no region has one among its windows' arrays; the host stretches after
the first write only the converted weights and the reshaped bias rows of the region they precede (the seventh also the
flat layout of stage 5, the last the pieces of the result), so they leave alone the dense operator and every region's
output array. -/

/-- The argument buffers. -/
def args : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20]

/-- The buffers no host stretch after the first writes: the arguments, the dense operator, the regions' output arrays. -/
def kept : List (Ref sig .tc) :=
  args ++ [main_v42, main_v49, main_v52, main_v55, main_v58, main_v61, main_v64, main_v68, main_v71, main_v74]

/-- The goal "no operation of this literal stretch writes the buffer", split into one inequality of references per
    operation, each closed by the given term. -/
macro "no_write" "[" ops:ident "]" "with" t:term : tactic =>
  `(tactic| (
    refine List.forall_iff_forall_mem.mp ?_
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne $t))

section Keeps
variable (V : Valuation τ sig (Elt Ideal)) (b : Ref sig .tc)

theorem keep0 (hb : b ∈ args) : StableHlo.after hostOps0 V (Proc.devRef .tc b) = V (Proc.devRef .tc b) :=
  StableHlo.after_of_forall_not_mem (b := Proc.devRef .tc b) _ _ (by
    no_write [hostOps0] with (ne_of_mem_of_not_mem hb (by decide)))
theorem keep1 (hb : b ∈ kept) : StableHlo.after hostOps1 V (Proc.devRef .tc b) = V (Proc.devRef .tc b) :=
  StableHlo.after_of_forall_not_mem (b := Proc.devRef .tc b) _ _ (by
    no_write [hostOps1] with (ne_of_mem_of_not_mem hb (by decide)))
theorem keep2 (hb : b ∈ kept) : StableHlo.after hostOps2 V (Proc.devRef .tc b) = V (Proc.devRef .tc b) :=
  StableHlo.after_of_forall_not_mem (b := Proc.devRef .tc b) _ _ (by
    no_write [hostOps2] with (ne_of_mem_of_not_mem hb (by decide)))
theorem keep3 (hb : b ∈ kept) : StableHlo.after hostOps3 V (Proc.devRef .tc b) = V (Proc.devRef .tc b) :=
  StableHlo.after_of_forall_not_mem (b := Proc.devRef .tc b) _ _ (by
    no_write [hostOps3] with (ne_of_mem_of_not_mem hb (by decide)))
theorem keep4 (hb : b ∈ kept) : StableHlo.after hostOps4 V (Proc.devRef .tc b) = V (Proc.devRef .tc b) :=
  StableHlo.after_of_forall_not_mem (b := Proc.devRef .tc b) _ _ (by
    no_write [hostOps4] with (ne_of_mem_of_not_mem hb (by decide)))
theorem keep5 (hb : b ∈ kept) : StableHlo.after hostOps5 V (Proc.devRef .tc b) = V (Proc.devRef .tc b) :=
  StableHlo.after_of_forall_not_mem (b := Proc.devRef .tc b) _ _ (by
    no_write [hostOps5] with (ne_of_mem_of_not_mem hb (by decide)))
theorem keep6 (hb : b ∈ kept) : StableHlo.after hostOps6 V (Proc.devRef .tc b) = V (Proc.devRef .tc b) :=
  StableHlo.after_of_forall_not_mem (b := Proc.devRef .tc b) _ _ (by
    no_write [hostOps6] with (ne_of_mem_of_not_mem hb (by decide)))
theorem keep7 (hb : b ∈ kept) : StableHlo.after hostOps7 V (Proc.devRef .tc b) = V (Proc.devRef .tc b) :=
  StableHlo.after_of_forall_not_mem (b := Proc.devRef .tc b) _ _ (by
    no_write [hostOps7] with (ne_of_mem_of_not_mem hb (by decide)))
theorem keep8 (hb : b ∈ kept) : StableHlo.after hostOps8 V (Proc.devRef .tc b) = V (Proc.devRef .tc b) :=
  StableHlo.after_of_forall_not_mem (b := Proc.devRef .tc b) _ _ (by
    no_write [hostOps8] with (ne_of_mem_of_not_mem hb (by decide)))
theorem keep9 (hb : b ∈ kept) : StableHlo.after hostOps9 V (Proc.devRef .tc b) = V (Proc.devRef .tc b) :=
  StableHlo.after_of_forall_not_mem (b := Proc.devRef .tc b) _ _ (by
    no_write [hostOps9] with (ne_of_mem_of_not_mem hb (by decide)))

end Keeps

/-- An argument buffer is the array of no window of any region. -/
theorem args_ne0 : ∀ b ∈ args, ∀ w, Pipeline.arrRef spec0 w ≠ b := by decide
theorem args_ne1 : ∀ b ∈ args, ∀ w, Pipeline.arrRef spec1 w ≠ b := by decide
theorem args_ne2 : ∀ b ∈ args, ∀ w, Pipeline.arrRef spec2 w ≠ b := by decide
theorem args_ne3 : ∀ b ∈ args, ∀ w, Pipeline.arrRef spec3 w ≠ b := by decide
theorem args_ne4 : ∀ b ∈ args, ∀ w, Pipeline.arrRef spec4 w ≠ b := by decide
theorem args_ne5 : ∀ b ∈ args, ∀ w, Pipeline.arrRef spec5 w ≠ b := by decide
theorem args_ne6 : ∀ b ∈ args, ∀ w, Pipeline.arrRef spec6 w ≠ b := by decide
theorem args_ne7 : ∀ b ∈ args, ∀ w, Pipeline.arrRef spec7 w ≠ b := by decide
theorem args_ne8 : ∀ b ∈ args, ∀ w, Pipeline.arrRef spec8 w ≠ b := by decide
theorem args_kept : ∀ b ∈ args, b ∈ kept := by decide

/-! ## An argument buffer holds its launch contents at every region's exit -/

theorem argW2 (c : Dev nD) (b : Ref sig .tc) (hb : b ∈ args) :
    W2 m ρ c (Proc.devRef .tc b) = W0 m ρ c (Proc.devRef .tc b) :=
  (W2_of_ne m ρ c b (args_ne0 b hb)).trans (keep0 _ b hb)
theorem argW4 (c : Dev nD) (b : Ref sig .tc) (hb : b ∈ args) :
    W4 m ρ c (Proc.devRef .tc b) = W0 m ρ c (Proc.devRef .tc b) :=
  (W4_of_ne m ρ c b (args_ne1 b hb)).trans ((keep1 _ b (args_kept b hb)).trans (argW2 m ρ c b hb))
theorem argW6 (c : Dev nD) (b : Ref sig .tc) (hb : b ∈ args) :
    W6 m ρ c (Proc.devRef .tc b) = W0 m ρ c (Proc.devRef .tc b) :=
  (W6_of_ne m ρ c b (args_ne2 b hb)).trans ((keep2 _ b (args_kept b hb)).trans (argW4 m ρ c b hb))
theorem argW8 (c : Dev nD) (b : Ref sig .tc) (hb : b ∈ args) :
    W8 m ρ c (Proc.devRef .tc b) = W0 m ρ c (Proc.devRef .tc b) :=
  (W8_of_ne m ρ c b (args_ne3 b hb)).trans ((keep3 _ b (args_kept b hb)).trans (argW6 m ρ c b hb))
theorem argW10 (c : Dev nD) (b : Ref sig .tc) (hb : b ∈ args) :
    W10 m ρ c (Proc.devRef .tc b) = W0 m ρ c (Proc.devRef .tc b) :=
  (W10_of_ne m ρ c b (args_ne4 b hb)).trans ((keep4 _ b (args_kept b hb)).trans (argW8 m ρ c b hb))
theorem argW12 (c : Dev nD) (b : Ref sig .tc) (hb : b ∈ args) :
    W12 m ρ c (Proc.devRef .tc b) = W0 m ρ c (Proc.devRef .tc b) :=
  (W12_of_ne m ρ c b (args_ne5 b hb)).trans ((keep5 _ b (args_kept b hb)).trans (argW10 m ρ c b hb))
theorem argW14 (c : Dev nD) (b : Ref sig .tc) (hb : b ∈ args) :
    W14 m ρ c (Proc.devRef .tc b) = W0 m ρ c (Proc.devRef .tc b) :=
  (W14_of_ne m ρ c b (args_ne6 b hb)).trans ((keep6 _ b (args_kept b hb)).trans (argW12 m ρ c b hb))
theorem argW16 (c : Dev nD) (b : Ref sig .tc) (hb : b ∈ args) :
    W16 m ρ c (Proc.devRef .tc b) = W0 m ρ c (Proc.devRef .tc b) :=
  (W16_of_ne m ρ c b (args_ne7 b hb)).trans ((keep7 _ b (args_kept b hb)).trans (argW14 m ρ c b hb))
theorem argW18 (c : Dev nD) (b : Ref sig .tc) (hb : b ∈ args) :
    W18 m ρ c (Proc.devRef .tc b) = W0 m ρ c (Proc.devRef .tc b) :=
  (W18_of_ne m ρ c b (args_ne8 b hb)).trans ((keep8 _ b (args_kept b hb)).trans (argW16 m ρ c b hb))

/-! ## A concatenate of two operands, the operands as arguments

A rewriting pass does not enter the operand list of a concatenate (its side condition is stated over that list), so
the two operands are made arguments of a function of their own before the host operations' results are read. -/

/-- The concatenate of two operands. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem cat2_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-! ## What each region finds -/

theorem feat0_eq (c : Dev nD) : (V1 m ρ c main_v46 : FVec Ideal S32x2048x515 .bf16) = features (F := Ideal) (arg0 m c) (arg1 m c) := by
  show StableHlo.after hostOps0 (W0 m ρ c) (Proc.devRef .tc main_v46) = _
  after_results_simp <;> rfl
theorem wts0_eq (c : Dev nD) : (V1 m ρ c main_v47 : FVec Ideal S515x512 .bf16) = truncf .bf16 (arg3 m c) bitsLt_bf16_f32 := by
  show StableHlo.after hostOps0 (W0 m ρ c) (Proc.devRef .tc main_v47) = _
  after_results_simp <;> rfl
open Idealize.ShloMosaic.StableHlo in
/-- The dense operator: the first host stretch's operations read back from the result buffer to the edge list, one
    rewriting pass; what is left is the definition of `adjacency` spelt out. -/
theorem opr0_eq (c : Dev nD) : (V1 m ρ c main_v42 : FVec Ideal S2048x2048 .bf16) = adjacency (F := Ideal) (arg2 m c) := by
  show StableHlo.after hostOps0 (W0 m ρ c) (Proc.devRef .tc main_v42) = _
  simp (disch := decide) only [after_cons, after_nil, cat2_eq,
      nullary_result', unary_result', binary_result', ternary_result', reshape_result',
      nullary_result_ne', unary_result_ne', binary_result_ne', ternary_result_ne', reshape_result_ne']
  unfold adjacency HostTerms.norm pairs dinv deg col wrap srcRaw dstRaw cat2
  rfl
theorem bias0_eq (c : Dev nD) : (V1 m ρ c main_v48 : FVec Ideal S1x512 .f32) = shapeCast S1x512 (arg4 m c) shapeCasts_S512_S1x512 := by
  show StableHlo.after hostOps0 (W0 m ρ c) (Proc.devRef .tc main_v48) = _
  after_results_simp <;> rfl

theorem feat1_eq (c : Dev nD) : (V3 m ρ c main_v49 : FVec Ideal S32x2048x512 .bf16) = stage0 m ρ c :=
  (keep1 _ main_v49 (by decide)).trans (W2_arr m ρ c 4)
theorem wts1_eq (c : Dev nD) : (V3 m ρ c main_v50 : FVec Ideal S512x512 .bf16) = truncf .bf16 (arg5 m c) bitsLt_bf16_f32 := by
  show StableHlo.after hostOps1 (W2 m ρ c) (Proc.devRef .tc main_v50) = _
  after_results
  rw [argW2 m ρ c main_arg5 (by decide)]
theorem opr1_eq (c : Dev nD) : (V3 m ρ c main_v42 : FVec Ideal S2048x2048 .bf16) = adjacency (F := Ideal) (arg2 m c) :=
  have h : W2 m ρ c (Proc.devRef .tc main_v42) = V1 m ρ c main_v42 :=
    (W2_arr m ρ c 2).trans ((Dat.arrAt_in (dat := dat0 (F := Ideal) (V1 m ρ) c) 2 rfl cfg0.N).trans (A_eq0 (V1 m ρ) c 2))
  ((keep1 _ main_v42 (by decide)).trans h).trans (opr0_eq m ρ c)
theorem bias1_eq (c : Dev nD) : (V3 m ρ c main_v51 : FVec Ideal S1x512 .f32) = shapeCast S1x512 (arg6 m c) shapeCasts_S512_S1x512 := by
  show StableHlo.after hostOps1 (W2 m ρ c) (Proc.devRef .tc main_v51) = _
  after_results
  rw [argW2 m ρ c main_arg6 (by decide)]
  rfl

theorem feat2_eq (c : Dev nD) : (V5 m ρ c main_v52 : FVec Ideal S32x2048x512 .bf16) = stage1 m ρ c :=
  (keep2 _ main_v52 (by decide)).trans (W4_arr m ρ c 4)
theorem wts2_eq (c : Dev nD) : (V5 m ρ c main_v53 : FVec Ideal S512x512 .bf16) = truncf .bf16 (arg7 m c) bitsLt_bf16_f32 := by
  show StableHlo.after hostOps2 (W4 m ρ c) (Proc.devRef .tc main_v53) = _
  after_results
  rw [argW4 m ρ c main_arg7 (by decide)]
theorem opr2_eq (c : Dev nD) : (V5 m ρ c main_v42 : FVec Ideal S2048x2048 .bf16) = adjacency (F := Ideal) (arg2 m c) :=
  have h : W4 m ρ c (Proc.devRef .tc main_v42) = V3 m ρ c main_v42 :=
    (W4_arr m ρ c 2).trans ((Dat.arrAt_in (dat := dat1 (F := Ideal) (V3 m ρ) c) 2 rfl cfg1.N).trans (A_eq1 (V3 m ρ) c 2))
  ((keep2 _ main_v42 (by decide)).trans h).trans (opr1_eq m ρ c)
theorem bias2_eq (c : Dev nD) : (V5 m ρ c main_v54 : FVec Ideal S1x512 .f32) = shapeCast S1x512 (arg8 m c) shapeCasts_S512_S1x512 := by
  show StableHlo.after hostOps2 (W4 m ρ c) (Proc.devRef .tc main_v54) = _
  after_results
  rw [argW4 m ρ c main_arg8 (by decide)]
  rfl

theorem feat3_eq (c : Dev nD) : (V7 m ρ c main_v55 : FVec Ideal S32x2048x512 .bf16) = stage2 m ρ c :=
  (keep3 _ main_v55 (by decide)).trans (W6_arr m ρ c 4)
theorem wts3_eq (c : Dev nD) : (V7 m ρ c main_v56 : FVec Ideal S512x512 .bf16) = truncf .bf16 (arg9 m c) bitsLt_bf16_f32 := by
  show StableHlo.after hostOps3 (W6 m ρ c) (Proc.devRef .tc main_v56) = _
  after_results
  rw [argW6 m ρ c main_arg9 (by decide)]
theorem opr3_eq (c : Dev nD) : (V7 m ρ c main_v42 : FVec Ideal S2048x2048 .bf16) = adjacency (F := Ideal) (arg2 m c) :=
  have h : W6 m ρ c (Proc.devRef .tc main_v42) = V5 m ρ c main_v42 :=
    (W6_arr m ρ c 2).trans ((Dat.arrAt_in (dat := dat2 (F := Ideal) (V5 m ρ) c) 2 rfl cfg2.N).trans (A_eq2 (V5 m ρ) c 2))
  ((keep3 _ main_v42 (by decide)).trans h).trans (opr2_eq m ρ c)
theorem bias3_eq (c : Dev nD) : (V7 m ρ c main_v57 : FVec Ideal S1x512 .f32) = shapeCast S1x512 (arg10 m c) shapeCasts_S512_S1x512 := by
  show StableHlo.after hostOps3 (W6 m ρ c) (Proc.devRef .tc main_v57) = _
  after_results
  rw [argW6 m ρ c main_arg10 (by decide)]
  rfl

theorem feat4_eq (c : Dev nD) : (V9 m ρ c main_v58 : FVec Ideal S32x2048x512 .bf16) = stage3 m ρ c :=
  (keep4 _ main_v58 (by decide)).trans (W8_arr m ρ c 4)
theorem wts4_eq (c : Dev nD) : (V9 m ρ c main_v59 : FVec Ideal S512x64 .bf16) = truncf .bf16 (arg11 m c) bitsLt_bf16_f32 := by
  show StableHlo.after hostOps4 (W8 m ρ c) (Proc.devRef .tc main_v59) = _
  after_results
  rw [argW8 m ρ c main_arg11 (by decide)]
theorem opr4_eq (c : Dev nD) : (V9 m ρ c main_v42 : FVec Ideal S2048x2048 .bf16) = adjacency (F := Ideal) (arg2 m c) :=
  have h : W8 m ρ c (Proc.devRef .tc main_v42) = V7 m ρ c main_v42 :=
    (W8_arr m ρ c 2).trans ((Dat.arrAt_in (dat := dat3 (F := Ideal) (V7 m ρ) c) 2 rfl cfg3.N).trans (A_eq3 (V7 m ρ) c 2))
  ((keep4 _ main_v42 (by decide)).trans h).trans (opr3_eq m ρ c)
theorem bias4_eq (c : Dev nD) : (V9 m ρ c main_v60 : FVec Ideal S1x64 .f32) = shapeCast S1x64 (arg12 m c) shapeCasts_S64_S1x64 := by
  show StableHlo.after hostOps4 (W8 m ρ c) (Proc.devRef .tc main_v60) = _
  after_results
  rw [argW8 m ρ c main_arg12 (by decide)]
  rfl

theorem feat5_eq (c : Dev nD) : (V11 m ρ c main_v61 : FVec Ideal S32x2048x64 .bf16) = stage4 m ρ c :=
  (keep5 _ main_v61 (by decide)).trans (W10_arr m ρ c 4)
theorem wts5_eq (c : Dev nD) : (V11 m ρ c main_v62 : FVec Ideal S64x3 .bf16) = truncf .bf16 (arg13 m c) bitsLt_bf16_f32 := by
  show StableHlo.after hostOps5 (W10 m ρ c) (Proc.devRef .tc main_v62) = _
  after_results
  rw [argW10 m ρ c main_arg13 (by decide)]
theorem opr5_eq (c : Dev nD) : (V11 m ρ c main_v42 : FVec Ideal S2048x2048 .bf16) = adjacency (F := Ideal) (arg2 m c) :=
  have h : W10 m ρ c (Proc.devRef .tc main_v42) = V9 m ρ c main_v42 :=
    (W10_arr m ρ c 2).trans ((Dat.arrAt_in (dat := dat4 (F := Ideal) (V9 m ρ) c) 2 rfl cfg4.N).trans (A_eq4 (V9 m ρ) c 2))
  ((keep5 _ main_v42 (by decide)).trans h).trans (opr4_eq m ρ c)
theorem bias5_eq (c : Dev nD) : (V11 m ρ c main_v63 : FVec Ideal S1x3 .f32) = shapeCast S1x3 (arg14 m c) shapeCasts_S3_S1x3 := by
  show StableHlo.after hostOps5 (W10 m ρ c) (Proc.devRef .tc main_v63) = _
  after_results
  rw [argW10 m ρ c main_arg14 (by decide)]
  rfl

theorem feat6_eq (c : Dev nD) : (V13 m ρ c main_v65 : FVec Ideal S32x6144 .f32) = shapeCast S32x6144 (stage5 m ρ c) shapeCasts_S32x2048x3_S32x6144 := by
  have h : W12 m ρ c (Proc.devRef .tc main_v64) = stage5 m ρ c := W12_arr m ρ c 4
  show StableHlo.after hostOps6 (W12 m ρ c) (Proc.devRef .tc main_v65) = _
  after_results
  rw [h]
  rfl
theorem wts6_eq (c : Dev nD) : (V13 m ρ c main_v66 : FVec Ideal S6144x1024 .bf16) = truncf .bf16 (arg15 m c) bitsLt_bf16_f32 := by
  show StableHlo.after hostOps6 (W12 m ρ c) (Proc.devRef .tc main_v66) = _
  after_results
  rw [argW12 m ρ c main_arg15 (by decide)]
theorem bias6_eq (c : Dev nD) : (V13 m ρ c main_v67 : FVec Ideal S1x1024 .f32) = shapeCast S1x1024 (arg16 m c) shapeCasts_S1024_S1x1024 := by
  show StableHlo.after hostOps6 (W12 m ρ c) (Proc.devRef .tc main_v67) = _
  after_results
  rw [argW12 m ρ c main_arg16 (by decide)]
  rfl

theorem feat7_eq (c : Dev nD) : (V15 m ρ c main_v68 : FVec Ideal S32x1024 .f32) = stage6 m ρ c :=
  (keep7 _ main_v68 (by decide)).trans (W14_arr m ρ c 3)
theorem wts7_eq (c : Dev nD) : (V15 m ρ c main_v69 : FVec Ideal S1024x1024 .bf16) = truncf .bf16 (arg17 m c) bitsLt_bf16_f32 := by
  show StableHlo.after hostOps7 (W14 m ρ c) (Proc.devRef .tc main_v69) = _
  after_results
  rw [argW14 m ρ c main_arg17 (by decide)]
theorem bias7_eq (c : Dev nD) : (V15 m ρ c main_v70 : FVec Ideal S1x1024 .f32) = shapeCast S1x1024 (arg18 m c) shapeCasts_S1024_S1x1024 := by
  show StableHlo.after hostOps7 (W14 m ρ c) (Proc.devRef .tc main_v70) = _
  after_results
  rw [argW14 m ρ c main_arg18 (by decide)]
  rfl

theorem feat8_eq (c : Dev nD) : (V17 m ρ c main_v71 : FVec Ideal S32x1024 .f32) = stage7 m ρ c :=
  (keep8 _ main_v71 (by decide)).trans (W16_arr m ρ c 3)
theorem wts8_eq (c : Dev nD) : (V17 m ρ c main_v72 : FVec Ideal S1024x6144 .bf16) = truncf .bf16 (arg19 m c) bitsLt_bf16_f32 := by
  show StableHlo.after hostOps8 (W16 m ρ c) (Proc.devRef .tc main_v72) = _
  after_results
  rw [argW16 m ρ c main_arg19 (by decide)]
theorem bias8_eq (c : Dev nD) : (V17 m ρ c main_v73 : FVec Ideal S1x6144 .f32) = shapeCast S1x6144 (arg20 m c) shapeCasts_S6144_S1x6144 := by
  show StableHlo.after hostOps8 (W16 m ρ c) (Proc.devRef .tc main_v73) = _
  after_results
  rw [argW16 m ρ c main_arg20 (by decide)]
  rfl

/-! ## The result -/

/-- The result buffer at the end of the run: the vertices plus one tenth (the float 0x3DCCCCCD) of stage 8 laid out as
    32 × 2048 × 3. -/
theorem result_eq (c : Dev nD) :
    (W19 m ρ c (Proc.devRef .tc main_v78) : FVec Ideal S32x2048x3 .f32)
      = addf (arg0 m c) (mulf (shapeCast S32x2048x3 (stage8 m ρ c) shapeCasts_S32x6144_S32x2048x3)
          (broadcastInDim S32x2048x3 ![] bcast_S_S32x2048x3 (constant (F := Ideal) S_ .f32 0x3DCCCCCD#32))) := by
  have h : W18 m ρ c (Proc.devRef .tc main_v74) = stage8 m ρ c := W18_arr m ρ c 3
  show StableHlo.after hostOps9 (W18 m ρ c) (Proc.devRef .tc main_v78) = _
  after_results
  rw [h, argW18 m ρ c main_arg0 (by decide)]
  rfl

end Cert.KernelIdeal.Chain

end
-- ==== Proof.Region0.lean ====
/-
  What region 0 of the kernel's program leaves in its output array, element by element.
-/
import proofs.«175376_j67851893342527_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The two contractions' operand indices, axis by axis -/

theorem lhs_xw_0 (i : S2048x512.Idx) (q : dot_S2048x515_S515x512_S2048x512_1_0_0_1_n_n.contr.Idx) :
    (dot_S2048x515_S515x512_S2048x512_1_0_0_1_n_n.lhsIdx i q 0).val = (i 0).val := by
  unfold DotDims.lhsIdx
  rw [dif_neg (show ¬(0 : Fin S2048x515.rank) ∈ dot_S2048x515_S515x512_S2048x512_1_0_0_1_n_n.lhsBatch by decide), dif_pos (show (0 : Fin S2048x515.rank) ∈ dot_S2048x515_S515x512_S2048x512_1_0_0_1_n_n.lhsNonContracting by decide)]
  rfl
theorem lhs_xw_1 (i : S2048x512.Idx) (q : dot_S2048x515_S515x512_S2048x512_1_0_0_1_n_n.contr.Idx) :
    (dot_S2048x515_S515x512_S2048x512_1_0_0_1_n_n.lhsIdx i q 1).val = (q ⟨0, by decide⟩).val :=
  dot_S2048x515_S515x512_S2048x512_1_0_0_1_n_n.lhsIdx_val_of_single rfl i q
theorem rhs_xw_0 (i : S2048x512.Idx) (q : dot_S2048x515_S515x512_S2048x512_1_0_0_1_n_n.contr.Idx) :
    (dot_S2048x515_S515x512_S2048x512_1_0_0_1_n_n.rhsIdx i q 0).val = (q ⟨0, by decide⟩).val :=
  dot_S2048x515_S515x512_S2048x512_1_0_0_1_n_n.rhsIdx_val_of_single rfl i q
theorem rhs_xw_1 (i : S2048x512.Idx) (q : dot_S2048x515_S515x512_S2048x512_1_0_0_1_n_n.contr.Idx) :
    (dot_S2048x515_S515x512_S2048x512_1_0_0_1_n_n.rhsIdx i q 1).val = (i 1).val := by
  unfold DotDims.rhsIdx
  rw [dif_neg (show ¬(1 : Fin S515x512.rank) ∈ dot_S2048x515_S515x512_S2048x512_1_0_0_1_n_n.rhsBatch by decide), dif_pos (show (1 : Fin S515x512.rank) ∈ dot_S2048x515_S515x512_S2048x512_1_0_0_1_n_n.rhsNonContracting by decide)]
  rfl

theorem lhs_ah_0 (i : S2048x512.Idx) (q : dot_S2048x2048_S2048x512_S2048x512_1_0_0_1_n_n.contr.Idx) :
    (dot_S2048x2048_S2048x512_S2048x512_1_0_0_1_n_n.lhsIdx i q 0).val = (i 0).val := by
  unfold DotDims.lhsIdx
  rw [dif_neg (show ¬(0 : Fin S2048x2048.rank) ∈ dot_S2048x2048_S2048x512_S2048x512_1_0_0_1_n_n.lhsBatch by decide), dif_pos (show (0 : Fin S2048x2048.rank) ∈ dot_S2048x2048_S2048x512_S2048x512_1_0_0_1_n_n.lhsNonContracting by decide)]
  rfl
theorem lhs_ah_1 (i : S2048x512.Idx) (q : dot_S2048x2048_S2048x512_S2048x512_1_0_0_1_n_n.contr.Idx) :
    (dot_S2048x2048_S2048x512_S2048x512_1_0_0_1_n_n.lhsIdx i q 1).val = (q ⟨0, by decide⟩).val :=
  dot_S2048x2048_S2048x512_S2048x512_1_0_0_1_n_n.lhsIdx_val_of_single rfl i q
theorem rhs_ah_0 (i : S2048x512.Idx) (q : dot_S2048x2048_S2048x512_S2048x512_1_0_0_1_n_n.contr.Idx) :
    (dot_S2048x2048_S2048x512_S2048x512_1_0_0_1_n_n.rhsIdx i q 0).val = (q ⟨0, by decide⟩).val :=
  dot_S2048x2048_S2048x512_S2048x512_1_0_0_1_n_n.rhsIdx_val_of_single rfl i q
theorem rhs_ah_1 (i : S2048x512.Idx) (q : dot_S2048x2048_S2048x512_S2048x512_1_0_0_1_n_n.contr.Idx) :
    (dot_S2048x2048_S2048x512_S2048x512_1_0_0_1_n_n.rhsIdx i q 1).val = (i 1).val := by
  unfold DotDims.rhsIdx
  rw [dif_neg (show ¬(1 : Fin S2048x512.rank) ∈ dot_S2048x2048_S2048x512_S2048x512_1_0_0_1_n_n.rhsBatch by decide), dif_pos (show (1 : Fin S2048x512.rank) ∈ dot_S2048x2048_S2048x512_S2048x512_1_0_0_1_n_n.rhsNonContracting by decide)]
  rfl

/-! ## The two contractions at an element -/

/-- The features-by-weights product into a zero accumulator, at (u, o): the sum over the 515 input channels. -/
theorem matmul_xw_apply (x : FVec Ideal S2048x515 .bf16) (w : FVec Ideal S515x512 .bf16) (u : Fin 2048) (o : Fin 512) :
    matmul dot_S2048x515_S515x512_S2048x512_1_0_0_1_n_n none x w (constant (F := Ideal) S2048x512 .f32 0x00000000#32) (ix2 u o)
      = ∑ i : Fin 515, x (ix2 u i) * w (ix2 i o) := by
  show FloatOps.matmul dot_S2048x515_S515x512_S2048x512_1_0_0_1_n_n none x w (constant (F := Ideal) S2048x512 .f32 0x00000000#32) (ix2 u o) = _
  rw [Ideal.matmul_constant_zero_apply, ← Equiv.sum_comp (contrEquiv1 dot_S2048x515_S515x512_S2048x512_1_0_0_1_n_n 515 rfl rfl).symm]
  refine Finset.sum_congr rfl fun k _ => ?_
  have hk := contrEquiv1_symm_val dot_S2048x515_S515x512_S2048x512_1_0_0_1_n_n 515 rfl rfl k
  have el : dot_S2048x515_S515x512_S2048x512_1_0_0_1_n_n.lhsIdx (ix2 u o) ((contrEquiv1 dot_S2048x515_S515x512_S2048x512_1_0_0_1_n_n 515 rfl rfl).symm k) = ix2 u k := funext fun a => Fin.ext (by
    match a with
    | ⟨0, _⟩ => exact lhs_xw_0 _ _
    | ⟨1, _⟩ => exact (lhs_xw_1 _ _).trans hk)
  have er : dot_S2048x515_S515x512_S2048x512_1_0_0_1_n_n.rhsIdx (ix2 u o) ((contrEquiv1 dot_S2048x515_S515x512_S2048x512_1_0_0_1_n_n 515 rfl rfl).symm k) = ix2 k o := funext fun a => Fin.ext (by
    match a with
    | ⟨0, _⟩ => exact (rhs_xw_0 _ _).trans hk
    | ⟨1, _⟩ => exact rhs_xw_1 _ _)
  rw [el, er]

/-- The operator-by-transformed-features product into a zero accumulator, at (v, o): the sum over the 2048 nodes. -/
theorem matmul_ah_apply (a : FVec Ideal S2048x2048 .bf16) (h : FVec Ideal S2048x512 .bf16) (v : Fin 2048) (o : Fin 512) :
    matmul dot_S2048x2048_S2048x512_S2048x512_1_0_0_1_n_n none a h (constant (F := Ideal) S2048x512 .f32 0x00000000#32) (ix2 v o)
      = ∑ u : Fin 2048, a (ix2 v u) * h (ix2 u o) := by
  show FloatOps.matmul dot_S2048x2048_S2048x512_S2048x512_1_0_0_1_n_n none a h (constant (F := Ideal) S2048x512 .f32 0x00000000#32) (ix2 v o) = _
  rw [Ideal.matmul_constant_zero_apply, ← Equiv.sum_comp (contrEquiv1 dot_S2048x2048_S2048x512_S2048x512_1_0_0_1_n_n 2048 rfl rfl).symm]
  refine Finset.sum_congr rfl fun k _ => ?_
  have hk := contrEquiv1_symm_val dot_S2048x2048_S2048x512_S2048x512_1_0_0_1_n_n 2048 rfl rfl k
  have el : dot_S2048x2048_S2048x512_S2048x512_1_0_0_1_n_n.lhsIdx (ix2 v o) ((contrEquiv1 dot_S2048x2048_S2048x512_S2048x512_1_0_0_1_n_n 2048 rfl rfl).symm k) = ix2 v k := funext fun b => Fin.ext (by
    match b with
    | ⟨0, _⟩ => exact lhs_ah_0 _ _
    | ⟨1, _⟩ => exact (lhs_ah_1 _ _).trans hk)
  have er : dot_S2048x2048_S2048x512_S2048x512_1_0_0_1_n_n.rhsIdx (ix2 v o) ((contrEquiv1 dot_S2048x2048_S2048x512_S2048x512_1_0_0_1_n_n 2048 rfl rfl).symm k) = ix2 k o := funext fun b => Fin.ext (by
    match b with
    | ⟨0, _⟩ => exact (rhs_ah_0 _ _).trans hk
    | ⟨1, _⟩ => exact rhs_ah_1 _ _)
  rw [el, er]

/-! ## The body's arithmetic at an element -/

/-- One block of the layer at (0, v, o): the operator's row v against the transformed features' column o, plus the
    bias. The two roundings to bf16 are the identity on extended reals. -/
theorem pay_apply (x : FVec Ideal S1x2048x515 .bf16) (w : FVec Ideal S515x512 .bf16) (a : FVec Ideal S2048x2048 .bf16)
    (b : FVec Ideal S1x512 .f32) (v : Fin 2048) (o : Fin 512) :
    (k0_pay1 (F := Ideal) x w a b) (ix3 (0 : Fin 1) v o)
      = (∑ u : Fin 2048, a (ix2 v u) * ∑ i : Fin 515, x (ix3 (0 : Fin 1) u i) * w (ix2 i o)) + b (ix2 (0 : Fin 1) o) := by
  unfold k0_pay1
  rw [shapeCast_ab_1ab_apply, truncf_apply, addf_apply, matmul_ah_apply, broadcastTo_1b_ab_apply]
  simp only [shapeCast_self]
  congr 1
  refine Finset.sum_congr rfl fun u _ => ?_
  rw [truncf_apply, matmul_xw_apply]
  congr 1
  refine Finset.sum_congr rfl fun i _ => ?_
  rw [shapeCast_1ab_ab_apply]

variable (V : (c : Dev nD) → (b : Ref sig .tc) → Buf (Elt Ideal) ((c : Thread nD τ).loc b))

/-- The four arrays the region reads, as it finds them, and the array it writes, each at its literal type. -/
abbrev feat (c : Dev nD) : FVec Ideal S32x2048x515 .bf16 := V c main_v46
abbrev wts (c : Dev nD) : FVec Ideal S515x512 .bf16 := V c main_v47
abbrev opr (c : Dev nD) : FVec Ideal S2048x2048 .bf16 := V c main_v42
abbrev bias (c : Dev nD) : FVec Ideal S1x512 .f32 := V c main_v48
abbrev outArr (c : Dev nD) : FVec Ideal S32x2048x512 .bf16 := (dat0 (F := Ideal) V c).arrAt 4 cfg0.N

/-! ## Each window's block at a grid point -/

theorem zero3 : (![0, 0, 0] : Fin 3 → Nat) = fun _ => 0 := funext fun a => by fin_cases a <;> rfl
theorem zero2 : (![0, 0] : Fin 2 → Nat) = fun _ => 0 := funext fun a => by fin_cases a <;> rfl

/-- The grid has one point per batch element. -/
theorem N_eq : cfg0.N = 32 := by decide

/-- The index maps over the grid: the features' and the output's blocks move with the point along the batch axis; the
    weights, the operator and the bias are whole at every point. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The features' block at point t is batch element t. -/
theorem feat_blk (c : Dev nD) (t : Fin cfg0.N) (z : S1x2048x515.Idx) :
    iblk0 (F := Ideal) V c 0 t z = feat V c (ix3 (Fin.cast N_eq t) (z 1) (z 2)) := by
  obtain ⟨e0, e1, e2, -⟩ := idx_facts t
  unfold iblk0
  show V c main_v46 (((cfg0.win 0).blk t).view.emb z) = V c main_v46 (ix3 (Fin.cast N_eq t) (z 1) (z 2))
  congr 1
  funext a; apply Fin.ext
  match a with
  | ⟨0, _⟩ => show win0_0.index t (0 : Fin 3) * 1 + 1 * (z 0).val = t.val; have hz : (z 0).val < 1 := (z 0).isLt; omega
  | ⟨1, _⟩ => show win0_0.index t (1 : Fin 3) * 2048 + 1 * (z 1).val = (z 1).val; omega
  | ⟨2, _⟩ => show win0_0.index t (2 : Fin 3) * 515 + 1 * (z 2).val = (z 2).val; omega

/-- The weights' block is the whole array. -/
theorem wts_blk (c : Dev nD) (t : Fin cfg0.N) (z : S515x512.Idx) : iblk0 (F := Ideal) V c 1 t z = wts V c z := by
  obtain ⟨-, -, -, e0, e1, -⟩ := idx_facts t
  unfold iblk0
  show V c main_v47 (((cfg0.win 1).blk t).view.emb z) = V c main_v47 z
  congr 1
  funext a; apply Fin.ext
  match a with
  | ⟨0, _⟩ => show win0_1.index t (0 : Fin 2) * 515 + 1 * (z 0).val = (z 0).val; omega
  | ⟨1, _⟩ => show win0_1.index t (1 : Fin 2) * 512 + 1 * (z 1).val = (z 1).val; omega

/-- The operator's block is the whole array. -/
theorem opr_blk (c : Dev nD) (t : Fin cfg0.N) (z : S2048x2048.Idx) : iblk0 (F := Ideal) V c 2 t z = opr V c z := by
  obtain ⟨-, -, -, -, -, e0, e1, -⟩ := idx_facts t
  unfold iblk0
  show V c main_v42 (((cfg0.win 2).blk t).view.emb z) = V c main_v42 z
  congr 1
  funext a; apply Fin.ext
  match a with
  | ⟨0, _⟩ => show win0_2.index t (0 : Fin 2) * 2048 + 1 * (z 0).val = (z 0).val; omega
  | ⟨1, _⟩ => show win0_2.index t (1 : Fin 2) * 2048 + 1 * (z 1).val = (z 1).val; omega

/-- The bias's block is the whole row. -/
theorem bias_blk (c : Dev nD) (t : Fin cfg0.N) (z : S1x512.Idx) : iblk0 (F := Ideal) V c 3 t z = bias V c z := by
  obtain ⟨-, -, -, -, -, -, -, e0, e1, -⟩ := idx_facts t
  unfold iblk0
  show V c main_v48 (((cfg0.win 3).blk t).view.emb z) = V c main_v48 z
  congr 1
  funext a; apply Fin.ext
  match a with
  | ⟨0, _⟩ => show win0_3.index t (0 : Fin 2) * 1 + 1 * (z 0).val = (z 0).val; omega
  | ⟨1, _⟩ => show win0_3.index t (1 : Fin 2) * 512 + 1 * (z 1).val = (z 1).val; omega

/-! ## What a grid point writes back, and the array after the last point -/

/-- The layer at batch element p, node v and channel o, of the arrays as the region finds them. -/
def layer (c : Dev nD) (p : Fin 32) (v : Fin 2048) (o : Fin 512) : EReal :=
  (∑ u : Fin 2048, opr V c (ix2 v u) * ∑ i : Fin 515, feat V c (ix3 p u i) * wts V c (ix2 i o)) + bias V c (ix2 (0 : Fin 1) o)

theorem layer_congr (c : Dev nD) {p p' : Fin 32} {v v' : Fin 2048} {o o' : Fin 512} (hp : p.val = p'.val)
    (hv : v.val = v'.val) (ho : o.val = o'.val) : layer V c p v o = layer V c p' v' o' := by
  obtain rfl := Fin.ext hp
  obtain rfl := Fin.ext hv
  obtain rfl := Fin.ext ho
  rfl

/-- The output array the region leaves, as one function of its index. -/
def G (c : Dev nD) : S32x2048x512.Idx → Ideal .bf16 :=
  fun j => layer V c ⟨(j 0).val, (j 0).isLt⟩ ⟨(j 1).val, (j 1).isLt⟩ ⟨(j 2).val, (j 2).isLt⟩

/-- The body's result at point t, element (0, v, o), is the layer at batch element t. -/
theorem pay_eq_layer (c : Dev nD) (t : Fin cfg0.N) (y : S1x2048x512.Idx) :
    k0_pay1 (F := Ideal) (iblk0 (F := Ideal) V c 0 t) (iblk0 (F := Ideal) V c 1 t) (iblk0 (F := Ideal) V c 2 t)
        (iblk0 (F := Ideal) V c 3 t) y
      = layer V c (Fin.cast N_eq t) (y 1) (y 2) := by
  obtain ⟨u0, v, o, rfl⟩ : ∃ (u0 : Fin 1) (v : Fin 2048) (o : Fin 512), y = ix3 u0 v o := ⟨y 0, y 1, y 2, eq_ix3 y⟩
  obtain rfl : u0 = 0 := Subsingleton.elim _ _
  refine (pay_apply _ _ _ _ v o).trans ?_
  unfold layer
  simp only [feat_blk, wts_blk, opr_blk, bias_blk]

/-- What point t writes back is block t of that function. -/
theorem flushed_eq (c : Dev nD) (t : Fin cfg0.N) :
    (dat0 (F := Ideal) V c).flushed 4 t = ((cfg0.win 4).blk t).view.read (Elt Ideal) (G V c) := by
  show (cfg0.win 4).cut (grid0.coords t) ((dat0 (F := Ideal) V c).after 4 t) = _
  rw [after0_4]
  unfold out0_4
  rw [View.canon_unit_zero zero3]
  simp only [View.ld_unit_zero (S := S1x2048x515) zero3, View.ld_unit_zero (S := S515x512) zero2,
    View.ld_unit_zero (S := S2048x2048) zero2, View.ld_unit_zero (S := S1x512) zero2]
  obtain ⟨-, -, -, -, -, -, -, -, -, e0, e1, e2⟩ := idx_facts t
  funext y
  show k0_pay1 (F := Ideal) (iblk0 (F := Ideal) V c 0 t) (iblk0 (F := Ideal) V c 1 t) (iblk0 (F := Ideal) V c 2 t)
      (iblk0 (F := Ideal) V c 3 t) y = G V c (((cfg0.win 4).blk t).view.emb y)
  refine (pay_eq_layer V c t y).trans ?_
  unfold G
  refine layer_congr V c ?_ ?_ ?_
  · show t.val = win0_4.index t (0 : Fin 3) * 1 + 1 * (y 0).val
    have hy : (y 0).val < 1 := (y 0).isLt
    omega
  · show (y 1).val = win0_4.index t (1 : Fin 3) * 2048 + 1 * (y 1).val
    omega
  · show (y 2).val = win0_4.index t (2 : Fin 3) * 512 + 1 * (y 2).val
    omega

/-- An index of the output array is in point t's block iff each coordinate is in the block's range on its axis. -/
theorem mem_blk (t : Fin cfg0.N) (i : S32x2048x512.Idx) :
    i ∈ ((cfg0.win 4).blk t).view.set ↔ ∀ a : Fin 3, win0_4.index t a * S1x2048x512.size a ≤ (i a).val
      ∧ (i a).val < win0_4.index t a * S1x2048x512.size a + S1x2048x512.size a := by
  show i ∈ ((View.whole main_v49).slice (win0_4.rect t)).set ↔ _
  rw [View.set_slice_whole, Rect.mem_set_unit]
  exact Iff.rfl

/-- Every index of the output array is in the block of the point of its batch element. -/
theorem cover (i : S32x2048x512.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 512 := (i 2).isLt
  have ht : (i 0).val < cfg0.N := by rw [N_eq]; exact hi0
  refine ⟨⟨(i 0).val, ht⟩, flush0_4 _, ?_⟩
  rw [mem_blk]
  obtain ⟨-, -, -, -, -, -, -, -, -, e0', e1, e2⟩ := idx_facts ⟨(i 0).val, ht⟩
  have e0 : win0_4.index ⟨(i 0).val, ht⟩ (0 : Fin 3) = (i 0).val := e0'
  intro a
  match a with
  | ⟨0, _⟩ =>
    show win0_4.index ⟨(i 0).val, ht⟩ (0 : Fin 3) * 1 ≤ (i 0).val
      ∧ (i 0).val < win0_4.index ⟨(i 0).val, ht⟩ (0 : Fin 3) * 1 + 1
    rw [e0]; omega
  | ⟨1, _⟩ =>
    show win0_4.index ⟨(i 0).val, ht⟩ (1 : Fin 3) * 2048 ≤ (i 1).val
      ∧ (i 1).val < win0_4.index ⟨(i 0).val, ht⟩ (1 : Fin 3) * 2048 + 2048
    rw [e1]; omega
  | ⟨2, _⟩ =>
    show win0_4.index ⟨(i 0).val, ht⟩ (2 : Fin 3) * 512 ≤ (i 2).val
      ∧ (i 2).val < win0_4.index ⟨(i 0).val, ht⟩ (2 : Fin 3) * 512 + 512
    rw [e2]; omega

/-- The output array after the region's last point is that function. -/
theorem outArr_eq (c : Dev nD) : outArr V c = G V c :=
  (dat0 (F := Ideal) V c).arrAt_eq_of_cover 4 (G V c) (fun t _ => flushed_eq V c t) cover

/-- Region 0 (a graph layer) leaves in its output array, at batch element p, node v and channel o: the sum
    over the nodes u of the operator's entry (v, u) times the features of node u of batch element p contracted with
    column o of the weights, plus entry o of the bias row. -/
theorem region0_apply (c : Dev nD) (p : Fin 32) (v : Fin 2048) (o : Fin 512) :
    outArr V c (ix3 p v o)
      = (∑ u : Fin 2048, opr V c (ix2 v u) * ∑ i : Fin 515, feat V c (ix3 p u i) * wts V c (ix2 i o)) + bias V c (ix2 (0 : Fin 1) o) := by
  rw [outArr_eq]
  rfl

end Cert.KernelIdeal.Region0

end
-- ==== Proof.Region1.lean ====
/-
  What region 1 of the kernel's program leaves in its output array, element by element.
-/
import proofs.«175376_j67851893342527_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's arithmetic at an index -/

theorem fw_lhs_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem fw_lhs_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem fw_rhs_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem fw_rhs_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

theorem ah_lhs_0 (i : S2048x512.Idx) (q : dot_S2048x2048_S2048x512_S2048x512_1_0_0_1_n_n.contr.Idx) :
    (dot_S2048x2048_S2048x512_S2048x512_1_0_0_1_n_n.lhsIdx i q 0).val = (i 0).val := by
  unfold DotDims.lhsIdx
  rw [dif_neg (show ¬(0 : Fin S2048x2048.rank) ∈ dot_S2048x2048_S2048x512_S2048x512_1_0_0_1_n_n.lhsBatch by decide), dif_pos (show (0 : Fin S2048x2048.rank) ∈ dot_S2048x2048_S2048x512_S2048x512_1_0_0_1_n_n.lhsNonContracting by decide)]
  rfl
theorem ah_lhs_1 (i : S2048x512.Idx) (q : dot_S2048x2048_S2048x512_S2048x512_1_0_0_1_n_n.contr.Idx) :
    (dot_S2048x2048_S2048x512_S2048x512_1_0_0_1_n_n.lhsIdx i q 1).val = (q ⟨0, by decide⟩).val :=
  dot_S2048x2048_S2048x512_S2048x512_1_0_0_1_n_n.lhsIdx_val_of_single rfl i q
theorem ah_rhs_0 (i : S2048x512.Idx) (q : dot_S2048x2048_S2048x512_S2048x512_1_0_0_1_n_n.contr.Idx) :
    (dot_S2048x2048_S2048x512_S2048x512_1_0_0_1_n_n.rhsIdx i q 0).val = (q ⟨0, by decide⟩).val :=
  dot_S2048x2048_S2048x512_S2048x512_1_0_0_1_n_n.rhsIdx_val_of_single rfl i q
theorem ah_rhs_1 (i : S2048x512.Idx) (q : dot_S2048x2048_S2048x512_S2048x512_1_0_0_1_n_n.contr.Idx) :
    (dot_S2048x2048_S2048x512_S2048x512_1_0_0_1_n_n.rhsIdx i q 1).val = (i 1).val := by
  unfold DotDims.rhsIdx
  rw [dif_neg (show ¬(1 : Fin S2048x512.rank) ∈ dot_S2048x2048_S2048x512_S2048x512_1_0_0_1_n_n.rhsBatch by decide), dif_pos (show (1 : Fin S2048x512.rank) ∈ dot_S2048x2048_S2048x512_S2048x512_1_0_0_1_n_n.rhsNonContracting by decide)]
  rfl

/-- The first product, features times weights, at row r and column o: the sum over the contracted channel. -/
theorem featWts_apply (x : FVec Ideal S2048x512 .bf16) (w : FVec Ideal S512x512 .bf16) (r : Fin 2048) (o : Fin 512) :
    FloatOps.matmul dot_S2048x512_S512x512_S2048x512_1_0_0_1_n_n none x w (constant (F := Ideal) S2048x512 .f32 0x00000000#32) (ix2 r o)
      = ∑ k : Fin 512, x (ix2 r k) * w (ix2 k o) := by
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r o) ((contrEquiv1 dot_S2048x512_S512x512_S2048x512_1_0_0_1_n_n 512 rfl rfl).symm k) = ix2 r k := funext fun a => Fin.ext (by
    match a with
    | ⟨0, _⟩ => exact fw_lhs_0 _ _
    | ⟨1, _⟩ => exact (fw_lhs_1 _ _).trans hk)
  have er : dot_S2048x512_S512x512_S2048x512_1_0_0_1_n_n.rhsIdx (ix2 r o) ((contrEquiv1 dot_S2048x512_S512x512_S2048x512_1_0_0_1_n_n 512 rfl rfl).symm k) = ix2 k o := funext fun a => Fin.ext (by
    match a with
    | ⟨0, _⟩ => exact (fw_rhs_0 _ _).trans hk
    | ⟨1, _⟩ => exact fw_rhs_1 _ _)
  rw [el, er]

/-- The second product, operator times transformed features, at row r and column o: the sum over the contracted node. -/
theorem oprHidden_apply (x : FVec Ideal S2048x2048 .bf16) (w : FVec Ideal S2048x512 .bf16) (r : Fin 2048) (o : Fin 512) :
    FloatOps.matmul dot_S2048x2048_S2048x512_S2048x512_1_0_0_1_n_n none x w (constant (F := Ideal) S2048x512 .f32 0x00000000#32) (ix2 r o)
      = ∑ k : Fin 2048, x (ix2 r k) * w (ix2 k o) := by
  rw [Ideal.matmul_constant_zero_apply, ← Equiv.sum_comp (contrEquiv1 dot_S2048x2048_S2048x512_S2048x512_1_0_0_1_n_n 2048 rfl rfl).symm]
  refine Finset.sum_congr rfl fun k _ => ?_
  have hk := contrEquiv1_symm_val dot_S2048x2048_S2048x512_S2048x512_1_0_0_1_n_n 2048 rfl rfl k
  have el : dot_S2048x2048_S2048x512_S2048x512_1_0_0_1_n_n.lhsIdx (ix2 r o) ((contrEquiv1 dot_S2048x2048_S2048x512_S2048x512_1_0_0_1_n_n 2048 rfl rfl).symm k) = ix2 r k := funext fun a => Fin.ext (by
    match a with
    | ⟨0, _⟩ => exact ah_lhs_0 _ _
    | ⟨1, _⟩ => exact (ah_lhs_1 _ _).trans hk)
  have er : dot_S2048x2048_S2048x512_S2048x512_1_0_0_1_n_n.rhsIdx (ix2 r o) ((contrEquiv1 dot_S2048x2048_S2048x512_S2048x512_1_0_0_1_n_n 2048 rfl rfl).symm k) = ix2 k o := funext fun a => Fin.ext (by
    match a with
    | ⟨0, _⟩ => exact (ah_rhs_0 _ _).trans hk
    | ⟨1, _⟩ => exact ah_rhs_1 _ _)
  rw [el, er]

/-- The body's whole arithmetic at node v and channel o of its one batch element. -/
theorem pay_apply (x : FVec Ideal S1x2048x512 .bf16) (w : FVec Ideal S512x512 .bf16) (a : FVec Ideal S2048x2048 .bf16) (b : FVec Ideal S1x512 .f32)
    (v : Fin 2048) (o : Fin 512) :
    k1_pay1 (F := Ideal) x w a b (ix3 (0 : Fin 1) v o)
      = max ((∑ u : Fin 2048, a (ix2 v u) * ∑ i : Fin 512, x (ix3 (0 : Fin 1) u i) * w (ix2 i o)) + b (ix2 (0 : Fin 1) o)) 0 := by
  unfold k1_pay1
  rw [shapeCast_ab_1ab_apply, truncf_apply, maximumf_apply, addf_apply, broadcast_apply, broadcastTo_1b_ab_apply]
  simp only [shapeCast_self, matmul]
  rw [oprHidden_apply]
  have e0 : (FloatOps.ofBits (F := Ideal) .f32 0x00000000#32 : Ideal .f32) = 0 := Ideal.ofBits_zero_f32
  rw [e0]
  refine congrArg (fun z => max (z + b (ix2 (0 : Fin 1) o)) 0) (Finset.sum_congr rfl fun u _ => ?_)
  rw [truncf_apply, featWts_apply]
  refine congrArg (fun z => a (ix2 v u) * z) (Finset.sum_congr rfl fun i _ => ?_)
  rw [shapeCast_1ab_ab_apply]

/-! ## The layer as one function of the arrays -/

/-- One graph layer followed by max(·, 0), for one batch element whose features are `X`: at node v and channel o, the sum over
    the nodes u of the operator's entry (v, u) times the features of node u contracted with column o of the weights,
    plus entry o of the bias row, then the maximum with 0. -/
def layer (X : Fin 2048 → Fin 512 → Ideal .bf16) (W : FVec Ideal S512x512 .bf16) (A : FVec Ideal S2048x2048 .bf16)
    (B : FVec Ideal S1x512 .f32) (v : Fin 2048) (o : Fin 512) : Ideal .bf16 :=
  max ((∑ u : Fin 2048, A (ix2 v u) * ∑ i : Fin 512, X u i * W (ix2 i o)) + B (ix2 (0 : Fin 1) o)) 0

/-- The layer depends on the batch element, the node and the channel only through their values. -/
theorem layer_congr (X : FVec Ideal S32x2048x512 .bf16) (W : FVec Ideal S512x512 .bf16) (A : FVec Ideal S2048x2048 .bf16)
    (B : FVec Ideal S1x512 .f32) (p p' : Fin 32) (v v' : Fin 2048) (o o' : Fin 512)
    (hp : p.val = p'.val) (hv : v.val = v'.val) (ho : o.val = o'.val) :
    layer (fun u i => X (ix3 p u i)) W A B v o = layer (fun u i => X (ix3 p' u i)) W A B v' o' := by
  obtain rfl := Fin.ext hp
  obtain rfl := Fin.ext hv
  obtain rfl := Fin.ext ho
  rfl

/-- The body's arithmetic at any index of its block is the layer of the block's one batch element. -/
theorem pay_at (x : FVec Ideal S1x2048x512 .bf16) (w : FVec Ideal S512x512 .bf16) (a : FVec Ideal S2048x2048 .bf16) (b : FVec Ideal S1x512 .f32)
    (j : S1x2048x512.Idx) :
    k1_pay1 (F := Ideal) x w a b j = layer (fun u i => x (ix3 (0 : Fin 1) u i)) w a b (j 1) (j 2) := by
  obtain ⟨p0, v, o, rfl⟩ : ∃ (p0 : Fin 1) (v : Fin 2048) (o : Fin 512), j = ix3 p0 v o := ⟨j 0, j 1, j 2, eq_ix3 j⟩
  obtain rfl : p0 = 0 := Subsingleton.elim _ _
  exact pay_apply x w a b v o

variable (V : (c : Dev nD) → (b : Ref sig .tc) → Buf (Elt Ideal) ((c : Thread nD τ).loc b))

/-- The four arrays the region reads, as it finds them, and the array it writes, each at its literal type. -/
abbrev feat (c : Dev nD) : FVec Ideal S32x2048x512 .bf16 := V c main_v49
abbrev wts (c : Dev nD) : FVec Ideal S512x512 .bf16 := V c main_v50
abbrev opr (c : Dev nD) : FVec Ideal S2048x2048 .bf16 := V c main_v42
abbrev bias (c : Dev nD) : FVec Ideal S1x512 .f32 := V c main_v51
abbrev outArr (c : Dev nD) : FVec Ideal S32x2048x512 .bf16 := (dat1 (F := Ideal) V c).arrAt 4 cfg1.N

/-- What the output array ends holding, as one function of the four arrays the region reads. -/
abbrev G (c : Dev nD) : FVec Ideal S32x2048x512 .bf16 := fun j =>
  layer (fun u i => feat V c (ix3 (j 0) u i)) (wts V c) (opr V c) (bias V c) (j 1) (j 2)

/-! ## From the blocks to the array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the features' and the output's blocks are the batch element of the
    point, the other three windows are their whole arrays at every point. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The batch element of a point. -/
def pt (t : Fin cfg1.N) : Fin 32 := ⟨t.val, lt_of_lt_of_eq t.isLt N_1⟩

/-- The features' block at point t is batch element t of the features. -/
theorem feat_blk (c : Dev nD) (t : Fin cfg1.N) :
    (fun (u : Fin 2048) (i : Fin 512) => (iblk1 (F := Ideal) V c 0 t : FVec Ideal S1x2048x512 .bf16) (ix3 (0 : Fin 1) u i))
      = fun u i => feat V c (ix3 (pt t) u i) := by
  obtain ⟨e0, e1, e2, -⟩ := idx_facts t
  funext u i
  unfold iblk1
  show V c main_v49 (((cfg1.win 0).blk t).view.emb (ix3 (0 : Fin 1) u i)) = V c main_v49 (ix3 (pt t) u i)
  refine congrArg (V c main_v49) (funext fun a => Fin.ext ?_)
  match a with
  | ⟨0, _⟩ => show win1_0.index t (0 : Fin 3) * 1 + 1 * 0 = t.val; rw [e0]; omega
  | ⟨1, _⟩ => show win1_0.index t (1 : Fin 3) * 2048 + 1 * u.val = u.val; rw [e1]; omega
  | ⟨2, _⟩ => show win1_0.index t (2 : Fin 3) * 512 + 1 * i.val = i.val; rw [e2]; omega

/-- The weights' block at every point is the whole array. -/
theorem wts_blk (c : Dev nD) (t : Fin cfg1.N) : (iblk1 (F := Ideal) V c 1 t : FVec Ideal S512x512 .bf16) = wts V c := by
  obtain ⟨-, -, -, e0, e1, -⟩ := idx_facts t
  funext y
  unfold iblk1
  show V c main_v50 (((cfg1.win 1).blk t).view.emb y) = V c main_v50 y
  refine congrArg (V c main_v50) (funext fun a => Fin.ext ?_)
  match a with
  | ⟨0, _⟩ => show win1_1.index t (0 : Fin 2) * 512 + 1 * (y 0).val = (y 0).val; rw [e0]; omega
  | ⟨1, _⟩ => show win1_1.index t (1 : Fin 2) * 512 + 1 * (y 1).val = (y 1).val; rw [e1]; omega

/-- The operator's block at every point is the whole array. -/
theorem opr_blk (c : Dev nD) (t : Fin cfg1.N) : (iblk1 (F := Ideal) V c 2 t : FVec Ideal S2048x2048 .bf16) = opr V c := by
  obtain ⟨-, -, -, -, -, e0, e1, -⟩ := idx_facts t
  funext y
  unfold iblk1
  show V c main_v42 (((cfg1.win 2).blk t).view.emb y) = V c main_v42 y
  refine congrArg (V c main_v42) (funext fun a => Fin.ext ?_)
  match a with
  | ⟨0, _⟩ => show win1_2.index t (0 : Fin 2) * 2048 + 1 * (y 0).val = (y 0).val; rw [e0]; omega
  | ⟨1, _⟩ => show win1_2.index t (1 : Fin 2) * 2048 + 1 * (y 1).val = (y 1).val; rw [e1]; omega

/-- The bias row's block at every point is the whole array. -/
theorem bias_blk (c : Dev nD) (t : Fin cfg1.N) : (iblk1 (F := Ideal) V c 3 t : FVec Ideal S1x512 .f32) = bias V c := by
  obtain ⟨-, -, -, -, -, -, -, e0, e1, -⟩ := idx_facts t
  funext y
  unfold iblk1
  show V c main_v51 (((cfg1.win 3).blk t).view.emb y) = V c main_v51 y
  refine congrArg (V c main_v51) (funext fun a => Fin.ext ?_)
  match a with
  | ⟨0, _⟩ => show win1_3.index t (0 : Fin 2) * 1 + 1 * (y 0).val = (y 0).val; rw [e0]; omega
  | ⟨1, _⟩ => show win1_3.index t (1 : Fin 2) * 512 + 1 * (y 1).val = (y 1).val; rw [e1]; omega

/-- What point t writes back is block t of `G`. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz3]
  simp only [View.ld_unit_zero (S := S1x2048x512) hz3, View.ld_unit_zero (S := S512x512) hz2,
    View.ld_unit_zero (S := S2048x2048) hz2, View.ld_unit_zero (S := S1x512) hz2]
  obtain ⟨-, -, -, -, -, -, -, -, -, e0, e1, e2⟩ := idx_facts t
  funext j
  refine (pay_at (iblk1 (F := Ideal) V c 0 t) (iblk1 (F := Ideal) V c 1 t) (iblk1 (F := Ideal) V c 2 t) (iblk1 (F := Ideal) V c 3 t)
    ((cfg1.win 4).xinj (grid1.coords t) j)).trans ?_
  rw [feat_blk V c t, wts_blk V c t, opr_blk V c t, bias_blk V c t]
  refine layer_congr (feat V c) (wts V c) (opr V c) (bias V c) _ _ _ _ _ _ ?_ ?_ ?_
  · show t.val = win1_4.index t (0 : Fin 3) * 1 + 1 * (j 0).val
    have hj : (j 0).val < 1 := (j 0).isLt
    rw [e0]; omega
  · show (j 1).val = win1_4.index t (1 : Fin 3) * 2048 + 1 * (j 1).val
    rw [e1]; omega
  · show (j 2).val = win1_4.index t (2 : Fin 3) * 512 + 1 * (j 2).val
    rw [e2]; omega

/-- An index of the array is in point t's block iff each coordinate is in the block's range on its axis. -/
theorem mem_blk (t : Fin cfg1.N) (i : S32x2048x512.Idx) :
    i ∈ ((cfg1.win 4).blk t).view.set ↔ ∀ a : Fin 3, win1_4.index t a * S1x2048x512.size a ≤ (i a).val ∧ (i a).val < win1_4.index t a * S1x2048x512.size a + S1x2048x512.size a := by
  show i ∈ ((View.whole main_v52).slice (win1_4.rect t)).set ↔ _
  rw [View.set_slice_whole, Rect.mem_set_unit]
  exact Iff.rfl

/-- Every index of the array is in the block of the point of its batch element. -/
theorem cover (i : S32x2048x512.Idx) : ∃ t : Fin cfg1.N, (cfg1.win 4).flush t = true ∧ i ∈ ((cfg1.win 4).blk t).view.set := by
  have hi0 : (i 0).val < 32 := (i 0).isLt
  have hi1 : (i 1).val < 2048 := (i 1).isLt
  have hi2 : (i 2).val < 512 := (i 2).isLt
  obtain ⟨t, ht⟩ : ∃ t : Fin cfg1.N, t.val = (i 0).val := ⟨⟨(i 0).val, lt_of_lt_of_eq hi0 N_1.symm⟩, rfl⟩
  refine ⟨t, flush1_4 t, ?_⟩
  obtain ⟨-, -, -, -, -, -, -, -, -, e0, e1, e2⟩ := idx_facts t
  rw [mem_blk]
  intro a
  match a with
  | ⟨0, _⟩ =>
    show win1_4.index t (0 : Fin 3) * 1 ≤ (i 0).val ∧ (i 0).val < win1_4.index t (0 : Fin 3) * 1 + 1
    rw [e0]; omega
  | ⟨1, _⟩ =>
    show win1_4.index t (1 : Fin 3) * 2048 ≤ (i 1).val ∧ (i 1).val < win1_4.index t (1 : Fin 3) * 2048 + 2048
    rw [e1]; omega
  | ⟨2, _⟩ =>
    show win1_4.index t (2 : Fin 3) * 512 ≤ (i 2).val ∧ (i 2).val < win1_4.index t (2 : Fin 3) * 512 + 512
    rw [e2]; omega

/-- The output array after the region's last point is `G`. -/
theorem final (c : Dev nD) : (dat1 (F := Ideal) V c).arrAt 4 cfg1.N = G V c :=
  (dat1 (F := Ideal) V c).arrAt_eq_of_cover 4 (G V c) (fun t _ => flushed_eq V c t) cover

/-- Region 1 (a graph layer followed by max(·, 0)) leaves in its output array, at batch element p, node v and channel o: the sum
    over the nodes u of the operator's entry (v, u) times the features of node u of batch element p contracted with
    column o of the weights, plus entry o of the bias row, then the maximum with 0. -/
theorem region1_apply (c : Dev nD) (p : Fin 32) (v : Fin 2048) (o : Fin 512) :
    outArr V c (ix3 p v o)
      = max ((∑ u : Fin 2048, opr V c (ix2 v u) * ∑ i : Fin 512, feat V c (ix3 p u i) * wts V c (ix2 i o)) + bias V c (ix2 (0 : Fin 1) o)) 0 := by
  exact congrFun (final V c) (ix3 p v o)

end Cert.KernelIdeal.Region1

end
-- ==== Proof.Region2.lean ====
/-
  What region 2 of the kernel's program leaves in its output array, element by element.
-/
import proofs.«175376_j67851893342527_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The two contractions' operand indices, axis by axis -/

theorem lhs_xw_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_xw_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_xw_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_xw_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

theorem lhs_ah_0 (i : S2048x512.Idx) (q : dot_S2048x2048_S2048x512_S2048x512_1_0_0_1_n_n.contr.Idx) :
    (dot_S2048x2048_S2048x512_S2048x512_1_0_0_1_n_n.lhsIdx i q 0).val = (i 0).val := by
  unfold DotDims.lhsIdx
  rw [dif_neg (show ¬(0 : Fin S2048x2048.rank) ∈ dot_S2048x2048_S2048x512_S2048x512_1_0_0_1_n_n.lhsBatch by decide), dif_pos (show (0 : Fin S2048x2048.rank) ∈ dot_S2048x2048_S2048x512_S2048x512_1_0_0_1_n_n.lhsNonContracting by decide)]
  rfl
theorem lhs_ah_1 (i : S2048x512.Idx) (q : dot_S2048x2048_S2048x512_S2048x512_1_0_0_1_n_n.contr.Idx) :
    (dot_S2048x2048_S2048x512_S2048x512_1_0_0_1_n_n.lhsIdx i q 1).val = (q ⟨0, by decide⟩).val :=
  dot_S2048x2048_S2048x512_S2048x512_1_0_0_1_n_n.lhsIdx_val_of_single rfl i q
theorem rhs_ah_0 (i : S2048x512.Idx) (q : dot_S2048x2048_S2048x512_S2048x512_1_0_0_1_n_n.contr.Idx) :
    (dot_S2048x2048_S2048x512_S2048x512_1_0_0_1_n_n.rhsIdx i q 0).val = (q ⟨0, by decide⟩).val :=
  dot_S2048x2048_S2048x512_S2048x512_1_0_0_1_n_n.rhsIdx_val_of_single rfl i q
theorem rhs_ah_1 (i : S2048x512.Idx) (q : dot_S2048x2048_S2048x512_S2048x512_1_0_0_1_n_n.contr.Idx) :
    (dot_S2048x2048_S2048x512_S2048x512_1_0_0_1_n_n.rhsIdx i q 1).val = (i 1).val := by
  unfold DotDims.rhsIdx
  rw [dif_neg (show ¬(1 : Fin S2048x512.rank) ∈ dot_S2048x2048_S2048x512_S2048x512_1_0_0_1_n_n.rhsBatch by decide), dif_pos (show (1 : Fin S2048x512.rank) ∈ dot_S2048x2048_S2048x512_S2048x512_1_0_0_1_n_n.rhsNonContracting by decide)]
  rfl

/-! ## The two contractions at an element -/

/-- The features-by-weights product into a zero accumulator, at (u, o): the sum over the 512 input channels. -/
theorem matmul_xw_apply (x : FVec Ideal S2048x512 .bf16) (w : FVec Ideal S512x512 .bf16) (u : Fin 2048) (o : Fin 512) :
    matmul dot_S2048x512_S512x512_S2048x512_1_0_0_1_n_n none x w (constant (F := Ideal) S2048x512 .f32 0x00000000#32) (ix2 u o)
      = ∑ i : Fin 512, x (ix2 u i) * w (ix2 i o) := by
  show FloatOps.matmul dot_S2048x512_S512x512_S2048x512_1_0_0_1_n_n none x w (constant (F := Ideal) S2048x512 .f32 0x00000000#32) (ix2 u o) = _
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 u o) ((contrEquiv1 dot_S2048x512_S512x512_S2048x512_1_0_0_1_n_n 512 rfl rfl).symm k) = ix2 u k := funext fun a => Fin.ext (by
    match a with
    | ⟨0, _⟩ => exact lhs_xw_0 _ _
    | ⟨1, _⟩ => exact (lhs_xw_1 _ _).trans hk)
  have er : dot_S2048x512_S512x512_S2048x512_1_0_0_1_n_n.rhsIdx (ix2 u o) ((contrEquiv1 dot_S2048x512_S512x512_S2048x512_1_0_0_1_n_n 512 rfl rfl).symm k) = ix2 k o := funext fun a => Fin.ext (by
    match a with
    | ⟨0, _⟩ => exact (rhs_xw_0 _ _).trans hk
    | ⟨1, _⟩ => exact rhs_xw_1 _ _)
  rw [el, er]

/-- The operator-by-transformed-features product into a zero accumulator, at (v, o): the sum over the 2048 nodes. -/
theorem matmul_ah_apply (a : FVec Ideal S2048x2048 .bf16) (h : FVec Ideal S2048x512 .bf16) (v : Fin 2048) (o : Fin 512) :
    matmul dot_S2048x2048_S2048x512_S2048x512_1_0_0_1_n_n none a h (constant (F := Ideal) S2048x512 .f32 0x00000000#32) (ix2 v o)
      = ∑ u : Fin 2048, a (ix2 v u) * h (ix2 u o) := by
  show FloatOps.matmul dot_S2048x2048_S2048x512_S2048x512_1_0_0_1_n_n none a h (constant (F := Ideal) S2048x512 .f32 0x00000000#32) (ix2 v o) = _
  rw [Ideal.matmul_constant_zero_apply, ← Equiv.sum_comp (contrEquiv1 dot_S2048x2048_S2048x512_S2048x512_1_0_0_1_n_n 2048 rfl rfl).symm]
  refine Finset.sum_congr rfl fun k _ => ?_
  have hk := contrEquiv1_symm_val dot_S2048x2048_S2048x512_S2048x512_1_0_0_1_n_n 2048 rfl rfl k
  have el : dot_S2048x2048_S2048x512_S2048x512_1_0_0_1_n_n.lhsIdx (ix2 v o) ((contrEquiv1 dot_S2048x2048_S2048x512_S2048x512_1_0_0_1_n_n 2048 rfl rfl).symm k) = ix2 v k := funext fun b => Fin.ext (by
    match b with
    | ⟨0, _⟩ => exact lhs_ah_0 _ _
    | ⟨1, _⟩ => exact (lhs_ah_1 _ _).trans hk)
  have er : dot_S2048x2048_S2048x512_S2048x512_1_0_0_1_n_n.rhsIdx (ix2 v o) ((contrEquiv1 dot_S2048x2048_S2048x512_S2048x512_1_0_0_1_n_n 2048 rfl rfl).symm k) = ix2 k o := funext fun b => Fin.ext (by
    match b with
    | ⟨0, _⟩ => exact (rhs_ah_0 _ _).trans hk
    | ⟨1, _⟩ => exact rhs_ah_1 _ _)
  rw [el, er]

/-! ## The body's arithmetic at an element -/

/-- One block of the layer at (0, v, o): the operator's row v against the transformed features' column o, plus the
    bias. The two roundings to bf16 are the identity on extended reals. -/
theorem pay_apply (x : FVec Ideal S1x2048x512 .bf16) (w : FVec Ideal S512x512 .bf16) (a : FVec Ideal S2048x2048 .bf16)
    (b : FVec Ideal S1x512 .f32) (v : Fin 2048) (o : Fin 512) :
    (k2_pay1 (F := Ideal) x w a b) (ix3 (0 : Fin 1) v o)
      = (∑ u : Fin 2048, a (ix2 v u) * ∑ i : Fin 512, x (ix3 (0 : Fin 1) u i) * w (ix2 i o)) + b (ix2 (0 : Fin 1) o) := by
  unfold k2_pay1
  rw [shapeCast_ab_1ab_apply, truncf_apply, addf_apply, matmul_ah_apply, broadcastTo_1b_ab_apply]
  simp only [shapeCast_self]
  congr 1
  refine Finset.sum_congr rfl fun u _ => ?_
  rw [truncf_apply, matmul_xw_apply]
  congr 1
  refine Finset.sum_congr rfl fun i _ => ?_
  rw [shapeCast_1ab_ab_apply]

variable (V : (c : Dev nD) → (b : Ref sig .tc) → Buf (Elt Ideal) ((c : Thread nD τ).loc b))

/-- The four arrays the region reads, as it finds them, and the array it writes, each at its literal type. -/
abbrev feat (c : Dev nD) : FVec Ideal S32x2048x512 .bf16 := V c main_v52
abbrev wts (c : Dev nD) : FVec Ideal S512x512 .bf16 := V c main_v53
abbrev opr (c : Dev nD) : FVec Ideal S2048x2048 .bf16 := V c main_v42
abbrev bias (c : Dev nD) : FVec Ideal S1x512 .f32 := V c main_v54
abbrev outArr (c : Dev nD) : FVec Ideal S32x2048x512 .bf16 := (dat2 (F := Ideal) V c).arrAt 4 cfg2.N

/-! ## Each window's block at a grid point -/

theorem zero3 : (![0, 0, 0] : Fin 3 → Nat) = fun _ => 0 := funext fun a => by fin_cases a <;> rfl
theorem zero2 : (![0, 0] : Fin 2 → Nat) = fun _ => 0 := funext fun a => by fin_cases a <;> rfl

/-- The grid has one point per batch element. -/
theorem N_eq : cfg2.N = 32 := by decide

/-- The index maps over the grid: the features' and the output's blocks move with the point along the batch axis; the
    weights, the operator and the bias are whole at every point. -/
theorem idx_facts : ∀ t : Fin cfg2.N,
    win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val ∧ win2_4.index t (1 : Fin 3) = 0 ∧ win2_4.index t (2 : Fin 3) = 0 :=
  (by decide +kernel : ∀ t : Fin grid2.N, _)

/-- The features' block at point t is batch element t. -/
theorem feat_blk (c : Dev nD) (t : Fin cfg2.N) (z : S1x2048x512.Idx) :
    iblk2 (F := Ideal) V c 0 t z = feat V c (ix3 (Fin.cast N_eq t) (z 1) (z 2)) := by
  obtain ⟨e0, e1, e2, -⟩ := idx_facts t
  unfold iblk2
  show V c main_v52 (((cfg2.win 0).blk t).view.emb z) = V c main_v52 (ix3 (Fin.cast N_eq t) (z 1) (z 2))
  congr 1
  funext a; apply Fin.ext
  match a with
  | ⟨0, _⟩ => show win2_0.index t (0 : Fin 3) * 1 + 1 * (z 0).val = t.val; have hz : (z 0).val < 1 := (z 0).isLt; omega
  | ⟨1, _⟩ => show win2_0.index t (1 : Fin 3) * 2048 + 1 * (z 1).val = (z 1).val; omega
  | ⟨2, _⟩ => show win2_0.index t (2 : Fin 3) * 512 + 1 * (z 2).val = (z 2).val; omega

/-- The weights' block is the whole array. -/
theorem wts_blk (c : Dev nD) (t : Fin cfg2.N) (z : S512x512.Idx) : iblk2 (F := Ideal) V c 1 t z = wts V c z := by
  obtain ⟨-, -, -, e0, e1, -⟩ := idx_facts t
  unfold iblk2
  show V c main_v53 (((cfg2.win 1).blk t).view.emb z) = V c main_v53 z
  congr 1
  funext a; apply Fin.ext
  match a with
  | ⟨0, _⟩ => show win2_1.index t (0 : Fin 2) * 512 + 1 * (z 0).val = (z 0).val; omega
  | ⟨1, _⟩ => show win2_1.index t (1 : Fin 2) * 512 + 1 * (z 1).val = (z 1).val; omega

/-- The operator's block is the whole array. -/
theorem opr_blk (c : Dev nD) (t : Fin cfg2.N) (z : S2048x2048.Idx) : iblk2 (F := Ideal) V c 2 t z = opr V c z := by
  obtain ⟨-, -, -, -, -, e0, e1, -⟩ := idx_facts t
  unfold iblk2
  show V c main_v42 (((cfg2.win 2).blk t).view.emb z) = V c main_v42 z
  congr 1
  funext a; apply Fin.ext
  match a with
  | ⟨0, _⟩ => show win2_2.index t (0 : Fin 2) * 2048 + 1 * (z 0).val = (z 0).val; omega
  | ⟨1, _⟩ => show win2_2.index t (1 : Fin 2) * 2048 + 1 * (z 1).val = (z 1).val; omega

/-- The bias's block is the whole row. -/
theorem bias_blk (c : Dev nD) (t : Fin cfg2.N) (z : S1x512.Idx) : iblk2 (F := Ideal) V c 3 t z = bias V c z := by
  obtain ⟨-, -, -, -, -, -, -, e0, e1, -⟩ := idx_facts t
  unfold iblk2
  show V c main_v54 (((cfg2.win 3).blk t).view.emb z) = V c main_v54 z
  congr 1
  funext a; apply Fin.ext
  match a with
  | ⟨0, _⟩ => show win2_3.index t (0 : Fin 2) * 1 + 1 * (z 0).val = (z 0).val; omega
  | ⟨1, _⟩ => show win2_3.index t (1 : Fin 2) * 512 + 1 * (z 1).val = (z 1).val; omega

/-! ## What a grid point writes back, and the array after the last point -/

/-- The layer at batch element p, node v and channel o, of the arrays as the region finds them. -/
def layer (c : Dev nD) (p : Fin 32) (v : Fin 2048) (o : Fin 512) : EReal :=
  (∑ u : Fin 2048, opr V c (ix2 v u) * ∑ i : Fin 512, feat V c (ix3 p u i) * wts V c (ix2 i o)) + bias V c (ix2 (0 : Fin 1) o)

theorem layer_congr (c : Dev nD) {p p' : Fin 32} {v v' : Fin 2048} {o o' : Fin 512} (hp : p.val = p'.val)
    (hv : v.val = v'.val) (ho : o.val = o'.val) : layer V c p v o = layer V c p' v' o' := by
  obtain rfl := Fin.ext hp
  obtain rfl := Fin.ext hv
  obtain rfl := Fin.ext ho
  rfl

/-- The output array the region leaves, as one function of its index. -/
def G (c : Dev nD) : S32x2048x512.Idx → Ideal .bf16 :=
  fun j => layer V c ⟨(j 0).val, (j 0).isLt⟩ ⟨(j 1).val, (j 1).isLt⟩ ⟨(j 2).val, (j 2).isLt⟩

/-- The body's result at point t, element (0, v, o), is the layer at batch element t. -/
theorem pay_eq_layer (c : Dev nD) (t : Fin cfg2.N) (y : S1x2048x512.Idx) :
    k2_pay1 (F := Ideal) (iblk2 (F := Ideal) V c 0 t) (iblk2 (F := Ideal) V c 1 t) (iblk2 (F := Ideal) V c 2 t)
        (iblk2 (F := Ideal) V c 3 t) y
      = layer V c (Fin.cast N_eq t) (y 1) (y 2) := by
  obtain ⟨u0, v, o, rfl⟩ : ∃ (u0 : Fin 1) (v : Fin 2048) (o : Fin 512), y = ix3 u0 v o := ⟨y 0, y 1, y 2, eq_ix3 y⟩
  obtain rfl : u0 = 0 := Subsingleton.elim _ _
  refine (pay_apply _ _ _ _ v o).trans ?_
  unfold layer
  simp only [feat_blk, wts_blk, opr_blk, bias_blk]

/-- What point t writes back is block t of that function. -/
theorem flushed_eq (c : Dev nD) (t : Fin cfg2.N) :
    (dat2 (F := Ideal) V c).flushed 4 t = ((cfg2.win 4).blk t).view.read (Elt Ideal) (G V c) := by
  show (cfg2.win 4).cut (grid2.coords t) ((dat2 (F := Ideal) V c).after 4 t) = _
  rw [after2_4]
  unfold out2_4
  rw [View.canon_unit_zero zero3]
  simp only [View.ld_unit_zero (S := S1x2048x512) zero3, View.ld_unit_zero (S := S512x512) zero2,
    View.ld_unit_zero (S := S2048x2048) zero2, View.ld_unit_zero (S := S1x512) zero2]
  obtain ⟨-, -, -, -, -, -, -, -, -, e0, e1, e2⟩ := idx_facts t
  funext y
  show k2_pay1 (F := Ideal) (iblk2 (F := Ideal) V c 0 t) (iblk2 (F := Ideal) V c 1 t) (iblk2 (F := Ideal) V c 2 t)
      (iblk2 (F := Ideal) V c 3 t) y = G V c (((cfg2.win 4).blk t).view.emb y)
  refine (pay_eq_layer V c t y).trans ?_
  unfold G
  refine layer_congr V c ?_ ?_ ?_
  · show t.val = win2_4.index t (0 : Fin 3) * 1 + 1 * (y 0).val
    have hy : (y 0).val < 1 := (y 0).isLt
    omega
  · show (y 1).val = win2_4.index t (1 : Fin 3) * 2048 + 1 * (y 1).val
    omega
  · show (y 2).val = win2_4.index t (2 : Fin 3) * 512 + 1 * (y 2).val
    omega

/-- An index of the output array is in point t's block iff each coordinate is in the block's range on its axis. -/
theorem mem_blk (t : Fin cfg2.N) (i : S32x2048x512.Idx) :
    i ∈ ((cfg2.win 4).blk t).view.set ↔ ∀ a : Fin 3, win2_4.index t a * S1x2048x512.size a ≤ (i a).val
      ∧ (i a).val < win2_4.index t a * S1x2048x512.size a + S1x2048x512.size a := by
  show i ∈ ((View.whole main_v55).slice (win2_4.rect t)).set ↔ _
  rw [View.set_slice_whole, Rect.mem_set_unit]
  exact Iff.rfl

/-- Every index of the output array is in the block of the point of its batch element. -/
theorem cover (i : S32x2048x512.Idx) :
    ∃ t : Fin cfg2.N, (cfg2.win 4).flush t = true ∧ i ∈ ((cfg2.win 4).blk t).view.set := by
  have hi0 : (i 0).val < 32 := (i 0).isLt
  have hi1 : (i 1).val < 2048 := (i 1).isLt
  have hi2 : (i 2).val < 512 := (i 2).isLt
  have ht : (i 0).val < cfg2.N := by rw [N_eq]; exact hi0
  refine ⟨⟨(i 0).val, ht⟩, flush2_4 _, ?_⟩
  rw [mem_blk]
  obtain ⟨-, -, -, -, -, -, -, -, -, e0', e1, e2⟩ := idx_facts ⟨(i 0).val, ht⟩
  have e0 : win2_4.index ⟨(i 0).val, ht⟩ (0 : Fin 3) = (i 0).val := e0'
  intro a
  match a with
  | ⟨0, _⟩ =>
    show win2_4.index ⟨(i 0).val, ht⟩ (0 : Fin 3) * 1 ≤ (i 0).val
      ∧ (i 0).val < win2_4.index ⟨(i 0).val, ht⟩ (0 : Fin 3) * 1 + 1
    rw [e0]; omega
  | ⟨1, _⟩ =>
    show win2_4.index ⟨(i 0).val, ht⟩ (1 : Fin 3) * 2048 ≤ (i 1).val
      ∧ (i 1).val < win2_4.index ⟨(i 0).val, ht⟩ (1 : Fin 3) * 2048 + 2048
    rw [e1]; omega
  | ⟨2, _⟩ =>
    show win2_4.index ⟨(i 0).val, ht⟩ (2 : Fin 3) * 512 ≤ (i 2).val
      ∧ (i 2).val < win2_4.index ⟨(i 0).val, ht⟩ (2 : Fin 3) * 512 + 512
    rw [e2]; omega

/-- The output array after the region's last point is that function. -/
theorem outArr_eq (c : Dev nD) : outArr V c = G V c :=
  (dat2 (F := Ideal) V c).arrAt_eq_of_cover 4 (G V c) (fun t _ => flushed_eq V c t) cover

/-- Region 2 (a graph layer) leaves in its output array, at batch element p, node v and channel o: the sum
    over the nodes u of the operator's entry (v, u) times the features of node u of batch element p contracted with
    column o of the weights, plus entry o of the bias row. -/
theorem region2_apply (c : Dev nD) (p : Fin 32) (v : Fin 2048) (o : Fin 512) :
    outArr V c (ix3 p v o)
      = (∑ u : Fin 2048, opr V c (ix2 v u) * ∑ i : Fin 512, feat V c (ix3 p u i) * wts V c (ix2 i o)) + bias V c (ix2 (0 : Fin 1) o) := by
  rw [outArr_eq]
  rfl

end Cert.KernelIdeal.Region2

end
-- ==== Proof.Region3.lean ====
/-
  What region 3 of the kernel's program leaves in its output array, element by element.
-/
import proofs.«175376_j67851893342527_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's arithmetic at an index -/

theorem fw_lhs_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem fw_lhs_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem fw_rhs_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem fw_rhs_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

theorem ah_lhs_0 (i : S2048x512.Idx) (q : dot_S2048x2048_S2048x512_S2048x512_1_0_0_1_n_n.contr.Idx) :
    (dot_S2048x2048_S2048x512_S2048x512_1_0_0_1_n_n.lhsIdx i q 0).val = (i 0).val := by
  unfold DotDims.lhsIdx
  rw [dif_neg (show ¬(0 : Fin S2048x2048.rank) ∈ dot_S2048x2048_S2048x512_S2048x512_1_0_0_1_n_n.lhsBatch by decide), dif_pos (show (0 : Fin S2048x2048.rank) ∈ dot_S2048x2048_S2048x512_S2048x512_1_0_0_1_n_n.lhsNonContracting by decide)]
  rfl
theorem ah_lhs_1 (i : S2048x512.Idx) (q : dot_S2048x2048_S2048x512_S2048x512_1_0_0_1_n_n.contr.Idx) :
    (dot_S2048x2048_S2048x512_S2048x512_1_0_0_1_n_n.lhsIdx i q 1).val = (q ⟨0, by decide⟩).val :=
  dot_S2048x2048_S2048x512_S2048x512_1_0_0_1_n_n.lhsIdx_val_of_single rfl i q
theorem ah_rhs_0 (i : S2048x512.Idx) (q : dot_S2048x2048_S2048x512_S2048x512_1_0_0_1_n_n.contr.Idx) :
    (dot_S2048x2048_S2048x512_S2048x512_1_0_0_1_n_n.rhsIdx i q 0).val = (q ⟨0, by decide⟩).val :=
  dot_S2048x2048_S2048x512_S2048x512_1_0_0_1_n_n.rhsIdx_val_of_single rfl i q
theorem ah_rhs_1 (i : S2048x512.Idx) (q : dot_S2048x2048_S2048x512_S2048x512_1_0_0_1_n_n.contr.Idx) :
    (dot_S2048x2048_S2048x512_S2048x512_1_0_0_1_n_n.rhsIdx i q 1).val = (i 1).val := by
  unfold DotDims.rhsIdx
  rw [dif_neg (show ¬(1 : Fin S2048x512.rank) ∈ dot_S2048x2048_S2048x512_S2048x512_1_0_0_1_n_n.rhsBatch by decide), dif_pos (show (1 : Fin S2048x512.rank) ∈ dot_S2048x2048_S2048x512_S2048x512_1_0_0_1_n_n.rhsNonContracting by decide)]
  rfl

/-- The first product, features times weights, at row r and column o: the sum over the contracted channel. -/
theorem featWts_apply (x : FVec Ideal S2048x512 .bf16) (w : FVec Ideal S512x512 .bf16) (r : Fin 2048) (o : Fin 512) :
    FloatOps.matmul dot_S2048x512_S512x512_S2048x512_1_0_0_1_n_n none x w (constant (F := Ideal) S2048x512 .f32 0x00000000#32) (ix2 r o)
      = ∑ k : Fin 512, x (ix2 r k) * w (ix2 k o) := by
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r o) ((contrEquiv1 dot_S2048x512_S512x512_S2048x512_1_0_0_1_n_n 512 rfl rfl).symm k) = ix2 r k := funext fun a => Fin.ext (by
    match a with
    | ⟨0, _⟩ => exact fw_lhs_0 _ _
    | ⟨1, _⟩ => exact (fw_lhs_1 _ _).trans hk)
  have er : dot_S2048x512_S512x512_S2048x512_1_0_0_1_n_n.rhsIdx (ix2 r o) ((contrEquiv1 dot_S2048x512_S512x512_S2048x512_1_0_0_1_n_n 512 rfl rfl).symm k) = ix2 k o := funext fun a => Fin.ext (by
    match a with
    | ⟨0, _⟩ => exact (fw_rhs_0 _ _).trans hk
    | ⟨1, _⟩ => exact fw_rhs_1 _ _)
  rw [el, er]

/-- The second product, operator times transformed features, at row r and column o: the sum over the contracted node. -/
theorem oprHidden_apply (x : FVec Ideal S2048x2048 .bf16) (w : FVec Ideal S2048x512 .bf16) (r : Fin 2048) (o : Fin 512) :
    FloatOps.matmul dot_S2048x2048_S2048x512_S2048x512_1_0_0_1_n_n none x w (constant (F := Ideal) S2048x512 .f32 0x00000000#32) (ix2 r o)
      = ∑ k : Fin 2048, x (ix2 r k) * w (ix2 k o) := by
  rw [Ideal.matmul_constant_zero_apply, ← Equiv.sum_comp (contrEquiv1 dot_S2048x2048_S2048x512_S2048x512_1_0_0_1_n_n 2048 rfl rfl).symm]
  refine Finset.sum_congr rfl fun k _ => ?_
  have hk := contrEquiv1_symm_val dot_S2048x2048_S2048x512_S2048x512_1_0_0_1_n_n 2048 rfl rfl k
  have el : dot_S2048x2048_S2048x512_S2048x512_1_0_0_1_n_n.lhsIdx (ix2 r o) ((contrEquiv1 dot_S2048x2048_S2048x512_S2048x512_1_0_0_1_n_n 2048 rfl rfl).symm k) = ix2 r k := funext fun a => Fin.ext (by
    match a with
    | ⟨0, _⟩ => exact ah_lhs_0 _ _
    | ⟨1, _⟩ => exact (ah_lhs_1 _ _).trans hk)
  have er : dot_S2048x2048_S2048x512_S2048x512_1_0_0_1_n_n.rhsIdx (ix2 r o) ((contrEquiv1 dot_S2048x2048_S2048x512_S2048x512_1_0_0_1_n_n 2048 rfl rfl).symm k) = ix2 k o := funext fun a => Fin.ext (by
    match a with
    | ⟨0, _⟩ => exact (ah_rhs_0 _ _).trans hk
    | ⟨1, _⟩ => exact ah_rhs_1 _ _)
  rw [el, er]

/-- The body's whole arithmetic at node v and channel o of its one batch element. -/
theorem pay_apply (x : FVec Ideal S1x2048x512 .bf16) (w : FVec Ideal S512x512 .bf16) (a : FVec Ideal S2048x2048 .bf16) (b : FVec Ideal S1x512 .f32)
    (v : Fin 2048) (o : Fin 512) :
    k3_pay1 (F := Ideal) x w a b (ix3 (0 : Fin 1) v o)
      = max ((∑ u : Fin 2048, a (ix2 v u) * ∑ i : Fin 512, x (ix3 (0 : Fin 1) u i) * w (ix2 i o)) + b (ix2 (0 : Fin 1) o)) 0 := by
  unfold k3_pay1
  rw [shapeCast_ab_1ab_apply, truncf_apply, maximumf_apply, addf_apply, broadcast_apply, broadcastTo_1b_ab_apply]
  simp only [shapeCast_self, matmul]
  rw [oprHidden_apply]
  have e0 : (FloatOps.ofBits (F := Ideal) .f32 0x00000000#32 : Ideal .f32) = 0 := Ideal.ofBits_zero_f32
  rw [e0]
  refine congrArg (fun z => max (z + b (ix2 (0 : Fin 1) o)) 0) (Finset.sum_congr rfl fun u _ => ?_)
  rw [truncf_apply, featWts_apply]
  refine congrArg (fun z => a (ix2 v u) * z) (Finset.sum_congr rfl fun i _ => ?_)
  rw [shapeCast_1ab_ab_apply]

/-! ## The layer as one function of the arrays -/

/-- One graph layer followed by max(·, 0), for one batch element whose features are `X`: at node v and channel o, the sum over
    the nodes u of the operator's entry (v, u) times the features of node u contracted with column o of the weights,
    plus entry o of the bias row, then the maximum with 0. -/
def layer (X : Fin 2048 → Fin 512 → Ideal .bf16) (W : FVec Ideal S512x512 .bf16) (A : FVec Ideal S2048x2048 .bf16)
    (B : FVec Ideal S1x512 .f32) (v : Fin 2048) (o : Fin 512) : Ideal .bf16 :=
  max ((∑ u : Fin 2048, A (ix2 v u) * ∑ i : Fin 512, X u i * W (ix2 i o)) + B (ix2 (0 : Fin 1) o)) 0

/-- The layer depends on the batch element, the node and the channel only through their values. -/
theorem layer_congr (X : FVec Ideal S32x2048x512 .bf16) (W : FVec Ideal S512x512 .bf16) (A : FVec Ideal S2048x2048 .bf16)
    (B : FVec Ideal S1x512 .f32) (p p' : Fin 32) (v v' : Fin 2048) (o o' : Fin 512)
    (hp : p.val = p'.val) (hv : v.val = v'.val) (ho : o.val = o'.val) :
    layer (fun u i => X (ix3 p u i)) W A B v o = layer (fun u i => X (ix3 p' u i)) W A B v' o' := by
  obtain rfl := Fin.ext hp
  obtain rfl := Fin.ext hv
  obtain rfl := Fin.ext ho
  rfl

/-- The body's arithmetic at any index of its block is the layer of the block's one batch element. -/
theorem pay_at (x : FVec Ideal S1x2048x512 .bf16) (w : FVec Ideal S512x512 .bf16) (a : FVec Ideal S2048x2048 .bf16) (b : FVec Ideal S1x512 .f32)
    (j : S1x2048x512.Idx) :
    k3_pay1 (F := Ideal) x w a b j = layer (fun u i => x (ix3 (0 : Fin 1) u i)) w a b (j 1) (j 2) := by
  obtain ⟨p0, v, o, rfl⟩ : ∃ (p0 : Fin 1) (v : Fin 2048) (o : Fin 512), j = ix3 p0 v o := ⟨j 0, j 1, j 2, eq_ix3 j⟩
  obtain rfl : p0 = 0 := Subsingleton.elim _ _
  exact pay_apply x w a b v o

variable (V : (c : Dev nD) → (b : Ref sig .tc) → Buf (Elt Ideal) ((c : Thread nD τ).loc b))

/-- The four arrays the region reads, as it finds them, and the array it writes, each at its literal type. -/
abbrev feat (c : Dev nD) : FVec Ideal S32x2048x512 .bf16 := V c main_v55
abbrev wts (c : Dev nD) : FVec Ideal S512x512 .bf16 := V c main_v56
abbrev opr (c : Dev nD) : FVec Ideal S2048x2048 .bf16 := V c main_v42
abbrev bias (c : Dev nD) : FVec Ideal S1x512 .f32 := V c main_v57
abbrev outArr (c : Dev nD) : FVec Ideal S32x2048x512 .bf16 := (dat3 (F := Ideal) V c).arrAt 4 cfg3.N

/-- What the output array ends holding, as one function of the four arrays the region reads. -/
abbrev G (c : Dev nD) : FVec Ideal S32x2048x512 .bf16 := fun j =>
  layer (fun u i => feat V c (ix3 (j 0) u i)) (wts V c) (opr V c) (bias V c) (j 1) (j 2)

/-! ## From the blocks to the array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the features' and the output's blocks are the batch element of the
    point, the other three windows are their whole arrays at every point. -/
theorem idx_facts : ∀ t : Fin cfg3.N,
    win3_0.index t (0 : Fin 3) = t.val ∧ win3_0.index t (1 : Fin 3) = 0 ∧ win3_0.index t (2 : Fin 3) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 3) = t.val ∧ win3_4.index t (1 : Fin 3) = 0 ∧ win3_4.index t (2 : Fin 3) = 0 :=
  (by decide +kernel : ∀ t : Fin grid3.N, _)

/-- The batch element of a point. -/
def pt (t : Fin cfg3.N) : Fin 32 := ⟨t.val, lt_of_lt_of_eq t.isLt N_3⟩

/-- The features' block at point t is batch element t of the features. -/
theorem feat_blk (c : Dev nD) (t : Fin cfg3.N) :
    (fun (u : Fin 2048) (i : Fin 512) => (iblk3 (F := Ideal) V c 0 t : FVec Ideal S1x2048x512 .bf16) (ix3 (0 : Fin 1) u i))
      = fun u i => feat V c (ix3 (pt t) u i) := by
  obtain ⟨e0, e1, e2, -⟩ := idx_facts t
  funext u i
  unfold iblk3
  show V c main_v55 (((cfg3.win 0).blk t).view.emb (ix3 (0 : Fin 1) u i)) = V c main_v55 (ix3 (pt t) u i)
  refine congrArg (V c main_v55) (funext fun a => Fin.ext ?_)
  match a with
  | ⟨0, _⟩ => show win3_0.index t (0 : Fin 3) * 1 + 1 * 0 = t.val; rw [e0]; omega
  | ⟨1, _⟩ => show win3_0.index t (1 : Fin 3) * 2048 + 1 * u.val = u.val; rw [e1]; omega
  | ⟨2, _⟩ => show win3_0.index t (2 : Fin 3) * 512 + 1 * i.val = i.val; rw [e2]; omega

/-- The weights' block at every point is the whole array. -/
theorem wts_blk (c : Dev nD) (t : Fin cfg3.N) : (iblk3 (F := Ideal) V c 1 t : FVec Ideal S512x512 .bf16) = wts V c := by
  obtain ⟨-, -, -, e0, e1, -⟩ := idx_facts t
  funext y
  unfold iblk3
  show V c main_v56 (((cfg3.win 1).blk t).view.emb y) = V c main_v56 y
  refine congrArg (V c main_v56) (funext fun a => Fin.ext ?_)
  match a with
  | ⟨0, _⟩ => show win3_1.index t (0 : Fin 2) * 512 + 1 * (y 0).val = (y 0).val; rw [e0]; omega
  | ⟨1, _⟩ => show win3_1.index t (1 : Fin 2) * 512 + 1 * (y 1).val = (y 1).val; rw [e1]; omega

/-- The operator's block at every point is the whole array. -/
theorem opr_blk (c : Dev nD) (t : Fin cfg3.N) : (iblk3 (F := Ideal) V c 2 t : FVec Ideal S2048x2048 .bf16) = opr V c := by
  obtain ⟨-, -, -, -, -, e0, e1, -⟩ := idx_facts t
  funext y
  unfold iblk3
  show V c main_v42 (((cfg3.win 2).blk t).view.emb y) = V c main_v42 y
  refine congrArg (V c main_v42) (funext fun a => Fin.ext ?_)
  match a with
  | ⟨0, _⟩ => show win3_2.index t (0 : Fin 2) * 2048 + 1 * (y 0).val = (y 0).val; rw [e0]; omega
  | ⟨1, _⟩ => show win3_2.index t (1 : Fin 2) * 2048 + 1 * (y 1).val = (y 1).val; rw [e1]; omega

/-- The bias row's block at every point is the whole array. -/
theorem bias_blk (c : Dev nD) (t : Fin cfg3.N) : (iblk3 (F := Ideal) V c 3 t : FVec Ideal S1x512 .f32) = bias V c := by
  obtain ⟨-, -, -, -, -, -, -, e0, e1, -⟩ := idx_facts t
  funext y
  unfold iblk3
  show V c main_v57 (((cfg3.win 3).blk t).view.emb y) = V c main_v57 y
  refine congrArg (V c main_v57) (funext fun a => Fin.ext ?_)
  match a with
  | ⟨0, _⟩ => show win3_3.index t (0 : Fin 2) * 1 + 1 * (y 0).val = (y 0).val; rw [e0]; omega
  | ⟨1, _⟩ => show win3_3.index t (1 : Fin 2) * 512 + 1 * (y 1).val = (y 1).val; rw [e1]; omega

/-- What point t writes back is block t of `G`. -/
theorem flushed_eq (c : Dev nD) (t : Fin cfg3.N) :
    (dat3 (F := Ideal) V c).flushed 4 t = ((cfg3.win 4).blk t).view.read (Elt Ideal) (G V c) := by
  show (cfg3.win 4).cut (grid3.coords t) ((dat3 (F := Ideal) V c).after 4 t) = _
  rw [after3_4]
  unfold out3_4
  rw [View.canon_unit_zero hz3]
  simp only [View.ld_unit_zero (S := S1x2048x512) hz3, View.ld_unit_zero (S := S512x512) hz2,
    View.ld_unit_zero (S := S2048x2048) hz2, View.ld_unit_zero (S := S1x512) hz2]
  obtain ⟨-, -, -, -, -, -, -, -, -, e0, e1, e2⟩ := idx_facts t
  funext j
  refine (pay_at (iblk3 (F := Ideal) V c 0 t) (iblk3 (F := Ideal) V c 1 t) (iblk3 (F := Ideal) V c 2 t) (iblk3 (F := Ideal) V c 3 t)
    ((cfg3.win 4).xinj (grid3.coords t) j)).trans ?_
  rw [feat_blk V c t, wts_blk V c t, opr_blk V c t, bias_blk V c t]
  refine layer_congr (feat V c) (wts V c) (opr V c) (bias V c) _ _ _ _ _ _ ?_ ?_ ?_
  · show t.val = win3_4.index t (0 : Fin 3) * 1 + 1 * (j 0).val
    have hj : (j 0).val < 1 := (j 0).isLt
    rw [e0]; omega
  · show (j 1).val = win3_4.index t (1 : Fin 3) * 2048 + 1 * (j 1).val
    rw [e1]; omega
  · show (j 2).val = win3_4.index t (2 : Fin 3) * 512 + 1 * (j 2).val
    rw [e2]; omega

/-- An index of the array is in point t's block iff each coordinate is in the block's range on its axis. -/
theorem mem_blk (t : Fin cfg3.N) (i : S32x2048x512.Idx) :
    i ∈ ((cfg3.win 4).blk t).view.set ↔ ∀ a : Fin 3, win3_4.index t a * S1x2048x512.size a ≤ (i a).val ∧ (i a).val < win3_4.index t a * S1x2048x512.size a + S1x2048x512.size a := by
  show i ∈ ((View.whole main_v58).slice (win3_4.rect t)).set ↔ _
  rw [View.set_slice_whole, Rect.mem_set_unit]
  exact Iff.rfl

/-- Every index of the array is in the block of the point of its batch element. -/
theorem cover (i : S32x2048x512.Idx) : ∃ t : Fin cfg3.N, (cfg3.win 4).flush t = true ∧ i ∈ ((cfg3.win 4).blk t).view.set := by
  have hi0 : (i 0).val < 32 := (i 0).isLt
  have hi1 : (i 1).val < 2048 := (i 1).isLt
  have hi2 : (i 2).val < 512 := (i 2).isLt
  obtain ⟨t, ht⟩ : ∃ t : Fin cfg3.N, t.val = (i 0).val := ⟨⟨(i 0).val, lt_of_lt_of_eq hi0 N_3.symm⟩, rfl⟩
  refine ⟨t, flush3_4 t, ?_⟩
  obtain ⟨-, -, -, -, -, -, -, -, -, e0, e1, e2⟩ := idx_facts t
  rw [mem_blk]
  intro a
  match a with
  | ⟨0, _⟩ =>
    show win3_4.index t (0 : Fin 3) * 1 ≤ (i 0).val ∧ (i 0).val < win3_4.index t (0 : Fin 3) * 1 + 1
    rw [e0]; omega
  | ⟨1, _⟩ =>
    show win3_4.index t (1 : Fin 3) * 2048 ≤ (i 1).val ∧ (i 1).val < win3_4.index t (1 : Fin 3) * 2048 + 2048
    rw [e1]; omega
  | ⟨2, _⟩ =>
    show win3_4.index t (2 : Fin 3) * 512 ≤ (i 2).val ∧ (i 2).val < win3_4.index t (2 : Fin 3) * 512 + 512
    rw [e2]; omega

/-- The output array after the region's last point is `G`. -/
theorem final (c : Dev nD) : (dat3 (F := Ideal) V c).arrAt 4 cfg3.N = G V c :=
  (dat3 (F := Ideal) V c).arrAt_eq_of_cover 4 (G V c) (fun t _ => flushed_eq V c t) cover

/-- Region 3 (a graph layer followed by max(·, 0)) leaves in its output array, at batch element p, node v and channel o: the sum
    over the nodes u of the operator's entry (v, u) times the features of node u of batch element p contracted with
    column o of the weights, plus entry o of the bias row, then the maximum with 0. -/
theorem region3_apply (c : Dev nD) (p : Fin 32) (v : Fin 2048) (o : Fin 512) :
    outArr V c (ix3 p v o)
      = max ((∑ u : Fin 2048, opr V c (ix2 v u) * ∑ i : Fin 512, feat V c (ix3 p u i) * wts V c (ix2 i o)) + bias V c (ix2 (0 : Fin 1) o)) 0 := by
  exact congrFun (final V c) (ix3 p v o)

end Cert.KernelIdeal.Region3

end
-- ==== Proof.Region4.lean ====
/-
  What region 4 of the kernel's program leaves in its output array, element by element.
-/
import proofs.«175376_j67851893342527_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The two contractions' operand indices, axis by axis -/

theorem lhs_xw_0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem lhs_xw_1 (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q
theorem rhs_xw_0 (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q
theorem rhs_xw_1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

theorem lhs_ah_0 (i : S2048x64.Idx) (q : dot_S2048x2048_S2048x64_S2048x64_1_0_0_1_n_n.contr.Idx) :
    (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem lhs_ah_1 (i : S2048x64.Idx) (q : dot_S2048x2048_S2048x64_S2048x64_1_0_0_1_n_n.contr.Idx) :
    (dot_S2048x2048_S2048x64_S2048x64_1_0_0_1_n_n.lhsIdx i q 1).val = (q ⟨0, by decide⟩).val :=
  dot_S2048x2048_S2048x64_S2048x64_1_0_0_1_n_n.lhsIdx_val_of_single rfl i q
theorem rhs_ah_0 (i : S2048x64.Idx) (q : dot_S2048x2048_S2048x64_S2048x64_1_0_0_1_n_n.contr.Idx) :
    (dot_S2048x2048_S2048x64_S2048x64_1_0_0_1_n_n.rhsIdx i q 0).val = (q ⟨0, by decide⟩).val :=
  dot_S2048x2048_S2048x64_S2048x64_1_0_0_1_n_n.rhsIdx_val_of_single rfl i q
theorem rhs_ah_1 (i : S2048x64.Idx) (q : dot_S2048x2048_S2048x64_S2048x64_1_0_0_1_n_n.contr.Idx) :
    (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-! ## The two contractions at an element -/

/-- The features-by-weights product into a zero accumulator, at (u, o): the sum over the 512 input channels. -/
theorem matmul_xw_apply (x : FVec Ideal S2048x512 .bf16) (w : FVec Ideal S512x64 .bf16) (u : Fin 2048) (o : Fin 64) :
    matmul dot_S2048x512_S512x64_S2048x64_1_0_0_1_n_n none x w (constant (F := Ideal) S2048x64 .f32 0x00000000#32) (ix2 u o)
      = ∑ i : Fin 512, x (ix2 u i) * w (ix2 i o) := by
  show FloatOps.matmul dot_S2048x512_S512x64_S2048x64_1_0_0_1_n_n none x w (constant (F := Ideal) S2048x64 .f32 0x00000000#32) (ix2 u o) = _
  rw [Ideal.matmul_constant_zero_apply, ← Equiv.sum_comp (contrEquiv1 dot_S2048x512_S512x64_S2048x64_1_0_0_1_n_n 512 rfl rfl).symm]
  refine Finset.sum_congr rfl fun k _ => ?_
  have hk := contrEquiv1_symm_val dot_S2048x512_S512x64_S2048x64_1_0_0_1_n_n 512 rfl rfl k
  have el : dot_S2048x512_S512x64_S2048x64_1_0_0_1_n_n.lhsIdx (ix2 u o) ((contrEquiv1 dot_S2048x512_S512x64_S2048x64_1_0_0_1_n_n 512 rfl rfl).symm k) = ix2 u k := funext fun a => Fin.ext (by
    match a with
    | ⟨0, _⟩ => exact lhs_xw_0 _ _
    | ⟨1, _⟩ => exact (lhs_xw_1 _ _).trans hk)
  have er : dot_S2048x512_S512x64_S2048x64_1_0_0_1_n_n.rhsIdx (ix2 u o) ((contrEquiv1 dot_S2048x512_S512x64_S2048x64_1_0_0_1_n_n 512 rfl rfl).symm k) = ix2 k o := funext fun a => Fin.ext (by
    match a with
    | ⟨0, _⟩ => exact (rhs_xw_0 _ _).trans hk
    | ⟨1, _⟩ => exact rhs_xw_1 _ _)
  rw [el, er]

/-- The operator-by-transformed-features product into a zero accumulator, at (v, o): the sum over the 2048 nodes. -/
theorem matmul_ah_apply (a : FVec Ideal S2048x2048 .bf16) (h : FVec Ideal S2048x64 .bf16) (v : Fin 2048) (o : Fin 64) :
    matmul dot_S2048x2048_S2048x64_S2048x64_1_0_0_1_n_n none a h (constant (F := Ideal) S2048x64 .f32 0x00000000#32) (ix2 v o)
      = ∑ u : Fin 2048, a (ix2 v u) * h (ix2 u o) := by
  show FloatOps.matmul dot_S2048x2048_S2048x64_S2048x64_1_0_0_1_n_n none a h (constant (F := Ideal) S2048x64 .f32 0x00000000#32) (ix2 v o) = _
  rw [Ideal.matmul_constant_zero_apply, ← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  have el : dot_S2048x2048_S2048x64_S2048x64_1_0_0_1_n_n.lhsIdx (ix2 v o) ((contrEquiv1 dot_S2048x2048_S2048x64_S2048x64_1_0_0_1_n_n 2048 rfl rfl).symm k) = ix2 v k := funext fun b => Fin.ext (by
    match b with
    | ⟨0, _⟩ => exact lhs_ah_0 _ _
    | ⟨1, _⟩ => exact (lhs_ah_1 _ _).trans hk)
  have er : dot_S2048x2048_S2048x64_S2048x64_1_0_0_1_n_n.rhsIdx (ix2 v o) ((contrEquiv1 dot_S2048x2048_S2048x64_S2048x64_1_0_0_1_n_n 2048 rfl rfl).symm k) = ix2 k o := funext fun b => Fin.ext (by
    match b with
    | ⟨0, _⟩ => exact (rhs_ah_0 _ _).trans hk
    | ⟨1, _⟩ => exact rhs_ah_1 _ _)
  rw [el, er]

/-! ## The body's arithmetic at an element -/

/-- One block of the layer at (0, v, o): the operator's row v against the transformed features' column o, plus the
    bias. The two roundings to bf16 are the identity on extended reals. -/
theorem pay_apply (x : FVec Ideal S1x2048x512 .bf16) (w : FVec Ideal S512x64 .bf16) (a : FVec Ideal S2048x2048 .bf16)
    (b : FVec Ideal S1x64 .f32) (v : Fin 2048) (o : Fin 64) :
    (k4_pay1 (F := Ideal) x w a b) (ix3 (0 : Fin 1) v o)
      = (∑ u : Fin 2048, a (ix2 v u) * ∑ i : Fin 512, x (ix3 (0 : Fin 1) u i) * w (ix2 i o)) + b (ix2 (0 : Fin 1) o) := by
  unfold k4_pay1
  rw [shapeCast_ab_1ab_apply, truncf_apply, addf_apply, matmul_ah_apply, broadcastTo_1b_ab_apply]
  simp only [shapeCast_self]
  congr 1
  refine Finset.sum_congr rfl fun u _ => ?_
  rw [truncf_apply, matmul_xw_apply]
  congr 1
  refine Finset.sum_congr rfl fun i _ => ?_
  rw [shapeCast_1ab_ab_apply]

variable (V : (c : Dev nD) → (b : Ref sig .tc) → Buf (Elt Ideal) ((c : Thread nD τ).loc b))

/-- The four arrays the region reads, as it finds them, and the array it writes, each at its literal type. -/
abbrev feat (c : Dev nD) : FVec Ideal S32x2048x512 .bf16 := V c main_v58
abbrev wts (c : Dev nD) : FVec Ideal S512x64 .bf16 := V c main_v59
abbrev opr (c : Dev nD) : FVec Ideal S2048x2048 .bf16 := V c main_v42
abbrev bias (c : Dev nD) : FVec Ideal S1x64 .f32 := V c main_v60
abbrev outArr (c : Dev nD) : FVec Ideal S32x2048x64 .bf16 := (dat4 (F := Ideal) V c).arrAt 4 cfg4.N

/-! ## Each window's block at a grid point -/

theorem zero3 : (![0, 0, 0] : Fin 3 → Nat) = fun _ => 0 := funext fun a => by fin_cases a <;> rfl
theorem zero2 : (![0, 0] : Fin 2 → Nat) = fun _ => 0 := funext fun a => by fin_cases a <;> rfl

/-- The grid has one point per batch element. -/
theorem N_eq : cfg4.N = 32 := by decide

/-- The index maps over the grid: the features' and the output's blocks move with the point along the batch axis; the
    weights, the operator and the bias are whole at every point. -/
theorem idx_facts : ∀ t : Fin cfg4.N,
    win4_0.index t (0 : Fin 3) = t.val ∧ win4_0.index t (1 : Fin 3) = 0 ∧ win4_0.index t (2 : Fin 3) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 3) = t.val ∧ win4_4.index t (1 : Fin 3) = 0 ∧ win4_4.index t (2 : Fin 3) = 0 :=
  (by decide +kernel : ∀ t : Fin grid4.N, _)

/-- The features' block at point t is batch element t. -/
theorem feat_blk (c : Dev nD) (t : Fin cfg4.N) (z : S1x2048x512.Idx) :
    iblk4 (F := Ideal) V c 0 t z = feat V c (ix3 (Fin.cast N_eq t) (z 1) (z 2)) := by
  obtain ⟨e0, e1, e2, -⟩ := idx_facts t
  unfold iblk4
  show V c main_v58 (((cfg4.win 0).blk t).view.emb z) = V c main_v58 (ix3 (Fin.cast N_eq t) (z 1) (z 2))
  congr 1
  funext a; apply Fin.ext
  match a with
  | ⟨0, _⟩ => show win4_0.index t (0 : Fin 3) * 1 + 1 * (z 0).val = t.val; have hz : (z 0).val < 1 := (z 0).isLt; omega
  | ⟨1, _⟩ => show win4_0.index t (1 : Fin 3) * 2048 + 1 * (z 1).val = (z 1).val; omega
  | ⟨2, _⟩ => show win4_0.index t (2 : Fin 3) * 512 + 1 * (z 2).val = (z 2).val; omega

/-- The weights' block is the whole array. -/
theorem wts_blk (c : Dev nD) (t : Fin cfg4.N) (z : S512x64.Idx) : iblk4 (F := Ideal) V c 1 t z = wts V c z := by
  obtain ⟨-, -, -, e0, e1, -⟩ := idx_facts t
  unfold iblk4
  show V c main_v59 (((cfg4.win 1).blk t).view.emb z) = V c main_v59 z
  congr 1
  funext a; apply Fin.ext
  match a with
  | ⟨0, _⟩ => show win4_1.index t (0 : Fin 2) * 512 + 1 * (z 0).val = (z 0).val; omega
  | ⟨1, _⟩ => show win4_1.index t (1 : Fin 2) * 64 + 1 * (z 1).val = (z 1).val; omega

/-- The operator's block is the whole array. -/
theorem opr_blk (c : Dev nD) (t : Fin cfg4.N) (z : S2048x2048.Idx) : iblk4 (F := Ideal) V c 2 t z = opr V c z := by
  obtain ⟨-, -, -, -, -, e0, e1, -⟩ := idx_facts t
  unfold iblk4
  show V c main_v42 (((cfg4.win 2).blk t).view.emb z) = V c main_v42 z
  congr 1
  funext a; apply Fin.ext
  match a with
  | ⟨0, _⟩ => show win4_2.index t (0 : Fin 2) * 2048 + 1 * (z 0).val = (z 0).val; omega
  | ⟨1, _⟩ => show win4_2.index t (1 : Fin 2) * 2048 + 1 * (z 1).val = (z 1).val; omega

/-- The bias's block is the whole row. -/
theorem bias_blk (c : Dev nD) (t : Fin cfg4.N) (z : S1x64.Idx) : iblk4 (F := Ideal) V c 3 t z = bias V c z := by
  obtain ⟨-, -, -, -, -, -, -, e0, e1, -⟩ := idx_facts t
  unfold iblk4
  show V c main_v60 (((cfg4.win 3).blk t).view.emb z) = V c main_v60 z
  congr 1
  funext a; apply Fin.ext
  match a with
  | ⟨0, _⟩ => show win4_3.index t (0 : Fin 2) * 1 + 1 * (z 0).val = (z 0).val; omega
  | ⟨1, _⟩ => show win4_3.index t (1 : Fin 2) * 64 + 1 * (z 1).val = (z 1).val; omega

/-! ## What a grid point writes back, and the array after the last point -/

/-- The layer at batch element p, node v and channel o, of the arrays as the region finds them. -/
def layer (c : Dev nD) (p : Fin 32) (v : Fin 2048) (o : Fin 64) : EReal :=
  (∑ u : Fin 2048, opr V c (ix2 v u) * ∑ i : Fin 512, feat V c (ix3 p u i) * wts V c (ix2 i o)) + bias V c (ix2 (0 : Fin 1) o)

theorem layer_congr (c : Dev nD) {p p' : Fin 32} {v v' : Fin 2048} {o o' : Fin 64} (hp : p.val = p'.val)
    (hv : v.val = v'.val) (ho : o.val = o'.val) : layer V c p v o = layer V c p' v' o' := by
  obtain rfl := Fin.ext hp
  obtain rfl := Fin.ext hv
  obtain rfl := Fin.ext ho
  rfl

/-- The output array the region leaves, as one function of its index. -/
def G (c : Dev nD) : S32x2048x64.Idx → Ideal .bf16 :=
  fun j => layer V c ⟨(j 0).val, (j 0).isLt⟩ ⟨(j 1).val, (j 1).isLt⟩ ⟨(j 2).val, (j 2).isLt⟩

/-- The body's result at point t, element (0, v, o), is the layer at batch element t. -/
theorem pay_eq_layer (c : Dev nD) (t : Fin cfg4.N) (y : S1x2048x64.Idx) :
    k4_pay1 (F := Ideal) (iblk4 (F := Ideal) V c 0 t) (iblk4 (F := Ideal) V c 1 t) (iblk4 (F := Ideal) V c 2 t)
        (iblk4 (F := Ideal) V c 3 t) y
      = layer V c (Fin.cast N_eq t) (y 1) (y 2) := by
  obtain ⟨u0, v, o, rfl⟩ : ∃ (u0 : Fin 1) (v : Fin 2048) (o : Fin 64), y = ix3 u0 v o := ⟨y 0, y 1, y 2, eq_ix3 y⟩
  obtain rfl : u0 = 0 := Subsingleton.elim _ _
  refine (pay_apply _ _ _ _ v o).trans ?_
  unfold layer
  simp only [feat_blk, wts_blk, opr_blk, bias_blk]

/-- What point t writes back is block t of that function. -/
theorem flushed_eq (c : Dev nD) (t : Fin cfg4.N) :
    (dat4 (F := Ideal) V c).flushed 4 t = ((cfg4.win 4).blk t).view.read (Elt Ideal) (G V c) := by
  show (cfg4.win 4).cut (grid4.coords t) ((dat4 (F := Ideal) V c).after 4 t) = _
  rw [after4_4]
  unfold out4_4
  rw [View.canon_unit_zero zero3]
  simp only [View.ld_unit_zero (S := S1x2048x512) zero3, View.ld_unit_zero (S := S512x64) zero2,
    View.ld_unit_zero (S := S2048x2048) zero2, View.ld_unit_zero (S := S1x64) zero2]
  obtain ⟨-, -, -, -, -, -, -, -, -, e0, e1, e2⟩ := idx_facts t
  funext y
  show k4_pay1 (F := Ideal) (iblk4 (F := Ideal) V c 0 t) (iblk4 (F := Ideal) V c 1 t) (iblk4 (F := Ideal) V c 2 t)
      (iblk4 (F := Ideal) V c 3 t) y = G V c (((cfg4.win 4).blk t).view.emb y)
  refine (pay_eq_layer V c t y).trans ?_
  unfold G
  refine layer_congr V c ?_ ?_ ?_
  · show t.val = win4_4.index t (0 : Fin 3) * 1 + 1 * (y 0).val
    have hy : (y 0).val < 1 := (y 0).isLt
    omega
  · show (y 1).val = win4_4.index t (1 : Fin 3) * 2048 + 1 * (y 1).val
    omega
  · show (y 2).val = win4_4.index t (2 : Fin 3) * 64 + 1 * (y 2).val
    omega

/-- An index of the output array is in point t's block iff each coordinate is in the block's range on its axis. -/
theorem mem_blk (t : Fin cfg4.N) (i : S32x2048x64.Idx) :
    i ∈ ((cfg4.win 4).blk t).view.set ↔ ∀ a : Fin 3, win4_4.index t a * S1x2048x64.size a ≤ (i a).val
      ∧ (i a).val < win4_4.index t a * S1x2048x64.size a + S1x2048x64.size a := by
  show i ∈ ((View.whole main_v61).slice (win4_4.rect t)).set ↔ _
  rw [View.set_slice_whole, Rect.mem_set_unit]
  exact Iff.rfl

/-- Every index of the output array is in the block of the point of its batch element. -/
theorem cover (i : S32x2048x64.Idx) :
    ∃ t : Fin cfg4.N, (cfg4.win 4).flush t = true ∧ i ∈ ((cfg4.win 4).blk t).view.set := by
  have hi0 : (i 0).val < 32 := (i 0).isLt
  have hi1 : (i 1).val < 2048 := (i 1).isLt
  have hi2 : (i 2).val < 64 := (i 2).isLt
  have ht : (i 0).val < cfg4.N := by rw [N_eq]; exact hi0
  refine ⟨⟨(i 0).val, ht⟩, flush4_4 _, ?_⟩
  rw [mem_blk]
  obtain ⟨-, -, -, -, -, -, -, -, -, e0', e1, e2⟩ := idx_facts ⟨(i 0).val, ht⟩
  have e0 : win4_4.index ⟨(i 0).val, ht⟩ (0 : Fin 3) = (i 0).val := e0'
  intro a
  match a with
  | ⟨0, _⟩ =>
    show win4_4.index ⟨(i 0).val, ht⟩ (0 : Fin 3) * 1 ≤ (i 0).val
      ∧ (i 0).val < win4_4.index ⟨(i 0).val, ht⟩ (0 : Fin 3) * 1 + 1
    rw [e0]; omega
  | ⟨1, _⟩ =>
    show win4_4.index ⟨(i 0).val, ht⟩ (1 : Fin 3) * 2048 ≤ (i 1).val
      ∧ (i 1).val < win4_4.index ⟨(i 0).val, ht⟩ (1 : Fin 3) * 2048 + 2048
    rw [e1]; omega
  | ⟨2, _⟩ =>
    show win4_4.index ⟨(i 0).val, ht⟩ (2 : Fin 3) * 64 ≤ (i 2).val
      ∧ (i 2).val < win4_4.index ⟨(i 0).val, ht⟩ (2 : Fin 3) * 64 + 64
    rw [e2]; omega

/-- The output array after the region's last point is that function. -/
theorem outArr_eq (c : Dev nD) : outArr V c = G V c :=
  (dat4 (F := Ideal) V c).arrAt_eq_of_cover 4 (G V c) (fun t _ => flushed_eq V c t) cover

/-- Region 4 (a graph layer) leaves in its output array, at batch element p, node v and channel o: the sum
    over the nodes u of the operator's entry (v, u) times the features of node u of batch element p contracted with
    column o of the weights, plus entry o of the bias row. -/
theorem region4_apply (c : Dev nD) (p : Fin 32) (v : Fin 2048) (o : Fin 64) :
    outArr V c (ix3 p v o)
      = (∑ u : Fin 2048, opr V c (ix2 v u) * ∑ i : Fin 512, feat V c (ix3 p u i) * wts V c (ix2 i o)) + bias V c (ix2 (0 : Fin 1) o) := by
  rw [outArr_eq]
  rfl

end Cert.KernelIdeal.Region4

end
-- ==== Proof.Region5.lean ====
/-
  What region 5 of the kernel's program leaves in its output array, element by element.
-/
import proofs.«175376_j67851893342527_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's arithmetic at an index -/

theorem fw_lhs_0 (i : S2048x3.Idx) (q : dot_S2048x64_S64x3_S2048x3_1_0_0_1_n_n.contr.Idx) :
    (dot_S2048x64_S64x3_S2048x3_1_0_0_1_n_n.lhsIdx i q 0).val = (i 0).val := by
  unfold DotDims.lhsIdx
  rw [dif_neg (show ¬(0 : Fin S2048x64.rank) ∈ dot_S2048x64_S64x3_S2048x3_1_0_0_1_n_n.lhsBatch by decide), dif_pos (show (0 : Fin S2048x64.rank) ∈ dot_S2048x64_S64x3_S2048x3_1_0_0_1_n_n.lhsNonContracting by decide)]
  rfl
theorem fw_lhs_1 (i : S2048x3.Idx) (q : dot_S2048x64_S64x3_S2048x3_1_0_0_1_n_n.contr.Idx) :
    (dot_S2048x64_S64x3_S2048x3_1_0_0_1_n_n.lhsIdx i q 1).val = (q ⟨0, by decide⟩).val :=
  dot_S2048x64_S64x3_S2048x3_1_0_0_1_n_n.lhsIdx_val_of_single rfl i q
theorem fw_rhs_0 (i : S2048x3.Idx) (q : dot_S2048x64_S64x3_S2048x3_1_0_0_1_n_n.contr.Idx) :
    (dot_S2048x64_S64x3_S2048x3_1_0_0_1_n_n.rhsIdx i q 0).val = (q ⟨0, by decide⟩).val :=
  dot_S2048x64_S64x3_S2048x3_1_0_0_1_n_n.rhsIdx_val_of_single rfl i q
theorem fw_rhs_1 (i : S2048x3.Idx) (q : dot_S2048x64_S64x3_S2048x3_1_0_0_1_n_n.contr.Idx) :
    (dot_S2048x64_S64x3_S2048x3_1_0_0_1_n_n.rhsIdx i q 1).val = (i 1).val := by
  unfold DotDims.rhsIdx
  rw [dif_neg (show ¬(1 : Fin S64x3.rank) ∈ dot_S2048x64_S64x3_S2048x3_1_0_0_1_n_n.rhsBatch by decide), dif_pos (show (1 : Fin S64x3.rank) ∈ dot_S2048x64_S64x3_S2048x3_1_0_0_1_n_n.rhsNonContracting by decide)]
  rfl

theorem ah_lhs_0 (i : S2048x3.Idx) (q : dot_S2048x2048_S2048x3_S2048x3_1_0_0_1_n_n.contr.Idx) :
    (dot_S2048x2048_S2048x3_S2048x3_1_0_0_1_n_n.lhsIdx i q 0).val = (i 0).val := by
  unfold DotDims.lhsIdx
  rw [dif_neg (show ¬(0 : Fin S2048x2048.rank) ∈ dot_S2048x2048_S2048x3_S2048x3_1_0_0_1_n_n.lhsBatch by decide), dif_pos (show (0 : Fin S2048x2048.rank) ∈ dot_S2048x2048_S2048x3_S2048x3_1_0_0_1_n_n.lhsNonContracting by decide)]
  rfl
theorem ah_lhs_1 (i : S2048x3.Idx) (q : dot_S2048x2048_S2048x3_S2048x3_1_0_0_1_n_n.contr.Idx) :
    (dot_S2048x2048_S2048x3_S2048x3_1_0_0_1_n_n.lhsIdx i q 1).val = (q ⟨0, by decide⟩).val :=
  dot_S2048x2048_S2048x3_S2048x3_1_0_0_1_n_n.lhsIdx_val_of_single rfl i q
theorem ah_rhs_0 (i : S2048x3.Idx) (q : dot_S2048x2048_S2048x3_S2048x3_1_0_0_1_n_n.contr.Idx) :
    (dot_S2048x2048_S2048x3_S2048x3_1_0_0_1_n_n.rhsIdx i q 0).val = (q ⟨0, by decide⟩).val :=
  dot_S2048x2048_S2048x3_S2048x3_1_0_0_1_n_n.rhsIdx_val_of_single rfl i q
theorem ah_rhs_1 (i : S2048x3.Idx) (q : dot_S2048x2048_S2048x3_S2048x3_1_0_0_1_n_n.contr.Idx) :
    (dot_S2048x2048_S2048x3_S2048x3_1_0_0_1_n_n.rhsIdx i q 1).val = (i 1).val := by
  unfold DotDims.rhsIdx
  rw [dif_neg (show ¬(1 : Fin S2048x3.rank) ∈ dot_S2048x2048_S2048x3_S2048x3_1_0_0_1_n_n.rhsBatch by decide), dif_pos (show (1 : Fin S2048x3.rank) ∈ dot_S2048x2048_S2048x3_S2048x3_1_0_0_1_n_n.rhsNonContracting by decide)]
  rfl

/-- The first product, features times weights, at row r and column o: the sum over the contracted channel. -/
theorem featWts_apply (x : FVec Ideal S2048x64 .bf16) (w : FVec Ideal S64x3 .bf16) (r : Fin 2048) (o : Fin 3) :
    FloatOps.matmul dot_S2048x64_S64x3_S2048x3_1_0_0_1_n_n none x w (constant (F := Ideal) S2048x3 .f32 0x00000000#32) (ix2 r o)
      = ∑ k : Fin 64, x (ix2 r k) * w (ix2 k o) := by
  rw [Ideal.matmul_constant_zero_apply, ← Equiv.sum_comp (contrEquiv1 dot_S2048x64_S64x3_S2048x3_1_0_0_1_n_n 64 rfl rfl).symm]
  refine Finset.sum_congr rfl fun k _ => ?_
  have hk := contrEquiv1_symm_val dot_S2048x64_S64x3_S2048x3_1_0_0_1_n_n 64 rfl rfl k
  have el : dot_S2048x64_S64x3_S2048x3_1_0_0_1_n_n.lhsIdx (ix2 r o) ((contrEquiv1 dot_S2048x64_S64x3_S2048x3_1_0_0_1_n_n 64 rfl rfl).symm k) = ix2 r k := funext fun a => Fin.ext (by
    match a with
    | ⟨0, _⟩ => exact fw_lhs_0 _ _
    | ⟨1, _⟩ => exact (fw_lhs_1 _ _).trans hk)
  have er : dot_S2048x64_S64x3_S2048x3_1_0_0_1_n_n.rhsIdx (ix2 r o) ((contrEquiv1 dot_S2048x64_S64x3_S2048x3_1_0_0_1_n_n 64 rfl rfl).symm k) = ix2 k o := funext fun a => Fin.ext (by
    match a with
    | ⟨0, _⟩ => exact (fw_rhs_0 _ _).trans hk
    | ⟨1, _⟩ => exact fw_rhs_1 _ _)
  rw [el, er]

/-- The second product, operator times transformed features, at row r and column o: the sum over the contracted node. -/
theorem oprHidden_apply (x : FVec Ideal S2048x2048 .bf16) (w : FVec Ideal S2048x3 .bf16) (r : Fin 2048) (o : Fin 3) :
    FloatOps.matmul dot_S2048x2048_S2048x3_S2048x3_1_0_0_1_n_n none x w (constant (F := Ideal) S2048x3 .f32 0x00000000#32) (ix2 r o)
      = ∑ k : Fin 2048, x (ix2 r k) * w (ix2 k o) := by
  rw [Ideal.matmul_constant_zero_apply, ← Equiv.sum_comp (contrEquiv1 dot_S2048x2048_S2048x3_S2048x3_1_0_0_1_n_n 2048 rfl rfl).symm]
  refine Finset.sum_congr rfl fun k _ => ?_
  have hk := contrEquiv1_symm_val dot_S2048x2048_S2048x3_S2048x3_1_0_0_1_n_n 2048 rfl rfl k
  have el : dot_S2048x2048_S2048x3_S2048x3_1_0_0_1_n_n.lhsIdx (ix2 r o) ((contrEquiv1 dot_S2048x2048_S2048x3_S2048x3_1_0_0_1_n_n 2048 rfl rfl).symm k) = ix2 r k := funext fun a => Fin.ext (by
    match a with
    | ⟨0, _⟩ => exact ah_lhs_0 _ _
    | ⟨1, _⟩ => exact (ah_lhs_1 _ _).trans hk)
  have er : dot_S2048x2048_S2048x3_S2048x3_1_0_0_1_n_n.rhsIdx (ix2 r o) ((contrEquiv1 dot_S2048x2048_S2048x3_S2048x3_1_0_0_1_n_n 2048 rfl rfl).symm k) = ix2 k o := funext fun a => Fin.ext (by
    match a with
    | ⟨0, _⟩ => exact (ah_rhs_0 _ _).trans hk
    | ⟨1, _⟩ => exact ah_rhs_1 _ _)
  rw [el, er]

/-- The body's whole arithmetic at node v and channel o of its one batch element. -/
theorem pay_apply (x : FVec Ideal S1x2048x64 .bf16) (w : FVec Ideal S64x3 .bf16) (a : FVec Ideal S2048x2048 .bf16) (b : FVec Ideal S1x3 .f32)
    (v : Fin 2048) (o : Fin 3) :
    k5_pay1 (F := Ideal) x w a b (ix3 (0 : Fin 1) v o)
      = max ((∑ u : Fin 2048, a (ix2 v u) * ∑ i : Fin 64, x (ix3 (0 : Fin 1) u i) * w (ix2 i o)) + b (ix2 (0 : Fin 1) o)) 0 := by
  unfold k5_pay1
  rw [shapeCast_ab_1ab_apply, maximumf_apply, addf_apply, broadcast_apply, broadcastTo_1b_ab_apply]
  simp only [shapeCast_self, matmul]
  rw [oprHidden_apply]
  have e0 : (FloatOps.ofBits (F := Ideal) .f32 0x00000000#32 : Ideal .f32) = 0 := Ideal.ofBits_zero_f32
  rw [e0]
  refine congrArg (fun z => max (z + b (ix2 (0 : Fin 1) o)) 0) (Finset.sum_congr rfl fun u _ => ?_)
  rw [truncf_apply, featWts_apply]
  refine congrArg (fun z => a (ix2 v u) * z) (Finset.sum_congr rfl fun i _ => ?_)
  rw [shapeCast_1ab_ab_apply]

/-! ## The layer as one function of the arrays -/

/-- One graph layer followed by max(·, 0), for one batch element whose features are `X`: at node v and channel o, the sum over
    the nodes u of the operator's entry (v, u) times the features of node u contracted with column o of the weights,
    plus entry o of the bias row, then the maximum with 0. -/
def layer (X : Fin 2048 → Fin 64 → Ideal .bf16) (W : FVec Ideal S64x3 .bf16) (A : FVec Ideal S2048x2048 .bf16)
    (B : FVec Ideal S1x3 .f32) (v : Fin 2048) (o : Fin 3) : Ideal .f32 :=
  max ((∑ u : Fin 2048, A (ix2 v u) * ∑ i : Fin 64, X u i * W (ix2 i o)) + B (ix2 (0 : Fin 1) o)) 0

/-- The layer depends on the batch element, the node and the channel only through their values. -/
theorem layer_congr (X : FVec Ideal S32x2048x64 .bf16) (W : FVec Ideal S64x3 .bf16) (A : FVec Ideal S2048x2048 .bf16)
    (B : FVec Ideal S1x3 .f32) (p p' : Fin 32) (v v' : Fin 2048) (o o' : Fin 3)
    (hp : p.val = p'.val) (hv : v.val = v'.val) (ho : o.val = o'.val) :
    layer (fun u i => X (ix3 p u i)) W A B v o = layer (fun u i => X (ix3 p' u i)) W A B v' o' := by
  obtain rfl := Fin.ext hp
  obtain rfl := Fin.ext hv
  obtain rfl := Fin.ext ho
  rfl

/-- The body's arithmetic at any index of its block is the layer of the block's one batch element. -/
theorem pay_at (x : FVec Ideal S1x2048x64 .bf16) (w : FVec Ideal S64x3 .bf16) (a : FVec Ideal S2048x2048 .bf16) (b : FVec Ideal S1x3 .f32)
    (j : S1x2048x3.Idx) :
    k5_pay1 (F := Ideal) x w a b j = layer (fun u i => x (ix3 (0 : Fin 1) u i)) w a b (j 1) (j 2) := by
  obtain ⟨p0, v, o, rfl⟩ : ∃ (p0 : Fin 1) (v : Fin 2048) (o : Fin 3), j = ix3 p0 v o := ⟨j 0, j 1, j 2, eq_ix3 j⟩
  obtain rfl : p0 = 0 := Subsingleton.elim _ _
  exact pay_apply x w a b v o

variable (V : (c : Dev nD) → (b : Ref sig .tc) → Buf (Elt Ideal) ((c : Thread nD τ).loc b))

/-- The four arrays the region reads, as it finds them, and the array it writes, each at its literal type. -/
abbrev feat (c : Dev nD) : FVec Ideal S32x2048x64 .bf16 := V c main_v61
abbrev wts (c : Dev nD) : FVec Ideal S64x3 .bf16 := V c main_v62
abbrev opr (c : Dev nD) : FVec Ideal S2048x2048 .bf16 := V c main_v42
abbrev bias (c : Dev nD) : FVec Ideal S1x3 .f32 := V c main_v63
abbrev outArr (c : Dev nD) : FVec Ideal S32x2048x3 .f32 := (dat5 (F := Ideal) V c).arrAt 4 cfg5.N

/-- What the output array ends holding, as one function of the four arrays the region reads. -/
abbrev G (c : Dev nD) : FVec Ideal S32x2048x3 .f32 := fun j =>
  layer (fun u i => feat V c (ix3 (j 0) u i)) (wts V c) (opr V c) (bias V c) (j 1) (j 2)

/-! ## From the blocks to the array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the features' and the output's blocks are the batch element of the
    point, the other three windows are their whole arrays at every point. -/
theorem idx_facts : ∀ t : Fin cfg5.N,
    win5_0.index t (0 : Fin 3) = t.val ∧ win5_0.index t (1 : Fin 3) = 0 ∧ win5_0.index t (2 : Fin 3) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 3) = t.val ∧ win5_4.index t (1 : Fin 3) = 0 ∧ win5_4.index t (2 : Fin 3) = 0 :=
  (by decide +kernel : ∀ t : Fin grid5.N, _)

/-- The batch element of a point. -/
def pt (t : Fin cfg5.N) : Fin 32 := ⟨t.val, lt_of_lt_of_eq t.isLt N_5⟩

/-- The features' block at point t is batch element t of the features. -/
theorem feat_blk (c : Dev nD) (t : Fin cfg5.N) :
    (fun (u : Fin 2048) (i : Fin 64) => (iblk5 (F := Ideal) V c 0 t : FVec Ideal S1x2048x64 .bf16) (ix3 (0 : Fin 1) u i))
      = fun u i => feat V c (ix3 (pt t) u i) := by
  obtain ⟨e0, e1, e2, -⟩ := idx_facts t
  funext u i
  unfold iblk5
  show V c main_v61 (((cfg5.win 0).blk t).view.emb (ix3 (0 : Fin 1) u i)) = V c main_v61 (ix3 (pt t) u i)
  refine congrArg (V c main_v61) (funext fun a => Fin.ext ?_)
  match a with
  | ⟨0, _⟩ => show win5_0.index t (0 : Fin 3) * 1 + 1 * 0 = t.val; rw [e0]; omega
  | ⟨1, _⟩ => show win5_0.index t (1 : Fin 3) * 2048 + 1 * u.val = u.val; rw [e1]; omega
  | ⟨2, _⟩ => show win5_0.index t (2 : Fin 3) * 64 + 1 * i.val = i.val; rw [e2]; omega

/-- The weights' block at every point is the whole array. -/
theorem wts_blk (c : Dev nD) (t : Fin cfg5.N) : (iblk5 (F := Ideal) V c 1 t : FVec Ideal S64x3 .bf16) = wts V c := by
  obtain ⟨-, -, -, e0, e1, -⟩ := idx_facts t
  funext y
  unfold iblk5
  show V c main_v62 (((cfg5.win 1).blk t).view.emb y) = V c main_v62 y
  refine congrArg (V c main_v62) (funext fun a => Fin.ext ?_)
  match a with
  | ⟨0, _⟩ => show win5_1.index t (0 : Fin 2) * 64 + 1 * (y 0).val = (y 0).val; rw [e0]; omega
  | ⟨1, _⟩ => show win5_1.index t (1 : Fin 2) * 3 + 1 * (y 1).val = (y 1).val; rw [e1]; omega

/-- The operator's block at every point is the whole array. -/
theorem opr_blk (c : Dev nD) (t : Fin cfg5.N) : (iblk5 (F := Ideal) V c 2 t : FVec Ideal S2048x2048 .bf16) = opr V c := by
  obtain ⟨-, -, -, -, -, e0, e1, -⟩ := idx_facts t
  funext y
  unfold iblk5
  show V c main_v42 (((cfg5.win 2).blk t).view.emb y) = V c main_v42 y
  refine congrArg (V c main_v42) (funext fun a => Fin.ext ?_)
  match a with
  | ⟨0, _⟩ => show win5_2.index t (0 : Fin 2) * 2048 + 1 * (y 0).val = (y 0).val; rw [e0]; omega
  | ⟨1, _⟩ => show win5_2.index t (1 : Fin 2) * 2048 + 1 * (y 1).val = (y 1).val; rw [e1]; omega

/-- The bias row's block at every point is the whole array. -/
theorem bias_blk (c : Dev nD) (t : Fin cfg5.N) : (iblk5 (F := Ideal) V c 3 t : FVec Ideal S1x3 .f32) = bias V c := by
  obtain ⟨-, -, -, -, -, -, -, e0, e1, -⟩ := idx_facts t
  funext y
  unfold iblk5
  show V c main_v63 (((cfg5.win 3).blk t).view.emb y) = V c main_v63 y
  refine congrArg (V c main_v63) (funext fun a => Fin.ext ?_)
  match a with
  | ⟨0, _⟩ => show win5_3.index t (0 : Fin 2) * 1 + 1 * (y 0).val = (y 0).val; rw [e0]; omega
  | ⟨1, _⟩ => show win5_3.index t (1 : Fin 2) * 3 + 1 * (y 1).val = (y 1).val; rw [e1]; omega

/-- What point t writes back is block t of `G`. -/
theorem flushed_eq (c : Dev nD) (t : Fin cfg5.N) :
    (dat5 (F := Ideal) V c).flushed 4 t = ((cfg5.win 4).blk t).view.read (Elt Ideal) (G V c) := by
  show (cfg5.win 4).cut (grid5.coords t) ((dat5 (F := Ideal) V c).after 4 t) = _
  rw [after5_4]
  unfold out5_4
  rw [View.canon_unit_zero hz3]
  simp only [View.ld_unit_zero (S := S1x2048x64) hz3, View.ld_unit_zero (S := S64x3) hz2,
    View.ld_unit_zero (S := S2048x2048) hz2, View.ld_unit_zero (S := S1x3) hz2]
  obtain ⟨-, -, -, -, -, -, -, -, -, e0, e1, e2⟩ := idx_facts t
  funext j
  refine (pay_at (iblk5 (F := Ideal) V c 0 t) (iblk5 (F := Ideal) V c 1 t) (iblk5 (F := Ideal) V c 2 t) (iblk5 (F := Ideal) V c 3 t)
    ((cfg5.win 4).xinj (grid5.coords t) j)).trans ?_
  rw [feat_blk V c t, wts_blk V c t, opr_blk V c t, bias_blk V c t]
  refine layer_congr (feat V c) (wts V c) (opr V c) (bias V c) _ _ _ _ _ _ ?_ ?_ ?_
  · show t.val = win5_4.index t (0 : Fin 3) * 1 + 1 * (j 0).val
    have hj : (j 0).val < 1 := (j 0).isLt
    rw [e0]; omega
  · show (j 1).val = win5_4.index t (1 : Fin 3) * 2048 + 1 * (j 1).val
    rw [e1]; omega
  · show (j 2).val = win5_4.index t (2 : Fin 3) * 3 + 1 * (j 2).val
    rw [e2]; omega

/-- An index of the array is in point t's block iff each coordinate is in the block's range on its axis. -/
theorem mem_blk (t : Fin cfg5.N) (i : S32x2048x3.Idx) :
    i ∈ ((cfg5.win 4).blk t).view.set ↔ ∀ a : Fin 3, win5_4.index t a * S1x2048x3.size a ≤ (i a).val ∧ (i a).val < win5_4.index t a * S1x2048x3.size a + S1x2048x3.size a := by
  show i ∈ ((View.whole main_v64).slice (win5_4.rect t)).set ↔ _
  rw [View.set_slice_whole, Rect.mem_set_unit]
  exact Iff.rfl

/-- Every index of the array is in the block of the point of its batch element. -/
theorem cover (i : S32x2048x3.Idx) : ∃ t : Fin cfg5.N, (cfg5.win 4).flush t = true ∧ i ∈ ((cfg5.win 4).blk t).view.set := by
  have hi0 : (i 0).val < 32 := (i 0).isLt
  have hi1 : (i 1).val < 2048 := (i 1).isLt
  have hi2 : (i 2).val < 3 := (i 2).isLt
  obtain ⟨t, ht⟩ : ∃ t : Fin cfg5.N, t.val = (i 0).val := ⟨⟨(i 0).val, lt_of_lt_of_eq hi0 N_5.symm⟩, rfl⟩
  refine ⟨t, flush5_4 t, ?_⟩
  obtain ⟨-, -, -, -, -, -, -, -, -, e0, e1, e2⟩ := idx_facts t
  rw [mem_blk]
  intro a
  match a with
  | ⟨0, _⟩ =>
    show win5_4.index t (0 : Fin 3) * 1 ≤ (i 0).val ∧ (i 0).val < win5_4.index t (0 : Fin 3) * 1 + 1
    rw [e0]; omega
  | ⟨1, _⟩ =>
    show win5_4.index t (1 : Fin 3) * 2048 ≤ (i 1).val ∧ (i 1).val < win5_4.index t (1 : Fin 3) * 2048 + 2048
    rw [e1]; omega
  | ⟨2, _⟩ =>
    show win5_4.index t (2 : Fin 3) * 3 ≤ (i 2).val ∧ (i 2).val < win5_4.index t (2 : Fin 3) * 3 + 3
    rw [e2]; omega

/-- The output array after the region's last point is `G`. -/
theorem final (c : Dev nD) : (dat5 (F := Ideal) V c).arrAt 4 cfg5.N = G V c :=
  (dat5 (F := Ideal) V c).arrAt_eq_of_cover 4 (G V c) (fun t _ => flushed_eq V c t) cover

/-- Region 5 (a graph layer followed by max(·, 0)) leaves in its output array, at batch element p, node v and channel o: the sum
    over the nodes u of the operator's entry (v, u) times the features of node u of batch element p contracted with
    column o of the weights, plus entry o of the bias row, then the maximum with 0. -/
theorem region5_apply (c : Dev nD) (p : Fin 32) (v : Fin 2048) (o : Fin 3) :
    outArr V c (ix3 p v o)
      = max ((∑ u : Fin 2048, opr V c (ix2 v u) * ∑ i : Fin 64, feat V c (ix3 p u i) * wts V c (ix2 i o)) + bias V c (ix2 (0 : Fin 1) o)) 0 := by
  exact congrFun (final V c) (ix3 p v o)

end Cert.KernelIdeal.Region5

end
-- ==== Proof.Region6.lean ====
/-
  What region 6 of the kernel's program leaves in its output array, element by element.
-/
import proofs.«175376_j67851893342527_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The three arrays the region reads, as it finds them, and the array it writes, each at its literal type. -/
abbrev feat (c : Dev nD) : FVec Ideal S32x6144 .f32 := V c main_v65
abbrev wts (c : Dev nD) : FVec Ideal S6144x1024 .bf16 := V c main_v66
abbrev bias (c : Dev nD) : FVec Ideal S1x1024 .f32 := V c main_v67
abbrev outArr (c : Dev nD) : FVec Ideal S32x1024 .f32 := (dat6 (F := Ideal) V c).arrAt 3 cfg6.N

/-! ## The layer's arithmetic at one index -/

/-- The left operand of the contraction is read at the output's row … -/
theorem lhs_row (i : S32x1024.Idx) (q : dot_S32x6144_S6144x1024_S32x1024_1_0_0_1_n_n.contr.Idx) :
    (dot_S32x6144_S6144x1024_S32x1024_1_0_0_1_n_n.lhsIdx i q 0).val = (i 0).val := by
  unfold DotDims.lhsIdx
  rw [dif_neg (show ¬(0 : Fin S32x6144.rank) ∈ dot_S32x6144_S6144x1024_S32x1024_1_0_0_1_n_n.lhsBatch by decide), dif_pos (show (0 : Fin S32x6144.rank) ∈ dot_S32x6144_S6144x1024_S32x1024_1_0_0_1_n_n.lhsNonContracting by decide)]
  rfl
/-- … and at the summation index; -/
theorem lhs_contr (i : S32x1024.Idx) (q : dot_S32x6144_S6144x1024_S32x1024_1_0_0_1_n_n.contr.Idx) :
    (dot_S32x6144_S6144x1024_S32x1024_1_0_0_1_n_n.lhsIdx i q 1).val = (q ⟨0, by decide⟩).val :=
  dot_S32x6144_S6144x1024_S32x1024_1_0_0_1_n_n.lhsIdx_val_of_single rfl i q
/-- the right operand at the summation index … -/
theorem rhs_contr (i : S32x1024.Idx) (q : dot_S32x6144_S6144x1024_S32x1024_1_0_0_1_n_n.contr.Idx) :
    (dot_S32x6144_S6144x1024_S32x1024_1_0_0_1_n_n.rhsIdx i q 0).val = (q ⟨0, by decide⟩).val :=
  dot_S32x6144_S6144x1024_S32x1024_1_0_0_1_n_n.rhsIdx_val_of_single rfl i q
/-- … and at the output's channel. -/
theorem rhs_chan (i : S32x1024.Idx) (q : dot_S32x6144_S6144x1024_S32x1024_1_0_0_1_n_n.contr.Idx) :
    (dot_S32x6144_S6144x1024_S32x1024_1_0_0_1_n_n.rhsIdx i q 1).val = (i 1).val := by
  unfold DotDims.rhsIdx
  rw [dif_neg (show ¬(1 : Fin S6144x1024.rank) ∈ dot_S32x6144_S6144x1024_S32x1024_1_0_0_1_n_n.rhsBatch by decide), dif_pos (show (1 : Fin S6144x1024.rank) ∈ dot_S32x6144_S6144x1024_S32x1024_1_0_0_1_n_n.rhsNonContracting by decide)]
  rfl

/-- The body's one term at row p and channel o: narrowing the features' format changes nothing over the reals, the
    contraction into a zero accumulator is the plain sum over the 6144 features, and the bias row is repeated down
    the rows. -/
theorem pay_apply (x : FVec Ideal S32x6144 .f32) (w : FVec Ideal S6144x1024 .bf16) (b : FVec Ideal S1x1024 .f32)
    (p : Fin 32) (o : Fin 1024) :
    k6_pay1 (F := Ideal) x w b (ix2 p o)
      = (∑ i : Fin 6144, x (ix2 p i) * w (ix2 i o)) + b (ix2 (0 : Fin 1) o) := by
  unfold k6_pay1
  rw [addf_apply, shapeCast_self, shapeCast_self, shapeCast_self]
  refine congrArg₂ (· + ·) ?_ ?_
  · refine (Ideal.matmul_constant_zero_apply dot_S32x6144_S6144x1024_S32x1024_1_0_0_1_n_n none (truncf .bf16 x bitsLt_bf16_f32) w (ix2 p o)).trans ?_
    rw [← Equiv.sum_comp (ValueIdx.contrEquiv1 dot_S32x6144_S6144x1024_S32x1024_1_0_0_1_n_n 6144 rfl rfl).symm]
    refine Finset.sum_congr rfl fun k _ => ?_
    have hk := ValueIdx.contrEquiv1_symm_val dot_S32x6144_S6144x1024_S32x1024_1_0_0_1_n_n 6144 rfl rfl k
    have el : dot_S32x6144_S6144x1024_S32x1024_1_0_0_1_n_n.lhsIdx (ix2 p o) ((ValueIdx.contrEquiv1 dot_S32x6144_S6144x1024_S32x1024_1_0_0_1_n_n 6144 rfl rfl).symm k) = ix2 p k := funext fun a => Fin.ext (by
      match a with
      | ⟨0, _⟩ => exact lhs_row _ _
      | ⟨1, _⟩ => exact (lhs_contr _ _).trans hk)
    have er : dot_S32x6144_S6144x1024_S32x1024_1_0_0_1_n_n.rhsIdx (ix2 p o) ((ValueIdx.contrEquiv1 dot_S32x6144_S6144x1024_S32x1024_1_0_0_1_n_n 6144 rfl rfl).symm k) = ix2 k o := funext fun a => Fin.ext (by
      match a with
      | ⟨0, _⟩ => exact (rhs_contr _ _).trans hk
      | ⟨1, _⟩ => exact rhs_chan _ _)
    rw [el, er, truncf_apply]
  · exact broadcastTo_apply b broadcasts_S1x1024_S32x1024 (ix2 p o) (ix2 (0 : Fin 1) o) (fun a => by
      match a with
      | ⟨0, _⟩ => rfl
      | ⟨1, _⟩ => rfl)

/-- The body's term at any index of its block, the index split into its row and its channel. -/
theorem pay_at (x : FVec Ideal S32x6144 .f32) (w : FVec Ideal S6144x1024 .bf16) (b : FVec Ideal S1x1024 .f32)
    (y : S32x1024.Idx) :
    k6_pay1 (F := Ideal) x w b y
      = (∑ i : Fin 6144, x (ix2 (y 0) i) * w (ix2 i (y 1))) + b (ix2 (0 : Fin 1) (y 1)) :=
  (congrArg (k6_pay1 (F := Ideal) x w b) (eq_ix2 y)).trans (pay_apply x w b (y 0) (y 1))

/-! ## From the one block to the array -/

theorem hz : (![0, 0] : Fin 2 → Nat) = fun _ => 0 := funext fun a => by fin_cases a <;> rfl

/-- The whole output array as one function of the arrays the region reads: at row `j 0` and channel `j 1`, that row of
    the features against that column of the weights, plus that entry of the bias row. -/
abbrev layer (c : Dev nD) : S32x1024.Idx → Elt Ideal .f32 := fun j =>
  (∑ i : Fin 6144, feat V c (ix2 (j 0) i) * wts V c (ix2 i (j 1))) + bias V c (ix2 (0 : Fin 1) (j 1))

/-- Every window's block index is zero on both axes, at the grid's one point: each block is its whole array. -/
theorem idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The features' block at the point is the features' array … -/
theorem blk_feat (c : Dev nD) (t : Fin cfg6.N) : iblk6 (F := Ideal) V c 0 t = feat V c := by
  obtain ⟨e0, e1, -, -, -, -, -, -⟩ := idx_facts t
  funext y
  show V c main_v65 (((cfg6.win 0).blk t).view.emb y) = V c main_v65 y
  refine congrArg (V c main_v65) (funext fun a => Fin.ext ?_)
  match a with
  | ⟨0, _⟩ => show win6_0.index t (0 : Fin 2) * 32 + 1 * (y 0).val = (y 0).val; omega
  | ⟨1, _⟩ => show win6_0.index t (1 : Fin 2) * 6144 + 1 * (y 1).val = (y 1).val; omega
/-- … the weights' block is the weights' array … -/
theorem blk_wts (c : Dev nD) (t : Fin cfg6.N) : iblk6 (F := Ideal) V c 1 t = wts V c := by
  obtain ⟨-, -, e0, e1, -, -, -, -⟩ := idx_facts t
  funext y
  show V c main_v66 (((cfg6.win 1).blk t).view.emb y) = V c main_v66 y
  refine congrArg (V c main_v66) (funext fun a => Fin.ext ?_)
  match a with
  | ⟨0, _⟩ => show win6_1.index t (0 : Fin 2) * 6144 + 1 * (y 0).val = (y 0).val; omega
  | ⟨1, _⟩ => show win6_1.index t (1 : Fin 2) * 1024 + 1 * (y 1).val = (y 1).val; omega
/-- … and the bias row's block is the bias row. -/
theorem blk_bias (c : Dev nD) (t : Fin cfg6.N) : iblk6 (F := Ideal) V c 2 t = bias V c := by
  obtain ⟨-, -, -, -, e0, e1, -, -⟩ := idx_facts t
  funext y
  show V c main_v67 (((cfg6.win 2).blk t).view.emb y) = V c main_v67 y
  refine congrArg (V c main_v67) (funext fun a => Fin.ext ?_)
  match a with
  | ⟨0, _⟩ => show win6_2.index t (0 : Fin 2) * 1 + 1 * (y 0).val = (y 0).val; omega
  | ⟨1, _⟩ => show win6_2.index t (1 : Fin 2) * 1024 + 1 * (y 1).val = (y 1).val; omega

/-- What the point writes back is the layer's function read through the point's block. -/
theorem flushed_eq (c : Dev nD) (t : Fin cfg6.N) :
    (dat6 (F := Ideal) V c).flushed 3 t = ((cfg6.win 3).blk t).view.read (Elt Ideal) (layer V c) := by
  show (cfg6.win 3).cut (grid6.coords t) ((dat6 (F := Ideal) V c).after 3 t) = _
  rw [after6_3]
  unfold out6_3
  rw [View.canon_unit_zero hz]
  simp only [View.ld_unit_zero (S := S32x6144) hz, View.ld_unit_zero (S := S6144x1024) hz, View.ld_unit_zero (S := S1x1024) hz]
  rw [blk_feat V c t, blk_wts V c t, blk_bias V c t]
  obtain ⟨-, -, -, -, -, -, e0, e1⟩ := idx_facts t
  funext y
  show k6_pay1 (F := Ideal) (feat V c) (wts V c) (bias V c) y = layer V c (((cfg6.win 3).blk t).view.emb y)
  have hy : ((cfg6.win 3).blk t).view.emb y = y := funext fun a => Fin.ext (by
    match a with
    | ⟨0, _⟩ => show win6_3.index t (0 : Fin 2) * 32 + 1 * (y 0).val = (y 0).val; omega
    | ⟨1, _⟩ => show win6_3.index t (1 : Fin 2) * 1024 + 1 * (y 1).val = (y 1).val; omega)
  rw [hy, pay_at]

/-- An index of the output array is in the point's block iff each coordinate is in the block's range on its axis. -/
theorem mem_blk (t : Fin cfg6.N) (i : S32x1024.Idx) :
    i ∈ ((cfg6.win 3).blk t).view.set ↔ ∀ a : Fin 2, win6_3.index t a * S32x1024.size a ≤ (i a).val ∧ (i a).val < win6_3.index t a * S32x1024.size a + S32x1024.size a := by
  show i ∈ ((View.whole main_v68).slice (win6_3.rect t)).set ↔ _
  rw [View.set_slice_whole, Rect.mem_set_unit]
  exact Iff.rfl

/-- The one point's block is the whole output array. -/
theorem cover (i : S32x1024.Idx) :
    ∃ t : Fin cfg6.N, (cfg6.win 3).flush t = true ∧ i ∈ ((cfg6.win 3).blk t).view.set := by
  refine ⟨⟨0, by decide⟩, flush6_3 _, ?_⟩
  rw [mem_blk]
  obtain ⟨-, -, -, -, -, -, e0, e1⟩ := idx_facts ⟨0, by decide⟩
  have h0 := idx2_lt0 i
  have h1 := idx2_lt1 i
  intro a
  match a with
  | ⟨0, _⟩ => show win6_3.index ⟨0, by decide⟩ (0 : Fin 2) * 32 ≤ (i 0).val ∧ (i 0).val < win6_3.index ⟨0, by decide⟩ (0 : Fin 2) * 32 + 32; omega
  | ⟨1, _⟩ => show win6_3.index ⟨0, by decide⟩ (1 : Fin 2) * 1024 ≤ (i 1).val ∧ (i 1).val < win6_3.index ⟨0, by decide⟩ (1 : Fin 2) * 1024 + 1024; omega

/-- The output array after the region is the layer's function of the arrays the region found. -/
theorem final (c : Dev nD) : outArr V c = layer V c :=
  (dat6 (F := Ideal) V c).arrAt_eq_of_cover 3 (layer V c) (fun t _ => flushed_eq V c t) cover

/-- Region 6 (a fully connected layer) leaves in its output array, at row p and channel o: row p of the features
    contracted with column o of the weights, plus entry o of the bias row. -/
theorem region6_apply (c : Dev nD) (p : Fin 32) (o : Fin 1024) :
    outArr V c (ix2 p o)
      = (∑ i : Fin 6144, feat V c (ix2 p i) * wts V c (ix2 i o)) + bias V c (ix2 (0 : Fin 1) o) :=
  congrFun (final V c) (ix2 p o)

end Cert.KernelIdeal.Region6

end
-- ==== Proof.Region7.lean ====
/-
  What region 7 of the kernel's program leaves in its output array, element by element.
-/
import proofs.«175376_j67851893342527_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region7

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The three arrays the region reads, as it finds them, and the array it writes, each at its literal type. -/
abbrev feat (c : Dev nD) : FVec Ideal S32x1024 .f32 := V c main_v68
abbrev wts (c : Dev nD) : FVec Ideal S1024x1024 .bf16 := V c main_v69
abbrev bias (c : Dev nD) : FVec Ideal S1x1024 .f32 := V c main_v70
abbrev outArr (c : Dev nD) : FVec Ideal S32x1024 .f32 := (dat7 (F := Ideal) V c).arrAt 3 cfg7.N

/-! ## The layer's arithmetic at one index -/

/-- The left operand of the contraction is read at the output's row … -/
theorem lhs_row (i : S32x1024.Idx) (q : dot_S32x1024_S1024x1024_S32x1024_1_0_0_1_n_n.contr.Idx) :
    (dot_S32x1024_S1024x1024_S32x1024_1_0_0_1_n_n.lhsIdx i q 0).val = (i 0).val := by
  unfold DotDims.lhsIdx
  rw [dif_neg (show ¬(0 : Fin S32x1024.rank) ∈ dot_S32x1024_S1024x1024_S32x1024_1_0_0_1_n_n.lhsBatch by decide), dif_pos (show (0 : Fin S32x1024.rank) ∈ dot_S32x1024_S1024x1024_S32x1024_1_0_0_1_n_n.lhsNonContracting by decide)]
  rfl
/-- … and at the summation index; -/
theorem lhs_contr (i : S32x1024.Idx) (q : dot_S32x1024_S1024x1024_S32x1024_1_0_0_1_n_n.contr.Idx) :
    (dot_S32x1024_S1024x1024_S32x1024_1_0_0_1_n_n.lhsIdx i q 1).val = (q ⟨0, by decide⟩).val :=
  dot_S32x1024_S1024x1024_S32x1024_1_0_0_1_n_n.lhsIdx_val_of_single rfl i q
/-- the right operand at the summation index … -/
theorem rhs_contr (i : S32x1024.Idx) (q : dot_S32x1024_S1024x1024_S32x1024_1_0_0_1_n_n.contr.Idx) :
    (dot_S32x1024_S1024x1024_S32x1024_1_0_0_1_n_n.rhsIdx i q 0).val = (q ⟨0, by decide⟩).val :=
  dot_S32x1024_S1024x1024_S32x1024_1_0_0_1_n_n.rhsIdx_val_of_single rfl i q
/-- … and at the output's channel. -/
theorem rhs_chan (i : S32x1024.Idx) (q : dot_S32x1024_S1024x1024_S32x1024_1_0_0_1_n_n.contr.Idx) :
    (dot_S32x1024_S1024x1024_S32x1024_1_0_0_1_n_n.rhsIdx i q 1).val = (i 1).val := by
  unfold DotDims.rhsIdx
  rw [dif_neg (show ¬(1 : Fin S1024x1024.rank) ∈ dot_S32x1024_S1024x1024_S32x1024_1_0_0_1_n_n.rhsBatch by decide), dif_pos (show (1 : Fin S1024x1024.rank) ∈ dot_S32x1024_S1024x1024_S32x1024_1_0_0_1_n_n.rhsNonContracting by decide)]
  rfl

/-- The body's one term at row p and channel o: narrowing the features' format changes nothing over the reals, the
    contraction into a zero accumulator is the plain sum over the 1024 features, and the bias row is repeated down
    the rows. -/
theorem pay_apply (x : FVec Ideal S32x1024 .f32) (w : FVec Ideal S1024x1024 .bf16) (b : FVec Ideal S1x1024 .f32)
    (p : Fin 32) (o : Fin 1024) :
    k7_pay1 (F := Ideal) x w b (ix2 p o)
      = (∑ i : Fin 1024, x (ix2 p i) * w (ix2 i o)) + b (ix2 (0 : Fin 1) o) := by
  unfold k7_pay1
  rw [addf_apply, shapeCast_self, shapeCast_self, shapeCast_self]
  refine congrArg₂ (· + ·) ?_ ?_
  · refine (Ideal.matmul_constant_zero_apply dot_S32x1024_S1024x1024_S32x1024_1_0_0_1_n_n none (truncf .bf16 x bitsLt_bf16_f32) w (ix2 p o)).trans ?_
    rw [← Equiv.sum_comp (ValueIdx.contrEquiv1 dot_S32x1024_S1024x1024_S32x1024_1_0_0_1_n_n 1024 rfl rfl).symm]
    refine Finset.sum_congr rfl fun k _ => ?_
    have hk := ValueIdx.contrEquiv1_symm_val dot_S32x1024_S1024x1024_S32x1024_1_0_0_1_n_n 1024 rfl rfl k
    have el : dot_S32x1024_S1024x1024_S32x1024_1_0_0_1_n_n.lhsIdx (ix2 p o) ((ValueIdx.contrEquiv1 dot_S32x1024_S1024x1024_S32x1024_1_0_0_1_n_n 1024 rfl rfl).symm k) = ix2 p k := funext fun a => Fin.ext (by
      match a with
      | ⟨0, _⟩ => exact lhs_row _ _
      | ⟨1, _⟩ => exact (lhs_contr _ _).trans hk)
    have er : dot_S32x1024_S1024x1024_S32x1024_1_0_0_1_n_n.rhsIdx (ix2 p o) ((ValueIdx.contrEquiv1 dot_S32x1024_S1024x1024_S32x1024_1_0_0_1_n_n 1024 rfl rfl).symm k) = ix2 k o := funext fun a => Fin.ext (by
      match a with
      | ⟨0, _⟩ => exact (rhs_contr _ _).trans hk
      | ⟨1, _⟩ => exact rhs_chan _ _)
    rw [el, er, truncf_apply]
  · exact broadcastTo_apply b broadcasts_S1x1024_S32x1024 (ix2 p o) (ix2 (0 : Fin 1) o) (fun a => by
      match a with
      | ⟨0, _⟩ => rfl
      | ⟨1, _⟩ => rfl)

/-- The body's term at any index of its block, the index split into its row and its channel. -/
theorem pay_at (x : FVec Ideal S32x1024 .f32) (w : FVec Ideal S1024x1024 .bf16) (b : FVec Ideal S1x1024 .f32)
    (y : S32x1024.Idx) :
    k7_pay1 (F := Ideal) x w b y
      = (∑ i : Fin 1024, x (ix2 (y 0) i) * w (ix2 i (y 1))) + b (ix2 (0 : Fin 1) (y 1)) :=
  (congrArg (k7_pay1 (F := Ideal) x w b) (eq_ix2 y)).trans (pay_apply x w b (y 0) (y 1))

/-! ## From the one block to the array -/

theorem hz : (![0, 0] : Fin 2 → Nat) = fun _ => 0 := funext fun a => by fin_cases a <;> rfl

/-- The whole output array as one function of the arrays the region reads: at row `j 0` and channel `j 1`, that row of
    the features against that column of the weights, plus that entry of the bias row. -/
abbrev layer (c : Dev nD) : S32x1024.Idx → Elt Ideal .f32 := fun j =>
  (∑ i : Fin 1024, feat V c (ix2 (j 0) i) * wts V c (ix2 i (j 1))) + bias V c (ix2 (0 : Fin 1) (j 1))

/-- Every window's block index is zero on both axes, at the grid's one point: each block is its whole array. -/
theorem idx_facts : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- The features' block at the point is the features' array … -/
theorem blk_feat (c : Dev nD) (t : Fin cfg7.N) : iblk7 (F := Ideal) V c 0 t = feat V c := by
  obtain ⟨e0, e1, -, -, -, -, -, -⟩ := idx_facts t
  funext y
  show V c main_v68 (((cfg7.win 0).blk t).view.emb y) = V c main_v68 y
  refine congrArg (V c main_v68) (funext fun a => Fin.ext ?_)
  match a with
  | ⟨0, _⟩ => show win7_0.index t (0 : Fin 2) * 32 + 1 * (y 0).val = (y 0).val; omega
  | ⟨1, _⟩ => show win7_0.index t (1 : Fin 2) * 1024 + 1 * (y 1).val = (y 1).val; omega
/-- … the weights' block is the weights' array … -/
theorem blk_wts (c : Dev nD) (t : Fin cfg7.N) : iblk7 (F := Ideal) V c 1 t = wts V c := by
  obtain ⟨-, -, e0, e1, -, -, -, -⟩ := idx_facts t
  funext y
  show V c main_v69 (((cfg7.win 1).blk t).view.emb y) = V c main_v69 y
  refine congrArg (V c main_v69) (funext fun a => Fin.ext ?_)
  match a with
  | ⟨0, _⟩ => show win7_1.index t (0 : Fin 2) * 1024 + 1 * (y 0).val = (y 0).val; omega
  | ⟨1, _⟩ => show win7_1.index t (1 : Fin 2) * 1024 + 1 * (y 1).val = (y 1).val; omega
/-- … and the bias row's block is the bias row. -/
theorem blk_bias (c : Dev nD) (t : Fin cfg7.N) : iblk7 (F := Ideal) V c 2 t = bias V c := by
  obtain ⟨-, -, -, -, e0, e1, -, -⟩ := idx_facts t
  funext y
  show V c main_v70 (((cfg7.win 2).blk t).view.emb y) = V c main_v70 y
  refine congrArg (V c main_v70) (funext fun a => Fin.ext ?_)
  match a with
  | ⟨0, _⟩ => show win7_2.index t (0 : Fin 2) * 1 + 1 * (y 0).val = (y 0).val; omega
  | ⟨1, _⟩ => show win7_2.index t (1 : Fin 2) * 1024 + 1 * (y 1).val = (y 1).val; omega

/-- What the point writes back is the layer's function read through the point's block. -/
theorem flushed_eq (c : Dev nD) (t : Fin cfg7.N) :
    (dat7 (F := Ideal) V c).flushed 3 t = ((cfg7.win 3).blk t).view.read (Elt Ideal) (layer V c) := by
  show (cfg7.win 3).cut (grid7.coords t) ((dat7 (F := Ideal) V c).after 3 t) = _
  rw [after7_3]
  unfold out7_3
  rw [View.canon_unit_zero hz]
  simp only [View.ld_unit_zero (S := S32x1024) hz, View.ld_unit_zero (S := S1024x1024) hz, View.ld_unit_zero (S := S1x1024) hz]
  rw [blk_feat V c t, blk_wts V c t, blk_bias V c t]
  obtain ⟨-, -, -, -, -, -, e0, e1⟩ := idx_facts t
  funext y
  show k7_pay1 (F := Ideal) (feat V c) (wts V c) (bias V c) y = layer V c (((cfg7.win 3).blk t).view.emb y)
  have hy : ((cfg7.win 3).blk t).view.emb y = y := funext fun a => Fin.ext (by
    match a with
    | ⟨0, _⟩ => show win7_3.index t (0 : Fin 2) * 32 + 1 * (y 0).val = (y 0).val; omega
    | ⟨1, _⟩ => show win7_3.index t (1 : Fin 2) * 1024 + 1 * (y 1).val = (y 1).val; omega)
  rw [hy, pay_at]

/-- An index of the output array is in the point's block iff each coordinate is in the block's range on its axis. -/
theorem mem_blk (t : Fin cfg7.N) (i : S32x1024.Idx) :
    i ∈ ((cfg7.win 3).blk t).view.set ↔ ∀ a : Fin 2, win7_3.index t a * S32x1024.size a ≤ (i a).val ∧ (i a).val < win7_3.index t a * S32x1024.size a + S32x1024.size a := by
  show i ∈ ((View.whole main_v71).slice (win7_3.rect t)).set ↔ _
  rw [View.set_slice_whole, Rect.mem_set_unit]
  exact Iff.rfl

/-- The one point's block is the whole output array. -/
theorem cover (i : S32x1024.Idx) :
    ∃ t : Fin cfg7.N, (cfg7.win 3).flush t = true ∧ i ∈ ((cfg7.win 3).blk t).view.set := by
  refine ⟨⟨0, by decide⟩, flush7_3 _, ?_⟩
  rw [mem_blk]
  obtain ⟨-, -, -, -, -, -, e0, e1⟩ := idx_facts ⟨0, by decide⟩
  have h0 := idx2_lt0 i
  have h1 := idx2_lt1 i
  intro a
  match a with
  | ⟨0, _⟩ => show win7_3.index ⟨0, by decide⟩ (0 : Fin 2) * 32 ≤ (i 0).val ∧ (i 0).val < win7_3.index ⟨0, by decide⟩ (0 : Fin 2) * 32 + 32; omega
  | ⟨1, _⟩ => show win7_3.index ⟨0, by decide⟩ (1 : Fin 2) * 1024 ≤ (i 1).val ∧ (i 1).val < win7_3.index ⟨0, by decide⟩ (1 : Fin 2) * 1024 + 1024; omega

/-- The output array after the region is the layer's function of the arrays the region found. -/
theorem final (c : Dev nD) : outArr V c = layer V c :=
  (dat7 (F := Ideal) V c).arrAt_eq_of_cover 3 (layer V c) (fun t _ => flushed_eq V c t) cover

/-- Region 7 (a fully connected layer) leaves in its output array, at row p and channel o: row p of the features
    contracted with column o of the weights, plus entry o of the bias row. -/
theorem region7_apply (c : Dev nD) (p : Fin 32) (o : Fin 1024) :
    outArr V c (ix2 p o)
      = (∑ i : Fin 1024, feat V c (ix2 p i) * wts V c (ix2 i o)) + bias V c (ix2 (0 : Fin 1) o) :=
  congrFun (final V c) (ix2 p o)

end Cert.KernelIdeal.Region7

end
-- ==== Proof.Region8.lean ====
/-
  What region 8 of the kernel's program leaves in its output array, element by element.
-/
import proofs.«175376_j67851893342527_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region8

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The three arrays the region reads, as it finds them, and the array it writes, each at its literal type. -/
abbrev feat (c : Dev nD) : FVec Ideal S32x1024 .f32 := V c main_v71
abbrev wts (c : Dev nD) : FVec Ideal S1024x6144 .bf16 := V c main_v72
abbrev bias (c : Dev nD) : FVec Ideal S1x6144 .f32 := V c main_v73
abbrev outArr (c : Dev nD) : FVec Ideal S32x6144 .f32 := (dat8 (F := Ideal) V c).arrAt 3 cfg8.N

/-! ## The layer's arithmetic at one index -/

/-- The left operand of the contraction is read at the output's row … -/
theorem lhs_row (i : S32x6144.Idx) (q : dot_S32x1024_S1024x6144_S32x6144_1_0_0_1_n_n.contr.Idx) :
    (dot_S32x1024_S1024x6144_S32x6144_1_0_0_1_n_n.lhsIdx i q 0).val = (i 0).val := by
  unfold DotDims.lhsIdx
  rw [dif_neg (show ¬(0 : Fin S32x1024.rank) ∈ dot_S32x1024_S1024x6144_S32x6144_1_0_0_1_n_n.lhsBatch by decide), dif_pos (show (0 : Fin S32x1024.rank) ∈ dot_S32x1024_S1024x6144_S32x6144_1_0_0_1_n_n.lhsNonContracting by decide)]
  rfl
/-- … and at the summation index; -/
theorem lhs_contr (i : S32x6144.Idx) (q : dot_S32x1024_S1024x6144_S32x6144_1_0_0_1_n_n.contr.Idx) :
    (dot_S32x1024_S1024x6144_S32x6144_1_0_0_1_n_n.lhsIdx i q 1).val = (q ⟨0, by decide⟩).val :=
  dot_S32x1024_S1024x6144_S32x6144_1_0_0_1_n_n.lhsIdx_val_of_single rfl i q
/-- the right operand at the summation index … -/
theorem rhs_contr (i : S32x6144.Idx) (q : dot_S32x1024_S1024x6144_S32x6144_1_0_0_1_n_n.contr.Idx) :
    (dot_S32x1024_S1024x6144_S32x6144_1_0_0_1_n_n.rhsIdx i q 0).val = (q ⟨0, by decide⟩).val :=
  dot_S32x1024_S1024x6144_S32x6144_1_0_0_1_n_n.rhsIdx_val_of_single rfl i q
/-- … and at the output's channel. -/
theorem rhs_chan (i : S32x6144.Idx) (q : dot_S32x1024_S1024x6144_S32x6144_1_0_0_1_n_n.contr.Idx) :
    (dot_S32x1024_S1024x6144_S32x6144_1_0_0_1_n_n.rhsIdx i q 1).val = (i 1).val := by
  unfold DotDims.rhsIdx
  rw [dif_neg (show ¬(1 : Fin S1024x6144.rank) ∈ dot_S32x1024_S1024x6144_S32x6144_1_0_0_1_n_n.rhsBatch by decide), dif_pos (show (1 : Fin S1024x6144.rank) ∈ dot_S32x1024_S1024x6144_S32x6144_1_0_0_1_n_n.rhsNonContracting by decide)]
  rfl

/-- The body's one term at row p and channel o: narrowing the features' format changes nothing over the reals, the
    contraction into a zero accumulator is the plain sum over the 1024 features, the bias row is repeated down the
    rows, and the hyperbolic tangent is taken entry by entry. -/
theorem pay_apply (x : FVec Ideal S32x1024 .f32) (w : FVec Ideal S1024x6144 .bf16) (b : FVec Ideal S1x6144 .f32)
    (p : Fin 32) (o : Fin 6144) :
    k8_pay1 (F := Ideal) x w b (ix2 p o)
      = Ideal.tanh ((∑ i : Fin 1024, x (ix2 p i) * w (ix2 i o)) + b (ix2 (0 : Fin 1) o)) := by
  unfold k8_pay1
  refine congrArg Ideal.tanh ?_
  rw [addf_apply, shapeCast_self, shapeCast_self, shapeCast_self]
  refine congrArg₂ (· + ·) ?_ ?_
  · refine (Ideal.matmul_constant_zero_apply dot_S32x1024_S1024x6144_S32x6144_1_0_0_1_n_n none (truncf .bf16 x bitsLt_bf16_f32) w (ix2 p o)).trans ?_
    rw [← Equiv.sum_comp (ValueIdx.contrEquiv1 dot_S32x1024_S1024x6144_S32x6144_1_0_0_1_n_n 1024 rfl rfl).symm]
    refine Finset.sum_congr rfl fun k _ => ?_
    have hk := ValueIdx.contrEquiv1_symm_val dot_S32x1024_S1024x6144_S32x6144_1_0_0_1_n_n 1024 rfl rfl k
    have el : dot_S32x1024_S1024x6144_S32x6144_1_0_0_1_n_n.lhsIdx (ix2 p o) ((ValueIdx.contrEquiv1 dot_S32x1024_S1024x6144_S32x6144_1_0_0_1_n_n 1024 rfl rfl).symm k) = ix2 p k := funext fun a => Fin.ext (by
      match a with
      | ⟨0, _⟩ => exact lhs_row _ _
      | ⟨1, _⟩ => exact (lhs_contr _ _).trans hk)
    have er : dot_S32x1024_S1024x6144_S32x6144_1_0_0_1_n_n.rhsIdx (ix2 p o) ((ValueIdx.contrEquiv1 dot_S32x1024_S1024x6144_S32x6144_1_0_0_1_n_n 1024 rfl rfl).symm k) = ix2 k o := funext fun a => Fin.ext (by
      match a with
      | ⟨0, _⟩ => exact (rhs_contr _ _).trans hk
      | ⟨1, _⟩ => exact rhs_chan _ _)
    rw [el, er, truncf_apply]
  · exact broadcastTo_apply b broadcasts_S1x6144_S32x6144 (ix2 p o) (ix2 (0 : Fin 1) o) (fun a => by
      match a with
      | ⟨0, _⟩ => rfl
      | ⟨1, _⟩ => rfl)

/-- The body's term at any index of its block, the index split into its row and its channel. -/
theorem pay_at (x : FVec Ideal S32x1024 .f32) (w : FVec Ideal S1024x6144 .bf16) (b : FVec Ideal S1x6144 .f32)
    (y : S32x6144.Idx) :
    k8_pay1 (F := Ideal) x w b y
      = Ideal.tanh ((∑ i : Fin 1024, x (ix2 (y 0) i) * w (ix2 i (y 1))) + b (ix2 (0 : Fin 1) (y 1))) :=
  (congrArg (k8_pay1 (F := Ideal) x w b) (eq_ix2 y)).trans (pay_apply x w b (y 0) (y 1))

/-! ## From the one block to the array -/

theorem hz : (![0, 0] : Fin 2 → Nat) = fun _ => 0 := funext fun a => by fin_cases a <;> rfl

/-- The whole output array as one function of the arrays the region reads: at row `j 0` and channel `j 1`, the
    hyperbolic tangent of that row of the features against that column of the weights plus that entry of the bias row. -/
abbrev layer (c : Dev nD) : S32x6144.Idx → Elt Ideal .f32 := fun j =>
  Ideal.tanh ((∑ i : Fin 1024, feat V c (ix2 (j 0) i) * wts V c (ix2 i (j 1))) + bias V c (ix2 (0 : Fin 1) (j 1)))

/-- Every window's block index is zero on both axes, at the grid's one point: each block is its whole array. -/
theorem idx_facts : ∀ t : Fin cfg8.N, win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0 :=
  (by decide +kernel : ∀ t : Fin grid8.N, _)

/-- The features' block at the point is the features' array … -/
theorem blk_feat (c : Dev nD) (t : Fin cfg8.N) : iblk8 (F := Ideal) V c 0 t = feat V c := by
  obtain ⟨e0, e1, -, -, -, -, -, -⟩ := idx_facts t
  funext y
  show V c main_v71 (((cfg8.win 0).blk t).view.emb y) = V c main_v71 y
  refine congrArg (V c main_v71) (funext fun a => Fin.ext ?_)
  match a with
  | ⟨0, _⟩ => show win8_0.index t (0 : Fin 2) * 32 + 1 * (y 0).val = (y 0).val; omega
  | ⟨1, _⟩ => show win8_0.index t (1 : Fin 2) * 1024 + 1 * (y 1).val = (y 1).val; omega
/-- … the weights' block is the weights' array … -/
theorem blk_wts (c : Dev nD) (t : Fin cfg8.N) : iblk8 (F := Ideal) V c 1 t = wts V c := by
  obtain ⟨-, -, e0, e1, -, -, -, -⟩ := idx_facts t
  funext y
  show V c main_v72 (((cfg8.win 1).blk t).view.emb y) = V c main_v72 y
  refine congrArg (V c main_v72) (funext fun a => Fin.ext ?_)
  match a with
  | ⟨0, _⟩ => show win8_1.index t (0 : Fin 2) * 1024 + 1 * (y 0).val = (y 0).val; omega
  | ⟨1, _⟩ => show win8_1.index t (1 : Fin 2) * 6144 + 1 * (y 1).val = (y 1).val; omega
/-- … and the bias row's block is the bias row. -/
theorem blk_bias (c : Dev nD) (t : Fin cfg8.N) : iblk8 (F := Ideal) V c 2 t = bias V c := by
  obtain ⟨-, -, -, -, e0, e1, -, -⟩ := idx_facts t
  funext y
  show V c main_v73 (((cfg8.win 2).blk t).view.emb y) = V c main_v73 y
  refine congrArg (V c main_v73) (funext fun a => Fin.ext ?_)
  match a with
  | ⟨0, _⟩ => show win8_2.index t (0 : Fin 2) * 1 + 1 * (y 0).val = (y 0).val; omega
  | ⟨1, _⟩ => show win8_2.index t (1 : Fin 2) * 6144 + 1 * (y 1).val = (y 1).val; omega

/-- What the point writes back is the layer's function read through the point's block. -/
theorem flushed_eq (c : Dev nD) (t : Fin cfg8.N) :
    (dat8 (F := Ideal) V c).flushed 3 t = ((cfg8.win 3).blk t).view.read (Elt Ideal) (layer V c) := by
  show (cfg8.win 3).cut (grid8.coords t) ((dat8 (F := Ideal) V c).after 3 t) = _
  rw [after8_3]
  unfold out8_3
  rw [View.canon_unit_zero hz]
  simp only [View.ld_unit_zero (S := S32x1024) hz, View.ld_unit_zero (S := S1024x6144) hz, View.ld_unit_zero (S := S1x6144) hz]
  rw [blk_feat V c t, blk_wts V c t, blk_bias V c t]
  obtain ⟨-, -, -, -, -, -, e0, e1⟩ := idx_facts t
  funext y
  show k8_pay1 (F := Ideal) (feat V c) (wts V c) (bias V c) y = layer V c (((cfg8.win 3).blk t).view.emb y)
  have hy : ((cfg8.win 3).blk t).view.emb y = y := funext fun a => Fin.ext (by
    match a with
    | ⟨0, _⟩ => show win8_3.index t (0 : Fin 2) * 32 + 1 * (y 0).val = (y 0).val; omega
    | ⟨1, _⟩ => show win8_3.index t (1 : Fin 2) * 6144 + 1 * (y 1).val = (y 1).val; omega)
  rw [hy, pay_at]

/-- An index of the output array is in the point's block iff each coordinate is in the block's range on its axis. -/
theorem mem_blk (t : Fin cfg8.N) (i : S32x6144.Idx) :
    i ∈ ((cfg8.win 3).blk t).view.set ↔ ∀ a : Fin 2, win8_3.index t a * S32x6144.size a ≤ (i a).val ∧ (i a).val < win8_3.index t a * S32x6144.size a + S32x6144.size a := by
  show i ∈ ((View.whole main_v74).slice (win8_3.rect t)).set ↔ _
  rw [View.set_slice_whole, Rect.mem_set_unit]
  exact Iff.rfl

/-- The one point's block is the whole output array. -/
theorem cover (i : S32x6144.Idx) :
    ∃ t : Fin cfg8.N, (cfg8.win 3).flush t = true ∧ i ∈ ((cfg8.win 3).blk t).view.set := by
  refine ⟨⟨0, by decide⟩, flush8_3 _, ?_⟩
  rw [mem_blk]
  obtain ⟨-, -, -, -, -, -, e0, e1⟩ := idx_facts ⟨0, by decide⟩
  have h0 := idx2_lt0 i
  have h1 := idx2_lt1 i
  intro a
  match a with
  | ⟨0, _⟩ => show win8_3.index ⟨0, by decide⟩ (0 : Fin 2) * 32 ≤ (i 0).val ∧ (i 0).val < win8_3.index ⟨0, by decide⟩ (0 : Fin 2) * 32 + 32; omega
  | ⟨1, _⟩ => show win8_3.index ⟨0, by decide⟩ (1 : Fin 2) * 6144 ≤ (i 1).val ∧ (i 1).val < win8_3.index ⟨0, by decide⟩ (1 : Fin 2) * 6144 + 6144; omega

/-- The output array after the region is the layer's function of the arrays the region found. -/
theorem final (c : Dev nD) : outArr V c = layer V c :=
  (dat8 (F := Ideal) V c).arrAt_eq_of_cover 3 (layer V c) (fun t _ => flushed_eq V c t) cover

/-- Region 8 (a fully connected layer followed by tanh) leaves in its output array, at row p and channel o: row p of the features
    contracted with column o of the weights, plus entry o of the bias row, then the hyperbolic tangent. -/
theorem region8_apply (c : Dev nD) (p : Fin 32) (o : Fin 6144) :
    outArr V c (ix2 p o)
      = Ideal.tanh ((∑ i : Fin 1024, feat V c (ix2 p i) * wts V c (ix2 i o)) + bias V c (ix2 (0 : Fin 1) o)) :=
  congrFun (final V c) (ix2 p o)

end Cert.KernelIdeal.Region8

end
-- ==== Proof.EdgeSum.lean ====
/-
  The one piece of arithmetic behind a graph-convolution layer written two ways.

  A layer aggregates, for each node `v`, the features `h` of the edges' sources into the edges' targets, each edge
  `e` weighted by `n e`:   ∑ over the edges e with target v of  h (source e) · n e.
  The same aggregation through a dense adjacency operator first collects, for each pair (v, u), the total weight of the
  edges from u to v, and then contracts that operator against h:   ∑ over u of (∑ over edges e : u → v of n e) · h u.

  On the extended reals multiplication distributes over a sum of NON-NEGATIVE terms whatever the other factor is
  (`EReal.right_distrib_of_nonneg`), so with non-negative weights the two are equal with no finiteness assumption on h:
  distribute h u over the (u, v) bucket, then regroup the edges with target v by their source.
-/
import Mathlib.Data.EReal.Operations
import Mathlib.Algebra.BigOperators.Group.Finset.Basic
import Mathlib.Algebra.Order.BigOperators.Group.Finset

namespace Cert.EdgeSum

open Finset

/-- A sum of non-negative extended reals times any extended real is the sum of the products. -/
theorem sum_mul_of_nonneg {ι : Type*} (s : Finset ι) (n : ι → EReal) (hn : ∀ e ∈ s, 0 ≤ n e) (c : EReal) :
    (∑ e ∈ s, n e) * c = ∑ e ∈ s, n e * c := by
  classical
  induction s using Finset.induction_on with
  | empty => simp
  | insert a s ha ih =>
    rw [sum_insert ha, sum_insert ha,
      EReal.right_distrib_of_nonneg (hn a (mem_insert_self a s))
        (sum_nonneg fun e he => hn e (mem_insert_of_mem he)),
      ih (fun e he => hn e (mem_insert_of_mem he))]

/-- The dense-operator form of the aggregation equals the edge-list form, for non-negative edge weights: both with
    the zero the two programs start their sums from. -/
theorem dense_eq_edges {E U : Type*} [Fintype E] [Fintype U] [DecidableEq U]
    (n : E → EReal) (hn : ∀ e, 0 ≤ n e) (s d : E → U) (h : U → EReal) (v : U) :
    ∑ u, (0 + ∑ e ∈ univ.filter (fun e => d e = v ∧ s e = u), n e) * h u
      = 0 + ∑ e ∈ univ.filter (fun e => d e = v), h (s e) * n e := by
  simp only [zero_add]
  have bucket : ∀ u, (∑ e ∈ univ.filter (fun e => d e = v ∧ s e = u), n e) * h u
      = ∑ e ∈ (univ.filter (fun e => d e = v)).filter (fun e => s e = u), h (s e) * n e := by
    intro u
    rw [sum_mul_of_nonneg _ _ (fun e _ => hn e), filter_filter]
    refine sum_congr rfl fun e he => ?_
    rw [(mem_filter.1 he).2.2]
    exact EReal.mul_comm _ _
  simp only [bucket]
  exact sum_fiberwise (univ.filter (fun e => d e = v)) s (fun e => h (s e) * n e)

end Cert.EdgeSum
-- ==== Proof.Spec.lean ====
/-
  The network's layers as plain sums over finite index types, the common language in which the kernel's regions and the
  reference's operations are both read at one element.

  `lin y w`            node u, output channel o  ↦  ∑ᵢ y u i · w i o               (the features times the weights)
  `layerDense a y w b` node v, channel o  ↦  (∑ᵤ a v u · lin y w u o) + b o         (a dense operator applied to lin)
  `layerEdges n s d …` node v, channel o  ↦  (0 + ∑ over edges e into v of lin y w (s e) o · n e) + b o
  `adj n s d`          (v, u) ↦ 0 + the total weight of the edges from u into v       (the dense operator of the edge list)
  `fc y w b`           channel o ↦ (∑ᵢ y i · w i o) + b o                             (a fully connected layer on one row)

  With non-negative edge weights the dense form at the edge list's operator IS the edge form (`layerDense_adj`).
-/
import proofs.«175376_j67851893342527_1_alg».proof.Proof.EdgeSum

noncomputable section

open scoped BigOperators

namespace Cert.Spec

open Finset

/-- The features of node `u` times the weights, at output channel `o`. -/
def lin {V I O : Nat} (y : Fin V → Fin I → EReal) (w : Fin I → Fin O → EReal) (u : Fin V) (o : Fin O) : EReal :=
  ∑ i, y u i * w i o

/-- A graph layer through a dense operator `a` on the nodes. -/
def layerDense {V I O : Nat} (a : Fin V → Fin V → EReal) (y : Fin V → Fin I → EReal) (w : Fin I → Fin O → EReal)
    (b : Fin O → EReal) (v : Fin V) (o : Fin O) : EReal :=
  (∑ u, a v u * lin y w u o) + b o

/-- The same layer over the edge list: edge `e` goes from `s e` to `d e` with weight `n e`. -/
def layerEdges {E V I O : Nat} (n : Fin E → EReal) (s d : Fin E → Fin V) (y : Fin V → Fin I → EReal)
    (w : Fin I → Fin O → EReal) (b : Fin O → EReal) (v : Fin V) (o : Fin O) : EReal :=
  (0 + ∑ e ∈ univ.filter (fun e => d e = v), lin y w (s e) o * n e) + b o

/-- The dense operator of an edge list: entry (v, u) is zero plus the total weight of the edges from u into v. -/
def adj {E V : Nat} (n : Fin E → EReal) (s d : Fin E → Fin V) (v u : Fin V) : EReal :=
  0 + ∑ e ∈ univ.filter (fun e => d e = v ∧ s e = u), n e

/-- With non-negative weights, the dense form at the edge list's operator is the edge form. -/
theorem layerDense_adj {E V I O : Nat} (n : Fin E → EReal) (hn : ∀ e, 0 ≤ n e) (s d : Fin E → Fin V)
    (y : Fin V → Fin I → EReal) (w : Fin I → Fin O → EReal) (b : Fin O → EReal) (v : Fin V) (o : Fin O) :
    layerDense (adj n s d) y w b v o = layerEdges n s d y w b v o := by
  unfold layerDense layerEdges adj
  rw [Cert.EdgeSum.dense_eq_edges n hn s d (fun u => lin y w u o) v]

/-- A fully connected layer on one row of features. -/
def fc {I O : Nat} (y : Fin I → EReal) (w : Fin I → Fin O → EReal) (b : Fin O → EReal) (o : Fin O) : EReal :=
  (∑ i, y i * w i o) + b o

end Cert.Spec

end
-- ==== Proof.KernelStages.lean ====
/-
  Each region's output, element by element, in the layers' common language: given what the region's operand arrays hold
  (the dense operator's entries, the features of one batch element, the weights, the bias), a graph region's output at
  (p, v, o) is `Spec.layerDense` of them at (v, o) (for the odd regions its maximum with 0), and a dense region's output at
  (p, o) is `Spec.fc` of them at o (for the last, its hyperbolic tangent).
-/
import proofs.«175376_j67851893342527_1_alg».proof.Proof.Region0
import proofs.«175376_j67851893342527_1_alg».proof.Proof.Region1
import proofs.«175376_j67851893342527_1_alg».proof.Proof.Region2
import proofs.«175376_j67851893342527_1_alg».proof.Proof.Region3
import proofs.«175376_j67851893342527_1_alg».proof.Proof.Region4
import proofs.«175376_j67851893342527_1_alg».proof.Proof.Region5
import proofs.«175376_j67851893342527_1_alg».proof.Proof.Region6
import proofs.«175376_j67851893342527_1_alg».proof.Proof.Region7
import proofs.«175376_j67851893342527_1_alg».proof.Proof.Region8
import proofs.«175376_j67851893342527_1_alg».proof.Proof.Spec

noncomputable section

open scoped BigOperators

namespace Cert.KernelIdeal.Stages

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- Region 0 in the common language. -/
theorem gcn0 (c : Dev nD) (p : Fin 32) (a : Fin 2048 → Fin 2048 → EReal) (y : Fin 2048 → Fin 515 → EReal)
    (w : Fin 515 → Fin 512 → EReal) (b : Fin 512 → EReal)
    (ha : ∀ v u, Region0.opr V c (ix2 v u) = a v u) (hy : ∀ u i, Region0.feat V c (ix3 p u i) = y u i)
    (hw : ∀ i o, Region0.wts V c (ix2 i o) = w i o) (hb : ∀ o, Region0.bias V c (ix2 (0 : Fin 1) o) = b o)
    (v : Fin 2048) (o : Fin 512) :
    Region0.outArr V c (ix3 p v o) = Cert.Spec.layerDense a y w b v o := by
  rw [Region0.region0_apply V c p v o]
  simp only [ha, hy, hw, hb]
  rfl

/-- Region 1 in the common language. -/
theorem gcn1 (c : Dev nD) (p : Fin 32) (a : Fin 2048 → Fin 2048 → EReal) (y : Fin 2048 → Fin 512 → EReal)
    (w : Fin 512 → Fin 512 → EReal) (b : Fin 512 → EReal)
    (ha : ∀ v u, Region1.opr V c (ix2 v u) = a v u) (hy : ∀ u i, Region1.feat V c (ix3 p u i) = y u i)
    (hw : ∀ i o, Region1.wts V c (ix2 i o) = w i o) (hb : ∀ o, Region1.bias V c (ix2 (0 : Fin 1) o) = b o)
    (v : Fin 2048) (o : Fin 512) :
    Region1.outArr V c (ix3 p v o) = max (Cert.Spec.layerDense a y w b v o) 0 := by
  rw [Region1.region1_apply V c p v o]
  simp only [ha, hy, hw, hb]
  rfl

/-- Region 2 in the common language. -/
theorem gcn2 (c : Dev nD) (p : Fin 32) (a : Fin 2048 → Fin 2048 → EReal) (y : Fin 2048 → Fin 512 → EReal)
    (w : Fin 512 → Fin 512 → EReal) (b : Fin 512 → EReal)
    (ha : ∀ v u, Region2.opr V c (ix2 v u) = a v u) (hy : ∀ u i, Region2.feat V c (ix3 p u i) = y u i)
    (hw : ∀ i o, Region2.wts V c (ix2 i o) = w i o) (hb : ∀ o, Region2.bias V c (ix2 (0 : Fin 1) o) = b o)
    (v : Fin 2048) (o : Fin 512) :
    Region2.outArr V c (ix3 p v o) = Cert.Spec.layerDense a y w b v o := by
  rw [Region2.region2_apply V c p v o]
  simp only [ha, hy, hw, hb]
  rfl

/-- Region 3 in the common language. -/
theorem gcn3 (c : Dev nD) (p : Fin 32) (a : Fin 2048 → Fin 2048 → EReal) (y : Fin 2048 → Fin 512 → EReal)
    (w : Fin 512 → Fin 512 → EReal) (b : Fin 512 → EReal)
    (ha : ∀ v u, Region3.opr V c (ix2 v u) = a v u) (hy : ∀ u i, Region3.feat V c (ix3 p u i) = y u i)
    (hw : ∀ i o, Region3.wts V c (ix2 i o) = w i o) (hb : ∀ o, Region3.bias V c (ix2 (0 : Fin 1) o) = b o)
    (v : Fin 2048) (o : Fin 512) :
    Region3.outArr V c (ix3 p v o) = max (Cert.Spec.layerDense a y w b v o) 0 := by
  rw [Region3.region3_apply V c p v o]
  simp only [ha, hy, hw, hb]
  rfl

/-- Region 4 in the common language. -/
theorem gcn4 (c : Dev nD) (p : Fin 32) (a : Fin 2048 → Fin 2048 → EReal) (y : Fin 2048 → Fin 512 → EReal)
    (w : Fin 512 → Fin 64 → EReal) (b : Fin 64 → EReal)
    (ha : ∀ v u, Region4.opr V c (ix2 v u) = a v u) (hy : ∀ u i, Region4.feat V c (ix3 p u i) = y u i)
    (hw : ∀ i o, Region4.wts V c (ix2 i o) = w i o) (hb : ∀ o, Region4.bias V c (ix2 (0 : Fin 1) o) = b o)
    (v : Fin 2048) (o : Fin 64) :
    Region4.outArr V c (ix3 p v o) = Cert.Spec.layerDense a y w b v o := by
  rw [Region4.region4_apply V c p v o]
  simp only [ha, hy, hw, hb]
  rfl

/-- Region 5 in the common language. -/
theorem gcn5 (c : Dev nD) (p : Fin 32) (a : Fin 2048 → Fin 2048 → EReal) (y : Fin 2048 → Fin 64 → EReal)
    (w : Fin 64 → Fin 3 → EReal) (b : Fin 3 → EReal)
    (ha : ∀ v u, Region5.opr V c (ix2 v u) = a v u) (hy : ∀ u i, Region5.feat V c (ix3 p u i) = y u i)
    (hw : ∀ i o, Region5.wts V c (ix2 i o) = w i o) (hb : ∀ o, Region5.bias V c (ix2 (0 : Fin 1) o) = b o)
    (v : Fin 2048) (o : Fin 3) :
    Region5.outArr V c (ix3 p v o) = max (Cert.Spec.layerDense a y w b v o) 0 := by
  rw [Region5.region5_apply V c p v o]
  simp only [ha, hy, hw, hb]
  rfl

/-- Region 6 in the common language. -/
theorem fc6 (c : Dev nD) (p : Fin 32) (y : Fin 6144 → EReal) (w : Fin 6144 → Fin 1024 → EReal) (b : Fin 1024 → EReal)
    (hy : ∀ i, Region6.feat V c (ix2 p i) = y i) (hw : ∀ i o, Region6.wts V c (ix2 i o) = w i o)
    (hb : ∀ o, Region6.bias V c (ix2 (0 : Fin 1) o) = b o) (o : Fin 1024) :
    Region6.outArr V c (ix2 p o) = Cert.Spec.fc y w b o := by
  rw [Region6.region6_apply V c p o]
  simp only [hy, hw, hb]
  rfl

/-- Region 7 in the common language. -/
theorem fc7 (c : Dev nD) (p : Fin 32) (y : Fin 1024 → EReal) (w : Fin 1024 → Fin 1024 → EReal) (b : Fin 1024 → EReal)
    (hy : ∀ i, Region7.feat V c (ix2 p i) = y i) (hw : ∀ i o, Region7.wts V c (ix2 i o) = w i o)
    (hb : ∀ o, Region7.bias V c (ix2 (0 : Fin 1) o) = b o) (o : Fin 1024) :
    Region7.outArr V c (ix2 p o) = Cert.Spec.fc y w b o := by
  rw [Region7.region7_apply V c p o]
  simp only [hy, hw, hb]
  rfl

/-- Region 8 in the common language. -/
theorem fc8 (c : Dev nD) (p : Fin 32) (y : Fin 1024 → EReal) (w : Fin 1024 → Fin 6144 → EReal) (b : Fin 6144 → EReal)
    (hy : ∀ i, Region8.feat V c (ix2 p i) = y i) (hw : ∀ i o, Region8.wts V c (ix2 i o) = w i o)
    (hb : ∀ o, Region8.bias V c (ix2 (0 : Fin 1) o) = b o) (o : Fin 6144) :
    Region8.outArr V c (ix2 p o) = Ideal.tanh (Cert.Spec.fc y w b o) := by
  rw [Region8.region8_apply V c p o]
  simp only [hy, hw, hb]
  rfl

end Cert.KernelIdeal.Stages

end
-- ==== Proof.LibGatherScatter.lean ====
/-
  Three host operations of jax's indexing read at one element, over literal-rank shapes of any extents, and two sign
  facts. All are statements about StableHLO's `gather` and `scatter` with the dimension numbers jax prints for
  `h[:, idx, :]` (a gather along the middle axis of a rank-3 array), for `segment_sum` under `vmap` (a scatter-add
  along the middle axis) and for `A.at[rows, cols].add(v)` (a scatter-add into a matrix at index PAIRS).

  * The gather reads the operand at the start index, read signed and clamped into the axis.
  * A float scatter-add at the ideal instance is the operand's element plus the sum of the updates whose (unclamped)
    index lands on that element; an update whose index falls outside the operand lands nowhere.
  * A scatter-add of non-negative updates into a non-negative operand is non-negative, and so is the reciprocal square
    root of a non-negative extended real.
-/
import Idealize.ShloMosaic.Lib.ValueIdx
import Idealize.ShloMosaic.PureOps.Ideal

noncomputable section

open scoped BigOperators

namespace Cert.LibGatherScatter

open Idealize.ShloMosaic Idealize.ShloMosaic.ValueIdx

/-- An entry of a list known by an equation, at a position known by an equation. -/
theorem getElem_eq_of {α : Type} {l l' : List α} (h : l = l') {k k' : Nat} (hk : k = k') (hlt : k < l.length)
    (hlt' : k' < l'.length) : l[k] = l'[k'] := by
  subst h; subst hk; rfl

/-- `h[:, idx, :]`: result element (p, e, o) is the operand at (p, idx[e] clamped into [0, N − 1], o). -/
theorem gather_mid_apply {α : Type} {B N F E w : Nat} (hN : 0 < N)
    (d : GatherDims ⟨3, ![B, N, F]⟩ ⟨2, ![E, 1]⟩ ⟨3, ![B, E, F]⟩)
    (hoff : d.offsetDims = [0, 2]) (hcoll : d.collapsedSliceDims = [1]) (hob : d.operandBatchingDims = [])
    (hsb : d.startIndicesBatchingDims = []) (hsim : d.startIndexMap = [1]) (hivd : d.indexVectorDim = 1)
    (hss : d.sliceSizes = ![B, 1, F])
    (x : (⟨3, ![B, N, F]⟩ : Shape).Idx → α) (idx : IVec ⟨2, ![E, 1]⟩ w) (p : Fin B) (e : Fin E) (o : Fin F) :
    Host.gather d x idx (ix3 p e o)
      = x (ix3 p ⟨min (idx (ix2 e (0 : Fin 1))).toInt.toNat (N - 1), by omega⟩ o) := by
  have hobn : ∀ a : Fin 3, a ∉ d.operandBatchingDims := fun a => by rw [hob]; exact List.not_mem_nil
  have hsk : d.sKept = [0, 2] := by
    show Shape.kept _ (d.collapsedSliceDims ++ d.operandBatchingDims) = _
    rw [hcoll, hob]; rfl
  have hbd : d.batchDims = [1] := by
    show Shape.kept _ d.offsetDims = _
    rw [hoff]; rfl
  have hsik : d.siKept = [0] := by
    show (List.finRange 2).filter (fun b : Fin 2 => decide (b.val ≠ d.indexVectorDim)) = _
    rw [hivd]; rfl
  unfold Host.gather
  congr 1
  funext a
  refine Fin.ext ?_
  match a with
  | ⟨0, _⟩ =>
    -- an offset axis: no start, no batching coordinate, the result's coordinate on its offset axis 0
    show d.start (ix3 p e o) idx 0 + d.batchCoord (ix3 p e o) 0 + d.offCoord (ix3 p e o) 0 = p.val
    have hm : (0 : Fin 3) ∈ d.sKept := by rw [hsk]; simp
    have hs : d.start (ix3 p e o) idx 0 = 0 := by
      unfold GatherDims.start; rw [dif_neg (by rw [hsim]; simp)]
    rw [hs, GatherDims.batchCoord_eq_zero _ _ _ (hobn 0)]
    unfold GatherDims.offCoord
    rw [dif_pos hm]
    have hax : d.offsetDims[d.sKept.idxOf (0 : Fin 3)]'(by rw [d.offset_length]; exact List.idxOf_lt_length_iff.2 hm)
        = (0 : Fin 3) :=
      getElem_eq_of (l' := [0, 2]) (k' := 0) hoff (by rw [hsk]; rfl) _ (by simp)
    rw [hax]
    show 0 + 0 + p.val = p.val
    omega
  | ⟨1, _⟩ =>
    -- the collapsed axis: the clamped start index alone
    show d.start (ix3 p e o) idx 1 + d.batchCoord (ix3 p e o) 1 + d.offCoord (ix3 p e o) 1
      = min (idx (ix2 e (0 : Fin 1))).toInt.toNat (N - 1)
    have hc : (1 : Fin 3) ∈ d.collapsedSliceDims := by rw [hcoll]; simp
    have hk : (1 : Fin 3) ∉ d.sKept := fun h => ((d.mem_sKept 1).1 h).1 hc
    have hm : (1 : Fin 3) ∈ d.startIndexMap := by rw [hsim]; simp
    have hsl : d.sliceSizes 1 = 1 := d.slice_collapsed 1 hc
    rw [GatherDims.batchCoord_eq_zero _ _ _ (hobn 1), GatherDims.offCoord_eq_zero _ _ _ hk]
    unfold GatherDims.start
    rw [dif_pos hm]
    have hsi : d.siIdx (ix3 p e o) ⟨d.startIndexMap.idxOf (1 : Fin 3), List.idxOf_lt_length_iff.2 hm⟩
        = ix2 e (0 : Fin 1) := by
      funext b
      refine Fin.ext ?_
      match b with
      | ⟨0, _⟩ =>
        have hmb : (0 : Fin 2) ∈ d.siKept := by rw [hsik]; simp
        unfold GatherDims.siIdx
        rw [dif_neg (by rw [hivd]; simp)]
        unfold GatherDims.siCoord
        simp only [Fin.val_cast]
        have hax : d.batchDims[d.siKept.idxOf (0 : Fin 2)]'(by
            rw [d.batch_length]; exact List.idxOf_lt_length_iff.2 hmb) = (1 : Fin 3) :=
          getElem_eq_of (l' := [1]) (k' := 0) hbd (by rw [hsik]; rfl) _ (by simp)
        show (ix3 p e o (d.batchDims[d.siKept.idxOf (0 : Fin 2)]'_)).val = e.val
        rw [hax]
      | ⟨1, _⟩ =>
        unfold GatherDims.siIdx
        rw [dif_pos (by rw [hivd])]
        show List.idxOf (1 : Fin 3) d.startIndexMap = 0
        rw [hsim]; rfl
    rw [hsi, hsl]
    show min _ (N - 1) + 0 + 0 = _
    omega
  | ⟨2, _⟩ =>
    -- the other offset axis
    show d.start (ix3 p e o) idx 2 + d.batchCoord (ix3 p e o) 2 + d.offCoord (ix3 p e o) 2 = o.val
    have hm : (2 : Fin 3) ∈ d.sKept := by rw [hsk]; simp
    have hs : d.start (ix3 p e o) idx 2 = 0 := by
      unfold GatherDims.start; rw [dif_neg (by rw [hsim]; simp)]
    rw [hs, GatherDims.batchCoord_eq_zero _ _ _ (hobn 2)]
    unfold GatherDims.offCoord
    rw [dif_pos hm]
    have hax : d.offsetDims[d.sKept.idxOf (2 : Fin 3)]'(by rw [d.offset_length]; exact List.idxOf_lt_length_iff.2 hm)
        = (2 : Fin 3) :=
      getElem_eq_of (l' := [0, 2]) (k' := 1) hoff (by rw [hsk]; rfl) _ (by simp)
    rw [hax]
    show 0 + 0 + o.val = o.val
    omega

/-- Where an update of the middle-axis scatter lands: update (p', e, o') lands on element (p, v, o) exactly when
    p' = p, o' = o and the (signed, unclamped) index of position e is v. -/
theorem resultIdx_mid_iff {B N F E w : Nat}
    (d : ScatterDims ⟨3, ![B, N, F]⟩ ⟨2, ![E, 1]⟩ ⟨3, ![B, E, F]⟩)
    (huw : d.updateWindowDims = [0, 2]) (hiw : d.insertedWindowDims = [1])
    (hsd : d.scatterDimsToOperandDims = [1]) (hivd : d.indexVectorDim = 1)
    (idx : IVec ⟨2, ![E, 1]⟩ w) (p' : Fin B) (e : Fin E) (o' : Fin F) (p : Fin B) (v : Fin N) (o : Fin F) :
    d.resultIdx? (ix3 p' e o') idx = some (ix3 p v o)
      ↔ p' = p ∧ o' = o ∧ (idx (ix2 e (0 : Fin 1))).toInt = (v.val : Int) := by
  have hsk : d.sKept = [0, 2] := by
    show Shape.kept _ d.insertedWindowDims = _
    rw [hiw]; rfl
  have hus : d.uScatter = [1] := by
    show Shape.kept _ d.updateWindowDims = _
    rw [huw]; rfl
  have hsik : d.siKept = [0] := by
    show (List.finRange 2).filter (fun b : Fin 2 => decide (b.val ≠ d.indexVectorDim)) = _
    rw [hivd]; rfl
  have hm0 : (0 : Fin 3) ∈ d.sKept := by rw [hsk]; simp
  have hm1 : (1 : Fin 3) ∉ d.sKept := by rw [hsk]; simp
  have hm2 : (2 : Fin 3) ∈ d.sKept := by rw [hsk]; simp
  have hmem : (1 : Fin 3) ∈ d.scatterDimsToOperandDims := by rw [hsd]; simp
  -- the start of the window: the signed index on the middle axis, 0 on the others
  have hs0 : d.start (ix3 p' e o') idx 0 = 0 := by
    unfold ScatterDims.start; rw [dif_neg (by rw [hsd]; simp)]
  have hs2 : d.start (ix3 p' e o') idx 2 = 0 := by
    unfold ScatterDims.start; rw [dif_neg (by rw [hsd]; simp)]
  have hsi : d.siIdx (ix3 p' e o') ⟨d.scatterDimsToOperandDims.idxOf (1 : Fin 3), List.idxOf_lt_length_iff.2 hmem⟩
      = ix2 e (0 : Fin 1) := by
    funext b
    refine Fin.ext ?_
    match b with
    | ⟨0, _⟩ =>
      have hmb : (0 : Fin 2) ∈ d.siKept := by rw [hsik]; simp
      unfold ScatterDims.siIdx
      rw [dif_neg (by rw [hivd]; simp)]
      unfold ScatterDims.siCoord
      simp only [Fin.val_cast]
      have hax : d.uScatter[d.siKept.idxOf (0 : Fin 2)]'(by
          rw [d.uScatter_length]; exact List.idxOf_lt_length_iff.2 hmb) = (1 : Fin 3) :=
        getElem_eq_of (l' := [1]) (k' := 0) hus (by rw [hsik]; rfl) _ (by simp)
      show (ix3 p' e o' (d.uScatter[d.siKept.idxOf (0 : Fin 2)]'_)).val = e.val
      rw [hax]
    | ⟨1, _⟩ =>
      unfold ScatterDims.siIdx
      rw [dif_pos (by rw [hivd])]
      show List.idxOf (1 : Fin 3) d.scatterDimsToOperandDims = 0
      rw [hsd]; rfl
  have hs1 : d.start (ix3 p' e o') idx 1 = (idx (ix2 e (0 : Fin 1))).toInt := by
    unfold ScatterDims.start; rw [dif_pos hmem, hsi]
  -- the window coordinate: the update's own coordinate on the two window axes, 0 on the inserted one
  have hw0 : d.window (ix3 p' e o') 0 = p'.val := by
    unfold ScatterDims.window; rw [dif_pos hm0]
    have hax : d.updateWindowDims[d.sKept.idxOf (0 : Fin 3)]'(by
        rw [d.window_length]; exact List.idxOf_lt_length_iff.2 hm0) = (0 : Fin 3) :=
      getElem_eq_of (l' := [0, 2]) (k' := 0) huw (by rw [hsk]; rfl) _ (by simp)
    rw [hax]
  have hw1 : d.window (ix3 p' e o') 1 = 0 := by
    unfold ScatterDims.window; rw [dif_neg hm1]
  have hw2 : d.window (ix3 p' e o') 2 = o'.val := by
    unfold ScatterDims.window; rw [dif_pos hm2]
    have hax : d.updateWindowDims[d.sKept.idxOf (2 : Fin 3)]'(by
        rw [d.window_length]; exact List.idxOf_lt_length_iff.2 hm2) = (2 : Fin 3) :=
      getElem_eq_of (l' := [0, 2]) (k' := 1) huw (by rw [hsk]; rfl) _ (by simp)
    rw [hax]
  constructor
  · intro h
    unfold ScatterDims.resultIdx? at h
    split at h
    · rename_i hall
      have hf := Option.some.inj h
      have h0 : (d.start (ix3 p' e o') idx 0 + (d.window (ix3 p' e o') 0 : Int)).toNat = p.val :=
        congrArg Fin.val (congrFun hf 0)
      have h1 : (d.start (ix3 p' e o') idx 1 + (d.window (ix3 p' e o') 1 : Int)).toNat = v.val :=
        congrArg Fin.val (congrFun hf 1)
      have h2 : (d.start (ix3 p' e o') idx 2 + (d.window (ix3 p' e o') 2 : Int)).toNat = o.val :=
        congrArg Fin.val (congrFun hf 2)
      have b1 := (hall 1).1
      rw [hs0, hw0] at h0
      rw [hs1, hw1] at h1 b1
      rw [hs2, hw2] at h2
      refine ⟨Fin.ext ?_, Fin.ext ?_, ?_⟩
      · omega
      · omega
      · omega
    · exact absurd h (by simp)
  · rintro ⟨rfl, rfl, hv⟩
    have hall : ∀ a, 0 ≤ d.start (ix3 p' e o') idx a + (d.window (ix3 p' e o') a : Int)
        ∧ d.start (ix3 p' e o') idx a + (d.window (ix3 p' e o') a : Int) < ((Shape.size ⟨3, ![B, N, F]⟩ a : Nat) : Int) := by
      intro a
      match a with
      | ⟨0, _⟩ =>
        show 0 ≤ d.start (ix3 p' e o') idx 0 + (d.window (ix3 p' e o') 0 : Int)
          ∧ d.start (ix3 p' e o') idx 0 + (d.window (ix3 p' e o') 0 : Int) < ((B : Nat) : Int)
        rw [hs0, hw0]; have := p'.isLt; omega
      | ⟨1, _⟩ =>
        show 0 ≤ d.start (ix3 p' e o') idx 1 + (d.window (ix3 p' e o') 1 : Int)
          ∧ d.start (ix3 p' e o') idx 1 + (d.window (ix3 p' e o') 1 : Int) < ((N : Nat) : Int)
        rw [hs1, hw1, hv]; have := v.isLt; omega
      | ⟨2, _⟩ =>
        show 0 ≤ d.start (ix3 p' e o') idx 2 + (d.window (ix3 p' e o') 2 : Int)
          ∧ d.start (ix3 p' e o') idx 2 + (d.window (ix3 p' e o') 2 : Int) < ((F : Nat) : Int)
        rw [hs2, hw2]; have := o'.isLt; omega
    unfold ScatterDims.resultIdx?
    rw [dif_pos hall]
    congr 1
    funext a
    refine Fin.ext ?_
    match a with
    | ⟨0, _⟩ =>
      show (d.start (ix3 p' e o') idx 0 + (d.window (ix3 p' e o') 0 : Int)).toNat = p'.val
      rw [hs0, hw0]; omega
    | ⟨1, _⟩ =>
      show (d.start (ix3 p' e o') idx 1 + (d.window (ix3 p' e o') 1 : Int)).toNat = v.val
      rw [hs1, hw1, hv]; omega
    | ⟨2, _⟩ =>
      show (d.start (ix3 p' e o') idx 2 + (d.window (ix3 p' e o') 2 : Int)).toNat = o'.val
      rw [hs2, hw2]; omega

/-- The scatter-add along the middle axis, at the ideal instance: element (p, v, o) of the result is the operand's
    plus the sum over the positions e whose index is v of update (p, e, o). -/
theorem scatterAdd_mid_apply {φ : FTy} {B N F E w : Nat}
    (d : ScatterDims ⟨3, ![B, N, F]⟩ ⟨2, ![E, 1]⟩ ⟨3, ![B, E, F]⟩)
    (huw : d.updateWindowDims = [0, 2]) (hiw : d.insertedWindowDims = [1])
    (hsd : d.scatterDimsToOperandDims = [1]) (hivd : d.indexVectorDim = 1)
    (x : FVec Ideal ⟨3, ![B, N, F]⟩ φ) (idx : IVec ⟨2, ![E, 1]⟩ w) (upd : FVec Ideal ⟨3, ![B, E, F]⟩ φ)
    (p : Fin B) (v : Fin N) (o : Fin F) :
    Host.scatterAdd (F := Ideal) d x idx upd (ix3 p v o)
      = x (ix3 p v o)
        + ∑ e ∈ Finset.univ.filter (fun e : Fin E => (idx (ix2 e (0 : Fin 1))).toInt = (v.val : Int)), upd (ix3 p e o) := by
  have hchar := resultIdx_mid_iff d huw hiw hsd hivd idx
  -- an update that lands on (p, v, o) is update (p, e, o) for its own middle coordinate e
  have hback : ∀ j : (⟨3, ![B, E, F]⟩ : Shape).Idx, d.resultIdx? j idx = some (ix3 p v o) →
      j = ix3 p (j 1) o ∧ (idx (ix2 (j 1) (0 : Fin 1))).toInt = (v.val : Int) := by
    intro j hj
    have hj' : d.resultIdx? (ix3 (j 0) (j 1) (j 2)) idx = some (ix3 p v o) :=
      (congrArg (fun k => d.resultIdx? k idx) (eq_ix3 j)).symm.trans hj
    obtain ⟨h0, h2, hv⟩ := (hchar (j 0) (j 1) (j 2) p v o).1 hj'
    refine ⟨?_, hv⟩
    funext a
    match a with
    | ⟨0, _⟩ => exact h0
    | ⟨1, _⟩ => rfl
    | ⟨2, _⟩ => exact h2
  unfold Host.scatterAdd
  rw [Ideal.hostScatterAdd_def]
  unfold Ideal.hostScatterAdd
  congr 1
  refine Finset.sum_bij' (fun j _ => j 1) (fun e _ => ix3 p e o) ?_ ?_ ?_ ?_ ?_
  · intro j hj
    exact Finset.mem_filter.2 ⟨Finset.mem_univ _, (hback j (Finset.mem_filter.1 hj).2).2⟩
  · intro e he
    exact Finset.mem_filter.2 ⟨Finset.mem_univ _, (hchar p e o p v o).2 ⟨rfl, rfl, (Finset.mem_filter.1 he).2⟩⟩
  · intro j hj
    exact (hback j (Finset.mem_filter.1 hj).2).1.symm
  · intro e _
    rfl
  · intro j hj
    exact congrArg upd (hback j (Finset.mem_filter.1 hj).2).1

/-- Where an update of the pair scatter lands: update e lands on element (v, u) exactly when its (signed, unclamped)
    index pair is (v, u). -/
theorem resultIdx_pair_iff {N M E w : Nat}
    (d : ScatterDims ⟨2, ![N, M]⟩ ⟨2, ![E, 2]⟩ ⟨1, ![E]⟩)
    (huw : d.updateWindowDims = []) (hiw : d.insertedWindowDims = [0, 1])
    (hsd : d.scatterDimsToOperandDims = [0, 1]) (hivd : d.indexVectorDim = 1)
    (idx : IVec ⟨2, ![E, 2]⟩ w) (e : Fin E) (v : Fin N) (u : Fin M) :
    d.resultIdx? (ix1 e) idx = some (ix2 v u)
      ↔ (idx (ix2 e (0 : Fin 2))).toInt = (v.val : Int) ∧ (idx (ix2 e (1 : Fin 2))).toInt = (u.val : Int) := by
  have hsk : d.sKept = [] := by
    show Shape.kept _ d.insertedWindowDims = _
    rw [hiw]; rfl
  have hsik : d.siKept = [0] := by
    show (List.finRange 2).filter (fun b : Fin 2 => decide (b.val ≠ d.indexVectorDim)) = _
    rw [hivd]; rfl
  have hmem0 : (0 : Fin 2) ∈ d.scatterDimsToOperandDims := by rw [hsd]; simp
  have hmem1 : (1 : Fin 2) ∈ d.scatterDimsToOperandDims := by rw [hsd]; simp
  -- the scatter-indices index of component c of update e's start index is (e, c)
  have hsi : ∀ (c : Fin d.scatterDimsToOperandDims.length) (c' : Fin 2), c.val = c'.val →
      d.siIdx (ix1 e) c = ix2 e c' := by
    intro c c' hc
    funext b
    refine Fin.ext ?_
    match b with
    | ⟨0, _⟩ =>
      unfold ScatterDims.siIdx
      rw [dif_neg (by rw [hivd]; simp)]
      unfold ScatterDims.siCoord
      simp only [Fin.val_cast]
      have hone : ∀ X : Fin 1, ((ix1 e : (⟨1, ![E]⟩ : Shape).Idx) X).val = e.val := fun X => by
        have hX : X = 0 := Subsingleton.elim _ _
        subst hX; rfl
      exact hone _
    | ⟨1, _⟩ =>
      unfold ScatterDims.siIdx
      rw [dif_pos (by rw [hivd])]
      exact hc
  have hs0 : d.start (ix1 e) idx 0 = (idx (ix2 e (0 : Fin 2))).toInt := by
    unfold ScatterDims.start
    rw [dif_pos hmem0, hsi _ (0 : Fin 2) (by show List.idxOf (0 : Fin 2) d.scatterDimsToOperandDims = 0; rw [hsd]; rfl)]
  have hs1 : d.start (ix1 e) idx 1 = (idx (ix2 e (1 : Fin 2))).toInt := by
    unfold ScatterDims.start
    rw [dif_pos hmem1, hsi _ (1 : Fin 2) (by show List.idxOf (1 : Fin 2) d.scatterDimsToOperandDims = 1; rw [hsd]; rfl)]
  -- both operand axes are inserted: no window coordinate
  have hw : ∀ a : Fin 2, d.window (ix1 e) a = 0 := by
    intro a
    unfold ScatterDims.window; rw [dif_neg (by rw [hsk]; exact List.not_mem_nil)]
  constructor
  · intro h
    unfold ScatterDims.resultIdx? at h
    split at h
    · rename_i hall
      have hf := Option.some.inj h
      have h0 : (d.start (ix1 e) idx 0 + (d.window (ix1 e) 0 : Int)).toNat = v.val :=
        congrArg Fin.val (congrFun hf 0)
      have h1 : (d.start (ix1 e) idx 1 + (d.window (ix1 e) 1 : Int)).toNat = u.val :=
        congrArg Fin.val (congrFun hf 1)
      have b0 := (hall 0).1
      have b1 := (hall 1).1
      rw [hs0, hw 0] at h0 b0
      rw [hs1, hw 1] at h1 b1
      constructor
      · omega
      · omega
    · exact absurd h (by simp)
  · rintro ⟨hv, hu⟩
    have hall : ∀ a, 0 ≤ d.start (ix1 e) idx a + (d.window (ix1 e) a : Int)
        ∧ d.start (ix1 e) idx a + (d.window (ix1 e) a : Int) < ((Shape.size ⟨2, ![N, M]⟩ a : Nat) : Int) := by
      intro a
      match a with
      | ⟨0, _⟩ =>
        show 0 ≤ d.start (ix1 e) idx 0 + (d.window (ix1 e) 0 : Int)
          ∧ d.start (ix1 e) idx 0 + (d.window (ix1 e) 0 : Int) < ((N : Nat) : Int)
        rw [hs0, hw 0, hv]; have := v.isLt; omega
      | ⟨1, _⟩ =>
        show 0 ≤ d.start (ix1 e) idx 1 + (d.window (ix1 e) 1 : Int)
          ∧ d.start (ix1 e) idx 1 + (d.window (ix1 e) 1 : Int) < ((M : Nat) : Int)
        rw [hs1, hw 1, hu]; have := u.isLt; omega
    unfold ScatterDims.resultIdx?
    rw [dif_pos hall]
    congr 1
    funext a
    refine Fin.ext ?_
    match a with
    | ⟨0, _⟩ =>
      show (d.start (ix1 e) idx 0 + (d.window (ix1 e) 0 : Int)).toNat = v.val
      rw [hs0, hw 0, hv]; omega
    | ⟨1, _⟩ =>
      show (d.start (ix1 e) idx 1 + (d.window (ix1 e) 1 : Int)).toNat = u.val
      rw [hs1, hw 1, hu]; omega

/-- The scatter-add into a matrix at index pairs, at the ideal instance: element (v, u) of the result is the
    operand's plus the sum over the positions e whose index pair is (v, u) of update e. -/
theorem scatterAdd_pair_apply {φ : FTy} {N M E w : Nat}
    (d : ScatterDims ⟨2, ![N, M]⟩ ⟨2, ![E, 2]⟩ ⟨1, ![E]⟩)
    (huw : d.updateWindowDims = []) (hiw : d.insertedWindowDims = [0, 1])
    (hsd : d.scatterDimsToOperandDims = [0, 1]) (hivd : d.indexVectorDim = 1)
    (x : FVec Ideal ⟨2, ![N, M]⟩ φ) (idx : IVec ⟨2, ![E, 2]⟩ w) (upd : FVec Ideal ⟨1, ![E]⟩ φ)
    (v : Fin N) (u : Fin M) :
    Host.scatterAdd (F := Ideal) d x idx upd (ix2 v u)
      = x (ix2 v u)
        + ∑ e ∈ Finset.univ.filter (fun e : Fin E =>
            (idx (ix2 e (0 : Fin 2))).toInt = (v.val : Int) ∧ (idx (ix2 e (1 : Fin 2))).toInt = (u.val : Int)), upd (ix1 e) := by
  have hchar := resultIdx_pair_iff d huw hiw hsd hivd idx
  unfold Host.scatterAdd
  rw [Ideal.hostScatterAdd_def]
  unfold Ideal.hostScatterAdd
  congr 1
  refine Finset.sum_bij' (fun j _ => j 0) (fun e _ => ix1 e) ?_ ?_ ?_ ?_ ?_
  · intro j hj
    have hj' : d.resultIdx? (ix1 (j 0)) idx = some (ix2 v u) :=
      (congrArg (fun k => d.resultIdx? k idx) (eq_ix1 j)).symm.trans (Finset.mem_filter.1 hj).2
    exact Finset.mem_filter.2 ⟨Finset.mem_univ _, (hchar (j 0) v u).1 hj'⟩
  · intro e he
    exact Finset.mem_filter.2 ⟨Finset.mem_univ _, (hchar e v u).2 (Finset.mem_filter.1 he).2⟩
  · intro j _
    exact (eq_ix1 j).symm
  · intro e _
    rfl
  · intro j _
    exact congrArg upd (eq_ix1 j)

/-- A scatter-add of non-negative updates into a non-negative operand is non-negative everywhere. -/
theorem scatterAdd_nonneg {φ : FTy} {s si su : Shape} {w : Nat} (d : ScatterDims s si su)
    (x : FVec Ideal s φ) (idx : IVec si w) (upd : FVec Ideal su φ)
    (hx : ∀ i, (0 : EReal) ≤ x i) (hu : ∀ j, (0 : EReal) ≤ upd j) (i : s.Idx) :
    (0 : EReal) ≤ Host.scatterAdd (F := Ideal) d x idx upd i := by
  unfold Host.scatterAdd
  rw [Ideal.hostScatterAdd_def]
  unfold Ideal.hostScatterAdd
  exact add_nonneg (hx i) (Finset.sum_nonneg fun j _ => hu j)

/-- The reciprocal square root of a non-negative extended real is non-negative (0 ↦ ⊤, ⊤ ↦ 0, r > 0 ↦ 1/√r). -/
theorem rsqrt_nonneg (x : EReal) (hx : 0 ≤ x) : 0 ≤ Ideal.rsqrt x := by
  induction x using EReal.rec with
  | bot => exact absurd hx (by simp)
  | coe r =>
    rw [Ideal.rsqrt_coe]
    have hr : 0 ≤ r := by exact_mod_cast hx
    split_ifs with h1 h2
    · exact absurd h1 (not_lt.mpr hr)
    · exact le_top
    · exact_mod_cast inv_nonneg.mpr (Real.sqrt_nonneg r)
  | top => rw [Ideal.rsqrt_top]

end Cert.LibGatherScatter

end
-- ==== Proof.KernelGraph.lean ====
/-
  The graph the edge list describes, read off the kernel's host operations under the precondition that every entry of
  the edge list is a node number in [0, 2048).

  Edge e (0 ≤ e < 14336) goes from node `src e` to node `dst e`: for e < 12288 the two rows of the edge list at e, and
  for e ≥ 12288 the self loop at node e − 12288. Every source and target is in range, so numpy's re-reading of negative
  indices changes nothing (`wrap` is the identity on them). The weight `wgt e` of an edge is a product of two reciprocal
  square roots of degrees; a degree is zero plus a sum of ones, hence non-negative, and the reciprocal square root of a
  non-negative extended real is non-negative, so every weight is non-negative. Entry (v, u) of the dense operator is zero
  plus the sum of the weights of the edges from u into v: the scatter-add at index pairs read at one element, the pairs
  being in range.
-/
import proofs.«175376_j67851893342527_1_alg».proof.Proof.KernelHost
import proofs.«175376_j67851893342527_1_alg».proof.Proof.LibGatherScatter
import proofs.«175376_j67851893342527_1_alg».proof.Proof.Spec
import Idealize.ShloMosaic.Lib.ValueIdx
import Idealize.ShloMosaic.Lib.Pipeline.Value
import Idealize.ShloMosaic.Lib.StableHlo.Predicate
import Idealize.ShloMosaic.PureOps.Ideal.Laws
import Mathlib.Data.EReal.Operations

noncomputable section

open scoped BigOperators

namespace Cert.KernelIdeal.Graph

open Idealize.ShloMosaic Idealize.ShloMosaic.ValueIdx
open Cert.KernelIdeal Cert.KernelIdeal.HostTerms
open Cert.KernelIdeal.Facts₀ Cert.KernelIdeal.Facts

variable [Cert.KernelIdeal.Facts]

/-- The precondition's statement about the edge list. -/
def InRange (x2 : IVec S2x12288 32) : Prop := ∀ k : S2x12288.Idx, 0 ≤ (x2 k).toInt ∧ (x2 k).toInt < 2048

variable (x2 : IVec S2x12288 32)

/-- A row of the edge list followed by the self loops, read at a position before the loops: the edge list's entry. -/
theorem rowThenLoops_apply_lt (off : Fin 2 → Nat) (hs : S2x12288.Slices off S1x12288) (e : Fin 14336)
    (he : e.val < 12288) (r : Fin 2) (hr0 : off 0 = r.val) (hr1 : off 1 = 0) :
    concatenate S14336 0 [⟨S12288, shapeCast _ (extractStridedSlice S1x12288 off x2 hs) shapeCasts_S1x12288_S12288⟩,
      ⟨S2048, iotaInDim S2048 32 0⟩] concatenates_S12288_S2048_S14336_d0 (ix1 e)
      = x2 (ix2 r (⟨e.val, he⟩ : Fin 12288)) := by
  refine (concatenate_pair_apply_left _ _ _ concatenates_S12288_S2048_S14336_d0 (ix1 e) rfl
    (ix1 (⟨e.val, he⟩ : Fin 12288)) (fun b => by match b with | ⟨0, _⟩ => rfl)).trans ?_
  refine (shapeCast_apply _ shapeCasts_S1x12288_S12288 (ix1 (⟨e.val, he⟩ : Fin 12288))
    (ix2 (0 : Fin 1) (⟨e.val, he⟩ : Fin 12288)) ?_).trans ?_
  · rw [Shape.rowMajor_val_one, Shape.rowMajor_val_two]
    show 0 * 12288 + e.val = e.val
    omega
  · refine extractStridedSlice_apply off x2 hs _ (ix2 r (⟨e.val, he⟩ : Fin 12288)) (fun a => ?_)
    match a with
    | ⟨0, _⟩ => show r.val = off 0 + 0; omega
    | ⟨1, _⟩ => show e.val = off 1 + e.val; omega

/-- The same vector read at a position among the self loops: the loop's node number as a word. -/
theorem rowThenLoops_apply_ge (off : Fin 2 → Nat) (hs : S2x12288.Slices off S1x12288) (e : Fin 14336)
    (he : 12288 ≤ e.val) :
    concatenate S14336 0 [⟨S12288, shapeCast _ (extractStridedSlice S1x12288 off x2 hs) shapeCasts_S1x12288_S12288⟩,
      ⟨S2048, iotaInDim S2048 32 0⟩] concatenates_S12288_S2048_S14336_d0 (ix1 e)
      = BitVec.ofNat 32 (e.val - 12288) := by
  have he' : e.val - 12288 < 2048 := by have := e.isLt; omega
  refine (concatenate_pair_apply_right _ _ _ concatenates_S12288_S2048_S14336_d0 (ix1 e) rfl rfl
    (ix1 (⟨e.val - 12288, he'⟩ : Fin 2048)) (fun b hb => ?_) ?_).trans ?_
  · have hb1 : b.val < 1 := b.isLt
    exact absurd (Fin.ext (by show b.val = 0; omega)) hb
  · show e.val - 12288 + 12288 = e.val
    omega
  · rfl

/-- Every source node is a node number. -/
theorem srcRaw_range (hr : InRange x2) (e : Fin 14336) :
    0 ≤ (srcRaw x2 (ix1 e)).toInt ∧ (srcRaw x2 (ix1 e)).toInt < 2048 := by
  by_cases he : e.val < 12288
  · have h : srcRaw x2 (ix1 e) = x2 (ix2 (0 : Fin 2) (⟨e.val, he⟩ : Fin 12288)) :=
      rowThenLoops_apply_lt x2 _ slices_S2x12288_S1x12288_0_0 e he 0 rfl rfl
    rw [h]
    exact hr _
  · have h : srcRaw x2 (ix1 e) = BitVec.ofNat 32 (e.val - 12288) :=
      rowThenLoops_apply_ge x2 _ slices_S2x12288_S1x12288_0_0 e (by omega)
    have hlt := e.isLt
    rw [h, StableHlo.Predicate.toInt_ofNat_small _ (by omega)]
    omega

/-- Every target node is a node number. -/
theorem dstRaw_range (hr : InRange x2) (e : Fin 14336) :
    0 ≤ (dstRaw x2 (ix1 e)).toInt ∧ (dstRaw x2 (ix1 e)).toInt < 2048 := by
  by_cases he : e.val < 12288
  · have h : dstRaw x2 (ix1 e) = x2 (ix2 (1 : Fin 2) (⟨e.val, he⟩ : Fin 12288)) :=
      rowThenLoops_apply_lt x2 _ slices_S2x12288_S1x12288_1_0 e he 1 rfl rfl
    rw [h]
    exact hr _
  · have h : dstRaw x2 (ix1 e) = BitVec.ofNat 32 (e.val - 12288) :=
      rowThenLoops_apply_ge x2 _ slices_S2x12288_S1x12288_1_0 e (by omega)
    have hlt := e.isLt
    rw [h, StableHlo.Predicate.toInt_ofNat_small _ (by omega)]
    omega

/-- numpy's re-reading of negative indices is the identity on a vector with no negative entry. -/
theorem wrap_eq_self (x : IVec S14336 32) (hx : ∀ e : Fin 14336, 0 ≤ (x (ix1 e)).toInt) : wrap x = x := by
  funext j
  obtain ⟨e, rfl⟩ : ∃ e : Fin 14336, j = ix1 e := ⟨j 0, eq_ix1 j⟩
  unfold wrap
  rw [select_apply]
  -- the comparison "entry < 0" is decided: the entry is non-negative
  have h0 : (0#32 : BitVec 32).toInt = 0 := by decide
  have hlt : (x (ix1 e)).slt 0#32 = false := by
    simp only [BitVec.slt, h0, decide_eq_false_iff_not, not_lt]
    exact hx e
  have hc : cmpi .slt x (broadcastInDim S14336 ![] bcast_S_S14336 (constantI S_ 32 0#32)) (ix1 e) = 0#1 := by
    show BitVec.ofBool ((x (ix1 e)).slt 0#32) = 0#1
    rw [hlt]; rfl
  rw [hc, select_zero]

/-- The start-index column of a vector holds, in row e, the vector's entry e. -/
theorem col_apply (x : IVec S14336 32) (e : Fin 14336) : col x (ix2 e (0 : Fin 1)) = x (ix1 e) := by
  unfold col
  exact broadcastInDim_apply _ bcast_S14336_S14336x1_0 x (ix2 e (0 : Fin 1)) (ix1 e)
    (fun a => by match a with | ⟨0, _⟩ => rfl)

/-- The source node of edge `e`. -/
def src (hr : InRange x2) (e : Fin 14336) : Fin 2048 :=
  ⟨(srcRaw x2 (ix1 e)).toInt.toNat, by have := srcRaw_range x2 hr e; omega⟩

/-- The target node of edge `e`. -/
def dst (hr : InRange x2) (e : Fin 14336) : Fin 2048 :=
  ⟨(dstRaw x2 (ix1 e)).toInt.toNat, by have := dstRaw_range x2 hr e; omega⟩

/-- The start-index column of the sources holds, at edge e, the source node (as a signed word). -/
theorem col_src_toInt (hr : InRange x2) (e : Fin 14336) :
    (col (wrap (srcRaw x2)) (ix2 e (0 : Fin 1))).toInt = ((src x2 hr e).val : Int) := by
  rw [wrap_eq_self _ (fun e' => (srcRaw_range x2 hr e').1), col_apply]
  show _ = (((srcRaw x2 (ix1 e)).toInt.toNat : Nat) : Int)
  have := (srcRaw_range x2 hr e).1
  omega

/-- The start-index column of the targets holds, at edge e, the target node (as a signed word). -/
theorem col_dst_toInt (hr : InRange x2) (e : Fin 14336) :
    (col (wrap (dstRaw x2)) (ix2 e (0 : Fin 1))).toInt = ((dst x2 hr e).val : Int) := by
  rw [wrap_eq_self _ (fun e' => (dstRaw_range x2 hr e').1), col_apply]
  show _ = (((dstRaw x2 (ix1 e)).toInt.toNat : Nat) : Int)
  have := (dstRaw_range x2 hr e).1
  omega

/-- The start-index column of the targets as they stand (not re-read) holds, at edge e, the target node too. -/
theorem col_dstRaw_toInt (hr : InRange x2) (e : Fin 14336) :
    (col (dstRaw x2) (ix2 e (0 : Fin 1))).toInt = ((dst x2 hr e).val : Int) := by
  rw [col_apply]
  show _ = (((dstRaw x2 (ix1 e)).toInt.toNat : Nat) : Int)
  have := (dstRaw_range x2 hr e).1
  omega

/-- The weight of edge `e`. -/
def wgt (e : Fin 14336) : EReal := norm (F := Ideal) x2 (ix1 e)

/-- The word 0x3F800000 read as a float is non-negative (it is 1). -/
theorem ofBits_one_f32_nonneg : (0 : EReal) ≤ Ideal.ofBits .f32 0x3F800000#32 := by
  simp [Ideal.ofBits, Ideal.ieee]
  positivity

/-- Every degree is non-negative: zero plus a sum of ones. -/
theorem deg_nonneg (i : S2048.Idx) : (0 : EReal) ≤ deg (F := Ideal) x2 i := by
  unfold deg
  refine Cert.LibGatherScatter.scatterAdd_nonneg _ _ _ _ (fun i => ?_) (fun j => ?_) i
  · show (0 : EReal) ≤ Ideal.ofBits .f32 0x00000000#32
    rw [Ideal.ofBits_zero_f32]
  · show (0 : EReal) ≤ Ideal.ofBits .f32 0x3F800000#32
    exact ofBits_one_f32_nonneg

/-- Every reciprocal square-root degree is non-negative. -/
theorem dinv_nonneg (i : S2048.Idx) : (0 : EReal) ≤ dinv (F := Ideal) x2 i := by
  unfold dinv
  show (0 : EReal) ≤ Ideal.rsqrt (deg (F := Ideal) x2 i)
  exact Cert.LibGatherScatter.rsqrt_nonneg _ (deg_nonneg x2 i)

/-- Every edge weight is non-negative (this needs no range assumption). -/
theorem wgt_nonneg (e : Fin 14336) : 0 ≤ wgt x2 e := by
  unfold wgt HostTerms.norm
  rw [mulf_apply]
  unfold Host.gather
  exact EReal.mul_nonneg (dinv_nonneg x2 _) (dinv_nonneg x2 _)

/-- Column 0 of the index pairs is the targets' start-index column. -/
theorem pairs_apply_zero (e : Fin 14336) :
    pairs x2 (ix2 e (0 : Fin 2)) = col (wrap (dstRaw x2)) (ix2 e (0 : Fin 1)) := by
  unfold pairs
  exact concatenate_pair_apply_left _ _ _ concatenates_S14336x1_S14336x1_S14336x2_d1 (ix2 e (0 : Fin 2)) rfl
    (ix2 e (0 : Fin 1)) (fun b => by match b with | ⟨0, _⟩ => rfl | ⟨1, _⟩ => rfl)

/-- Column 1 of the index pairs is the sources' start-index column. -/
theorem pairs_apply_one (e : Fin 14336) :
    pairs x2 (ix2 e (1 : Fin 2)) = col (wrap (srcRaw x2)) (ix2 e (0 : Fin 1)) := by
  unfold pairs
  refine concatenate_pair_apply_right _ _ _ concatenates_S14336x1_S14336x1_S14336x2_d1 (ix2 e (1 : Fin 2)) rfl rfl
    (ix2 e (0 : Fin 1)) (fun b hb => ?_) ?_
  · match b with
    | ⟨0, _⟩ => rfl
    | ⟨1, _⟩ => exact absurd (Fin.ext rfl) hb
  · show 0 + 1 = 1
    rfl

/-- The dense operator's entry (v, u) is the edge list's: zero plus the total weight of the edges from u into v. -/
theorem adjacency_apply (hr : InRange x2) (v u : Fin 2048) :
    adjacency (F := Ideal) x2 (ix2 v u) = Cert.Spec.adj (wgt x2) (src x2 hr) (dst x2 hr) v u := by
  unfold adjacency
  rw [truncf_apply]
  rw [Cert.LibGatherScatter.scatterAdd_pair_apply scatter_S2048x2048_S14336x2_S14336_n_01_01_1 rfl rfl rfl rfl _
    (pairs x2) (HostTerms.norm (F := Ideal) x2) v u]
  unfold Cert.Spec.adj
  refine congrArg₂ (· + ·) ?_ ?_
  · show Ideal.ofBits .f32 0x00000000#32 = (0 : EReal)
    exact Ideal.ofBits_zero_f32
  · refine Finset.sum_congr (Finset.filter_congr (fun e _ => ?_)) (fun e _ => rfl)
    rw [pairs_apply_zero, pairs_apply_one, col_dst_toInt x2 hr, col_src_toInt x2 hr]
    constructor
    · rintro ⟨h1, h2⟩
      exact ⟨Fin.ext (by omega), Fin.ext (by omega)⟩
    · rintro ⟨h1, h2⟩
      subst h1; subst h2
      exact ⟨rfl, rfl⟩

end Cert.KernelIdeal.Graph

end
-- ==== Proof.RefStages.lean ====
/-
  The reference program's stages read at one element, in the layers' common language (Spec).

  A graph layer of the reference multiplies the previous stage by the weights, gathers the rows of the edges' source
  nodes, scales each by the edge's weight, adds the rows into the edges' target nodes starting from zeros, and adds the
  bias (some layers then take the maximum with 0). Read at batch element p, node v and channel o that is
  `Spec.layerEdges`: zero plus the sum over the edges into v of (features of the source node times the weights) times the
  edge's weight, plus the bias. It needs the two start-index columns to hold node numbers: `hs`, `hd`.
-/
import proofs.«175376_j67851893342527_1_alg».proof.Proof.Gen.ReferenceIdeal.Read
import proofs.«175376_j67851893342527_1_alg».proof.Proof.LibGatherScatter
import proofs.«175376_j67851893342527_1_alg».proof.Proof.Spec
import Idealize.ShloMosaic.Lib.ValueIdx
import Idealize.ShloMosaic.Lib.Pipeline.Value

set_option maxRecDepth 8192

noncomputable section

open scoped BigOperators

namespace Cert.ReferenceIdeal.Stages

open Idealize.ShloMosaic Idealize.ShloMosaic.ValueIdx
open Cert.ReferenceIdeal Cert.ReferenceIdeal.Read

/-- Stage 47: a graph layer over the previous stage. -/
theorem stage47_apply (x0 : (⟨S32x2048x3, .f32⟩ : BufTy).Contents (Elt Ideal)) (x1 : (⟨S32x512, .f32⟩ : BufTy).Contents (Elt Ideal)) (x2 : (⟨S2x12288, .i32⟩ : BufTy).Contents (Elt Ideal)) (x3 : (⟨S515x512, .f32⟩ : BufTy).Contents (Elt Ideal)) (x4 : (⟨S512, .f32⟩ : BufTy).Contents (Elt Ideal))
    (s d : Fin 14336 → Fin 2048)
    (hs : ∀ e : Fin 14336, (val_main_v36 (F := Ideal) x2 (ix2 e (0 : Fin 1))).toInt = ((s e).val : Int))
    (hd : ∀ e : Fin 14336, (val_main_v42 (F := Ideal) x2 (ix2 e (0 : Fin 1))).toInt = ((d e).val : Int))
    (p : Fin 32) (v : Fin 2048) (o : Fin 512) :
    val_main_v47 (F := Ideal) x0 x1 x2 x3 x4 (ix3 p v o)
      = Cert.Spec.layerEdges (fun e => val_main_v26 (F := Ideal) x2 (ix1 e)) s d
          (fun u i => val_main_v29 (F := Ideal) x0 x1 (ix3 p u i)) (fun i o => x3 (ix2 i o)) (fun o => x4 (ix1 o)) v o := by
  -- the sum of the scatter's result and the bias; the bias's two broadcasts read the bias at channel o
  rw [val_main_v47_apply, Ideal.addf_def, val_main_v46_apply, val_main_v45_apply]
  have hb : idx_main_v45 (idx_main_v46 (ix3 p v o)) = ix1 o :=
    funext fun a => Fin.ext (by match a with | ⟨0, _⟩ => rfl)
  rw [hb]
  -- the scatter-add: the zeros' element plus the sum over the edges whose target index is v
  unfold val_main_v44
  rw [Cert.LibGatherScatter.scatterAdd_mid_apply _ rfl rfl rfl rfl]
  rw [val_main_v43_apply, val_main_v41_apply, val_main_cst_6_apply, Ideal.ofBits_def, Ideal.ofBits_zero_f32]
  unfold Cert.Spec.layerEdges Cert.Spec.lin
  refine congrArg (fun t => 0 + t + x4 (ix1 o)) ?_
  refine Finset.sum_congr (Finset.filter_congr fun e _ => ?_) fun e _ => ?_
  · -- the target column holds d e, so "the index is v" says d e = v
    rw [hd e]
    constructor
    · intro h
      exact Fin.ext (Int.ofNat_inj.1 h)
    · intro h
      rw [h]
  · -- one edge's update: the gathered row of the product times the edge's weight
    rw [val_main_v40_apply, Ideal.mulf_def, val_main_v39_apply, val_main_v38_apply]
    have hw : idx_main_v38 (idx_main_v39 (ix3 p e o)) = ix1 e :=
      funext fun a => Fin.ext (by match a with | ⟨0, _⟩ => rfl)
    rw [hw]
    unfold val_main_v37
    rw [Cert.LibGatherScatter.gather_mid_apply (by decide) _ rfl rfl rfl rfl rfl rfl rfl]
    -- the source column holds s e, a node number, so the clamp leaves it alone
    have hu : ∀ (h : min (val_main_v36 (F := Ideal) x2 (ix2 e (0 : Fin 1))).toInt.toNat (2048 - 1) < 2048),
        (⟨_, h⟩ : Fin 2048) = s e := fun h => Fin.ext (by
      show min (val_main_v36 (F := Ideal) x2 (ix2 e (0 : Fin 1))).toInt.toNat (2048 - 1) = (s e).val
      rw [hs e, Int.toNat_natCast]
      have := (s e).isLt
      omega)
    -- the product of the features and the weights at (p, s e, o): the sum over the contracted axis
    rw [hu, val_main_v30_apply]
    refine congrArg (fun t => t * val_main_v26 (F := Ideal) x2 (ix1 e)) ?_
    refine Finset.sum_congr rfl fun k _ => ?_
    have hl : lidx_main_v30 (ix3 p (s e) o) k = ix3 p (s e) k :=
      funext fun a => Fin.ext (by match a with | ⟨0, _⟩ => rfl | ⟨1, _⟩ => rfl | ⟨2, _⟩ => rfl)
    have hr : ridx_main_v30 (ix3 p (s e) o) k = ix2 k o :=
      funext fun a => Fin.ext (by match a with | ⟨0, _⟩ => rfl | ⟨1, _⟩ => rfl)
    rw [hl, hr]

/-- Stage 66: a graph layer followed by max(·, 0) over the previous stage. -/
theorem stage66_apply (x0 : (⟨S32x2048x3, .f32⟩ : BufTy).Contents (Elt Ideal)) (x1 : (⟨S32x512, .f32⟩ : BufTy).Contents (Elt Ideal)) (x2 : (⟨S2x12288, .i32⟩ : BufTy).Contents (Elt Ideal)) (x3 : (⟨S515x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal))
    (s d : Fin 14336 → Fin 2048)
    (hs : ∀ e : Fin 14336, (val_main_v54 (F := Ideal) x2 (ix2 e (0 : Fin 1))).toInt = ((s e).val : Int))
    (hd : ∀ e : Fin 14336, (val_main_v60 (F := Ideal) x2 (ix2 e (0 : Fin 1))).toInt = ((d e).val : Int))
    (p : Fin 32) (v : Fin 2048) (o : Fin 512) :
    val_main_v66 (F := Ideal) x0 x1 x2 x3 x4 x5 x6 (ix3 p v o)
      = max (Cert.Spec.layerEdges (fun e => val_main_v26 (F := Ideal) x2 (ix1 e)) s d
          (fun u i => val_main_v47 (F := Ideal) x0 x1 x2 x3 x4 (ix3 p u i)) (fun i o => x5 (ix2 i o)) (fun o => x6 (ix1 o)) v o) 0 := by
  -- the layer before the maximum, read at (p, v, o)
  have h65 : val_main_v65 (F := Ideal) x0 x1 x2 x3 x4 x5 x6 (ix3 p v o)
      = Cert.Spec.layerEdges (fun e => val_main_v26 (F := Ideal) x2 (ix1 e)) s d
          (fun u i => val_main_v47 (F := Ideal) x0 x1 x2 x3 x4 (ix3 p u i)) (fun i o => x5 (ix2 i o)) (fun o => x6 (ix1 o)) v o := by
    -- the sum of the scatter's result and the bias; the bias's two broadcasts read the bias at channel o
    rw [val_main_v65_apply, Ideal.addf_def, val_main_v64_apply, val_main_v63_apply]
    have hb : idx_main_v63 (idx_main_v64 (ix3 p v o)) = ix1 o :=
      funext fun a => Fin.ext (by match a with | ⟨0, _⟩ => rfl)
    rw [hb]
    -- the scatter-add: the zeros' element plus the sum over the edges whose target index is v
    unfold val_main_v62
    rw [Cert.LibGatherScatter.scatterAdd_mid_apply _ rfl rfl rfl rfl]
    rw [val_main_v61_apply, val_main_v59_apply, val_main_cst_9_apply, Ideal.ofBits_def, Ideal.ofBits_zero_f32]
    unfold Cert.Spec.layerEdges Cert.Spec.lin
    refine congrArg (fun t => 0 + t + x6 (ix1 o)) ?_
    refine Finset.sum_congr (Finset.filter_congr fun e _ => ?_) fun e _ => ?_
    · -- the target column holds d e, so "the index is v" says d e = v
      rw [hd e]
      constructor
      · intro h
        exact Fin.ext (Int.ofNat_inj.1 h)
      · intro h
        rw [h]
    · -- one edge's update: the gathered row of the product times the edge's weight
      rw [val_main_v58_apply, Ideal.mulf_def, val_main_v57_apply, val_main_v56_apply]
      have hw : idx_main_v56 (idx_main_v57 (ix3 p e o)) = ix1 e :=
        funext fun a => Fin.ext (by match a with | ⟨0, _⟩ => rfl)
      rw [hw]
      unfold val_main_v55
      rw [Cert.LibGatherScatter.gather_mid_apply (by decide) _ rfl rfl rfl rfl rfl rfl rfl]
      -- the source column holds s e, a node number, so the clamp leaves it alone
      have hu : ∀ (h : min (val_main_v54 (F := Ideal) x2 (ix2 e (0 : Fin 1))).toInt.toNat (2048 - 1) < 2048),
          (⟨_, h⟩ : Fin 2048) = s e := fun h => Fin.ext (by
        show min (val_main_v54 (F := Ideal) x2 (ix2 e (0 : Fin 1))).toInt.toNat (2048 - 1) = (s e).val
        rw [hs e, Int.toNat_natCast]
        have := (s e).isLt
        omega)
      -- the product of the previous stage and the weights at (p, s e, o): the sum over the contracted axis
      rw [hu, val_main_v48_apply]
      refine congrArg (fun t => t * val_main_v26 (F := Ideal) x2 (ix1 e)) ?_
      refine Finset.sum_congr rfl fun k _ => ?_
      have hl : lidx_main_v48 (ix3 p (s e) o) k = ix3 p (s e) k :=
        funext fun a => Fin.ext (by match a with | ⟨0, _⟩ => rfl | ⟨1, _⟩ => rfl | ⟨2, _⟩ => rfl)
      have hr : ridx_main_v48 (ix3 p (s e) o) k = ix2 k o :=
        funext fun a => Fin.ext (by match a with | ⟨0, _⟩ => rfl | ⟨1, _⟩ => rfl)
      rw [hl, hr]
  -- the maximum with the broadcast constant zero
  rw [val_main_v66_apply, Ideal.maximumf_def, h65, val_main_call0_v0_apply, val_main_call0_cst_apply,
    Ideal.ofBits_def, Ideal.ofBits_zero_f32]

end Cert.ReferenceIdeal.Stages

end
-- ==== Proof.RefStagesB.lean ====
/-
  The reference program's stages read at one element, in the layers' common language (Spec).

  A graph layer of the reference multiplies the previous stage by the weights, gathers the rows of the edges' source
  nodes, scales each by the edge's weight, adds the rows into the edges' target nodes starting from zeros, and adds the
  bias (some layers then take the maximum with 0). Read at batch element p, node v and channel o that is
  `Spec.layerEdges`: zero plus the sum over the edges into v of (features of the source node times the weights) times the
  edge's weight, plus the bias. It needs the two start-index columns to hold node numbers: `hs`, `hd`.
-/
import proofs.«175376_j67851893342527_1_alg».proof.Proof.Gen.ReferenceIdeal.Read
import proofs.«175376_j67851893342527_1_alg».proof.Proof.LibGatherScatter
import proofs.«175376_j67851893342527_1_alg».proof.Proof.Spec
import Idealize.ShloMosaic.Lib.ValueIdx
import Idealize.ShloMosaic.Lib.Pipeline.Value

set_option maxRecDepth 8192

noncomputable section

open scoped BigOperators

namespace Cert.ReferenceIdeal.StagesB

open Idealize.ShloMosaic Idealize.ShloMosaic.ValueIdx
open Cert.ReferenceIdeal Cert.ReferenceIdeal.Read

/-- Stage 84: a graph layer over the previous stage. -/
theorem stage84_apply (x0 : (⟨S32x2048x3, .f32⟩ : BufTy).Contents (Elt Ideal)) (x1 : (⟨S32x512, .f32⟩ : BufTy).Contents (Elt Ideal)) (x2 : (⟨S2x12288, .i32⟩ : BufTy).Contents (Elt Ideal)) (x3 : (⟨S515x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal))
    (s d : Fin 14336 → Fin 2048)
    (hs : ∀ e : Fin 14336, (val_main_v73 (F := Ideal) x2 (ix2 e (0 : Fin 1))).toInt = ((s e).val : Int))
    (hd : ∀ e : Fin 14336, (val_main_v79 (F := Ideal) x2 (ix2 e (0 : Fin 1))).toInt = ((d e).val : Int))
    (p : Fin 32) (v : Fin 2048) (o : Fin 512) :
    val_main_v84 (F := Ideal) x0 x1 x2 x3 x4 x5 x6 x7 x8 (ix3 p v o)
      = Cert.Spec.layerEdges (fun e => val_main_v26 (F := Ideal) x2 (ix1 e)) s d
          (fun u i => val_main_v66 (F := Ideal) x0 x1 x2 x3 x4 x5 x6 (ix3 p u i)) (fun i o => x7 (ix2 i o)) (fun o => x8 (ix1 o)) v o := by
  -- the bias row, through its two broadcasts
  have hbias : val_main_v83 (F := Ideal) x8 (ix3 p v o) = x8 (ix1 o) := by
    rw [val_main_v83_apply, val_main_v82_apply]
    exact congrArg x8 (funext fun a => by match a with | ⟨0, _⟩ => rfl)
  -- the zeros the edges' rows are added into
  have hzero : val_main_v80 (F := Ideal) (ix3 p v o) = 0 := by
    rw [val_main_v80_apply, val_main_v78_apply, val_main_cst_12_apply]
    exact Ideal.ofBits_zero_f32
  -- the edge's weight, through its two broadcasts
  have hw : ∀ e : Fin 14336, val_main_v76 (F := Ideal) x2 (ix3 p e o) = val_main_v26 (F := Ideal) x2 (ix1 e) := by
    intro e
    rw [val_main_v76_apply, val_main_v75_apply]
    exact congrArg (val_main_v26 (F := Ideal) x2) (funext fun a => by match a with | ⟨0, _⟩ => rfl)
  -- the previous stage times the weights, at a node
  have hdot : ∀ u : Fin 2048, val_main_v67 (F := Ideal) x0 x1 x2 x3 x4 x5 x6 x7 (ix3 p u o)
      = Cert.Spec.lin (fun u i => val_main_v66 (F := Ideal) x0 x1 x2 x3 x4 x5 x6 (ix3 p u i)) (fun i o => x7 (ix2 i o)) u o := by
    intro u
    rw [val_main_v67_apply]
    unfold Cert.Spec.lin
    refine Finset.sum_congr rfl fun k _ => ?_
    have el : lidx_main_v67 (ix3 p u o) k = ix3 p u k :=
      funext fun a => by match a with | ⟨0, _⟩ => rfl | ⟨1, _⟩ => rfl | ⟨2, _⟩ => rfl
    have er : ridx_main_v67 (ix3 p u o) k = ix2 k o :=
      funext fun a => by match a with | ⟨0, _⟩ => rfl | ⟨1, _⟩ => rfl
    rw [el, er]
  -- the gathered row of edge e is the row of its source node
  have hg : ∀ e : Fin 14336, val_main_v74 (F := Ideal) x0 x1 x2 x3 x4 x5 x6 x7 (ix3 p e o)
      = val_main_v67 (F := Ideal) x0 x1 x2 x3 x4 x5 x6 x7 (ix3 p (s e) o) := by
    intro e
    unfold val_main_v74
    rw [Cert.LibGatherScatter.gather_mid_apply (by decide) gather_S32x2048x512_S14336x1_S32x14336x512_02_1_n_n_1_1_321512
      rfl rfl rfl rfl rfl rfl rfl]
    have hse : (⟨min (val_main_v73 (F := Ideal) x2 (ix2 e (0 : Fin 1))).toInt.toNat (2048 - 1), by omega⟩ : Fin 2048) = s e :=
      Fin.ext (by
        show min (val_main_v73 (F := Ideal) x2 (ix2 e (0 : Fin 1))).toInt.toNat (2048 - 1) = (s e).val
        rw [hs e]; have := (s e).isLt; omega)
    rw [hse]
  -- an edge lands on node v exactly when v is its target
  have hfilter : ∀ e : Fin 14336, (val_main_v79 (F := Ideal) x2 (ix2 e (0 : Fin 1))).toInt = (v.val : Int) ↔ d e = v := by
    intro e
    rw [hd e]
    exact ⟨fun h => Fin.ext (by omega), fun h => by rw [h]⟩
  rw [val_main_v84_apply]
  unfold val_main_v81
  rw [Cert.LibGatherScatter.scatterAdd_mid_apply scatter_S32x2048x512_S14336x1_S32x14336x512_02_1_1_1 rfl rfl rfl rfl,
    hzero, hbias]
  unfold Cert.Spec.layerEdges
  refine congrArg (· + x8 (ix1 o)) ?_
  refine congrArg ((0 : EReal) + ·) ?_
  refine Finset.sum_congr (Finset.filter_congr fun e _ => hfilter e) fun e _ => ?_
  rw [val_main_v77_apply, hg e, hdot (s e), hw e]
  rfl

/-- Stage 103: a graph layer followed by max(·, 0) over the previous stage. -/
theorem stage103_apply (x0 : (⟨S32x2048x3, .f32⟩ : BufTy).Contents (Elt Ideal)) (x1 : (⟨S32x512, .f32⟩ : BufTy).Contents (Elt Ideal)) (x2 : (⟨S2x12288, .i32⟩ : BufTy).Contents (Elt Ideal)) (x3 : (⟨S515x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal))
    (s d : Fin 14336 → Fin 2048)
    (hs : ∀ e : Fin 14336, (val_main_v91 (F := Ideal) x2 (ix2 e (0 : Fin 1))).toInt = ((s e).val : Int))
    (hd : ∀ e : Fin 14336, (val_main_v97 (F := Ideal) x2 (ix2 e (0 : Fin 1))).toInt = ((d e).val : Int))
    (p : Fin 32) (v : Fin 2048) (o : Fin 512) :
    val_main_v103 (F := Ideal) x0 x1 x2 x3 x4 x5 x6 x7 x8 x9 x10 (ix3 p v o)
      = max (Cert.Spec.layerEdges (fun e => val_main_v26 (F := Ideal) x2 (ix1 e)) s d
          (fun u i => val_main_v84 (F := Ideal) x0 x1 x2 x3 x4 x5 x6 x7 x8 (ix3 p u i)) (fun i o => x9 (ix2 i o)) (fun o => x10 (ix1 o)) v o) 0 := by
  -- the layer before the maximum
  have hlayer : val_main_v102 (F := Ideal) x0 x1 x2 x3 x4 x5 x6 x7 x8 x9 x10 (ix3 p v o)
      = Cert.Spec.layerEdges (fun e => val_main_v26 (F := Ideal) x2 (ix1 e)) s d
          (fun u i => val_main_v84 (F := Ideal) x0 x1 x2 x3 x4 x5 x6 x7 x8 (ix3 p u i)) (fun i o => x9 (ix2 i o)) (fun o => x10 (ix1 o)) v o := by
    -- the bias row, through its two broadcasts
    have hbias : val_main_v101 (F := Ideal) x10 (ix3 p v o) = x10 (ix1 o) := by
      rw [val_main_v101_apply, val_main_v100_apply]
      exact congrArg x10 (funext fun a => by match a with | ⟨0, _⟩ => rfl)
    -- the zeros the edges' rows are added into
    have hzero : val_main_v98 (F := Ideal) (ix3 p v o) = 0 := by
      rw [val_main_v98_apply, val_main_v96_apply, val_main_cst_15_apply]
      exact Ideal.ofBits_zero_f32
    -- the edge's weight, through its two broadcasts
    have hw : ∀ e : Fin 14336, val_main_v94 (F := Ideal) x2 (ix3 p e o) = val_main_v26 (F := Ideal) x2 (ix1 e) := by
      intro e
      rw [val_main_v94_apply, val_main_v93_apply]
      exact congrArg (val_main_v26 (F := Ideal) x2) (funext fun a => by match a with | ⟨0, _⟩ => rfl)
    -- the previous stage times the weights, at a node
    have hdot : ∀ u : Fin 2048, val_main_v85 (F := Ideal) x0 x1 x2 x3 x4 x5 x6 x7 x8 x9 (ix3 p u o)
        = Cert.Spec.lin (fun u i => val_main_v84 (F := Ideal) x0 x1 x2 x3 x4 x5 x6 x7 x8 (ix3 p u i)) (fun i o => x9 (ix2 i o)) u o := by
      intro u
      rw [val_main_v85_apply]
      unfold Cert.Spec.lin
      refine Finset.sum_congr rfl fun k _ => ?_
      have el : lidx_main_v85 (ix3 p u o) k = ix3 p u k :=
        funext fun a => by match a with | ⟨0, _⟩ => rfl | ⟨1, _⟩ => rfl | ⟨2, _⟩ => rfl
      have er : ridx_main_v85 (ix3 p u o) k = ix2 k o :=
        funext fun a => by match a with | ⟨0, _⟩ => rfl | ⟨1, _⟩ => rfl
      rw [el, er]
    -- the gathered row of edge e is the row of its source node
    have hg : ∀ e : Fin 14336, val_main_v92 (F := Ideal) x0 x1 x2 x3 x4 x5 x6 x7 x8 x9 (ix3 p e o)
        = val_main_v85 (F := Ideal) x0 x1 x2 x3 x4 x5 x6 x7 x8 x9 (ix3 p (s e) o) := by
      intro e
      unfold val_main_v92
      rw [Cert.LibGatherScatter.gather_mid_apply (by decide) gather_S32x2048x512_S14336x1_S32x14336x512_02_1_n_n_1_1_321512
        rfl rfl rfl rfl rfl rfl rfl]
      have hse : (⟨min (val_main_v91 (F := Ideal) x2 (ix2 e (0 : Fin 1))).toInt.toNat (2048 - 1), by omega⟩ : Fin 2048) = s e :=
        Fin.ext (by
          show min (val_main_v91 (F := Ideal) x2 (ix2 e (0 : Fin 1))).toInt.toNat (2048 - 1) = (s e).val
          rw [hs e]; have := (s e).isLt; omega)
      rw [hse]
    -- an edge lands on node v exactly when v is its target
    have hfilter : ∀ e : Fin 14336, (val_main_v97 (F := Ideal) x2 (ix2 e (0 : Fin 1))).toInt = (v.val : Int) ↔ d e = v := by
      intro e
      rw [hd e]
      exact ⟨fun h => Fin.ext (by omega), fun h => by rw [h]⟩
    rw [val_main_v102_apply]
    unfold val_main_v99
    rw [Cert.LibGatherScatter.scatterAdd_mid_apply scatter_S32x2048x512_S14336x1_S32x14336x512_02_1_1_1 rfl rfl rfl rfl,
      hzero, hbias]
    unfold Cert.Spec.layerEdges
    refine congrArg (· + x10 (ix1 o)) ?_
    refine congrArg ((0 : EReal) + ·) ?_
    refine Finset.sum_congr (Finset.filter_congr fun e _ => hfilter e) fun e _ => ?_
    rw [val_main_v95_apply, hg e, hdot (s e), hw e]
    rfl
  -- the zero the maximum is taken with
  have hrelu : val_main_call1_v0 (F := Ideal) (ix3 p v o) = 0 := by
    rw [val_main_call1_v0_apply, val_main_call1_cst_apply]
    exact Ideal.ofBits_zero_f32
  rw [val_main_v103_apply, hrelu, hlayer]
  rfl

end Cert.ReferenceIdeal.StagesB

end
-- ==== Proof.RefStagesC.lean ====
/-
  The reference program's stages read at one element, in the layers' common language (Spec).

  A graph layer of the reference multiplies the previous stage by the weights, gathers the rows of the edges' source
  nodes, scales each by the edge's weight, adds the rows into the edges' target nodes starting from zeros, and adds the
  bias (some layers then take the maximum with 0). Read at batch element p, node v and channel o that is
  `Spec.layerEdges`: zero plus the sum over the edges into v of (features of the source node times the weights) times the
  edge's weight, plus the bias. It needs the two start-index columns to hold node numbers: `hs`, `hd`.
-/
import proofs.«175376_j67851893342527_1_alg».proof.Proof.Gen.ReferenceIdeal.Read
import proofs.«175376_j67851893342527_1_alg».proof.Proof.LibGatherScatter
import proofs.«175376_j67851893342527_1_alg».proof.Proof.Spec
import Idealize.ShloMosaic.Lib.ValueIdx
import Idealize.ShloMosaic.Lib.Pipeline.Value

set_option maxRecDepth 8192

noncomputable section

open scoped BigOperators

namespace Cert.ReferenceIdeal.StagesC

open Idealize.ShloMosaic Idealize.ShloMosaic.ValueIdx
open Cert.ReferenceIdeal Cert.ReferenceIdeal.Read

/-! ## Small facts shared by the layers -/

/-- A start index that is a node number is left alone by the clamp into the node axis. -/
theorem clamp_node (z : Int) (u : Fin 2048) (h : z = (u.val : Int)) (hlt : min z.toNat (2048 - 1) < 2048) :
    (⟨min z.toNat (2048 - 1), hlt⟩ : Fin 2048) = u :=
  Fin.ext (by show min z.toNat (2048 - 1) = u.val; have := u.isLt; omega)

/-- The edges whose target column holds node v are the edges e with `d e = v`. -/
theorem target_iff (z : Int) (u v : Fin 2048) (h : z = (u.val : Int)) : z = (v.val : Int) ↔ u = v := by
  rw [h]
  constructor
  · intro h'; exact Fin.ext (by omega)
  · intro h'; rw [h']

/-! ## Where each operand of stage 121 is read, at batch element p, node v and channel o -/

/-- The contraction of stage 104 reads its left operand at (p, u, summation index), … -/
theorem lidx104 (p : Fin 32) (u : Fin 2048) (o : Fin 64) (k : Fin 512) : lidx_main_v104 (ix3 p u o) k = ix3 p u k :=
  funext fun a => Fin.ext (by match a with | ⟨0, _⟩ => rfl | ⟨1, _⟩ => rfl | ⟨2, _⟩ => rfl)
/-- … its right operand at (summation index, o); -/
theorem ridx104 (p : Fin 32) (u : Fin 2048) (o : Fin 64) (k : Fin 512) : ridx_main_v104 (ix3 p u o) k = ix2 k o :=
  funext fun a => Fin.ext (by match a with | ⟨0, _⟩ => rfl | ⟨1, _⟩ => rfl)
/-- the edge weights, repeated over batch elements and channels, are read at edge e; -/
theorem widx113 (p : Fin 32) (e : Fin 14336) (o : Fin 64) : idx_main_v112 (idx_main_v113 (ix3 p e o)) = ix1 e :=
  funext fun a => Fin.ext (by match a with | ⟨0, _⟩ => rfl)
/-- the bias, repeated over batch elements and nodes, is read at channel o. -/
theorem bidx120 (p : Fin 32) (v : Fin 2048) (o : Fin 64) : idx_main_v119 (idx_main_v120 (ix3 p v o)) = ix1 o :=
  funext fun a => Fin.ext (by match a with | ⟨0, _⟩ => rfl)

/-- Stage 121: a graph layer over the previous stage. -/
theorem stage121_apply (x0 : (⟨S32x2048x3, .f32⟩ : BufTy).Contents (Elt Ideal)) (x1 : (⟨S32x512, .f32⟩ : BufTy).Contents (Elt Ideal)) (x2 : (⟨S2x12288, .i32⟩ : BufTy).Contents (Elt Ideal)) (x3 : (⟨S515x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 : (⟨S512x64, .f32⟩ : BufTy).Contents (Elt Ideal)) (x12 : (⟨S64, .f32⟩ : BufTy).Contents (Elt Ideal))
    (s d : Fin 14336 → Fin 2048)
    (hs : ∀ e : Fin 14336, (val_main_v110 (F := Ideal) x2 (ix2 e (0 : Fin 1))).toInt = ((s e).val : Int))
    (hd : ∀ e : Fin 14336, (val_main_v116 (F := Ideal) x2 (ix2 e (0 : Fin 1))).toInt = ((d e).val : Int))
    (p : Fin 32) (v : Fin 2048) (o : Fin 64) :
    val_main_v121 (F := Ideal) x0 x1 x2 x3 x4 x5 x6 x7 x8 x9 x10 x11 x12 (ix3 p v o)
      = Cert.Spec.layerEdges (fun e => val_main_v26 (F := Ideal) x2 (ix1 e)) s d
          (fun u i => val_main_v103 (F := Ideal) x0 x1 x2 x3 x4 x5 x6 x7 x8 x9 x10 (ix3 p u i)) (fun i o => x11 (ix2 i o)) (fun o => x12 (ix1 o)) v o := by
  rw [val_main_v121_apply, Ideal.addf_def, val_main_v120_apply, val_main_v119_apply, bidx120]
  unfold val_main_v118
  rw [Cert.LibGatherScatter.scatterAdd_mid_apply scatter_S32x2048x64_S14336x1_S32x14336x64_02_1_1_1 rfl rfl rfl rfl,
    val_main_v117_apply, val_main_v115_apply, val_main_cst_18_apply]
  unfold Cert.Spec.layerEdges
  refine congrArg₂ (· + ·) (congrArg₂ (· + ·) Ideal.ofBits_zero_f32 ?_) rfl
  refine Finset.sum_congr (Finset.filter_congr fun e _ => target_iff _ (d e) v (hd e)) fun e _ => ?_
  rw [val_main_v114_apply, Ideal.mulf_def]
  refine congrArg₂ (· * ·) ?_ ?_
  · unfold val_main_v111
    rw [Cert.LibGatherScatter.gather_mid_apply (by decide) gather_S32x2048x64_S14336x1_S32x14336x64_02_1_n_n_1_1_32164 rfl rfl rfl rfl rfl rfl rfl,
      clamp_node _ (s e) (hs e), val_main_v104_apply]
    unfold Cert.Spec.lin
    refine Finset.sum_congr rfl fun k _ => ?_
    rw [lidx104, ridx104]
  · rw [val_main_v113_apply, val_main_v112_apply, widx113]

/-! ## Where each operand of stage 140 is read, at batch element p, node v and channel o -/

/-- The contraction of stage 122 reads its left operand at (p, u, summation index), … -/
theorem lidx122 (p : Fin 32) (u : Fin 2048) (o : Fin 3) (k : Fin 64) : lidx_main_v122 (ix3 p u o) k = ix3 p u k :=
  funext fun a => Fin.ext (by match a with | ⟨0, _⟩ => rfl | ⟨1, _⟩ => rfl | ⟨2, _⟩ => rfl)
/-- … its right operand at (summation index, o); -/
theorem ridx122 (p : Fin 32) (u : Fin 2048) (o : Fin 3) (k : Fin 64) : ridx_main_v122 (ix3 p u o) k = ix2 k o :=
  funext fun a => Fin.ext (by match a with | ⟨0, _⟩ => rfl | ⟨1, _⟩ => rfl)
/-- the edge weights, repeated over batch elements and channels, are read at edge e; -/
theorem widx131 (p : Fin 32) (e : Fin 14336) (o : Fin 3) : idx_main_v130 (idx_main_v131 (ix3 p e o)) = ix1 e :=
  funext fun a => Fin.ext (by match a with | ⟨0, _⟩ => rfl)
/-- the bias, repeated over batch elements and nodes, is read at channel o. -/
theorem bidx138 (p : Fin 32) (v : Fin 2048) (o : Fin 3) : idx_main_v137 (idx_main_v138 (ix3 p v o)) = ix1 o :=
  funext fun a => Fin.ext (by match a with | ⟨0, _⟩ => rfl)

/-- Stage 140: a graph layer followed by max(·, 0) over the previous stage. -/
theorem stage140_apply (x0 : (⟨S32x2048x3, .f32⟩ : BufTy).Contents (Elt Ideal)) (x1 : (⟨S32x512, .f32⟩ : BufTy).Contents (Elt Ideal)) (x2 : (⟨S2x12288, .i32⟩ : BufTy).Contents (Elt Ideal)) (x3 : (⟨S515x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 : (⟨S512x64, .f32⟩ : BufTy).Contents (Elt Ideal)) (x12 : (⟨S64, .f32⟩ : BufTy).Contents (Elt Ideal)) (x13 : (⟨S64x3, .f32⟩ : BufTy).Contents (Elt Ideal)) (x14 : (⟨S3, .f32⟩ : BufTy).Contents (Elt Ideal))
    (s d : Fin 14336 → Fin 2048)
    (hs : ∀ e : Fin 14336, (val_main_v128 (F := Ideal) x2 (ix2 e (0 : Fin 1))).toInt = ((s e).val : Int))
    (hd : ∀ e : Fin 14336, (val_main_v134 (F := Ideal) x2 (ix2 e (0 : Fin 1))).toInt = ((d e).val : Int))
    (p : Fin 32) (v : Fin 2048) (o : Fin 3) :
    val_main_v140 (F := Ideal) x0 x1 x2 x3 x4 x5 x6 x7 x8 x9 x10 x11 x12 x13 x14 (ix3 p v o)
      = max (Cert.Spec.layerEdges (fun e => val_main_v26 (F := Ideal) x2 (ix1 e)) s d
          (fun u i => val_main_v121 (F := Ideal) x0 x1 x2 x3 x4 x5 x6 x7 x8 x9 x10 x11 x12 (ix3 p u i)) (fun i o => x13 (ix2 i o)) (fun o => x14 (ix1 o)) v o) 0 := by
  rw [val_main_v140_apply, Ideal.maximumf_def, val_main_call2_v0_apply, val_main_call2_cst_apply]
  refine congrArg₂ max ?_ Ideal.ofBits_zero_f32
  rw [val_main_v139_apply, Ideal.addf_def, val_main_v138_apply, val_main_v137_apply, bidx138]
  unfold val_main_v136
  rw [Cert.LibGatherScatter.scatterAdd_mid_apply scatter_S32x2048x3_S14336x1_S32x14336x3_02_1_1_1 rfl rfl rfl rfl,
    val_main_v135_apply, val_main_v133_apply, val_main_cst_21_apply]
  unfold Cert.Spec.layerEdges
  refine congrArg₂ (· + ·) (congrArg₂ (· + ·) Ideal.ofBits_zero_f32 ?_) rfl
  refine Finset.sum_congr (Finset.filter_congr fun e _ => target_iff _ (d e) v (hd e)) fun e _ => ?_
  rw [val_main_v132_apply, Ideal.mulf_def]
  refine congrArg₂ (· * ·) ?_ ?_
  · unfold val_main_v129
    rw [Cert.LibGatherScatter.gather_mid_apply (by decide) gather_S32x2048x3_S14336x1_S32x14336x3_02_1_n_n_1_1_3213 rfl rfl rfl rfl rfl rfl rfl,
      clamp_node _ (s e) (hs e), val_main_v122_apply]
    unfold Cert.Spec.lin
    refine Finset.sum_congr rfl fun k _ => ?_
    rw [lidx122, ridx122]
  · rw [val_main_v131_apply, val_main_v130_apply, widx131]

end Cert.ReferenceIdeal.StagesC

end
-- ==== Proof.RefDense.lean ====
/-
  The reference program's three fully connected stages read at one element: each is `Spec.fc` of a row of the previous
  stage — the row contracted with a column of the weights, plus the bias — and the last is followed by tanh.
-/
import proofs.«175376_j67851893342527_1_alg».proof.Proof.Gen.ReferenceIdeal.Read
import proofs.«175376_j67851893342527_1_alg».proof.Proof.Spec
import Idealize.ShloMosaic.Lib.ValueIdx
import Idealize.ShloMosaic.Lib.Pipeline.Value

set_option maxRecDepth 8192

noncomputable section

open scoped BigOperators

namespace Cert.ReferenceIdeal.DenseStages

open Idealize.ShloMosaic Idealize.ShloMosaic.ValueIdx
open Cert.ReferenceIdeal Cert.ReferenceIdeal.Read

/-! ## Where each operand of a stage is read, at row p and channel o -/

/-- Stage 142's contraction reads its left operand at row p and the summation index, … -/
theorem lidx142 (p : Fin 32) (o : Fin 1024) (k : Fin 6144) : lidx_main_v142 (ix2 p o) k = ix2 p k :=
  funext fun a => Fin.ext (by match a with | ⟨0, _⟩ => rfl | ⟨1, _⟩ => rfl)
/-- … its right operand at the summation index and channel o, … -/
theorem ridx142 (p : Fin 32) (o : Fin 1024) (k : Fin 6144) : ridx_main_v142 (ix2 p o) k = ix2 k o :=
  funext fun a => Fin.ext (by match a with | ⟨0, _⟩ => rfl | ⟨1, _⟩ => rfl)
/-- … and the bias, repeated down the rows, is read at channel o. -/
theorem bidx144 (p : Fin 32) (o : Fin 1024) : idx_main_v143 (idx_main_v144 (ix2 p o)) = ix1 o :=
  funext fun a => Fin.ext (by match a with | ⟨0, _⟩ => rfl)

/-- Stage 145: a fully connected layer over the previous stage. -/
theorem stage145_apply (x0 : (⟨S32x2048x3, .f32⟩ : BufTy).Contents (Elt Ideal)) (x1 : (⟨S32x512, .f32⟩ : BufTy).Contents (Elt Ideal)) (x2 : (⟨S2x12288, .i32⟩ : BufTy).Contents (Elt Ideal)) (x3 : (⟨S515x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 : (⟨S512x64, .f32⟩ : BufTy).Contents (Elt Ideal)) (x12 : (⟨S64, .f32⟩ : BufTy).Contents (Elt Ideal)) (x13 : (⟨S64x3, .f32⟩ : BufTy).Contents (Elt Ideal)) (x14 : (⟨S3, .f32⟩ : BufTy).Contents (Elt Ideal)) (x15 : (⟨S6144x1024, .f32⟩ : BufTy).Contents (Elt Ideal)) (x16 : (⟨S1024, .f32⟩ : BufTy).Contents (Elt Ideal)) (p : Fin 32) (o : Fin 1024) :
    val_main_v145 (F := Ideal) x0 x1 x2 x3 x4 x5 x6 x7 x8 x9 x10 x11 x12 x13 x14 x15 x16 (ix2 p o)
      = Cert.Spec.fc (fun i : Fin 6144 => val_main_v141 (F := Ideal) x0 x1 x2 x3 x4 x5 x6 x7 x8 x9 x10 x11 x12 x13 x14 (ix2 p i)) (fun i o => x15 (ix2 i o)) (fun o => x16 (ix1 o)) o := by
  rw [val_main_v145_apply, Ideal.addf_def, val_main_v142_apply, val_main_v144_apply, val_main_v143_apply, bidx144]
  unfold Cert.Spec.fc
  refine congrArg₂ (· + ·) (Finset.sum_congr rfl fun k _ => ?_) rfl
  rw [lidx142, ridx142]

/-- Stage 146's contraction reads its left operand at row p and the summation index, … -/
theorem lidx146 (p : Fin 32) (o : Fin 1024) (k : Fin 1024) : lidx_main_v146 (ix2 p o) k = ix2 p k :=
  funext fun a => Fin.ext (by match a with | ⟨0, _⟩ => rfl | ⟨1, _⟩ => rfl)
/-- … its right operand at the summation index and channel o, … -/
theorem ridx146 (p : Fin 32) (o : Fin 1024) (k : Fin 1024) : ridx_main_v146 (ix2 p o) k = ix2 k o :=
  funext fun a => Fin.ext (by match a with | ⟨0, _⟩ => rfl | ⟨1, _⟩ => rfl)
/-- … and the bias, repeated down the rows, is read at channel o. -/
theorem bidx148 (p : Fin 32) (o : Fin 1024) : idx_main_v147 (idx_main_v148 (ix2 p o)) = ix1 o :=
  funext fun a => Fin.ext (by match a with | ⟨0, _⟩ => rfl)

/-- Stage 149: a fully connected layer over the previous stage. -/
theorem stage149_apply (x0 : (⟨S32x2048x3, .f32⟩ : BufTy).Contents (Elt Ideal)) (x1 : (⟨S32x512, .f32⟩ : BufTy).Contents (Elt Ideal)) (x2 : (⟨S2x12288, .i32⟩ : BufTy).Contents (Elt Ideal)) (x3 : (⟨S515x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 : (⟨S512x64, .f32⟩ : BufTy).Contents (Elt Ideal)) (x12 : (⟨S64, .f32⟩ : BufTy).Contents (Elt Ideal)) (x13 : (⟨S64x3, .f32⟩ : BufTy).Contents (Elt Ideal)) (x14 : (⟨S3, .f32⟩ : BufTy).Contents (Elt Ideal)) (x15 : (⟨S6144x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (p : Fin 32) (o : Fin 1024) :
    val_main_v149 (F := Ideal) x0 x1 x2 x3 x4 x5 x6 x7 x8 x9 x10 x11 x12 x13 x14 x15 x16 x17 x18 (ix2 p o)
      = Cert.Spec.fc (fun i : Fin 1024 => val_main_v145 (F := Ideal) x0 x1 x2 x3 x4 x5 x6 x7 x8 x9 x10 x11 x12 x13 x14 x15 x16 (ix2 p i)) (fun i o => x17 (ix2 i o)) (fun o => x18 (ix1 o)) o := by
  rw [val_main_v149_apply, Ideal.addf_def, val_main_v146_apply, val_main_v148_apply, val_main_v147_apply, bidx148]
  unfold Cert.Spec.fc
  refine congrArg₂ (· + ·) (Finset.sum_congr rfl fun k _ => ?_) rfl
  rw [lidx146, ridx146]

/-- Stage 150's contraction reads its left operand at row p and the summation index, … -/
theorem lidx150 (p : Fin 32) (o : Fin 6144) (k : Fin 1024) : lidx_main_v150 (ix2 p o) k = ix2 p k :=
  funext fun a => Fin.ext (by match a with | ⟨0, _⟩ => rfl | ⟨1, _⟩ => rfl)
/-- … its right operand at the summation index and channel o, … -/
theorem ridx150 (p : Fin 32) (o : Fin 6144) (k : Fin 1024) : ridx_main_v150 (ix2 p o) k = ix2 k o :=
  funext fun a => Fin.ext (by match a with | ⟨0, _⟩ => rfl | ⟨1, _⟩ => rfl)
/-- … and the bias, repeated down the rows, is read at channel o. -/
theorem bidx152 (p : Fin 32) (o : Fin 6144) : idx_main_v151 (idx_main_v152 (ix2 p o)) = ix1 o :=
  funext fun a => Fin.ext (by match a with | ⟨0, _⟩ => rfl)

/-- Stage 154: a fully connected layer followed by tanh over the previous stage. -/
theorem stage154_apply (x0 : (⟨S32x2048x3, .f32⟩ : BufTy).Contents (Elt Ideal)) (x1 : (⟨S32x512, .f32⟩ : BufTy).Contents (Elt Ideal)) (x2 : (⟨S2x12288, .i32⟩ : BufTy).Contents (Elt Ideal)) (x3 : (⟨S515x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 : (⟨S512x64, .f32⟩ : BufTy).Contents (Elt Ideal)) (x12 : (⟨S64, .f32⟩ : BufTy).Contents (Elt Ideal)) (x13 : (⟨S64x3, .f32⟩ : BufTy).Contents (Elt Ideal)) (x14 : (⟨S3, .f32⟩ : BufTy).Contents (Elt Ideal)) (x15 : (⟨S6144x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (x19 : (⟨S1024x6144, .f32⟩ : BufTy).Contents (Elt Ideal)) (x20 : (⟨S6144, .f32⟩ : BufTy).Contents (Elt Ideal)) (p : Fin 32) (o : Fin 6144) :
    val_main_v154 (F := Ideal) x0 x1 x2 x3 x4 x5 x6 x7 x8 x9 x10 x11 x12 x13 x14 x15 x16 x17 x18 x19 x20 (ix2 p o)
      = Ideal.tanh (Cert.Spec.fc (fun i : Fin 1024 => val_main_v149 (F := Ideal) x0 x1 x2 x3 x4 x5 x6 x7 x8 x9 x10 x11 x12 x13 x14 x15 x16 x17 x18 (ix2 p i)) (fun i o => x19 (ix2 i o)) (fun o => x20 (ix1 o)) o) := by
  rw [val_main_v154_apply, Ideal.hostUnary_tanh_def, val_main_v153_apply, Ideal.addf_def, val_main_v150_apply,
    val_main_v152_apply, val_main_v151_apply, bidx152]
  unfold Cert.Spec.fc
  refine congrArg Ideal.tanh (congrArg₂ (· + ·) (Finset.sum_congr rfl fun k _ => ?_) rfl)
  rw [lidx150, ridx150]

end Cert.ReferenceIdeal.DenseStages

end
-- ==== Proof.PreRange.lean ====
/-
  What the precondition says about the edge list. The printed precondition is a conjunction, folded with `and`, of one
  "all elements satisfy …" test per input; its last two conjuncts are the two tests on the integer input `edge_index`:
  every entry is ≥ 0 and every entry is < 2048, both as SIGNED 32-bit comparisons. A conjunction that is true has every
  conjunct true, and an "all" reduction that is true has every element's test true, so each entry of `edge_index`, read
  as a signed integer, lies in [0, 2048).
-/
import proofs.«175376_j67851893342527_1_alg».proof.Pre_finite_inputs
import Idealize.ShloMosaic.Lib.ReduceAll

namespace Cert.PreRange

open Idealize.ShloMosaic Cert.Pre_finite_inputs

/-- The scalar shape has one index. -/
instance : Subsingleton S_.Idx := ⟨fun a b => funext fun d => d.elim0⟩

/-- The last part of the chain: if its result is true then the conjunct handed to it is true and every entry of the
    edge list is below 2048 (signed). -/
theorem part6_range [Cert.Pre_finite_inputs.Facts] {F : FTy → Type} [FloatOps F] (main_arg2 : IVec S2x12288 32)
    (v98 v101 : IVec S_ 1) (j : S_.Idx) (h : fn_part6 (F := F) main_arg2 v98 v101 j = 1#1) :
    v101 j = 1#1 ∧ ∀ k, (main_arg2 k).toInt < 2048 := by
  obtain ⟨h102, h105⟩ := IntOp.andi_eq_one.1 h
  obtain ⟨-, h101⟩ := IntOp.andi_eq_one.1 h102
  refine ⟨h101, fun k => ?_⟩
  have hk := Host.reduce_andi_all _ _ _ _ j h105 k
  exact IntOp.cmpi_slt.1 hk

/-- The part before it: if its result is true then every entry of the edge list is in [0, 2048) (signed). -/
theorem part5_range [Cert.Pre_finite_inputs.Facts] {F : FTy → Type} [FloatOps F] (main_arg2 : IVec S2x12288 32)
    (main_arg19 : FVec F S1024x6144 .f32) (main_arg20 : FVec F S6144 .f32) (v83 : IVec S_ 1) (v84 : FVec F S1024 .f32)
    (cst32 : FVec F S_ .f32) (j : S_.Idx)
    (h : fn_part5 (F := F) main_arg2 main_arg19 main_arg20 v83 v84 cst32 j = 1#1) (k : S2x12288.Idx) :
    0 ≤ (main_arg2 k).toInt ∧ (main_arg2 k).toInt < 2048 := by
  obtain ⟨h101, hlt⟩ := part6_range (F := F) main_arg2 _ _ j h
  have hk := Host.reduce_andi_all _ _ _ _ j h101 k
  exact ⟨IntOp.cmpi_sge.1 hk, hlt k⟩

/-- Under the precondition every entry of the edge list is a node number: as a signed integer it is in [0, 2048). -/
theorem edge_index_range [Cert.Pre_finite_inputs.Facts] {F : FTy → Type} [FloatOps F] (main_arg0 : FVec F S32x2048x3 .f32) (main_arg1 : FVec F S32x512 .f32) (main_arg2 : IVec S2x12288 32) (main_arg3 : FVec F S515x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x64 .f32) (main_arg12 : FVec F S64 .f32) (main_arg13 : FVec F S64x3 .f32) (main_arg14 : FVec F S3 .f32) (main_arg15 : FVec F S6144x1024 .f32) (main_arg16 : FVec F S1024 .f32) (main_arg17 : FVec F S1024x1024 .f32) (main_arg18 : FVec F S1024 .f32) (main_arg19 : FVec F S1024x6144 .f32) (main_arg20 : FVec F S6144 .f32)
    (h : Cert.Pre_finite_inputs.fn (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 = fun _ => 1#1)
    (k : S2x12288.Idx) : 0 ≤ (main_arg2 k).toInt ∧ (main_arg2 k).toInt < 2048 := by
  have h0 := congrFun h (fun a => a.elim0)
  exact part5_range (F := F) main_arg2 _ _ _ _ _ _ h0 k

end Cert.PreRange
-- ==== Proof.Bridge.lean ====
/-
  The two idealized programs compute the same result.

  The kernel's program is nine regions: six graph layers through a dense operator on the nodes, then three fully
  connected layers; the reference's is the same nine stages with each graph layer written over the edge list (gather the
  source nodes' rows, scale by the edge weights, add into the target nodes). Stage by stage the kernel's output array
  equals the reference's stage function of the same arguments:
    * a graph stage: the region's output is `Spec.layerDense` of the dense operator, whose entries are the edge list's
      (`Graph.adjacency_apply`, using that every edge-list entry is a node number), the reference's is `Spec.layerEdges`
      over the same sources, targets and weights, and the two agree because the weights are non-negative
      (`Spec.layerDense_adj`); the features are the previous stage (equal by the previous step) and the weights and bias
      are the arguments, read through a change of float format (the identity on the extended reals) and a reshape;
    * a dense stage: both are `Spec.fc` of the previous stage.
  The result is the vertices plus one tenth of the last stage, the same operations in both programs.
-/
import proofs.«175376_j67851893342527_1_alg».proof.Defs
import proofs.«175376_j67851893342527_1_alg».proof.Proof.KernelRun
import proofs.«175376_j67851893342527_1_alg».proof.Proof.KernelChain
import proofs.«175376_j67851893342527_1_alg».proof.Proof.KernelStages
import proofs.«175376_j67851893342527_1_alg».proof.Proof.KernelGraph
import proofs.«175376_j67851893342527_1_alg».proof.Proof.RefStages
import proofs.«175376_j67851893342527_1_alg».proof.Proof.RefStagesB
import proofs.«175376_j67851893342527_1_alg».proof.Proof.RefStagesC
import proofs.«175376_j67851893342527_1_alg».proof.Proof.RefDense
import proofs.«175376_j67851893342527_1_alg».proof.Proof.PreRange
import proofs.«175376_j67851893342527_1_alg».proof.Proof.Gen.KernelIdeal
import proofs.«175376_j67851893342527_1_alg».proof.Proof.Gen.ReferenceIdeal
import proofs.«175376_j67851893342527_1_alg».proof.Proof.Gen.Pre_finite_inputs
import Idealize.ShloMosaic.Lib.ValueLayout

set_option maxRecDepth 16384

noncomputable section

open scoped BigOperators

namespace Cert.Bridge

open Idealize.ShloMosaic Idealize.ShloMosaic.TcCoe Idealize.ShloMosaic.ValueIdx Idealize.SL.Sem
open Cert.KernelIdeal Cert.KernelIdeal.Gen Cert.KernelIdeal.Chain Cert.KernelIdeal.HostTerms
open Cert.ReferenceIdeal.Read

variable (m : (ℓ : Loc nD τ sig) → Buf (Elt Ideal) ℓ) (ρ : Dev nD → PrngReg)
variable (hr : ∀ c : Dev nD, Cert.KernelIdeal.Graph.InRange (arg2 m c))
include hr

/-- Edge e's source, target and weight, for the edge list the kernel's memory holds. -/
abbrev srcOf (c : Dev nD) : Fin 14336 → Fin 2048 := Cert.KernelIdeal.Graph.src (arg2 m c) (hr c)
abbrev dstOf (c : Dev nD) : Fin 14336 → Fin 2048 := Cert.KernelIdeal.Graph.dst (arg2 m c) (hr c)
abbrev wgtOf (c : Dev nD) : Fin 14336 → EReal := Cert.KernelIdeal.Graph.wgt (arg2 m c)

/-- Stage 0 of the kernel is stage 47 of the reference. -/
theorem stage0_eq (c : Dev nD) : stage0 m ρ c = val_main_v47 (F := Ideal) (arg0 m c) (arg1 m c) (arg2 m c) (arg3 m c) (arg4 m c) := by
  funext j
  obtain ⟨p, v, o, rfl⟩ : ∃ p v o, j = ix3 p v o := ⟨j 0, j 1, j 2, eq_ix3 j⟩
  rw [Cert.ReferenceIdeal.Stages.stage47_apply (arg0 m c) (arg1 m c) (arg2 m c) (arg3 m c) (arg4 m c) (srcOf m hr c) (dstOf m hr c)
    (fun e => Cert.KernelIdeal.Graph.col_src_toInt (arg2 m c) (hr c) e)
    (fun e => Cert.KernelIdeal.Graph.col_dstRaw_toInt (arg2 m c) (hr c) e) p v o]
  rw [← Cert.Spec.layerDense_adj (fun e => val_main_v26 (F := Ideal) (arg2 m c) (ix1 e))
    (fun e => Cert.KernelIdeal.Graph.wgt_nonneg (arg2 m c) e) (srcOf m hr c) (dstOf m hr c)]
  exact Cert.KernelIdeal.Stages.gcn0 (V1 m ρ) c p _ (fun u i => val_main_v29 (F := Ideal) (arg0 m c) (arg1 m c) (ix3 p u i)) (fun i o => arg3 m c (ix2 i o)) (fun o => arg4 m c (ix1 o))
    (fun v u => by
      rw [show Cert.KernelIdeal.Region0.opr (V1 m ρ) c = adjacency (F := Ideal) (arg2 m c) from opr0_eq m ρ c]
      exact Cert.KernelIdeal.Graph.adjacency_apply (arg2 m c) (hr c) v u)
    (fun u i => by rw [show Cert.KernelIdeal.Region0.feat (V1 m ρ) c = features (F := Ideal) (arg0 m c) (arg1 m c) from feat0_eq m ρ c]; rfl)
    (fun i o => by rw [show Cert.KernelIdeal.Region0.wts (V1 m ρ) c = _ from wts0_eq m ρ c]; rfl)
    (fun o => by
      rw [show Cert.KernelIdeal.Region0.bias (V1 m ρ) c = _ from bias0_eq m ρ c]
      exact shapeCast_a_1a_apply _ _ 0 o) v o

/-- Stage 1 of the kernel is stage 66 of the reference. -/
theorem stage1_eq (c : Dev nD) : stage1 m ρ c = val_main_v66 (F := Ideal) (arg0 m c) (arg1 m c) (arg2 m c) (arg3 m c) (arg4 m c) (arg5 m c) (arg6 m c) := by
  funext j
  obtain ⟨p, v, o, rfl⟩ : ∃ p v o, j = ix3 p v o := ⟨j 0, j 1, j 2, eq_ix3 j⟩
  rw [Cert.ReferenceIdeal.Stages.stage66_apply (arg0 m c) (arg1 m c) (arg2 m c) (arg3 m c) (arg4 m c) (arg5 m c) (arg6 m c) (srcOf m hr c) (dstOf m hr c)
    (fun e => Cert.KernelIdeal.Graph.col_src_toInt (arg2 m c) (hr c) e)
    (fun e => Cert.KernelIdeal.Graph.col_dstRaw_toInt (arg2 m c) (hr c) e) p v o]
  rw [← Cert.Spec.layerDense_adj (fun e => val_main_v26 (F := Ideal) (arg2 m c) (ix1 e))
    (fun e => Cert.KernelIdeal.Graph.wgt_nonneg (arg2 m c) e) (srcOf m hr c) (dstOf m hr c)]
  exact Cert.KernelIdeal.Stages.gcn1 (V3 m ρ) c p _ (fun u i => val_main_v47 (F := Ideal) (arg0 m c) (arg1 m c) (arg2 m c) (arg3 m c) (arg4 m c) (ix3 p u i)) (fun i o => arg5 m c (ix2 i o)) (fun o => arg6 m c (ix1 o))
    (fun v u => by
      rw [show Cert.KernelIdeal.Region1.opr (V3 m ρ) c = adjacency (F := Ideal) (arg2 m c) from opr1_eq m ρ c]
      exact Cert.KernelIdeal.Graph.adjacency_apply (arg2 m c) (hr c) v u)
    (fun u i => by rw [show Cert.KernelIdeal.Region1.feat (V3 m ρ) c = stage0 m ρ c from feat1_eq m ρ c, stage0_eq m ρ hr c])
    (fun i o => by rw [show Cert.KernelIdeal.Region1.wts (V3 m ρ) c = _ from wts1_eq m ρ c]; rfl)
    (fun o => by
      rw [show Cert.KernelIdeal.Region1.bias (V3 m ρ) c = _ from bias1_eq m ρ c]
      exact shapeCast_a_1a_apply _ _ 0 o) v o

/-- Stage 2 of the kernel is stage 84 of the reference. -/
theorem stage2_eq (c : Dev nD) : stage2 m ρ c = val_main_v84 (F := Ideal) (arg0 m c) (arg1 m c) (arg2 m c) (arg3 m c) (arg4 m c) (arg5 m c) (arg6 m c) (arg7 m c) (arg8 m c) := by
  funext j
  obtain ⟨p, v, o, rfl⟩ : ∃ p v o, j = ix3 p v o := ⟨j 0, j 1, j 2, eq_ix3 j⟩
  rw [Cert.ReferenceIdeal.StagesB.stage84_apply (arg0 m c) (arg1 m c) (arg2 m c) (arg3 m c) (arg4 m c) (arg5 m c) (arg6 m c) (arg7 m c) (arg8 m c) (srcOf m hr c) (dstOf m hr c)
    (fun e => Cert.KernelIdeal.Graph.col_src_toInt (arg2 m c) (hr c) e)
    (fun e => Cert.KernelIdeal.Graph.col_dstRaw_toInt (arg2 m c) (hr c) e) p v o]
  rw [← Cert.Spec.layerDense_adj (fun e => val_main_v26 (F := Ideal) (arg2 m c) (ix1 e))
    (fun e => Cert.KernelIdeal.Graph.wgt_nonneg (arg2 m c) e) (srcOf m hr c) (dstOf m hr c)]
  exact Cert.KernelIdeal.Stages.gcn2 (V5 m ρ) c p _ (fun u i => val_main_v66 (F := Ideal) (arg0 m c) (arg1 m c) (arg2 m c) (arg3 m c) (arg4 m c) (arg5 m c) (arg6 m c) (ix3 p u i)) (fun i o => arg7 m c (ix2 i o)) (fun o => arg8 m c (ix1 o))
    (fun v u => by
      rw [show Cert.KernelIdeal.Region2.opr (V5 m ρ) c = adjacency (F := Ideal) (arg2 m c) from opr2_eq m ρ c]
      exact Cert.KernelIdeal.Graph.adjacency_apply (arg2 m c) (hr c) v u)
    (fun u i => by rw [show Cert.KernelIdeal.Region2.feat (V5 m ρ) c = stage1 m ρ c from feat2_eq m ρ c, stage1_eq m ρ hr c])
    (fun i o => by rw [show Cert.KernelIdeal.Region2.wts (V5 m ρ) c = _ from wts2_eq m ρ c]; rfl)
    (fun o => by
      rw [show Cert.KernelIdeal.Region2.bias (V5 m ρ) c = _ from bias2_eq m ρ c]
      exact shapeCast_a_1a_apply _ _ 0 o) v o

/-- Stage 3 of the kernel is stage 103 of the reference. -/
theorem stage3_eq (c : Dev nD) : stage3 m ρ c = val_main_v103 (F := Ideal) (arg0 m c) (arg1 m c) (arg2 m c) (arg3 m c) (arg4 m c) (arg5 m c) (arg6 m c) (arg7 m c) (arg8 m c) (arg9 m c) (arg10 m c) := by
  funext j
  obtain ⟨p, v, o, rfl⟩ : ∃ p v o, j = ix3 p v o := ⟨j 0, j 1, j 2, eq_ix3 j⟩
  rw [Cert.ReferenceIdeal.StagesB.stage103_apply (arg0 m c) (arg1 m c) (arg2 m c) (arg3 m c) (arg4 m c) (arg5 m c) (arg6 m c) (arg7 m c) (arg8 m c) (arg9 m c) (arg10 m c) (srcOf m hr c) (dstOf m hr c)
    (fun e => Cert.KernelIdeal.Graph.col_src_toInt (arg2 m c) (hr c) e)
    (fun e => Cert.KernelIdeal.Graph.col_dstRaw_toInt (arg2 m c) (hr c) e) p v o]
  rw [← Cert.Spec.layerDense_adj (fun e => val_main_v26 (F := Ideal) (arg2 m c) (ix1 e))
    (fun e => Cert.KernelIdeal.Graph.wgt_nonneg (arg2 m c) e) (srcOf m hr c) (dstOf m hr c)]
  exact Cert.KernelIdeal.Stages.gcn3 (V7 m ρ) c p _ (fun u i => val_main_v84 (F := Ideal) (arg0 m c) (arg1 m c) (arg2 m c) (arg3 m c) (arg4 m c) (arg5 m c) (arg6 m c) (arg7 m c) (arg8 m c) (ix3 p u i)) (fun i o => arg9 m c (ix2 i o)) (fun o => arg10 m c (ix1 o))
    (fun v u => by
      rw [show Cert.KernelIdeal.Region3.opr (V7 m ρ) c = adjacency (F := Ideal) (arg2 m c) from opr3_eq m ρ c]
      exact Cert.KernelIdeal.Graph.adjacency_apply (arg2 m c) (hr c) v u)
    (fun u i => by rw [show Cert.KernelIdeal.Region3.feat (V7 m ρ) c = stage2 m ρ c from feat3_eq m ρ c, stage2_eq m ρ hr c])
    (fun i o => by rw [show Cert.KernelIdeal.Region3.wts (V7 m ρ) c = _ from wts3_eq m ρ c]; rfl)
    (fun o => by
      rw [show Cert.KernelIdeal.Region3.bias (V7 m ρ) c = _ from bias3_eq m ρ c]
      exact shapeCast_a_1a_apply _ _ 0 o) v o

/-- Stage 4 of the kernel is stage 121 of the reference. -/
theorem stage4_eq (c : Dev nD) : stage4 m ρ c = val_main_v121 (F := Ideal) (arg0 m c) (arg1 m c) (arg2 m c) (arg3 m c) (arg4 m c) (arg5 m c) (arg6 m c) (arg7 m c) (arg8 m c) (arg9 m c) (arg10 m c) (arg11 m c) (arg12 m c) := by
  funext j
  obtain ⟨p, v, o, rfl⟩ : ∃ p v o, j = ix3 p v o := ⟨j 0, j 1, j 2, eq_ix3 j⟩
  rw [Cert.ReferenceIdeal.StagesC.stage121_apply (arg0 m c) (arg1 m c) (arg2 m c) (arg3 m c) (arg4 m c) (arg5 m c) (arg6 m c) (arg7 m c) (arg8 m c) (arg9 m c) (arg10 m c) (arg11 m c) (arg12 m c) (srcOf m hr c) (dstOf m hr c)
    (fun e => Cert.KernelIdeal.Graph.col_src_toInt (arg2 m c) (hr c) e)
    (fun e => Cert.KernelIdeal.Graph.col_dstRaw_toInt (arg2 m c) (hr c) e) p v o]
  rw [← Cert.Spec.layerDense_adj (fun e => val_main_v26 (F := Ideal) (arg2 m c) (ix1 e))
    (fun e => Cert.KernelIdeal.Graph.wgt_nonneg (arg2 m c) e) (srcOf m hr c) (dstOf m hr c)]
  exact Cert.KernelIdeal.Stages.gcn4 (V9 m ρ) c p _ (fun u i => val_main_v103 (F := Ideal) (arg0 m c) (arg1 m c) (arg2 m c) (arg3 m c) (arg4 m c) (arg5 m c) (arg6 m c) (arg7 m c) (arg8 m c) (arg9 m c) (arg10 m c) (ix3 p u i)) (fun i o => arg11 m c (ix2 i o)) (fun o => arg12 m c (ix1 o))
    (fun v u => by
      rw [show Cert.KernelIdeal.Region4.opr (V9 m ρ) c = adjacency (F := Ideal) (arg2 m c) from opr4_eq m ρ c]
      exact Cert.KernelIdeal.Graph.adjacency_apply (arg2 m c) (hr c) v u)
    (fun u i => by rw [show Cert.KernelIdeal.Region4.feat (V9 m ρ) c = stage3 m ρ c from feat4_eq m ρ c, stage3_eq m ρ hr c])
    (fun i o => by rw [show Cert.KernelIdeal.Region4.wts (V9 m ρ) c = _ from wts4_eq m ρ c]; rfl)
    (fun o => by
      rw [show Cert.KernelIdeal.Region4.bias (V9 m ρ) c = _ from bias4_eq m ρ c]
      exact shapeCast_a_1a_apply _ _ 0 o) v o

/-- Stage 5 of the kernel is stage 140 of the reference. -/
theorem stage5_eq (c : Dev nD) : stage5 m ρ c = val_main_v140 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) := by
  funext j
  obtain ⟨p, v, o, rfl⟩ : ∃ p v o, j = ix3 p v o := ⟨j 0, j 1, j 2, eq_ix3 j⟩
  rw [Cert.ReferenceIdeal.StagesC.stage140_apply (arg0 m c) (arg1 m c) (arg2 m c) (arg3 m c) (arg4 m c) (arg5 m c) (arg6 m c) (arg7 m c) (arg8 m c) (arg9 m c) (arg10 m c) (arg11 m c) (arg12 m c) (arg13 m c) (arg14 m c) (srcOf m hr c) (dstOf m hr c)
    (fun e => Cert.KernelIdeal.Graph.col_src_toInt (arg2 m c) (hr c) e)
    (fun e => Cert.KernelIdeal.Graph.col_dstRaw_toInt (arg2 m c) (hr c) e) p v o]
  rw [← Cert.Spec.layerDense_adj (fun e => val_main_v26 (F := Ideal) (arg2 m c) (ix1 e))
    (fun e => Cert.KernelIdeal.Graph.wgt_nonneg (arg2 m c) e) (srcOf m hr c) (dstOf m hr c)]
  exact Cert.KernelIdeal.Stages.gcn5 (V11 m ρ) c p _ (fun u i => val_main_v121 (F := Ideal) (arg0 m c) (arg1 m c) (arg2 m c) (arg3 m c) (arg4 m c) (arg5 m c) (arg6 m c) (arg7 m c) (arg8 m c) (arg9 m c) (arg10 m c) (arg11 m c) (arg12 m c) (ix3 p u i)) (fun i o => arg13 m c (ix2 i o)) (fun o => arg14 m c (ix1 o))
    (fun v u => by
      rw [show Cert.KernelIdeal.Region5.opr (V11 m ρ) c = adjacency (F := Ideal) (arg2 m c) from opr5_eq m ρ c]
      exact Cert.KernelIdeal.Graph.adjacency_apply (arg2 m c) (hr c) v u)
    (fun u i => by rw [show Cert.KernelIdeal.Region5.feat (V11 m ρ) c = stage4 m ρ c from feat5_eq m ρ c, stage4_eq m ρ hr c])
    (fun i o => by rw [show Cert.KernelIdeal.Region5.wts (V11 m ρ) c = _ from wts5_eq m ρ c]; rfl)
    (fun o => by
      rw [show Cert.KernelIdeal.Region5.bias (V11 m ρ) c = _ from bias5_eq m ρ c]
      exact shapeCast_a_1a_apply _ _ 0 o) v o

/-- Stage 6 of the kernel is stage 145 of the reference. -/
theorem stage6_eq (c : Dev nD) : stage6 m ρ c = val_main_v145 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) := by
  funext j
  obtain ⟨p, o, rfl⟩ : ∃ p o, j = ix2 p o := ⟨j 0, j 1, eq_ix2 j⟩
  rw [Cert.ReferenceIdeal.DenseStages.stage145_apply (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) p o]
  exact Cert.KernelIdeal.Stages.fc6 (V13 m ρ) c p (fun i => val_main_v141 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (ix2 p i)) (fun i o => arg15 m c (ix2 i o)) (fun o => arg16 m c (ix1 o))
    (fun i => by rw [show Cert.KernelIdeal.Region6.feat (V13 m ρ) c = _ from feat6_eq m ρ c, stage5_eq m ρ hr c]; rfl)
    (fun i o => by rw [show Cert.KernelIdeal.Region6.wts (V13 m ρ) c = _ from wts6_eq m ρ c]; rfl)
    (fun o => by
      rw [show Cert.KernelIdeal.Region6.bias (V13 m ρ) c = _ from bias6_eq m ρ c]
      exact shapeCast_a_1a_apply _ _ 0 o) o

/-- Stage 7 of the kernel is stage 149 of the reference. -/
theorem stage7_eq (c : Dev nD) : stage7 m ρ c = val_main_v149 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) := by
  funext j
  obtain ⟨p, o, rfl⟩ : ∃ p o, j = ix2 p o := ⟨j 0, j 1, eq_ix2 j⟩
  rw [Cert.ReferenceIdeal.DenseStages.stage149_apply (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) p o]
  exact Cert.KernelIdeal.Stages.fc7 (V15 m ρ) c p (fun i => val_main_v145 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (ix2 p i)) (fun i o => arg17 m c (ix2 i o)) (fun o => arg18 m c (ix1 o))
    (fun i => by rw [show Cert.KernelIdeal.Region7.feat (V15 m ρ) c = stage6 m ρ c from feat7_eq m ρ c, stage6_eq m ρ hr c])
    (fun i o => by rw [show Cert.KernelIdeal.Region7.wts (V15 m ρ) c = _ from wts7_eq m ρ c]; rfl)
    (fun o => by
      rw [show Cert.KernelIdeal.Region7.bias (V15 m ρ) c = _ from bias7_eq m ρ c]
      exact shapeCast_a_1a_apply _ _ 0 o) o

/-- Stage 8 of the kernel is stage 154 of the reference. -/
theorem stage8_eq (c : Dev nD) : stage8 m ρ c = val_main_v154 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c) := by
  funext j
  obtain ⟨p, o, rfl⟩ : ∃ p o, j = ix2 p o := ⟨j 0, j 1, eq_ix2 j⟩
  rw [Cert.ReferenceIdeal.DenseStages.stage154_apply (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c) p o]
  exact Cert.KernelIdeal.Stages.fc8 (V17 m ρ) c p (fun i => val_main_v149 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (ix2 p i)) (fun i o => arg19 m c (ix2 i o)) (fun o => arg20 m c (ix1 o))
    (fun i => by rw [show Cert.KernelIdeal.Region8.feat (V17 m ρ) c = stage7 m ρ c from feat8_eq m ρ c, stage7_eq m ρ hr c])
    (fun i o => by rw [show Cert.KernelIdeal.Region8.wts (V17 m ρ) c = _ from wts8_eq m ρ c]; rfl)
    (fun o => by
      rw [show Cert.KernelIdeal.Region8.bias (V17 m ρ) c = _ from bias8_eq m ρ c]
      exact shapeCast_a_1a_apply _ _ 0 o) o

/-- The kernel's result buffer at the end of its run is the reference's result function of the same arguments. -/
theorem result_eq_ref (c : Dev nD) :
    (W19 m ρ c (Proc.devRef .tc main_v78) : FVec Ideal S32x2048x3 .f32) = val_main_v158 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c) := by
  rw [result_eq m ρ c, stage8_eq m ρ hr c]
  rfl

end Cert.Bridge

end
-- ==== Proof.Algebraic.lean ====
/-
  The two idealized programs, run from memories that agree on the arguments, end with the same result.

  The kernel's run ends with its result buffer at the last boundary's contents, which is the reference's result function
  of the kernel's arguments (the bridge, stage by stage); the reference's run ends with its result buffer at that same
  function of ITS arguments; the arguments agree. The bridge uses the precondition only through the edge list: every
  entry is a node number.
-/
import proofs.«175376_j67851893342527_1_alg».proof.Proof.Bridge

set_option maxRecDepth 16384

noncomputable section

namespace Cert.Proof

open Idealize.ShloMosaic Idealize.SL.Sem

theorem algebraic : Cert.algebraic_KernelIdeal_ReferenceIdeal := by
  intro m ρ m' ρ' hpre hagree
  have hr : ∀ c : Dev Cert.KernelIdeal.nD, Cert.KernelIdeal.Graph.InRange (Cert.KernelIdeal.Chain.arg2 m c) :=
    fun c k => Cert.PreRange.edge_index_range _ _ _ _ _ _ _ _ _ _ _ _ _ _ _ _ _ _ _ _ _ (hpre c) k
  refine ⟨fun c => Cert.KernelIdeal.Gen.W19 m ρ c (Proc.devRef .tc Cert.KernelIdeal.main_v78),
    Cert.KernelIdeal.RunResult.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20⟩ := hagree c
  rw [Cert.ReferenceIdeal.Read.val_main_v158_eq m' c, h0, h1, h2, h3, h4, h5, h6, h7, h8, h9, h10, h11, h12, h13, h14, h15, h16, h17, h18, h19, h20]
  exact (Cert.Bridge.result_eq_ref m ρ hr c).symm

end Cert.Proof

end
-- ==== Proof.lean ====
/-
  The certificate's claim: a mesh-deformation network — six graph-convolution layers over a fixed edge list, then three
  fully connected layers — written as a Pallas kernel that applies a dense adjacency operator by matrix products, against
  its reference, which gathers along the edges and sums into the target nodes.

  The three frames: the kernel's two programs have their frames generated whole (nine regions each); the reference's is
  its generated run with the result dropped. The idealization changed no operation, so there is nothing to preserve. The
  algebraic conjunct is Proof/Algebraic.lean, over: the kernel's run with its result kept (Proof/KernelRun.lean); each
  region's output element by element (Proof/Region0 … Region8.lean, Proof/KernelStages.lean); what each region finds
  (Proof/KernelChain.lean, Proof/KernelHost.lean); the graph behind the dense operator (Proof/KernelGraph.lean, with
  Proof/LibGatherScatter.lean and, for the edge list's range, Proof/PreRange.lean); the reference's stages element by
  element (Proof/RefStages*.lean, Proof/RefDense.lean); the one piece of arithmetic that joins the two forms of a layer
  (Proof/EdgeSum.lean, Proof/Spec.lean); and the stage-by-stage equality (Proof/Bridge.lean).
-/
import proofs.«175376_j67851893342527_1_alg».proof.Defs
import proofs.«175376_j67851893342527_1_alg».proof.Proof.Gen.Kernel
import proofs.«175376_j67851893342527_1_alg».proof.Proof.Gen.Kernel.Frame
import proofs.«175376_j67851893342527_1_alg».proof.Proof.Gen.KernelIdeal
import proofs.«175376_j67851893342527_1_alg».proof.Proof.Gen.KernelIdeal.Frame
import proofs.«175376_j67851893342527_1_alg».proof.Proof.Gen.ReferenceIdeal
import proofs.«175376_j67851893342527_1_alg».proof.Proof.Gen.ReferenceIdeal.Run
import proofs.«175376_j67851893342527_1_alg».proof.Proof.Gen.Pre_finite_inputs
import proofs.«175376_j67851893342527_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
